-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S256x2304 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x96x96 : Shape := ⟨4, ![8, 256, 96, 96]⟩
abbrev S32 : Shape := ⟨1, ![32]⟩
abbrev S32x256 : Shape := ⟨2, ![32, 256]⟩
abbrev S_ : Shape := ⟨0, ![]⟩

class Facts : Prop where
  bcast_S_S8x256x96x96 : S_.BroadcastsInDim S8x256x96x96 (![] : Fin 0 → Fin S8x256x96x96.rank)
  reducesTo_S8x256x96x96_S_d0_1_2_3 : S8x256x96x96.ReducesTo [0, 1, 2, 3] S_
  h_S_ : 0 < S_.numel
  bcast_S_S32 : S_.BroadcastsInDim S32 (![] : Fin 0 → Fin S32.rank)
  reducesTo_S32_S_d0 : S32.ReducesTo [0] S_
  bcast_S_S32x256 : S_.BroadcastsInDim S32x256 (![] : Fin 0 → Fin S32x256.rank)
  reducesTo_S32x256_S_d0_1 : S32x256.ReducesTo [0, 1] S_

variable [Facts]

def fn_part1 {F : FTy → Type} [FloatOps F] (main_v10 : IVec S_ 1) (main_v15 : IVec S32x256 1) (main_c_5 : IVec S_ 1) : IVec S_ 1 :=
  let main_v16 : IVec S_ 1 := (fun x v => Host.reduce IntOp.andi x v reducesTo_S32x256_S_d0_1 h_S_) main_v15 main_c_5
  let main_v17 : IVec S_ 1 := andi main_v10 main_v16
  main_v17

def fn {F : FTy → Type} [FloatOps F] (main_arg0 : FVec F S8x256x96x96 .f32) (main_arg1 : IVec S32 32) (main_arg2 : IVec S32x256 32) (main_arg3 : IVec S32 32) : IVec S_ 1 :=
  let main_v0 : FVec F S8x256x96x96 .f32 := Host.absf main_arg0
  let main_cst : FVec F S_ .f32 := constant S_ .f32 0x7F800000#32
  let main_v1 : FVec F S8x256x96x96 .f32 := broadcastInDim S8x256x96x96 ![] bcast_S_S8x256x96x96 main_cst
  let main_v2 : IVec S8x256x96x96 1 := cmpf .olt main_v0 main_v1
  let main_c : IVec S_ 1 := constantI S_ 1 1#1
  let main_v3 : IVec S_ 1 := (fun x v => Host.reduce IntOp.andi x v reducesTo_S8x256x96x96_S_d0_1_2_3 h_S_) main_v2 main_c
  let main_c_0 : IVec S_ 32 := constantI S_ 32 0#32
  let main_v4 : IVec S32 32 := broadcastInDim S32 ![] bcast_S_S32 main_c_0
  let main_v5 : IVec S32 1 := cmpi .sge main_arg1 main_v4
  let main_c_1 : IVec S_ 32 := constantI S_ 32 8#32
  let main_v6 : IVec S32 32 := broadcastInDim S32 ![] bcast_S_S32 main_c_1
  let main_v7 : IVec S32 1 := cmpi .slt main_arg1 main_v6
  let main_v8 : IVec S32 1 := andi main_v5 main_v7
  let main_c_2 : IVec S_ 1 := constantI S_ 1 1#1
  let main_v9 : IVec S_ 1 := (fun x v => Host.reduce IntOp.andi x v reducesTo_S32_S_d0 h_S_) main_v8 main_c_2
  let main_v10 : IVec S_ 1 := andi main_v3 main_v9
  let main_c_3 : IVec S_ 32 := constantI S_ 32 0#32
  let main_v11 : IVec S32x256 32 := broadcastInDim S32x256 ![] bcast_S_S32x256 main_c_3
  let main_v12 : IVec S32x256 1 := cmpi .sge main_arg2 main_v11
  let main_c_4 : IVec S_ 32 := constantI S_ 32 9216#32
  let main_v13 : IVec S32x256 32 := broadcastInDim S32x256 ![] bcast_S_S32x256 main_c_4
  let main_v14 : IVec S32x256 1 := cmpi .slt main_arg2 main_v13
  let main_v15 : IVec S32x256 1 := andi main_v12 main_v14
  let main_c_5 : IVec S_ 1 := constantI S_ 1 1#1
  fn_part1 (F := F) main_v10 main_v15 main_c_5
-- ==== Kernel.lean ====
abbrev S8x256x96x96 : Shape := ⟨4, ![8, 256, 96, 96]⟩
abbrev S32 : Shape := ⟨1, ![32]⟩
abbrev S32x256 : Shape := ⟨2, ![32, 256]⟩
abbrev S8x256x9216 : Shape := ⟨3, ![8, 256, 9216]⟩
abbrev S_ : Shape := ⟨0, ![]⟩
abbrev S32x1 : Shape := ⟨2, ![32, 1]⟩
abbrev S32x1x256 : Shape := ⟨3, ![32, 1, 256]⟩
abbrev S32x256x256 : Shape := ⟨3, ![32, 256, 256]⟩
abbrev S1x256x9216 : Shape := ⟨3, ![1, 256, 9216]⟩
abbrev S1 : Shape := ⟨1, ![1]⟩
abbrev S1x1x256 : Shape := ⟨3, ![1, 1, 256]⟩
abbrev S1x256x256 : Shape := ⟨3, ![1, 256, 256]⟩
abbrev S256x256 : Shape := ⟨2, ![256, 256]⟩
abbrev S256 : Shape := ⟨1, ![256]⟩
abbrev S1x256x2304 : Shape := ⟨3, ![1, 256, 2304]⟩
abbrev S256x2304 : Shape := ⟨2, ![256, 2304]⟩
abbrev S256x1 : Shape := ⟨2, ![256, 1]⟩
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1x4096 : Shape := ⟨2, ![1, 4096]⟩
abbrev S1x128 : Shape := ⟨2, ![1, 128]⟩
abbrev S256x8192 : Shape := ⟨2, ![256, 8192]⟩
abbrev S1024x256 : Shape := ⟨2, ![1024, 256]⟩
abbrev S256x1024 : Shape := ⟨2, ![256, 1024]⟩
abbrev S1x1024 : Shape := ⟨2, ![1, 1024]⟩
abbrev S1024 : Shape := ⟨1, ![1024]⟩
abbrev S1x1 : Shape := ⟨2, ![1, 1]⟩
abbrev S32x128 : Shape := ⟨2, ![32, 128]⟩

abbrev nBuf : Space → Nat
  | .hbm => 58
  | .vmem => 21
  | .smem => 1
  | _ => 0

abbrev bufTy : (tb : Table) → Fin (tcTables nBuf tb) → BufTy
  | .hbm, ⟨0, _⟩ => ⟨S8x256x96x96, .f32⟩
  | .hbm, ⟨1, _⟩ => ⟨S32, .i32⟩
  | .hbm, ⟨2, _⟩ => ⟨S32x256, .i32⟩
  | .hbm, ⟨3, _⟩ => ⟨S32, .i32⟩
  | .hbm, ⟨4, _⟩ => ⟨S8x256x9216, .f32⟩
  | .hbm, ⟨5, _⟩ => ⟨S32, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32x1, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S32x256, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S32x1, .i32⟩
  | .hbm, ⟨33, _⟩ => ⟨S32, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S32x256, .i32⟩
  | .hbm, ⟨38, _⟩ => ⟨S32x256, .i32⟩
  | .hbm, ⟨39, _⟩ => ⟨S_, .i32⟩
  | .hbm, ⟨40, _⟩ => ⟨S32x256, .i32⟩
  | .hbm, ⟨41, _⟩ => ⟨S32x256, .i32⟩
  | .hbm, ⟨42, _⟩ => ⟨S32x1x256, .i32⟩
  | .hbm, ⟨43, _⟩ => ⟨S32x256x256, .f32⟩
  | .hbm, ⟨44, _⟩ => ⟨S8192x256, .f32⟩
  | .hbm, ⟨45, _⟩ => ⟨S32x256, .i32⟩
  | .hbm, ⟨46, _⟩ => ⟨S8192, .i32⟩
  | .hbm, ⟨47, _⟩ => ⟨S8192x1, .i32⟩
  | .hbm, ⟨48, _⟩ => ⟨S1x8192, .i32⟩
  | .hbm, ⟨49, _⟩ => ⟨S1x4096, .f32⟩
  | .hbm, ⟨50, _⟩ => ⟨S32x128, .f32⟩
  | .hbm, ⟨51, _⟩ => ⟨S32x1, .f32⟩
  | .hbm, ⟨52, _⟩ => ⟨S32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S1x256x9216, .f32⟩
  | .local _ .vmem, ⟨1, _⟩ => ⟨S1x256x9216, .f32⟩
  | .local _ .vmem, ⟨2, _⟩ => ⟨S1x1x256, .i32⟩
  | .local _ .vmem, ⟨3, _⟩ => ⟨S1x1x256, .i32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x1, .i32⟩
  | .local _ .vmem, ⟨10, _⟩ => ⟨S256x1, .i32⟩
  | .local _ .vmem, ⟨11, _⟩ => ⟨S8192x256, .f32⟩
  | .local _ .vmem, ⟨12, _⟩ => ⟨S1x8192, .i32⟩
  | .local _ .vmem, ⟨13, _⟩ => ⟨S1x128, .f32⟩
  | .local _ .vmem, ⟨14, _⟩ => ⟨S1x128, .f32⟩
  | .local _ .vmem, ⟨15, _⟩ => ⟨S256x8192, .f32⟩
  | .local _ .vmem, ⟨16, _⟩ => ⟨S256x8192, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S256x1, .f32⟩
  | .local _ .smem, ⟨0, _⟩ => ⟨S32, .i32⟩
  | _, _ => ⟨S8x256x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1_0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_c_6 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc1_scratch3 : Ref sig .tc := ⟨.vmem, 18, rfl⟩
abbrev cc1_scratch4 : Ref sig .tc := ⟨.vmem, 19, rfl⟩
abbrev cc1_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_mult1 (k0_t1 : Fin k0_t1_loop.trips) : BitVec 32 :=
  let c0_i32_13 : BitVec 32 := 0#32
  let c0_i32 : BitVec 32 := 0#32
  let c1_i32 : BitVec 32 := 1#32
  let arg6 : BitVec 32 := Scf.iv c0_i32 c1_i32 k0_t1
  let c1_i32_12 : BitVec 32 := 1#32
  let v19 : BitVec 32 := Scalar.muli arg6 c1_i32_12
  let v20 : BitVec 32 := Scalar.addi c0_i32_13 v19
  let c2304_i32 : BitVec 32 := 2304#32
  let v21 : BitVec 32 := Scalar.muli v20 c2304_i32
  v21
def k0_off2 (k0_t1 : Fin k0_t1_loop.trips) : Fin 3 → Nat :=
  let c0_14 : Index := 0#32
  let c0_15 : Index := 0#32
  let c0_i32_13 : BitVec 32 := 0#32
  let c0_i32 : BitVec 32 := 0#32
  let c1_i32 : BitVec 32 := 1#32
  let arg6 : BitVec 32 := Scf.iv c0_i32 c1_i32 k0_t1
  let c1_i32_12 : BitVec 32 := 1#32
  let v19 : BitVec 32 := Scalar.muli arg6 c1_i32_12
  let v20 : BitVec 32 := Scalar.addi c0_i32_13 v19
  let c2304_i32 : BitVec 32 := 2304#32
  let v21 : BitVec 32 := Scalar.muli v20 c2304_i32
  let v22 : BitVec 32 := v21
  let v23 : Index := Scalar.indexCast v22
  ![0, 0, v23.toNat]
def cc0_transform_0 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

@[reducible] def k1_t1_loop : Scf.Loop 32 :=
  let c0_i32 : BitVec 32 := 0#32
  let c8_i32 : BitVec 32 := 8#32
  let v13 : BitVec 32 := Scalar.addi c0_i32 c8_i32
  let c1_i32 : BitVec 32 := 1#32
  ⟨c0_i32, v13, c1_i32⟩
def k1_mult1 (k1_t1 : Fin k1_t1_loop.trips) : BitVec 32 :=
  let c0_i32_37 : BitVec 32 := 0#32
  let c0_i32 : BitVec 32 := 0#32
  let c1_i32 : BitVec 32 := 1#32
  let arg12 : BitVec 32 := Scf.iv c0_i32 c1_i32 k1_t1
  let c1_i32_36 : BitVec 32 := 1#32
  let v45 : BitVec 32 := Scalar.muli arg12 c1_i32_36
  let v46 : BitVec 32 := Scalar.addi c0_i32_37 v45
  let c1024_i32 : BitVec 32 := 1024#32
  let v47 : BitVec 32 := Scalar.muli v46 c1024_i32
  v47
def k1_off1 (k1_t1 : Fin k1_t1_loop.trips) : Fin 2 → Nat :=
  let c0_i32_37 : BitVec 32 := 0#32
  let c0_i32 : BitVec 32 := 0#32
  let c1_i32 : BitVec 32 := 1#32
  let arg12 : BitVec 32 := Scf.iv c0_i32 c1_i32 k1_t1
  let c1_i32_36 : BitVec 32 := 1#32
  let v45 : BitVec 32 := Scalar.muli arg12 c1_i32_36
  let v46 : BitVec 32 := Scalar.addi c0_i32_37 v45
  let c1024_i32 : BitVec 32 := 1024#32
  let v47 : BitVec 32 := Scalar.muli v46 c1024_i32
  let v48 : BitVec 32 := v47
  let v49 : Index := Scalar.indexCast v48
  let c0_38 : Index := 0#32
  ![v49.toNat, 0]
def k1_off2 (k1_t1 : Fin k1_t1_loop.trips) : Fin 2 → Nat :=
  let c0_41 : Index := 0#32
  let c0_i32_37 : BitVec 32 := 0#32
  let c0_i32 : BitVec 32 := 0#32
  let c1_i32 : BitVec 32 := 1#32
  let arg12 : BitVec 32 := Scf.iv c0_i32 c1_i32 k1_t1
  let c1_i32_36 : BitVec 32 := 1#32
  let v45 : BitVec 32 := Scalar.muli arg12 c1_i32_36
  let v46 : BitVec 32 := Scalar.addi c0_i32_37 v45
  let c1024_i32 : BitVec 32 := 1024#32
  let v47 : BitVec 32 := Scalar.muli v46 c1024_i32
  let v48 : BitVec 32 := v47
  let v56 : Index := Scalar.indexCast v48
  ![0, v56.toNat]
@[reducible] def k1_t2_loop : Scf.Loop 32 :=
  let c0_i32_11 : BitVec 32 := 0#32
  let c8_i32_12 : BitVec 32 := 8#32
  let v19 : BitVec 32 := Scalar.addi c0_i32_11 c8_i32_12
  let c1_i32_13 : BitVec 32 := 1#32
  ⟨c0_i32_11, v19, c1_i32_13⟩
def k1_mult2 (k1_t2 : Fin k1_t2_loop.trips) : BitVec 32 :=
  let c0_i32_37 : BitVec 32 := 0#32
  let c0_i32_11 : BitVec 32 := 0#32
  let c1_i32_13 : BitVec 32 := 1#32
  let arg12 : BitVec 32 := Scf.iv c0_i32_11 c1_i32_13 k1_t2
  let c1_i32_36 : BitVec 32 := 1#32
  let v45 : BitVec 32 := Scalar.muli arg12 c1_i32_36
  let v46 : BitVec 32 := Scalar.addi c0_i32_37 v45
  let c1024_i32 : BitVec 32 := 1024#32
  let v47 : BitVec 32 := Scalar.muli v46 c1024_i32
  v47
def k1_off3 (k1_t2 : Fin k1_t2_loop.trips) : Fin 2 → Nat :=
  let c0_38 : Index := 0#32
  let c0_i32_37 : BitVec 32 := 0#32
  let c0_i32_11 : BitVec 32 := 0#32
  let c1_i32_13 : BitVec 32 := 1#32
  let arg12 : BitVec 32 := Scf.iv c0_i32_11 c1_i32_13 k1_t2
  let c1_i32_36 : BitVec 32 := 1#32
  let v45 : BitVec 32 := Scalar.muli arg12 c1_i32_36
  let v46 : BitVec 32 := Scalar.addi c0_i32_37 v45
  let c1024_i32 : BitVec 32 := 1024#32
  let v47 : BitVec 32 := Scalar.muli v46 c1024_i32
  let v48 : BitVec 32 := v47
  let v49 : Index := Scalar.indexCast v48
  ![0, v49.toNat]
def k1_off4 (k1_t2 : Fin k1_t2_loop.trips) : Fin 2 → Nat :=
  let c0_40 : Index := 0#32
  let c0_i32_37 : BitVec 32 := 0#32
  let c0_i32_11 : BitVec 32 := 0#32
  let c1_i32_13 : BitVec 32 := 1#32
  let arg12 : BitVec 32 := Scf.iv c0_i32_11 c1_i32_13 k1_t2
  let c1_i32_36 : BitVec 32 := 1#32
  let v45 : BitVec 32 := Scalar.muli arg12 c1_i32_36
  let v46 : BitVec 32 := Scalar.addi c0_i32_37 v45
  let c1024_i32 : BitVec 32 := 1024#32
  let v47 : BitVec 32 := Scalar.muli v46 c1024_i32
  let v48 : BitVec 32 := v47
  let v58 : Index := Scalar.indexCast v48
  ![0, v58.toNat]
@[reducible] def k1_t3_loop : Scf.Loop 32 :=
  let c0_i32_23 : BitVec 32 := 0#32
  let c8_i32_24 : BitVec 32 := 8#32
  let v29 : BitVec 32 := Scalar.addi c0_i32_23 c8_i32_24
  let c1_i32_25 : BitVec 32 := 1#32
  ⟨c0_i32_23, v29, c1_i32_25⟩
def k1_mult3 (k1_t3 : Fin k1_t3_loop.trips) : BitVec 32 :=
  let c0_i32_37 : BitVec 32 := 0#32
  let c0_i32_23 : BitVec 32 := 0#32
  let c1_i32_25 : BitVec 32 := 1#32
  let arg12 : BitVec 32 := Scf.iv c0_i32_23 c1_i32_25 k1_t3
  let c1_i32_36 : BitVec 32 := 1#32
  let v45 : BitVec 32 := Scalar.muli arg12 c1_i32_36
  let v46 : BitVec 32 := Scalar.addi c0_i32_37 v45
  let c1024_i32 : BitVec 32 := 1024#32
  let v47 : BitVec 32 := Scalar.muli v46 c1024_i32
  v47
def k1_off5 (k1_t3 : Fin k1_t3_loop.trips) : Fin 2 → Nat :=
  let c0_38 : Index := 0#32
  let c0_i32_37 : BitVec 32 := 0#32
  let c0_i32_23 : BitVec 32 := 0#32
  let c1_i32_25 : BitVec 32 := 1#32
  let arg12 : BitVec 32 := Scf.iv c0_i32_23 c1_i32_25 k1_t3
  let c1_i32_36 : BitVec 32 := 1#32
  let v45 : BitVec 32 := Scalar.muli arg12 c1_i32_36
  let v46 : BitVec 32 := Scalar.addi c0_i32_37 v45
  let c1024_i32 : BitVec 32 := 1024#32
  let v47 : BitVec 32 := Scalar.muli v46 c1024_i32
  let v48 : BitVec 32 := v47
  let v49 : Index := Scalar.indexCast v48
  ![0, v49.toNat]
def k1_off6 (k1_t3 : Fin k1_t3_loop.trips) : Fin 2 → Nat :=
  let c0_40 : Index := 0#32
  let c0_i32_37 : BitVec 32 := 0#32
  let c0_i32_23 : BitVec 32 := 0#32
  let c1_i32_25 : BitVec 32 := 1#32
  let arg12 : BitVec 32 := Scf.iv c0_i32_23 c1_i32_25 k1_t3
  let c1_i32_36 : BitVec 32 := 1#32
  let v45 : BitVec 32 := Scalar.muli arg12 c1_i32_36
  let v46 : BitVec 32 := Scalar.addi c0_i32_37 v45
  let c1024_i32 : BitVec 32 := 1024#32
  let v47 : BitVec 32 := Scalar.muli v46 c1024_i32
  let v48 : BitVec 32 := v47
  let v55 : Index := Scalar.indexCast v48
  ![0, v55.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8192 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S8x256x96x96_S8x256x9216 : S8x256x96x96.ShapeCasts S8x256x9216
  bcast_S_S32 : S_.BroadcastsInDim S32 (![] : Fin 0 → Fin S32.rank)
  bcast_S32_S32x1_0 : S32.BroadcastsInDim S32x1 (![0] : Fin 1 → Fin S32x1.rank)
  bcast_S_S32x256 : S_.BroadcastsInDim S32x256 (![] : Fin 0 → Fin S32x256.rank)
  shapeCasts_S32x256_S32x1x256 : S32x256.ShapeCasts S32x1x256
  numel1_S1 : S1.numel = 1
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  h_S1x256x2304 : 0 < S1x256x2304.numel
  shapeCasts_S1x256x2304_S256x2304 : S1x256x2304.ShapeCasts S256x2304
  bitsLt_bf16_f32 : FTy.bits .bf16 < FTy.bits .f32
  iota_S256x2304_d1_w32 : S256x2304.Iotas .tc 32 [1]
  shapeCasts_S256_S256x1 : S256.ShapeCasts S256x1
  shapeCasts_S256x1_S256x1 : S256x1.ShapeCasts S256x1
  broadcasts_S256x1_S256x2304 : S256x1.Broadcasts S256x2304
  natLt_1_32 : 1 < 32
  reduces_S256x256_S256 : S256x256.Reduces [1] S256
  broadcasts_S256x1_S256x256 : S256x1.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  shapeCasts_S32x256x256_S8192x256 : S32x256x256.ShapeCasts S8192x256
  bcast_S32_S32x256_0 : S32.BroadcastsInDim S32x256 (![0] : Fin 1 → Fin S32x256.rank)
  shapeCasts_S32x256_S8192 : S32x256.ShapeCasts S8192
  shapeCasts_S8192_S8192x1 : S8192.ShapeCasts S8192x1
  shapeCasts_S8192_S1x8192 : S8192.ShapeCasts S1x8192
  inb_S256x1_S256x1_0_0 : ∀ a, (![0, 0] : Fin 2 → Nat) a + S256x1.size a ≤ S256x1.size a
  h_S256x1 : 0 < S256x1.numel
  iota_S256x1_d0_w32 : S256x1.Iotas .tc 32 [0]
  h_S1024x256 : 0 < S1024x256.numel
  shapeCasts_S1024x256_S1024x256 : S1024x256.ShapeCasts S1024x256
  h_S256x1024 : 0 < S256x1024.numel
  shapeCasts_S256x1024_S256x1024 : S256x1024.ShapeCasts S256x1024
  reduces_S256x1024_S256 : S256x1024.Reduces [1] S256
  broadcasts_S256x1_S256x1024 : S256x1.Broadcasts S256x1024
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  iota_S256x1024_d1_w32 : S256x1024.Iotas .tc 32 [1]
  reduces_S256x1_S1 : S256x1.Reduces [0] S1
  shapeCasts_S1_S1x1 : S1.ShapeCasts S1x1
  iota_S1x128_d1_w32 : S1x128.Iotas .tc 32 [1]
  broadcasts_S1x1_S1x128 : S1x1.Broadcasts S1x128
  inb_S1x128_S1x128_0_0 : ∀ a, (![0, 0] : Fin 2 → Nat) a + S1x128.size a ≤ S1x128.size a
  h_S1x128 : 0 < S1x128.numel
  shapeCasts_S1x4096_S32x128 : S1x4096.ShapeCasts S32x128
  slices_S32x128_S32x1_0_0 : S32x128.Slices ![0, 0] S32x1
  shapeCasts_S32x1_S32 : S32x1.ShapeCasts S32
  reducesTo_S32_S_d0 : S32.ReducesTo [0] S_
  h_S_ : 0 < S_.numel
  gather_S32_S32x1_S32_n_0_n_n_0_1_1_wf : GatherDims.WF S32 S32x1 S32 [] [0] [] [0] [] 1 ![1]
  gather_S32x256_S32x1_S32x256_1_0_n_n_0_1_1256_wf : GatherDims.WF S32x256 S32x1 S32x256 [1] [0] [] [0] [] 1 ![1, 256]
  dot_S256x2304_S256x2304_S256x256_1_1_0_0_n_n_wf : DotDims.WF S256x2304 S256x2304 S256x256 [1] [1] [0] [0] [] []
  dot_S256x256_S1024x256_S256x1024_1_1_0_0_n_n_wf : DotDims.WF S256x256 S1024x256 S256x1024 [1] [1] [0] [0] [] []
  hrank0 : 0 < grid0.rank
  k0_off1_inb : ∀ i : grid0.Coords, ∀ a, (k0_off1 i) a + S1.size a ≤ S32.size a
  k0_t1_ok : k0_t1_loop.OK
  k0_mult1_dvd : ∀ k0_t1 : Fin k0_t1_loop.trips, 2304 ∣ (k0_mult1 k0_t1).toNat
  k0_off2_inb : ∀ k0_t1 : Fin k0_t1_loop.trips, ∀ a, (k0_off2 k0_t1) a + S1x256x2304.size a ≤ S1x256x9216.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S32x1x256.size a
  hwx0_1 : ∀ i : grid0.Coords, EltTy.bits .i32 = 32 ∨ (Rect.block (s := S32x1x256) S1x1x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S32x256x256.size a
  hwx0_2 : ∀ i : grid0.Coords, EltTy.bits .f32 = 32 ∨ (Rect.block (s := S32x256x256) S1x256x256.size (cc0_transform_2 i) (hinb0_2 i)).WholeWords (EltTy.packing .f32)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x256.size a ≤ S8192x256.size a
  k1_off2_inb : ∀ k1_t1 : Fin k1_t1_loop.trips, ∀ a, (k1_off2 k1_t1) a + S256x1024.size a ≤ S256x8192.size a
  k1_t2_ok : k1_t2_loop.OK
  k1_mult2_dvd : ∀ k1_t2 : Fin k1_t2_loop.trips, 1024 ∣ (k1_mult2 k1_t2).toNat
  k1_off3_inb : ∀ k1_t2 : Fin k1_t2_loop.trips, ∀ a, (k1_off3 k1_t2) a + S256x1024.size a ≤ S256x8192.size a
  k1_off4_inb : ∀ k1_t2 : Fin k1_t2_loop.trips, ∀ a, (k1_off4 k1_t2) a + S1x1024.size a ≤ S1x8192.size a
  k1_t3_ok : k1_t3_loop.OK
  k1_mult3_dvd : ∀ k1_t3 : Fin k1_t3_loop.trips, 1024 ∣ (k1_mult3 k1_t3).toNat
  k1_off5_inb : ∀ k1_t3 : Fin k1_t3_loop.trips, ∀ a, (k1_off5 k1_t3) a + S256x1024.size a ≤ S256x8192.size a
  k1_off6_inb : ∀ k1_t3 : Fin k1_t3_loop.trips, ∀ a, (k1_off6 k1_t3) a + S1x1024.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S8192x256.size a
  hwx1_0 : ∀ i : grid1.Coords, EltTy.bits .f32 = 32 ∨ (Rect.block (s := S8192x256) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S8192x1.size a
  hwx1_1 : ∀ i : grid1.Coords, EltTy.bits .i32 = 32 ∨ (Rect.block (s := S8192x1) S256x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x256.size a
  hwx1_2 : ∀ i : grid1.Coords, EltTy.bits .f32 = 32 ∨ (Rect.block (s := S8192x256) S8192x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .i32 = 32 ∨ (Rect.block (s := S1x8192) S1x8192.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x4096.size a
  hwx1_4 : ∀ i : grid1.Coords, EltTy.bits .f32 = 32 ∨ (Rect.block (s := S1x4096) S1x128.size (cc1_transform_4 i) (hinb1_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S32_S32x1_S32_n_0_n_n_0_1_1 : GatherDims S32 S32x1 S32 where
  offsetDims := []
  collapsedSliceDims := [0]
  operandBatchingDims := []
  startIndicesBatchingDims := []
  startIndexMap := [0]
  indexVectorDim := 1
  sliceSizes := ![1]
  wf := gather_S32_S32x1_S32_n_0_n_n_0_1_1_wf
def gather_S32x256_S32x1_S32x256_1_0_n_n_0_1_1256 : GatherDims S32x256 S32x1 S32x256 where
  offsetDims := [1]
  collapsedSliceDims := [0]
  operandBatchingDims := []
  startIndicesBatchingDims := []
  startIndexMap := [0]
  indexVectorDim := 1
  sliceSizes := ![1, 256]
  wf := gather_S32x256_S32x1_S32x256_1_0_n_n_0_1_1256_wf
def dot_S256x2304_S256x2304_S256x256_1_1_0_0_n_n : DotDims S256x2304 S256x2304 S256x256 where
  lhsContracting := [1]
  rhsContracting := [1]
  lhsNonContracting := [0]
  rhsNonContracting := [0]
  lhsBatch := []
  rhsBatch := []
  wf := dot_S256x2304_S256x2304_S256x256_1_1_0_0_n_n_wf
def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf

abbrev spec0_0 : Pipeline.WinSpec sig grid0.rank :=
  Pipeline.WinSpec.ofSpec (Memref.whole main_v0) S1x256x9216.size reads0_0 false false 2 stage0_0 sem0_0 nbuf0_0 hstage0_0

abbrev spec0_1 : Pipeline.WinSpec sig grid0.rank :=
  Pipeline.WinSpec.ofSpec (Memref.whole main_v24) S1x1x256.size reads0_1 false false 2 stage0_1 sem0_1 nbuf0_1 hstage0_1

abbrev spec0_2 : Pipeline.WinSpec sig grid0.rank :=
  Pipeline.WinSpec.ofSpec (Memref.whole main_v25) S1x256x256.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x256x9216.size a ≤ S8x256x9216.size a), EltTy.bits .f32 = 32 ∨ (Rect.block (s := S8x256x9216) S1x256x9216.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | ⟨_ + 3, h⟩ => absurd h (Nat.not_lt.2 (Nat.le_add_left _ _))
abbrev win1_0 : Pipeline.Window sig grid1 :=
  Pipeline.Window.ofSpec (Memref.whole main_v26) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S8192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where
  harr0 : ∀ w, (spec0 w).arr.IsWhole

variable [Facts]
-- ==== ReferenceIdeal.lean ====
abbrev S8x256x96x96 : Shape := ⟨4, ![8, 256, 96, 96]⟩
abbrev S32 : Shape := ⟨1, ![32]⟩
abbrev S32x256 : Shape := ⟨2, ![32, 256]⟩
abbrev S8x256x9216 : Shape := ⟨3, ![8, 256, 9216]⟩
abbrev S_ : Shape := ⟨0, ![]⟩
abbrev S32x1 : Shape := ⟨2, ![32, 1]⟩
abbrev S32x256x9216 : Shape := ⟨3, ![32, 256, 9216]⟩
abbrev S32x1x256 : Shape := ⟨3, ![32, 1, 256]⟩
abbrev S32x256x1 : Shape := ⟨3, ![32, 256, 1]⟩
abbrev S1 : Shape := ⟨1, ![1]⟩
abbrev S1x1x1 : Shape := ⟨3, ![1, 1, 1]⟩
abbrev S32x256x256 : Shape := ⟨3, ![32, 256, 256]⟩
abbrev S8192x256 : Shape := ⟨2, ![8192, 256]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 105
  | .vmem => 0
  | .smem => 0
  | _ => 0

abbrev bufTy : (tb : Table) → Fin (tcTables nBuf tb) → BufTy
  | .hbm, ⟨0, _⟩ => ⟨S8x256x96x96, .f32⟩
  | .hbm, ⟨1, _⟩ => ⟨S32, .i32⟩
  | .hbm, ⟨2, _⟩ => ⟨S32x256, .i32⟩
  | .hbm, ⟨3, _⟩ => ⟨S32, .i32⟩
  | .hbm, ⟨4, _⟩ => ⟨S8x256x9216, .f32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S32x256x9216, .f32⟩
  | .hbm, ⟨14, _⟩ => ⟨S32x1x256, .i32⟩
  | .hbm, ⟨15, _⟩ => ⟨S_, .i32⟩
  | .hbm, ⟨16, _⟩ => ⟨S32x1x256, .i32⟩
  | .hbm, ⟨17, _⟩ => ⟨S32x1x256, .i1⟩
  | .hbm, ⟨18, _⟩ => ⟨S_, .i32⟩
  | .hbm, ⟨19, _⟩ => ⟨S32x1x256, .i32⟩
  | .hbm, ⟨20, _⟩ => ⟨S32x1x256, .i32⟩
  | .hbm, ⟨21, _⟩ => ⟨S32x1x256, .i32⟩
  | .hbm, ⟨22, _⟩ => ⟨S32x256x1, .i32⟩
  | .hbm, ⟨23, _⟩ => ⟨S1, .i32⟩
  | .hbm, ⟨24, _⟩ => ⟨S_, .i32⟩
  | .hbm, ⟨25, _⟩ => ⟨S32x256x1, .i32⟩
  | .hbm, ⟨26, _⟩ => ⟨S32x256x1, .i1⟩
  | .hbm, ⟨27, _⟩ => ⟨S1x1x1, .i32⟩
  | .hbm, ⟨28, _⟩ => ⟨S32x256x1, .i32⟩
  | .hbm, ⟨29, _⟩ => ⟨S32x256x1, .i1⟩
  | .hbm, ⟨30, _⟩ => ⟨S32x256x1, .i1⟩
  | .hbm, ⟨31, _⟩ => ⟨S_, .i1⟩
  | .hbm, ⟨32, _⟩ => ⟨S32x256, .i1⟩
  | .hbm, ⟨33, _⟩ => ⟨S32x256x256, .f32⟩
  | .hbm, ⟨34, _⟩ => ⟨S32x256x256, .i1⟩
  | .hbm, ⟨35, _⟩ => ⟨S_, .f32⟩
  | .hbm, ⟨36, _⟩ => ⟨S32x256x256, .f32⟩
  | .hbm, ⟨37, _⟩ => ⟨S32x256x256, .f32⟩
  | .hbm, ⟨38, _⟩ => ⟨S32x256x256, .f32⟩
  | .hbm, ⟨39, _⟩ => ⟨S_, .f32⟩
  | .hbm, ⟨40, _⟩ => ⟨S32x256, .f32⟩
  | .hbm, ⟨41, _⟩ => ⟨S32x1x256, .f32⟩
  | .hbm, ⟨42, _⟩ => ⟨S32x1x256, .f32⟩
  | .hbm, ⟨43, _⟩ => ⟨S_, .f32⟩
  | .hbm, ⟨44, _⟩ => ⟨S32x1x256, .f32⟩
  | .hbm, ⟨45, _⟩ => ⟨S32x1x256, .f32⟩
  | .hbm, ⟨46, _⟩ => ⟨S32x256x256, .f32⟩
  | .hbm, ⟨47, _⟩ => ⟨S32x256x256, .f32⟩
  | .hbm, ⟨48, _⟩ => ⟨S32x256x256, .f32⟩
  | .hbm, ⟨49, _⟩ => ⟨S8192x256, .f32⟩
  | .hbm, ⟨50, _⟩ => ⟨S32x256, .i32⟩
  | .hbm, ⟨51, _⟩ => ⟨S8192, .i32⟩
  | .hbm, ⟨52, _⟩ => ⟨S256x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x1, .i32⟩
  | .hbm, ⟨58, _⟩ => ⟨S1x8192, .i32⟩
  | .hbm, ⟨59, _⟩ => ⟨S8192x8192, .i32⟩
  | .hbm, ⟨60, _⟩ => ⟨S8192x8192, .i32⟩
  | .hbm, ⟨61, _⟩ => ⟨S8192x8192, .i1⟩
  | .hbm, ⟨62, _⟩ => ⟨S8192x8192, .f32⟩
  | .hbm, ⟨63, _⟩ => ⟨S8192x8192, .i32⟩
  | .hbm, ⟨64, _⟩ => ⟨S8192x8192, .i32⟩
  | .hbm, ⟨65, _⟩ => ⟨S_, .i32⟩
  | .hbm, ⟨66, _⟩ => ⟨S8192x8192, .i32⟩
  | .hbm, ⟨67, _⟩ => ⟨S8192x8192, .i32⟩
  | .hbm, ⟨68, _⟩ => ⟨S8192x8192, .i1⟩
  | .hbm, ⟨69, _⟩ => ⟨S8192x8192, .f32⟩
  | .hbm, ⟨70, _⟩ => ⟨S_, .f32⟩
  | .hbm, ⟨71, _⟩ => ⟨S8192x8192, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S8192, .f32⟩
  | .hbm, ⟨94, _⟩ => ⟨S_, .f32⟩
  | .hbm, ⟨95, _⟩ => ⟨S8192, .f32⟩
  | .hbm, ⟨96, _⟩ => ⟨S_, .f32⟩
  | .hbm, ⟨97, _⟩ => ⟨S8192, .f32⟩
  | .hbm, ⟨98, _⟩ => ⟨S8192, .f32⟩
  | .hbm, ⟨99, _⟩ => ⟨S8192, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S8x256x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v9 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_call1_v2 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_1 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_2 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_3 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_4 : Ref sig .tc := ⟨.hbm, 74, rfl⟩
abbrev main_v38 : Ref sig .tc := ⟨.hbm, 75, rfl⟩
abbrev main_v39 : Ref sig .tc := ⟨.hbm, 76, rfl⟩
abbrev main_cst_5 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_6 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_7 : Ref sig .tc := ⟨.hbm, 92, rfl⟩
abbrev main_v53 : Ref sig .tc := ⟨.hbm, 93, rfl⟩
abbrev main_cst_8 : Ref sig .tc := ⟨.hbm, 94, rfl⟩
abbrev main_v54 : Ref sig .tc := ⟨.hbm, 95, rfl⟩
abbrev main_cst_9 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_10 : Ref sig .tc := ⟨.hbm, 100, rfl⟩
abbrev main_v58 : Ref sig .tc := ⟨.hbm, 101, rfl⟩
abbrev main_cst_11 : Ref sig .tc := ⟨.hbm, 102, rfl⟩
abbrev main_v59 : Ref sig .tc := ⟨.hbm, 103, rfl⟩
abbrev main_v60 : Ref sig .tc := ⟨.hbm, 104, rfl⟩

abbrev nD : Nat := 1
abbrev τ : Topo := Topo.v7x

variable {F : FTy → Type} [FloatOps F]

class Facts₀ : Prop where
  shapeCasts_S8x256x96x96_S8x256x9216 : S8x256x96x96.ShapeCasts S8x256x9216
  bcast_S_S32 : S_.BroadcastsInDim S32 (![] : Fin 0 → Fin S32.rank)
  bcast_S32_S32x1_0 : S32.BroadcastsInDim S32x1 (![0] : Fin 1 → Fin S32x1.rank)
  bcast_S32x256_S32x1x256_0_2 : S32x256.BroadcastsInDim S32x1x256 (![0, 2] : Fin 2 → Fin S32x1x256.rank)
  bcast_S_S32x1x256 : S_.BroadcastsInDim S32x1x256 (![] : Fin 0 → Fin S32x1x256.rank)
  shapeCasts_S32x1x256_S32x256x1 : S32x1x256.ShapeCasts S32x256x1
  bcast_S_S32x256x1 : S_.BroadcastsInDim S32x256x1 (![] : Fin 0 → Fin S32x256x1.rank)
  bcast_S1_S1x1x1_2 : S1.BroadcastsInDim S1x1x1 (![2] : Fin 1 → Fin S1x1x1.rank)
  bcast_S1x1x1_S32x256x1_0_1_2 : S1x1x1.BroadcastsInDim S32x256x1 (![0, 1, 2] : Fin 3 → Fin S32x256x1.rank)
  reducesTo_S32x256x1_S32x256_d2 : S32x256x1.ReducesTo [2] S32x256
  h_S_ : 0 < S_.numel
  bcast_S32x256_S32x256x256_0_2 : S32x256.BroadcastsInDim S32x256x256 (![0, 2] : Fin 2 → Fin S32x256x256.rank)
  bcast_S_S32x256x256 : S_.BroadcastsInDim S32x256x256 (![] : Fin 0 → Fin S32x256x256.rank)
  reducesTo_S32x256x256_S32x256_d1 : S32x256x256.ReducesTo [1] S32x256
  bcast_S32x1x256_S32x256x256_0_1_2 : S32x1x256.BroadcastsInDim S32x256x256 (![0, 1, 2] : Fin 3 → Fin S32x256x256.rank)
  transposes_S32x256x256_S32x256x256_0_2_1 : S32x256x256.Transposes [0, 2, 1] S32x256x256
  shapeCasts_S32x256x256_S8192x256 : S32x256x256.ShapeCasts S8192x256
  bcast_S32_S32x256_0 : S32.BroadcastsInDim S32x256 (![0] : Fin 1 → Fin S32x256.rank)
  shapeCasts_S32x256_S8192 : S32x256.ShapeCasts S8192
  transposes_S8192x256_S256x8192_1_0 : S8192x256.Transposes [1, 0] S256x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  gather_S8x256x9216_S32x1_S32x256x9216_12_0_n_n_0_1_12569216_wf : GatherDims.WF S8x256x9216 S32x1 S32x256x9216 [1, 2] [0] [] [0] [] 1 ![1, 256, 9216]
  gather_S32x256x9216_S32x256x1_S32x256x256_1_2_0_0_2_2_12561_wf : GatherDims.WF S32x256x9216 S32x256x1 S32x256x256 [1] [2] [0] [2] [0] 2 ![1, 256, 1]
  dot_S8192x256_S256x8192_S8192x8192_1_0_0_1_n_n_wf : DotDims.WF S8192x256 S256x8192 S8192x8192 [1] [0] [0] [1] [] []

variable [Facts₀]

def gather_S8x256x9216_S32x1_S32x256x9216_12_0_n_n_0_1_12569216 : GatherDims S8x256x9216 S32x1 S32x256x9216 where
  offsetDims := [1, 2]
  collapsedSliceDims := [0]
  operandBatchingDims := []
  startIndicesBatchingDims := []
  startIndexMap := [0]
  indexVectorDim := 1
  sliceSizes := ![1, 256, 9216]
  wf := gather_S8x256x9216_S32x1_S32x256x9216_12_0_n_n_0_1_12569216_wf
def gather_S32x256x9216_S32x256x1_S32x256x256_1_2_0_0_2_2_12561 : GatherDims S32x256x9216 S32x256x1 S32x256x256 where
  offsetDims := [1]
  collapsedSliceDims := [2]
  operandBatchingDims := [0]
  startIndicesBatchingDims := [0]
  startIndexMap := [2]
  indexVectorDim := 2
  sliceSizes := ![1, 256, 1]
  wf := gather_S32x256x9216_S32x256x1_S32x256x256_1_2_0_0_2_2_12561_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.PreFacts.lean ====
/- The printed precondition decoded: when the printed predicate of the four argument arrays is the word `1`, every
   group index is below `8`, every sample index is below `9216`, and (over the extended reals) every feature is a
   real number. The predicate is a conjunction of three `all`s: `|x| < +∞` over the features, and
   `0 ≤ w ∧ w < n` with signed compares over each of the two index arrays; a signed word that is `≥ 0` has its top
   bit clear, so it compares with `n` as its unsigned value does. -/
import proofs.«419518_j21423296873244_3_alg».proof.Pre_finite_inputs
import proofs.«419518_j21423296873244_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx
open Cert.Pre_finite_inputs

variable [Cert.Pre_finite_inputs.Facts]

/-- The scalar shape has one index. -/
instance : Subsingleton S_.Idx := ⟨fun a b => funext fun d => d.elim0⟩

/-- A word that is `≥ 0` as a signed number has its top bit clear. -/
theorem toNat_lt_of_sge_zero {w : BitVec 32} (h : IntOp.cmpi .sge w 0#32 = 1#1) : w.toNat < 2 ^ 31 := by
  have h' := IntOp.cmpi_sge.1 h
  rw [BitVec.toInt_zero, BitVec.toInt_eq_toNat_cond] at h'
  have hw := w.isLt
  split at h' <;> omega

/-- A word in `[0, n)` as a signed number is below `n` as an unsigned one. -/
theorem toNat_lt_of_signed_range {w n : BitVec 32} (hn : n.toNat < 2 ^ 31) (h0 : IntOp.cmpi .sge w 0#32 = 1#1)
    (h1 : IntOp.cmpi .slt w n = 1#1) : w.toNat < n.toNat :=
  (StableHlo.Predicate.slt_iff_toNat (toNat_lt_of_sge_zero h0) hn).1 h1

section
variable {F : FTy → Type} [FloatOps F]

/-- The three `all`s the predicate is the conjunction of, each read at every index of its array. -/
theorem parts (a0 : FVec F S8x256x96x96 .f32) (a1 : IVec S32 32) (a2 : IVec S32x256 32) (a3 : IVec S32 32)
    (h : Cert.Pre_finite_inputs.fn (F := F) a0 a1 a2 a3 = fun _ => 1#1) :
    (∀ j, FloatOps.cmpf .olt (FloatOps.hostAbsf (a0 j)) (FloatOps.ofBits (F := F) .f32 0x7F800000#32) = 1#1)
    ∧ (∀ j, IntOp.cmpi .sge (a1 j) 0#32 = 1#1 ∧ IntOp.cmpi .slt (a1 j) 8#32 = 1#1)
    ∧ (∀ j, IntOp.cmpi .sge (a2 j) 0#32 = 1#1 ∧ IntOp.cmpi .slt (a2 j) 9216#32 = 1#1) := by
  have e := congrFun h ValueIdx.ix0
  dsimp only [Cert.Pre_finite_inputs.fn, Cert.Pre_finite_inputs.fn_part1] at e
  obtain ⟨e12, e3⟩ := IntOp.andi_eq_one.1 e
  obtain ⟨e1, e2⟩ := IntOp.andi_eq_one.1 e12
  refine ⟨fun j => Host.reduce_andi_all _ _ _ _ ix0 e1 j, fun j => ?_, fun j => ?_⟩
  · exact IntOp.andi_eq_one.1 (Host.reduce_andi_all _ _ _ _ ix0 e2 j)
  · exact IntOp.andi_eq_one.1 (Host.reduce_andi_all _ _ _ _ ix0 e3 j)

theorem batch_lt (a0 : FVec F S8x256x96x96 .f32) (a1 : IVec S32 32) (a2 : IVec S32x256 32) (a3 : IVec S32 32)
    (h : Cert.Pre_finite_inputs.fn (F := F) a0 a1 a2 a3 = fun _ => 1#1) (t : Fin 32) : (a1 (ix1 t)).toNat < 8 := by
  obtain ⟨h0, h1⟩ := (parts a0 a1 a2 a3 h).2.1 (ix1 t)
  exact toNat_lt_of_signed_range (n := 8#32) (by decide) h0 h1

theorem sample_lt (a0 : FVec F S8x256x96x96 .f32) (a1 : IVec S32 32) (a2 : IVec S32x256 32) (a3 : IVec S32 32)
    (h : Cert.Pre_finite_inputs.fn (F := F) a0 a1 a2 a3 = fun _ => 1#1) (t : Fin 32) (v : Fin 256) :
    (a2 (ix2 t v)).toNat < 9216 := by
  obtain ⟨h0, h1⟩ := (parts a0 a1 a2 a3 h).2.2 (ix2 t v)
  exact toNat_lt_of_signed_range (n := 9216#32) (by decide) h0 h1

end

theorem finite (a0 : FVec Ideal S8x256x96x96 .f32) (a1 : IVec S32 32) (a2 : IVec S32x256 32) (a3 : IVec S32 32)
    (h : Cert.Pre_finite_inputs.fn (F := Ideal) a0 a1 a2 a3 = fun _ => 1#1) (j : S8x256x96x96.Idx) :
    ∃ r : ℝ, a0 j = (r : EReal) := by
  have hlt : max (a0 j) (-(a0 j)) < ⊤ := by
    have e : BitVec.ofBool (decide (max (a0 j) (-(a0 j)) < Ideal.ofBits .f32 0x7F800000#32)) = 1#1 :=
      (parts a0 a1 a2 a3 h).1 j
    have htop : Ideal.ofBits .f32 0x7F800000#32 = ⊤ := by simp [Ideal.ofBits, Ideal.ieee]
    rw [htop, StableHlo.Predicate.ofBool_eq_one_iff, decide_eq_true_eq] at e
    exact e
  have h1 : a0 j ≠ ⊤ := fun hx => by
    rw [hx] at hlt
    simp at hlt
  have h2 : a0 j ≠ ⊥ := fun hx => by
    rw [hx] at hlt
    simp at hlt
  exact ⟨(a0 j).toReal, (EReal.coe_toReal h1 h2).symm⟩

end Cert.PreFacts

end
-- ==== Proof.K.Blocks.lean ====
/- What each kernel's body computes from its input blocks, as pure functions over the arithmetic of the printed
   bodies (the payload terms): for the gather kernel the accumulator after each column chunk and the normalised rows;
   for the loss kernel the scaled product tile by tile, the running row maximum, the cached exponentials, the
   negatives' sum, the numerator and denominator of the mean log-probability, and the lane block it stores.
   Nothing here mentions memory: the runs are tied to these functions elsewhere. -/
import proofs.«419518_j21423296873244_3_alg».proof.Proof.Gen.Kernel.Skeleton
import Idealize.ShloMosaic.Lib.Pipeline.FrameBody

noncomputable section

namespace Cert.Kernel.Hand

open Cert.Kernel Cert.Kernel.Gen
open Idealize.ShloMosaic Idealize.SL.Sem

variable {F : FTy → Type} [FloatOps F]

/-! ## The gather kernel -/

/-- The whole index row, the whole accumulator, the whole output block. -/
abbrev rIdx : Rect S1x1x256 := Rect.unit (s := S1x1x256) ![0, 0, 0] S1x1x256.size inb_S1x1x256_S1x1x256_0_0_0
abbrev rAcc : Rect S256x256 := Rect.unit (s := S256x256) ![0, 0] S256x256.size inb_S256x256_S256x256_0_0
abbrev rOut0 : Rect S1x256x256 := Rect.unit (s := S1x256x256) ![0, 0, 0] S1x256x256.size inb_S1x256x256_S1x256x256_0_0_0
/-- Column chunk `k` of the image block: all channels, columns `2304 k … 2304 k + 2303`. -/
abbrev rImg (k : Fin k0_t1_loop.trips) : Rect S1x256x9216 := Rect.unit (s := S1x256x9216) (k0_off2 k) S1x256x2304.size (k0_off2_inb k)

/-- The accumulator before chunk `k`: zero, then one chunk's one-hot products added per step. -/
def gatherAcc (x0 : Vec F S1x256x9216 .f32) (x1 : Vec F S1x1x256 .i32) : ℕ → Vec F S256x256 .f32
  | 0 => k0_pay1
  | k + 1 => if h : k < k0_t1_loop.trips then
      k0_pay2 (View.ld x1 rIdx) ⟨k, h⟩ (View.ld x0 (rImg ⟨k, h⟩)) (View.ld (gatherAcc x0 x1 k) rAcc)
    else gatherAcc x0 x1 k

/-- What the gather kernel stores in its output block: the accumulated rows, each divided by its clamped norm. -/
def gatherBlk (x0 : Vec F S1x256x9216 .f32) (x1 : Vec F S1x1x256 .i32) : Vec F S1x256x256 .f32 :=
  View.canon [⟨rOut0, k0_pay3 (View.ld (gatherAcc x0 x1 k0_t1_loop.trips) rAcc)⟩]

/-! ## The loss kernel -/

abbrev rQ : Rect S256x256 := Rect.unit (s := S256x256) ![0, 0] S256x256.size inb_S256x256_S256x256_0_0
abbrev rCol : Rect S256x1 := Rect.unit (s := S256x1) ![0, 0] S256x1.size inb_S256x1_S256x1_0_0
abbrev rOut1 : Rect S1x128 := Rect.unit (s := S1x128) ![0, 0] S1x128.size inb_S1x128_S1x128_0_0
/-- Row tile `k` of the feature matrix (rows `1024 k …`), and the matching tile of the label row, as each loop addresses it. -/
abbrev rFeat (k : Fin k1_t1_loop.trips) : Rect S8192x256 := Rect.unit (s := S8192x256) (k1_off1 k) S1024x256.size (k1_off1_inb k)
abbrev rLab2 (k : Fin k1_t2_loop.trips) : Rect S1x8192 := Rect.unit (s := S1x8192) (k1_off4 k) S1x1024.size (k1_off4_inb k)
abbrev rLab3 (k : Fin k1_t3_loop.trips) : Rect S1x8192 := Rect.unit (s := S1x8192) (k1_off6 k) S1x1024.size (k1_off6_inb k)

section Loss
variable (i : grid1.Coords) (x0 : Vec F S256x256 .f32) (x1 : Vec F S256x1 .i32) (x2 : Vec F S8192x256 .f32) (x3 : Vec F S1x8192 .i32)

/-- The scaled product of the query rows with feature tile `k`. -/
def lossDot (k : Fin k1_t1_loop.trips) : Vec F S256x1024 .f32 := k1_pay11 (View.ld x0 rQ) (View.ld x2 (rFeat k))

/-- The running row maximum before tile `k`. -/
def lossMax : ℕ → Vec F S256x1 .f32
  | 0 => k1_pay9
  | k + 1 => if h : k < k1_t1_loop.trips then
      k1_pay12 (View.ld x0 rQ) (View.ld x2 (rFeat ⟨k, h⟩)) (View.ld (lossMax k) rCol)
    else lossMax k

/-- The row maximum over all columns. -/
def lossRowMax : Vec F S256x1 .f32 := View.ld (lossMax x0 x2 k1_t1_loop.trips) rCol

/-- The exponentials of the shifted products of tile `k`. -/
def lossExp (k : Fin k1_t2_loop.trips) (hk : k.val < k1_t1_loop.trips) : Vec F S256x1024 .f32 :=
  k1_pay15 (lossRowMax x0 x2) (lossDot x0 x2 ⟨k.val, hk⟩)

/-- The negatives' sum before tile `k`. -/
def lossNeg : ℕ → Vec F S256x1 .f32
  | 0 => k1_pay13
  | k + 1 => if h : k < k1_t2_loop.trips ∧ k < k1_t1_loop.trips then
      k1_pay16 (View.ld x1 rCol) (lossRowMax x0 x2) (lossDot x0 x2 ⟨k, h.2⟩) (View.ld x3 (rLab2 ⟨k, h.1⟩)) (View.ld (lossNeg k) rCol)
    else lossNeg k

/-- The negatives' sum over all columns. -/
def lossNegSum : Vec F S256x1 .f32 := View.ld (lossNeg x0 x1 x2 x3 k1_t2_loop.trips) rCol

/-- The numerator (the positives' log-probabilities summed) before tile `k`. -/
def lossNum : ℕ → Vec F S256x1 .f32
  | 0 => k1_pay17
  | k + 1 => if h : k < k1_t3_loop.trips ∧ k < k1_t2_loop.trips ∧ k < k1_t1_loop.trips then
      k1_pay5 (k1_pay7 (View.ld x1 rCol)) (k1_pay8 i) (lossRowMax x0 x2) (lossNegSum x0 x1 x2 x3) 0#32 1#32 ⟨k, h.1⟩
        (lossDot x0 x2 ⟨k, h.2.2⟩) (lossExp x0 x2 ⟨k, h.2.1⟩ h.2.2) (View.ld x3 (rLab3 ⟨k, h.1⟩)) (View.ld (lossNum k) rCol)
    else lossNum k

/-- The denominator (the count of positives) before tile `k`. -/
def lossDen : ℕ → Vec F S256x1 .f32
  | 0 => k1_pay1 k1_pay18
  | k + 1 => if h : k < k1_t3_loop.trips then
      k1_pay2 (View.ld (lossDen k) rCol) (k1_pay6 (F := F) (k1_pay7 (View.ld x1 rCol)) (k1_pay8 i) 0#32 1#32 ⟨k, h⟩ (View.ld x3 (rLab3 ⟨k, h⟩)))
    else lossDen k

/-- What the loss kernel stores in its output lane block: the tile's summed mean log-probabilities in lane 0. -/
def lossBlk : Vec F S1x128 .f32 :=
  View.canon [⟨rOut1, k1_pay3 (View.ld (lossNum i x0 x1 x2 x3 k1_t3_loop.trips) rCol) (View.ld (lossDen i x1 x3 k1_t3_loop.trips) rCol)⟩]

end Loss

end Cert.Kernel.Hand

end
-- ==== Proof.K.Dat0.lean ====
/- The gather region's proof data, at any admissible contents `a0` of the prefetched table and any contents `V` of the
   TensorCore's buffers at the region's entry: each input window's staging buffer holds its block after the body as
   before it; the output window's holds the gathered, normalised block of the two input blocks; the region's invariant
   is the scoped buffers no window stages, the generator register, and the table held whole. -/
import proofs.«419518_j21423296873244_3_alg».proof.Proof.K.Blocks
import proofs.«419518_j21423296873244_3_alg».proof.Proof.Gen.Kernel.Launch
import Idealize.ShloMosaic.Lib.Pipeline.FrameBody
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a0 : (pcfg0 (F := F)).Adm)
variable (V : (c : Dev nD) → (b : Ref sig .tc) → Buf (Elt F) ((c : Thread nD τ).loc b))

/-- Window `w`'s block at point `t`, read off its array as the region finds it. -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-- The proof data of the gather pipeline on core `c`. -/
def dat0 (c : Dev nD) : Dat τ (Elt F) Unit ℕ (UR sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => gatherBlk (iblk0 a0 V c 0 t) (iblk0 a0 V c 1 t)
  Φ _ := iprop(Pipeline.ΦA spec0 c ∗ Pipeline.prefHeld (Ix := Unit) (Name := ℕ) (U := UR sig nD τ) (Lvl := ℕ) pre0 c (fun _ => fullShare) a0.1)
  q _ := fullShare
  owed _ := 0

theorem A_eq0 (c : Dev nD) (w : Fin (cfg0 a0).W) : (dat0 a0 V c).A w = V c (Pipeline.arrRef spec0 w) := by
  dsimp only [dat0]
theorem after0_0 (c : Dev nD) (t : Fin (cfg0 a0).N) : (dat0 a0 V c).after 0 t = iblk0 a0 V c 0 t := by dsimp only [dat0]; rfl
theorem after0_1 (c : Dev nD) (t : Fin (cfg0 a0).N) : (dat0 a0 V c).after 1 t = iblk0 a0 V c 1 t := by dsimp only [dat0]; rfl
theorem after0_2 (c : Dev nD) (t : Fin (cfg0 a0).N) :
    (dat0 a0 V c).after 2 t = gatherBlk (iblk0 a0 V c 0 t) (iblk0 a0 V c 1 t) := by dsimp only [dat0]; rfl

end Cert.Kernel.Hand

end
-- ==== Proof.K.Dat1.lean ====
/- The loss region's proof data, at any contents `V` of the TensorCore's buffers at the region's entry: each input
   window's staging buffer holds its block after the body as before it; the output window's holds the loss block of the
   four input blocks; the invariant is the scoped buffers no window stages and the generator register. The query-row
   window and the whole-matrix window are blocks of one array: each holds it at one half of the full share. -/
import proofs.«419518_j21423296873244_3_alg».proof.Proof.K.Blocks
import proofs.«419518_j21423296873244_3_alg».proof.Proof.Gen.Kernel.Launch
import proofs.«419518_j21423296873244_3_alg».proof.Proof.Gen.Kernel.Points
import Idealize.ShloMosaic.Lib.Pipeline.FrameBody
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The proof data of the loss pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => lossBlk (grid1.coords t) (iblk1 V c 0 t) (iblk1 V c 1 t) (iblk1 V c 2 t) (iblk1 V c 3 t)
  Φ _ := Pipeline.ΦA spec1 c
  q w := match w with
    | ⟨0, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = lossBlk (grid1.coords t) (iblk1 V c 0 t) (iblk1 V c 1 t) (iblk1 V c 2 t) (iblk1 V c 3 t) := by
  dsimp only [dat1]

end Cert.Kernel.Hand

end
-- ==== Proof.K.Family.lean ====
/- The two pipelines together: the admissible table contents of each (the loss pipeline has no table), the contents
   of the TensorCore's buffers at each region's entry, what each region leaves in the one array it writes (the
   pipeline's own account of it: the last write-backs folded over the entry contents), and each pipeline's proof data
   at its region's entry contents. -/
import proofs.«419518_j21423296873244_3_alg».proof.Proof.K.Dat0
import proofs.«419518_j21423296873244_3_alg».proof.Proof.K.Dat1
import proofs.«419518_j21423296873244_3_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a0 : (pcfg0 (F := F)).Adm)

/-- Each pipeline's admissible table contents: the gather pipeline's are given, the loss pipeline has none. -/
def adm : (p : Fin 2) → (pcfgs (F := F) p).Adm
  | ⟨0, _⟩ => a0
  | ⟨1, _⟩ => cfg1.toPCfg_adm
  | ⟨_ + 2, h⟩ => absurd h (Nat.not_lt.2 (Nat.le_add_left _ _))

/-- The gather region's entry contents, read at the TensorCore's references. -/
abbrev Ve0 : (c : Dev nD) → (b : Ref sig .tc) → Buf (Elt F) ((c : Thread nD τ).loc b) := fun c b => V5 m c b

/-- What the gather region leaves in its result array. -/
def res0 (c : Dev nD) : Buf (Elt F) ((c : Thread nD τ).loc main_v25) := (dat0 a0 (Ve0 m) c).arrAt 2 (cfg0 a0).N

/-- The regions' results so far: the gather region's, wherever asked. -/
def outs0 : Outs (F := F) := fun _ r c => if h : r = main_v25 then h ▸ res0 m a0 c else V0 m c r

/-- The loss region's entry contents. -/
abbrev Ve1 : (c : Dev nD) → (b : Ref sig .tc) → Buf (Elt F) ((c : Thread nD τ).loc b) := fun c b => V7 m (outs0 m a0) c b

/-- What the loss region leaves in its result array. -/
def res1 (c : Dev nD) : Buf (Elt F) ((c : Thread nD τ).loc main_v31) := (dat1 (Ve1 m a0) c).arrAt 4 cfg1.N

/-- What the regions leave: the gather region's result array, the loss region's. -/
def outs : Outs (F := F) := fun _ r c =>
  if h : r = main_v25 then h ▸ res0 m a0 c else if h' : r = main_v31 then h' ▸ res1 m a0 c else V0 m c r

theorem outs_v25 (n : ℕ) (c : Dev nD) : outs m a0 n main_v25 c = res0 m a0 c := by
  unfold outs; rw [dif_pos rfl]
theorem outs0_v25 (n : ℕ) (c : Dev nD) : outs0 m a0 n main_v25 c = res0 m a0 c := by
  unfold outs0; rw [dif_pos rfl]
theorem outs_v31 (n : ℕ) (c : Dev nD) : outs m a0 n main_v31 c = res1 m a0 c := by
  unfold outs; rw [dif_neg (by decide), dif_pos rfl]

/-- Every pipeline's proof data, each at its region's entry contents. -/
def pdats : (p : Fin 2) → (c : Dev nD) → Dat τ (Elt F) Unit ℕ (UR sig nD τ) ℕ (Pipeline.pin (pcfgs (F := F)) (adm a0) p) c
  | ⟨0, _⟩ => fun c => dat0 a0 (Ve0 m) c
  | ⟨1, _⟩ => fun c => dat1 (Ve1 m a0) c
  | ⟨_ + 2, h⟩ => absurd h (Nat.not_lt.2 (Nat.le_add_left _ _))

/-! ## What every segment's thread state carries beside the buffers -/

/-- No core owes another anything: no level is assigned. -/
abbrev L : GSem nD τ sig → Finset Unit := fun _ => ∅
abbrev lv : GSem nD τ sig → Unit → ℕ := fun _ _ => 0
/-- The core's generator register at some state and its `owes` at nothing. -/
abbrev R (c : Dev nD) : sProp 𝕄 :=
  iprop((∃ r, prngReg c r) ∗ ∃ W, owes (c : Thread nD τ) (0 : CellTallies nD τ sig Unit) W)

/-- The loss region is entered from the same buffer contents whichever account of the regions' results is read:
    both give the gather region's result array the pipeline's own account of it. -/
theorem V7_outs (c : Dev nD) : V7 m (outs m a0) c = V7 m (outs0 m a0) c := by
  show StableHlo.after hostOps1 (Function.update (V5 m c) main_v25 (outs m a0 6 main_v25 c))
    = StableHlo.after hostOps1 (Function.update (V5 m c) main_v25 (outs0 m a0 6 main_v25 c))
  rw [outs_v25, outs0_v25]

end Cert.Kernel.Hand

end
-- ==== Proof.K.Reg0.lean ====
/- The gather region as a segment of @main: entered with every unscoped buffer at the contents the host operations
   before it leave, left with its result array at the pipeline's account of it and every other unscoped buffer as
   entered. The prefetched table is an unscoped buffer that is no window's array: at entry it is taken out of the
   unscoped rest, held whole at the admissible contents it is assumed to hold, and handed to the pipeline's invariant;
   at exit the invariant gives it back and it rejoins the rest. -/
import proofs.«419518_j21423296873244_3_alg».proof.Proof.K.Family
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a0 : (pcfg0 (F := F)).Adm)

/-- The gather region's exit contents, read at the TensorCore's references. -/
abbrev Vx0 : (c : Dev nD) → (b : Ref sig .tc) → Buf (Elt F) ((c : Thread nD τ).loc b) := fun c b => V6 m (outs m a0) c b

/-- At the region's exit each of its arrays holds what the pipeline leaves: the two input arrays are never written
    back, so they hold the entry contents, which the region's result array does not disturb; the result array holds
    the pipeline's own account of it. -/
theorem hF0 (c : Dev nD) : ∀ w : Fin (cfg0 a0).W,
    (dat0 a0 (Ve0 m) c).arrAt w (cfg0 a0).N = Vx0 m a0 c (Pipeline.arrRef spec0 w)
  | ⟨0, _⟩ => ((dat0 a0 (Ve0 m) c).arrAt_in 0 rfl _).trans
      ((A_eq0 a0 (Ve0 m) c 0).trans (V6_of m (outs m a0) c (Pipeline.arrRef spec0 0) (by decide)).symm)
  | ⟨1, _⟩ => ((dat0 a0 (Ve0 m) c).arrAt_in 1 rfl _).trans
      ((A_eq0 a0 (Ve0 m) c 1).trans (V6_of m (outs m a0) c (Pipeline.arrRef spec0 1) (by decide)).symm)
  | ⟨2, _⟩ => by
    show (dat0 a0 (Ve0 m) c).arrAt 2 (cfg0 a0).N = Function.update (V5 m c) main_v25 (outs m a0 6 main_v25 c) main_v25
    rw [Function.update_self, outs_v25]; rfl

/-- Every other unscoped buffer holds at exit what it held at entry. -/
theorem hrest0 (c : Dev nD) : ∀ b, b ∉ Finset.univ.image (Pipeline.arrRef spec0) → Vx0 m a0 c b = Ve0 m c b :=
  fun b hb => V6_of m (outs m a0) c b fun h => hb (by
    rw [List.mem_singleton] at h; subst h
    exact Finset.mem_image.mpr ⟨2, Finset.mem_univ _, rfl⟩)

/-- The unscoped buffers that are no array of the gather pipeline are the prefetched table, held whole at the admissible
    contents it holds, and the rest. -/
theorem rest0_split (hA0 : ∀ c : Dev nD, ((fun k => Ve0 m c (pre0.ref k)) : pre0.Contents (Elt F)) = a0.1) (c : Dev nD) :
    (Pipeline.unscopedRest (Ix := Unit) (Name := ℕ) (U := UR sig nD τ) (Lvl := ℕ) spec0 c (Ve0 m c) : sProp 𝕄)
      = iprop(Pipeline.prefHeld pre0 c (fun _ => fullShare) a0.1 ∗ Pipeline.unscopedRestP pre0 spec0 c (Ve0 m c)) :=
  (Pipeline.unscopedRest_split (launch0 (F := F)).pre c (Ve0 m c)).trans
    (congrArg (fun T : pre0.Contents (Elt F) =>
      (iprop(Pipeline.prefHeld pre0 c (fun _ => fullShare) T ∗ Pipeline.unscopedRestP pre0 spec0 c (Ve0 m c)) : sProp 𝕄)) (hA0 c))

set_option backward.isDefEq.respectTransparency.types false in
/-- REGION 0 (the gather kernel's call) over the thread state: entered from every unscoped buffer at the contents before
    the call, left at those contents updated at the result array. Its arrays split out of the unscoped buffers and put
    back at the exit contents; the prefetched table taken out of the unscoped rest (`hA0`: it holds the admissible
    contents `a0`), through the invariant and back; the generator register into the invariant and out; nothing owed; no
    semaphore of the kernel's own. -/
def reg0 (hA0 : ∀ c : Dev nD, ((fun k => Ve0 m c (pre0.ref k)) : pre0.Contents (Elt F)) = a0.1)
    (hbody0 : ∀ c : Dev nD, BodyObligation (dat0 (F := F) a0 (Ve0 m) c) (defs₀ (F := F)) Variants.none () Set.univ) :
    Pipeline.RegionSeg (pcfgs (F := F)) (adm a0) (pdats m a0) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (hbody0 c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m a0) c) ∗ R c)
  X c := iprop(∃ r, prngReg c r)
  Y c := iprop((∃ r, prngReg c r) ∗ Pipeline.prefHeld (Ix := Unit) (Name := ℕ) (U := UR sig nD τ) (Lvl := ℕ) pre0 c (fun _ => fullShare) a0.1)
  Z c := Pipeline.unscopedRestP (Ix := Unit) (Name := ℕ) (U := UR sig nD τ) (Lvl := ℕ) pre0 spec0 c (Ve0 m c)
  hentry c := by
    rw [Pipeline.ownSems0_none]
    have hsplit := Pipeline.arrays_of_unscopedBufs (p := 0) (pcfgs (F := F)) (adm a0) (pdats m a0) (launch0 (F := F)).win (launch0 (F := F)).arr_whole c
      ((pdats m a0 0 c).share_full fun _ => rfl) (Ve0 m c) fun _ => rfl
    rw [Pipeline.unscopedBufs_held] at hsplit
    have hsplit' := hsplit.trans (sep_mono .rfl (Entails.of_eq (rest0_split m a0 hA0 c)))
    iintro ⟨⟨Hub, Hp, HO⟩, -, -⟩
    ihave H := hsplit' $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 0 c).Φ 0 = iprop(Pipeline.ΦA spec0 c ∗ Pipeline.prefHeld (Ix := Unit) (Name := ℕ) (U := UR sig nD τ) (Lvl := ℕ) pre0 c (fun _ => fullShare) a0.1) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m a0 0 c).Φ (Fin.last _) = iprop(Pipeline.ΦA spec0 c ∗ Pipeline.prefHeld (Ix := Unit) (Name := ℕ) (U := UR sig nD τ) (Lvl := ℕ) pre0 c (fun _ => fullShare) a0.1) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 0) (pcfgs (F := F)) (adm a0) (Ix := Unit) (Name := ℕ) (U := UR sig nD τ) (Lvl := ℕ)
      (launch0 (F := F)).win (launch0 (F := F)).arr_whole c (pdats m a0) ((pdats m a0 0 c).share_full fun _ => rfl)
      (Ve0 m c) (Vx0 m a0 c) ((pdats m a0 0 c).arrAt · (cfg0 a0).N) (hF0 m a0 c) (hrest0 m a0 c)
    rw [Pipeline.unscopedBufs_held] at hjoin
    have hjoin' := (sep_mono .rfl (Entails.of_eq (rest0_split m a0 hA0 c).symm)).trans hjoin
    iintro ⟨Ha, HO, ⟨HY, Hpf⟩, Hrest⟩
    imodintro
    isplitl [Ha Hpf Hrest]
    · iapply hjoin'
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

theorem reg0_pre (hA0) (hbody0) (c : Dev nD) :
    (reg0 m a0 hA0 hbody0).pre c = iprop(StableHlo.held (c : Thread nD τ) (Pipeline.ucRefs τ sig) (V5 m c) ∗ R c) := rfl
theorem reg0_post (hA0) (hbody0) (c : Dev nD) :
    (reg0 m a0 hA0 hbody0).post c = iprop(StableHlo.held (c : Thread nD τ) (Pipeline.ucRefs τ sig) (V6 m (outs m a0) c) ∗ R c) := rfl

end Cert.Kernel.Hand

end
-- ==== Proof.K.Shares1.lean ====
/- The loss pipeline's five windows name four arrays: the query-row window and the whole-matrix window are blocks of
   one array, held by each at one half of the full share. At the region's entry the four buffers, each whole at the full
   share, become the pipeline's five window arrays (the shared buffer split into its halves); at its exit the halves
   are joined again. -/
import proofs.«419518_j21423296873244_3_alg».proof.Proof.K.Family
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a0 : (pcfg0 (F := F)).Adm)

/-- The four distinct buffers behind the loss pipeline's five windows. -/
theorem arrImage1 : (Finset.univ.image (Pipeline.arrRef spec1) : Finset (Ref sig .tc)) = ([main_v26, main_v29, main_v30, main_v31] : List (Ref sig .tc)).toFinset := by
  decide

/-- The four buffers one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v26) ↦{fullShare} V main_v26) ∗ (((c : Thread nD τ).loc main_v29) ↦{fullShare} V main_v29)
          ∗ (((c : Thread nD τ).loc main_v30) ↦{fullShare} V main_v30) ∗ (((c : Thread nD τ).loc main_v31) ↦{fullShare} V main_v31)) :=
  bigSep_eq_bigSepL_of_eq [main_v26, main_v29, main_v30, main_v31] arrImage1 (by decide) _

/-- The five window arrays one by one: the query-row window and the whole-matrix window each hold one half of the
    one buffer behind them. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v26) ↦{fullShare.left} G 0) ∗ (((c : Thread nD τ).loc main_v29) ↦{fullShare} G 1)
          ∗ (((c : Thread nD τ).loc main_v26) ↦{fullShare.right} G 2) ∗ (((c : Thread nD τ).loc main_v30) ↦{fullShare} G 3)
          ∗ (((c : Thread nD τ).loc main_v31) ↦{fullShare} G 4)) := by
  unfold Pipeline.Dat.arrays
  rw [bigSep_W1]
  simp only [View.set_whole]
  rfl

/-- ENTRY at any entry contents: the shared buffer is split into its halves. -/
theorem arrays_of_arrBufs_at (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H26, H29, H30, H31⟩
  ihave H := (pointsTo_share (PosShare.mem_left_op_right fullShare)).1 $$ H26
  icases H with ⟨Hl, Hr⟩
  isplitl [Hl]; · iexact Hl
  isplitl [H29]; · iexact H29
  isplitl [Hr]; · iexact Hr
  isplitl [H30]; · iexact H30
  iexact H31

/-- EXIT at any entry contents `V` and any exit contents `V'` that agree with `V` on the three input buffers and
    hold the pipeline's account of the result array: the halves are joined. -/
theorem arrBufs_of_arrays_at (V : (c : Dev nD) → (b : Ref sig .tc) → Buf (Elt F) ((c : Thread nD τ).loc b)) (c : Dev nD)
    (V' : (b : Ref sig .tc) → Buf (Elt F) ((c : Thread nD τ).loc b))
    (h26 : V' main_v26 = V c main_v26) (h29 : V' main_v29 = V c main_v29) (h30 : V' main_v30 = V c main_v30)
    (h31 : V' main_v31 = (dat1 V c).arrAt 4 cfg1.N) :
    (dat1 V c).arrays ((dat1 V c).arrAt · cfg1.N)
      ⊢ (Pipeline.arrBufs (Ix := Unit) (Name := ℕ) (U := UR sig nD τ) (Lvl := ℕ) spec1 c V' : sProp 𝕄) := by
  have e0 : (dat1 V c).arrAt 0 cfg1.N = V c main_v26 := (dat1 V c).arrAt_in 0 rfl _
  have e1 : (dat1 V c).arrAt 1 cfg1.N = V c main_v29 := (dat1 V c).arrAt_in 1 rfl _
  have e2 : (dat1 V c).arrAt 2 cfg1.N = V c main_v26 := (dat1 V c).arrAt_in 2 rfl _
  have e3 : (dat1 V c).arrAt 3 cfg1.N = V c main_v30 := (dat1 V c).arrAt_in 3 rfl _
  rw [arrBufs1_eq, arrays1_eq, h26, h29, h30, h31, e0, e1, e2, e3]
  iintro ⟨Hl, H29, Hr, H30, H31⟩
  ihave H26 := (pointsTo_share (PosShare.mem_left_op_right fullShare)).2 $$ [Hl Hr]
  · isplitl [Hl] <;> iassumption
  isplitl [H26]; · iexact H26
  isplitl [H29]; · iexact H29
  isplitl [H30]; · iexact H30
  iexact H31

/-- ENTRY: the four buffers, each whole at the full share at the entry contents, are the pipeline's arrays at the proof
    data's entry contents: the shared buffer split into its halves. -/
theorem arrays_of_arrBufs1 (c : Dev nD) :
    (Pipeline.arrBufs (Ix := Unit) (Name := ℕ) (U := UR sig nD τ) (Lvl := ℕ) spec1 c (Ve1 m a0 c) : sProp 𝕄)
      ⊢ (pdats m a0 1 c).arrays ((pdats m a0 1 c).arrAt · 0) :=
  arrays_of_arrBufs_at (Ve1 m a0) c

/-- EXIT: the pipeline's arrays at their final contents are the four buffers at the exit contents: the halves joined. -/
theorem arrBufs_of_arrays1 (c : Dev nD) :
    (pdats m a0 1 c).arrays ((pdats m a0 1 c).arrAt · cfg1.N)
      ⊢ (Pipeline.arrBufs (Ix := Unit) (Name := ℕ) (U := UR sig nD τ) (Lvl := ℕ) spec1 c (fun b => V8 m (outs m a0) c b) : sProp 𝕄) := by
  refine arrBufs_of_arrays_at (Ve1 m a0) c (fun b => V8 m (outs m a0) c b) ?_ ?_ ?_ ?_
  · show V8 m (outs m a0) c main_v26 = Ve1 m a0 c main_v26
    rw [V8_of m (outs m a0) c main_v26 (by decide), V7_outs]
  · show V8 m (outs m a0) c main_v29 = Ve1 m a0 c main_v29
    rw [V8_of m (outs m a0) c main_v29 (by decide), V7_outs]
  · show V8 m (outs m a0) c main_v30 = Ve1 m a0 c main_v30
    rw [V8_of m (outs m a0) c main_v30 (by decide), V7_outs]
  · show V8 m (outs m a0) c main_v31 = (dat1 (Ve1 m a0) c).arrAt 4 cfg1.N
    simp only [V8, Function.update_self]
    exact outs_v31 m a0 8 c

end Cert.Kernel.Hand

end
-- ==== Proof.K.Reg1.lean ====
/- The loss region as a segment of @main: entered with every unscoped buffer at the contents the host operations
   before it leave, left with its result array at the pipeline's account of it and every other unscoped buffer as
   entered. Its five windows name four arrays — the query rows and the whole feature matrix are blocks of one array —
   so at entry that array's buffer is dealt between the two windows, a half share each, and at exit the halves are
   joined again. -/
import proofs.«419518_j21423296873244_3_alg».proof.Proof.K.Shares1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a0 : (pcfg0 (F := F)).Adm)

/-- Off the four buffers the exit contents are the entry contents. -/
theorem hrest1 (c : Dev nD) (b : Ref sig .tc) (hb : b ∉ Finset.univ.image (Pipeline.arrRef spec1)) :
    V8 m (outs m a0) c b = Ve1 m a0 c b := by
  have hb' : b ∉ ([main_v31] : List (Ref sig .tc)) := fun h => hb (by
    rw [arrImage1]; simp only [List.mem_singleton] at h; subst h; decide)
  rw [V8_of m (outs m a0) c b hb', V7_outs]

/-- The unscoped buffers that are no window's array: at the exit contents they are as at entry. -/
theorem rest1_eq (c : Dev nD) :
    (Pipeline.unscopedRest (Ix := Unit) (Name := ℕ) (U := UR sig nD τ) (Lvl := ℕ) spec1 c (Ve1 m a0 c) : sProp 𝕄)
      = Pipeline.unscopedRest spec1 c (fun b => V8 m (outs m a0) c b) := by
  unfold Pipeline.unscopedRest
  exact bigSep_congr fun b hb => by dsimp only; rw [hrest1 m a0 c b (Finset.mem_sdiff.mp hb).2]

-- The family's pipeline pinned at its admissible contents, `pin pcs a p`, is the loss pipeline's configuration: the two
-- are one term once plain definitions are unfolded.
set_option backward.isDefEq.respectTransparency.types false in
/-- The loss region over the thread state: entered from every unscoped buffer at the contents after the host
    operations between the regions, left at those contents with the result array at the pipeline's account of it; the
    generator register into the class invariant and out; nothing owed; no semaphore of the kernel's own. -/
def reg1 (hbody1 : ∀ c : Dev nD, BodyObligation (dat1 (F := F) (Ve1 m a0) c) (defs₀ (F := F)) Variants.none () Set.univ) :
    Pipeline.RegionSeg (pcfgs (F := F)) (adm a0) (pdats m a0) () defs₀ Variants.none L lv 1 where
  win := winFacts₀1
  block_pos := block_pos1
  stage_whole := stage_whole1
  K := PEmpty
  osem k := k.elim
  ho := Pipeline.OwnSemFacts.none _
  hbody c := (hbody1 c).loose
  hwaits := Pipeline.hwaits_of_owed_zero _ _ _ _ L lv 1 fun _ _ => rfl
  pre c := iprop(StableHlo.held (c : Thread nD τ) (Pipeline.ucRefs τ sig) (V7 m (outs m a0) c) ∗ R c)
  post c := iprop(StableHlo.held (c : Thread nD τ) (Pipeline.ucRefs τ sig) (V8 m (outs m a0) c) ∗ R c)
  X c := iprop(∃ r, prngReg c r)
  Y c := iprop(∃ r, prngReg c r)
  Z c := Pipeline.unscopedRest (Ix := Unit) (Name := ℕ) (U := UR sig nD τ) (Lvl := ℕ) spec1 c (Ve1 m a0 c)
  hentry c := by
    rw [Pipeline.ownSems0_none, V7_outs, ← Pipeline.unscopedBufs_held,
      Pipeline.unscopedBufs_split₀ (Pipeline.pin (pcfgs (F := F)) (adm a0)) (1 : Fin 2) winFacts₀1.arr_unscoped c (Ve1 m a0 c)]
    iintro ⟨⟨⟨Hab, Hrest⟩, Hp, HO⟩, -, -⟩
    have hsp := arrays_of_arrBufs1 m a0 c
    ihave Ha := hsp $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a0 1 c).Φ (Fin.last _) = Pipeline.ΦA spec1 c from rfl]; unfold Pipeline.ΦA
    iintro ⟨Hr, Hp⟩
    isplitl [Hp]; · iexact Hp
    isplitr; · iempintro
    iexact Hr
  hexit c := by
    rw [rest1_eq m a0 c, ← Pipeline.unscopedBufs_held,
      Pipeline.unscopedBufs_split₀ (Pipeline.pin (pcfgs (F := F)) (adm a0)) (1 : Fin 2) winFacts₀1.arr_unscoped c (fun b => V8 m (outs m a0) c b)]
    iintro ⟨Ha, HO, HY, Hrest⟩
    imodintro
    isplitl [Ha Hrest]
    · isplitl [Ha]
      · iapply (arrBufs_of_arrays1 m a0 c); iexact Ha
      · iexact Hrest
    isplitl [HY]; · iexact HY
    unfold Pipeline.Dat.owesAt Pipeline.owesWithin
    icases HO with ⟨%W, -, HO⟩; iexists W; iexact HO

end Cert.Kernel.Hand

end
-- ==== Proof.K.Run0.lean ====
/- The gather kernel's body run once on whole staging memrefs: the image block and the index row at their
   contents, the output block and the accumulator scratch at anything. What the stores leave in the output block and
   in the scratch is found by the run itself (the accumulation loop is passed by its invariant, one symbolic trip). -/
import proofs.«419518_j21423296873244_3_alg».proof.Proof.Gen.Kernel.Loops
import proofs.«419518_j21423296873244_3_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of the gather kernel at grid coordinates `i`: from the image block `x0` and the index row `x1` it runs to
    the continuation with both unchanged, the output block holding the pieces `L.1` and the scratch the pieces `L.2`. -/
noncomputable def kernelRun0 (c : Dev nD) (i : grid0.Coords) (arg1 : Memref sig .tc .smem S32 .i32) (harg1 : arg1.IsWhole)
    (arg2 : Memref sig .tc .vmem S1x256x9216 .f32) (harg2 : arg2.IsWhole) (arg3 : Memref sig .tc .vmem S1x1x256 .i32) (harg3 : arg3.IsWhole)
    (arg4 : Memref sig .tc .vmem S1x256x256 .f32) (harg4 : arg4.IsWhole) (arg5 : Memref sig .tc .vmem S256x256 .f32) (harg5 : arg5.IsWhole)
    (x0 : Vec F S1x256x9216 .f32) (x1 : Vec F S1x1x256 .i32) :
    { L : List (View.Piece (Elt F) S1x256x256 .f32) × List (View.Piece (Elt F) S256x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__gather_kernel i arg1 harg1 arg2 harg2 arg3 harg3 arg4 harg4 arg5 harg5) K } := by
  refine ⟨(?_, ?_), fun E K => ?run⟩
  case run =>
    simp only [cc0__gather_kernel_eq_skeleton]; unfold cc0__gather_kernel_skel
    unfold owns
    iintro ⟨⟨%f2, %hf2, H2⟩, ⟨%f3, %hf3, H3⟩, ⟨%d4, %f4, -, H4⟩, ⟨%d5, %f5, -, H5⟩, Hk⟩
    obtain rfl := harg2.eq_unread hf2
    obtain rfl := harg3.eq_unread hf3
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

end Cert.Kernel.Hand

end
-- ==== Proof.K.Struct0.lean ====
/- The gather kernel's run, read back: the output block the body leaves is the explicit function `gatherBlk` of the
   image block and the index row — the accumulator cleared, one chunk's products added per trip of the loop, the rows
   normalised and stored whole. -/
import proofs.«419518_j21423296873244_3_alg».proof.Proof.K.Run0
import proofs.«419518_j21423296873244_3_alg».proof.Proof.K.Blocks
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

/-- The zero offsets of the whole-buffer rectangles are the constant zero function. -/
private theorem hz2 : (![0, 0] : Fin 2 → ℕ) = fun _ => 0 := funext fun a => by fin_cases a <;> rfl
private theorem hz3 : (![0, 0, 0] : Fin 3 → ℕ) = fun _ => 0 := funext fun a => by fin_cases a <;> rfl

/-- The zero fill's piece: the whole accumulator, cleared. -/
abbrev pZero0 : View.Piece (Elt F) S256x256 .f32 := ⟨rAcc, k0_pay1 (F := F)⟩

/-- One trip of the accumulation loop leaves ONE piece: the whole accumulator, holding the trip's payload of the index
    row, the trip's column chunk of the image block and the accumulator as the trip found it. -/
theorem tripL0_eq (c : Dev nD) (i : grid0.Coords) (arg1 : Memref sig .tc .smem S32 .i32) (harg1 : arg1.IsWhole)
    (arg2 : Memref sig .tc .vmem S1x256x9216 .f32) (harg2 : arg2.IsWhole) (arg3 : Memref sig .tc .vmem S1x1x256 .i32) (harg3 : arg3.IsWhole)
    (arg4 : Memref sig .tc .vmem S1x256x256 .f32) (harg4 : arg4.IsWhole) (arg5 : Memref sig .tc .vmem S256x256 .f32) (harg5 : arg5.IsWhole)
    (v0 : Vec F S1x1x256 .i32) (X : BufTy.Contents (Elt F) arg2.view.ty) (k : Fin k0_t1_loop.trips)
    (f : BufTy.Contents (Elt F) arg5.view.ty) :
    tripL_k0_t1 (F := F) Variants.none c none i arg1 harg1 arg2 harg2 arg3 harg3 arg4 harg4 arg5 harg5 v0 X k f
      = [(⟨rAcc, k0_pay2 v0 k (View.readAt (Elt F) arg2.view (rImg k).toLoadRect X)
            (View.readAt (Elt F) arg5.view rAcc.toLoadRect f)⟩ : View.Piece (Elt F) S256x256 .f32)] := by
  unfold tripL_k0_t1 trip_k0_t1
  rfl

/-- The accumulator after the zero fill and the trips before `k`, read whole, is `gatherAcc … k`: by induction on `k`.
    Each trip stores the whole accumulator, so its piece in front hides everything behind it; the accumulator the trip
    found is the one the earlier trips left, which the induction hypothesis names. -/
theorem acc0_eq (c : Dev nD) (i : grid0.Coords) (arg1 : Memref sig .tc .smem S32 .i32) (harg1 : arg1.IsWhole)
    (arg2 : Memref sig .tc .vmem S1x256x9216 .f32) (harg2 : arg2.IsWhole) (arg3 : Memref sig .tc .vmem S1x1x256 .i32) (harg3 : arg3.IsWhole)
    (arg4 : Memref sig .tc .vmem S1x256x256 .f32) (harg4 : arg4.IsWhole) (arg5 : Memref sig .tc .vmem S256x256 .f32) (harg5 : arg5.IsWhole)
    (x0 : Vec F S1x256x9216 .f32) (x1 : Vec F S1x1x256 .i32) (v0 : Vec F S1x1x256 .i32) (hv0 : v0 = View.ld x1 rIdx) :
    ∀ k : ℕ, k ≤ k0_t1_loop.trips →
      arg5.view.read (Elt F) (arg5.view.writes (Elt F) arg5.view.junk
        (pb_k0_t1 (F := F) Variants.none c none i arg1 harg1 arg2 harg2 arg3 harg3 arg4 harg4 arg5 harg5 v0 (harg2.unread x0)
            (arg5.view.writes (Elt F) arg5.view.junk [pZero0]) k ++ [pZero0]))
        = gatherAcc x0 x1 k
  | 0, _ => by
    rw [View.read_writes_junk_eq_canon]
    exact View.canon_unit_zero hz2 _ _
  | k + 1, hk => by
    have hk' : k < k0_t1_loop.trips := hk
    have ih := acc0_eq c i arg1 harg1 arg2 harg2 arg3 harg3 arg4 harg4 arg5 harg5 x0 x1 v0 hv0 k (Nat.le_of_lt hk')
    have hs := pb_k0_t1_succ (F := F) Variants.none c none i arg1 harg1 arg2 harg2 arg3 harg3 arg4 harg4 arg5 harg5 v0 (harg2.unread x0)
      (arg5.view.writes (Elt F) arg5.view.junk [pZero0]) ⟨k, hk'⟩
    dsimp only at hs
    rw [hs, tripL0_eq, List.append_assoc, List.singleton_append, View.read_writes_junk_eq_canon,
      View.canon_cons_unit_zero hz2]
    rw [gatherAcc, dif_pos hk', ← View.writes_append, View.readAt_eq_ld, View.readAt_eq_ld, ih, harg2.read_unread, hv0]

/-- A staging buffer of the output window, through which the block's contents are stated (the choice does not matter). -/
abbrev VO0 : View sig .tc .vmem S1x256x256 .f32 := (Memref.whole cc0_stg2_0 : Memref sig .tc .vmem S1x256x256 .f32).view

/-- What the run leaves in the output block: its pieces read back over junk. -/
def out0 (c : Dev nD) (i : grid0.Coords) (arg1 : Memref sig .tc .smem S32 .i32) (harg1 : arg1.IsWhole)
    (arg2 : Memref sig .tc .vmem S1x256x9216 .f32) (harg2 : arg2.IsWhole) (arg3 : Memref sig .tc .vmem S1x1x256 .i32) (harg3 : arg3.IsWhole)
    (arg4 : Memref sig .tc .vmem S1x256x256 .f32) (harg4 : arg4.IsWhole) (arg5 : Memref sig .tc .vmem S256x256 .f32) (harg5 : arg5.IsWhole)
    (x0 : Vec F S1x256x9216 .f32) (x1 : Vec F S1x1x256 .i32) : Vec F S1x256x256 .f32 :=
  VO0.read (Elt F) (VO0.writes (Elt F) VO0.junk (kernelRun0 c i arg1 harg1 arg2 harg2 arg3 harg3 arg4 harg4 arg5 harg5 x0 x1).1.1)

/-- The run's one store into the output block covers it. -/
theorem cover0 (c : Dev nD) (i : grid0.Coords) (arg1 : Memref sig .tc .smem S32 .i32) (harg1 : arg1.IsWhole)
    (arg2 : Memref sig .tc .vmem S1x256x9216 .f32) (harg2 : arg2.IsWhole) (arg3 : Memref sig .tc .vmem S1x1x256 .i32) (harg3 : arg3.IsWhole)
    (arg4 : Memref sig .tc .vmem S1x256x256 .f32) (harg4 : arg4.IsWhole) (arg5 : Memref sig .tc .vmem S256x256 .f32) (harg5 : arg5.IsWhole)
    (x0 : Vec F S1x256x9216 .f32) (x1 : Vec F S1x1x256 .i32) (y : S1x256x256.Idx) :
    ∃ pc ∈ (kernelRun0 c i arg1 harg1 arg2 harg2 arg3 harg3 arg4 harg4 arg5 harg5 x0 x1).1.1, y ∈ pc.1.set := by
  unfold kernelRun0; dsimp only
  exact ⟨_, List.mem_singleton_self _, View.mem_set_unit_zero hz3 inb_S1x256x256_S1x256x256_0_0_0 y⟩

/-- The block the run leaves is `gatherBlk` of the inputs. -/
theorem out0_eq (c : Dev nD) (i : grid0.Coords) (arg1 : Memref sig .tc .smem S32 .i32) (harg1 : arg1.IsWhole)
    (arg2 : Memref sig .tc .vmem S1x256x9216 .f32) (harg2 : arg2.IsWhole) (arg3 : Memref sig .tc .vmem S1x1x256 .i32) (harg3 : arg3.IsWhole)
    (arg4 : Memref sig .tc .vmem S1x256x256 .f32) (harg4 : arg4.IsWhole) (arg5 : Memref sig .tc .vmem S256x256 .f32) (harg5 : arg5.IsWhole)
    (x0 : Vec F S1x256x9216 .f32) (x1 : Vec F S1x1x256 .i32) :
    out0 c i arg1 harg1 arg2 harg2 arg3 harg3 arg4 harg4 arg5 harg5 x0 x1 = gatherBlk x0 x1 := by
  unfold out0 gatherBlk
  rw [View.read_writes_junk_eq_canon]
  unfold kernelRun0; dsimp only
  sl_unfold_run_names
  refine congrArg (fun w => View.canon [(⟨rOut0, k0_pay3 w⟩ : View.Piece (Elt F) S1x256x256 .f32)]) ?_
  rw [View.readAt_eq_ld]
  exact congrArg (fun A => View.ld A rAcc)
    (acc0_eq c i arg1 harg1 arg2 harg2 arg3 harg3 arg4 harg4 arg5 harg5 x0 x1 _ (congrArg (fun A => View.ld A rIdx) (harg3.read_unread x1)) _ (Nat.le_refl _))

end Cert.Kernel.Hand

end
-- ==== Proof.K.Frame0.lean ====
/- Region 0, the gather kernel's pipeline, at admissible contents `a0` of its prefetched table and at region-entry
   buffer contents `V`: every input window's staging buffer holds its block at every point, the body obligation from
   the body's run, and the output array after the region as one function of the entry contents. -/
import proofs.«419518_j21423296873244_3_alg».proof.Proof.K.Struct0
import proofs.«419518_j21423296873244_3_alg».proof.Proof.K.Dat0
import proofs.«419518_j21423296873244_3_alg».proof.Proof.Gen.Kernel.Launch
import proofs.«419518_j21423296873244_3_alg».proof.Proof.Gen.Kernel.Loops
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the table's admissible contents and the buffer contents the region is entered at
variable (a0 : (pcfg0 (F := F)).Adm)
variable (V : (c : Dev nD) → (b : Ref sig .tc) → Buf (Elt F) ((c : Thread nD τ).loc b))

/-! ## The input windows' buffers -/

/-- An input window's current staging buffer holds its block at every point, fetched there or not (unfetched, the
    block index has not moved), for any proof data whose array is the entry contents and whose body leaves the
    block in place. -/
theorem before0_0_of {c : Dev nD} (dat : Dat τ (Elt F) Unit ℕ (UR sig nD τ) ℕ (cfg0 a0) c) (hA : dat.A 0 = V c (Pipeline.arrRef spec0 0))
    (hafter : ∀ t, dat.after 0 t = iblk0 a0 V c 0 t) (t : Fin (cfg0 a0).N) (d) : dat.before 0 t d = iblk0 a0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a0) c) (hA : dat.A 1 = V c (Pipeline.arrRef spec0 1))
    (hafter : ∀ t, dat.after 1 t = iblk0 a0 V c 1 t) (t : Fin (cfg0 a0).N) (d) : dat.before 1 t d = iblk0 a0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- So for the gather pipeline's proof data. -/
theorem before0_0 (c : Dev nD) (t : Fin (cfg0 a0).N) (d) : (dat0 a0 V c).before 0 t d = iblk0 a0 V c 0 t :=
  before0_0_of a0 V (dat0 a0 V c) (A_eq0 a0 V c 0) (after0_0 a0 V c) t d
theorem before0_1 (c : Dev nD) (t : Fin (cfg0 a0).N) (d) : (dat0 a0 V c).before 1 t d = iblk0 a0 V c 1 t :=
  before0_1_of a0 V (dat0 a0 V c) (A_eq0 a0 V c 1) (after0_1 a0 V c) t d

/-! ## The staging memrefs and the body at a point -/

/-- Each window's current staging memref at point `t`, and that it is a whole buffer. -/
abbrev ms0_0 (t : Fin (cfg0 a0).N) : Memref sig .tc .vmem S1x256x9216 .f32 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S1x1x256 .i32 := spec0_1.stage ((cfg0 a0).slots t 1)
abbrev hs0_1 (t : Fin (cfg0 a0).N) : (ms0_1 a0 t).IsWhole := hstage0_1 (((cfg0 a0).slots t 1).cast nbuf0_1)
abbrev ms0_2 (t : Fin (cfg0 a0).N) : Memref sig .tc .vmem S1x256x256 .f32 := spec0_2.stage ((cfg0 a0).slots t 2)
abbrev hs0_2 (t : Fin (cfg0 a0).N) : (ms0_2 a0 t).IsWhole := hstage0_2 (((cfg0 a0).slots t 2).cast nbuf0_2)
/-- The table as the body is handed it, and the accumulator scratch. -/
abbrev tbM0 : Memref sig .tc .smem S32 .i32 := Memref.whole main_v8
abbrev scM0 : Memref sig .tc .vmem S256x256 .f32 := Memref.whole cc0_scratch0

/-- The kernel body at point `t`, on what the pipeline calls it with. -/
abbrev bodyAt0 (t : Fin (cfg0 a0).N) : Prog (TpuEff nD τ sig (Elt F) Λ₀ .tc) PUnit :=
  cc0__gather_kernel (grid0.coords t) (Memref.whole main_v8) (Memref.isWhole_whole _) (spec0_0.stage ((cfg0 a0).slots t 0)) (hstage0_0 (((cfg0 a0).slots t 0).cast nbuf0_0)) (spec0_1.stage ((cfg0 a0).slots t 1)) (hstage0_1 (((cfg0 a0).slots t 1).cast nbuf0_1)) (spec0_2.stage ((cfg0 a0).slots t 2)) (hstage0_2 (((cfg0 a0).slots t 2).cast nbuf0_2)) (Memref.whole cc0_scratch0) (Memref.isWhole_whole _)

/-! ## The invariant -/

/-- The scoped buffers the body is not handed (the other kernel's staging buffers and scratch), each whole at some
    contents: they ride along untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f))

/-- The class invariant with the accumulator scratch as a memref owned at some contents, beside the buffers that ride
    along and the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-! ## The body obligation, at a generic point -/

/-- What the body is called with at point `t`, the windows one by one, -/
def bodyPre0 (c : Dev nD) (t : Fin (cfg0 a0).N) : sProp 𝕄 :=
  iprop((dat0 a0 V c).Φ t.castSucc ∗ (dat0 a0 V c).owesAt () t.castSucc
    ∗ (∃ d, owns (c : Thread nD τ) (ms0_0 a0 t) fullShare ((dat0 a0 V c).before 0 t d))
    ∗ (∃ d, owns (c : Thread nD τ) (ms0_1 a0 t) fullShare ((dat0 a0 V c).before 1 t d))
    ∗ (∃ d, owns (c : Thread nD τ) (ms0_2 a0 t) fullShare ((dat0 a0 V c).before 2 t d)))

/-- and what it returns. -/
def bodyPost0 (c : Dev nD) (t : Fin (cfg0 a0).N) : sProp 𝕄 :=
  iprop((dat0 a0 V c).Φ t.succ ∗ (dat0 a0 V c).owesAt () t.succ
    ∗ owns (c : Thread nD τ) (ms0_0 a0 t) fullShare ((dat0 a0 V c).after 0 t)
    ∗ owns (c : Thread nD τ) (ms0_1 a0 t) fullShare ((dat0 a0 V c).after 1 t)
    ∗ owns (c : Thread nD τ) (ms0_2 a0 t) fullShare ((dat0 a0 V c).after 2 t))

set_option maxHeartbeats 400000 in
/-- The body at any point: the input windows' memrefs hold their blocks, so the run applies; the table, the buffers
    that ride along, the generator register and the core's dues pass through unread; the scratch is handed over at
    some contents and taken back at some contents; the output block the run leaves is the gather of the input blocks. -/
theorem sound_body0 (c : Dev nD) (t : Fin (cfg0 a0).N) :
    bodyPre0 a0 V c t ⊢ wp frame (wpE (defs₀ (F := F)) Variants.none c none) Set.univ (bodyAt0 a0 t) (fun _ => bodyPost0 a0 V c t) := by
  unfold bodyPre0 bodyPost0 bodyAt0
  simp only [before0_0, before0_1]
  rw [show (dat0 a0 V c).Φ t.succ = (dat0 a0 V c).Φ t.castSucc from rfl,
    show (dat0 a0 V c).owesAt () t.succ = (dat0 a0 V c).owesAt () t.castSucc from rfl,
    after0_0, after0_1, after0_2]
  rw [show (dat0 a0 V c).Φ t.castSucc = iprop(Pipeline.ΦA spec0 c ∗ Pipeline.prefHeld pre0 c (fun _ => fullShare) a0.1) from rfl, PhiA0_eq]
  iintro ⟨⟨⟨⟨HS, HR⟩, Hg⟩, HT⟩, Ho, ⟨%d0, H0⟩, ⟨%d1, H1⟩, ⟨%d2, H2⟩⟩
  iapply ((kernelRun0 c (grid0.coords t) _ _ _ _ _ _ _ _ _ _ (iblk0 a0 V c 0 t) (iblk0 a0 V c 1 t)).2 Set.univ _)
  isplitl [H0]; · iexact H0
  isplitl [H1]; · iexact H1
  isplitl [H2]; · iexists _; iexact H2
  isplitl [HS]; · iexact HS
  iintro ⟨H0, H1, ⟨%e2, H2⟩, ⟨%e5, HS⟩⟩
  isplitl [HS HR Hg HT]
  · isplitl [HS HR Hg]
    · isplitl [HS HR]
      · isplitl [HS]
        · unfold owns; iexists _; iexists _; isplitr
          swap; · iexact HS
          ipureintro; rfl
        iexact HR
      iexact Hg
    iexact HT
  isplitl [Ho]; · iexact Ho
  isplitl [H0]; · iexact H0
  isplitl [H1]; · iexact H1
  unfold owns; iexists _; isplitr
  swap; · iexact H2
  ipureintro
  refine Eq.trans ?_ (out0_eq c (grid0.coords t) tbM0 (Memref.isWhole_whole _) (ms0_0 a0 t) (hs0_0 a0 t) (ms0_1 a0 t) (hs0_1 a0 t) (ms0_2 a0 t) (hs0_2 a0 t) scM0 (Memref.isWhole_whole _) (iblk0 a0 V c 0 t) (iblk0 a0 V c 1 t))
  unfold out0
  exact View.read_writes_of_cover _ _ _ _ _ (cover0 c _ _ _ _ _ _ _ _ _ _ _ _ _)

/-- The body obligation, at every point. -/
theorem body_obligation0 (c : Dev nD) : BodyObligation (dat0 (F := F) a0 V c) (defs₀ (F := F)) Variants.none () Set.univ := fun t => by
  rw [bigSep_W0, bigSep_W0]
  exact sound_body0 a0 V c t

/-! ## The blocks as the entry arrays, and the output array after the region -/

open Idealize.ShloMosaic.ValueIdx

/-- The grid has 32 points, at any contents of the table. -/
theorem N_cfg0 : (cfg0 a0).N = 32 := N_0

/-- Grid point `k`. -/
abbrev pt0 (k : Fin 32) : Fin (cfg0 a0).N := ⟨k.val, by rw [N_cfg0]; exact k.isLt⟩

/-- The table's word for row `k`, as a number: which image the row's block is cut from. -/
def tblAt (k : Fin 32) : ℕ := ((a0.1 0 : S32.Idx → Elt F .i32) (ix1 k)).toNat

/-- The index maps that read no table, decided over the 32 points: the grid's one coordinate is the point's number, which
    is the offset of the table's word the image window's map loads and the block index of the other two windows. -/
theorem idx_facts0 : ∀ t : Fin grid0.N, k0_off1 (grid0.coords t) (0 : Fin 1) = t.val
    ∧ cc0_transform_1 (grid0.coords t) = ![t.val, 0, 0] ∧ cc0_transform_2 (grid0.coords t) = ![t.val, 0, 0] := by
  decide +kernel

/-- The index maps at a point, the table's contents a variable: the image window is at the block the table's word names,
    the index row and the output block at the point's own. -/
theorem index0_1 (t : Fin (cfg0 a0).N) : ((cfg0 a0).win 1).index t = ![t.val, 0, 0] := (idx_facts0 t).2.1
theorem index0_2 (t : Fin (cfg0 a0).N) : ((cfg0 a0).win 2).index t = ![t.val, 0, 0] := (idx_facts0 t).2.2
set_option maxHeartbeats 400000 in
theorem index0_0 (t : Fin (cfg0 a0).N) : ((cfg0 a0).win 0).index t = ![tblAt a0 ⟨t.val, by rw [← N_cfg0 a0]; exact t.isLt⟩, 0, 0] := by
  show cc0_transform_0 k0_off1_inb numel1_S1 a0.1 (grid0.coords t) = _
  funext a
  match a with
  | ⟨0, _⟩ =>
    show ((a0.1 0 : S32.Idx → Elt F .i32) ((Rect.unit (s := S32) (k0_off1 (grid0.coords t)) S1.size (k0_off1_inb (grid0.coords t))).emb (Shape.Idx.first (numel1_S1.symm ▸ Nat.one_pos)))).toNat = tblAt a0 _
    unfold tblAt
    refine congrArg (fun x : S32.Idx => ((a0.1 0 : S32.Idx → Elt F .i32) x).toNat) ?_
    funext b
    apply Fin.ext
    match b with
    | ⟨0, _⟩ =>
      show k0_off1 (grid0.coords t) (0 : Fin 1) + 1 * 0 = t.val
      rw [(idx_facts0 t).1]; omega
  | ⟨1, _⟩ => rfl
  | ⟨2, _⟩ => rfl

/-- The table's word is an image number: the side condition on the table's contents says the block is inside the array. -/
theorem tblAt_lt (k : Fin 32) : tblAt a0 k < 8 := by
  obtain ⟨h, -⟩ := a0.2 (grid0.coords (pt0 a0 k))
  have h0 : (cc0_transform_0 k0_off1_inb numel1_S1 a0.1 (grid0.coords (pt0 a0 k)) (0 : Fin 3) + 1) * 1 ≤ 8 := h (0 : Fin 3)
  have e : cc0_transform_0 k0_off1_inb numel1_S1 a0.1 (grid0.coords (pt0 a0 k)) (0 : Fin 3) = tblAt a0 k :=
    congrFun (index0_0 a0 (pt0 a0 k)) (0 : Fin 3)
  omega

/-- The image the table names for row `k`. -/
abbrev src0 (k : Fin 32) : Fin 8 := ⟨tblAt a0 k, tblAt_lt a0 k⟩

/-- The image window's block at point `k` is image `src0 k` of the entry array: a block's coordinate is the block index
    times the block's extent plus the coordinate inside the block. -/
theorem iblk0_0_apply (c : Dev nD) (k : Fin 32) (r : Fin 256) (q : Fin 9216) :
    (iblk0 a0 V c 0 (pt0 a0 k) : S1x256x9216.Idx → Elt F .f32) (ix3 (0 : Fin 1) r q)
      = (V c main_v0 : S8x256x9216.Idx → Elt F .f32) (ix3 (src0 a0 k) r q) := by
  unfold iblk0
  show (V c main_v0 : S8x256x9216.Idx → Elt F .f32) ((((cfg0 a0).win 0).blk (pt0 a0 k)).view.emb (ix3 (0 : Fin 1) r q)) = _
  refine congrArg (V c main_v0 : S8x256x9216.Idx → Elt F .f32) ?_
  have e0 : ((cfg0 a0).win 0).index (pt0 a0 k) (0 : Fin 3) = tblAt a0 k := congrFun (index0_0 a0 (pt0 a0 k)) (0 : Fin 3)
  have e1 : ((cfg0 a0).win 0).index (pt0 a0 k) (1 : Fin 3) = 0 := congrFun (index0_0 a0 (pt0 a0 k)) (1 : Fin 3)
  have e2 : ((cfg0 a0).win 0).index (pt0 a0 k) (2 : Fin 3) = 0 := congrFun (index0_0 a0 (pt0 a0 k)) (2 : Fin 3)
  funext a
  apply Fin.ext
  match a with
  | ⟨0, _⟩ => show ((cfg0 a0).win 0).index (pt0 a0 k) (0 : Fin 3) * 1 + 1 * 0 = tblAt a0 k; omega
  | ⟨1, _⟩ => show ((cfg0 a0).win 0).index (pt0 a0 k) (1 : Fin 3) * 256 + 1 * r.val = r.val; omega
  | ⟨2, _⟩ => show ((cfg0 a0).win 0).index (pt0 a0 k) (2 : Fin 3) * 9216 + 1 * q.val = q.val; omega

/-- The index window's block at point `k` is row `k` of the entry array. -/
theorem iblk0_1_apply (c : Dev nD) (k : Fin 32) (q : Fin 256) :
    (iblk0 a0 V c 1 (pt0 a0 k) : S1x1x256.Idx → Elt F .i32) (ix3 (0 : Fin 1) (0 : Fin 1) q)
      = (V c main_v24 : S32x1x256.Idx → Elt F .i32) (ix3 k (0 : Fin 1) q) := by
  unfold iblk0
  show (V c main_v24 : S32x1x256.Idx → Elt F .i32) ((((cfg0 a0).win 1).blk (pt0 a0 k)).view.emb (ix3 (0 : Fin 1) (0 : Fin 1) q)) = _
  refine congrArg (V c main_v24 : S32x1x256.Idx → Elt F .i32) ?_
  have e0 : ((cfg0 a0).win 1).index (pt0 a0 k) (0 : Fin 3) = k.val := congrFun (index0_1 a0 (pt0 a0 k)) (0 : Fin 3)
  have e1 : ((cfg0 a0).win 1).index (pt0 a0 k) (1 : Fin 3) = 0 := congrFun (index0_1 a0 (pt0 a0 k)) (1 : Fin 3)
  have e2 : ((cfg0 a0).win 1).index (pt0 a0 k) (2 : Fin 3) = 0 := congrFun (index0_1 a0 (pt0 a0 k)) (2 : Fin 3)
  funext a
  apply Fin.ext
  match a with
  | ⟨0, _⟩ => show ((cfg0 a0).win 1).index (pt0 a0 k) (0 : Fin 3) * 1 + 1 * 0 = k.val; omega
  | ⟨1, _⟩ => show ((cfg0 a0).win 1).index (pt0 a0 k) (1 : Fin 3) * 1 + 1 * 0 = 0; omega
  | ⟨2, _⟩ => show ((cfg0 a0).win 1).index (pt0 a0 k) (2 : Fin 3) * 256 + 1 * q.val = q.val; omega

/-- What the region leaves in the output array, index by index: row `j 0` is the gather of the blocks at point `j 0`. -/
def gathered0 (c : Dev nD) : S32x256x256.Idx → Elt F .f32 := fun j =>
  gatherBlk (iblk0 a0 V c 0 (pt0 a0 (j 0))) (iblk0 a0 V c 1 (pt0 a0 (j 0))) (ix3 (0 : Fin 1) (j 1) (j 2))

-- the gather of two blocks enters only through its arguments and its index
attribute [local irreducible] gatherBlk

/-- At an index whose row is point `t`'s, read at the coordinates inside the block. -/
theorem gathered0_of (c : Dev nD) (t : Fin (cfg0 a0).N) (j : S32x256x256.Idx) (y : S1x256x256.Idx)
    (h0 : (j 0).val = t.val) (h1 : (j 1).val = (y 1).val) (h2 : (j 2).val = (y 2).val) :
    gathered0 a0 V c j = gatherBlk (iblk0 a0 V c 0 t) (iblk0 a0 V c 1 t) y := by
  have e : pt0 a0 (j 0) = t := Fin.ext h0
  unfold gathered0
  show gatherBlk (iblk0 a0 V c 0 (pt0 a0 (j 0))) (iblk0 a0 V c 1 (pt0 a0 (j 0))) (ix3 (0 : Fin 1) (j 1) (j 2)) = _
  rw [e]
  refine congrArg (gatherBlk (iblk0 a0 V c 0 t) (iblk0 a0 V c 1 t)) ?_
  funext a
  match a with
  | ⟨0, _⟩ => exact Fin.ext (by show 0 = (y 0).val; have hy : (y 0).val < 1 := (y 0).isLt; omega)
  | ⟨1, _⟩ => exact Fin.ext h1
  | ⟨2, _⟩ => exact Fin.ext h2

/-- WHAT POINT `t` WRITES BACK is block `t` of that function. -/
theorem flushed0_eq (c : Dev nD) (t : Fin (cfg0 a0).N) :
    (dat0 a0 V c).flushed 2 t = (((cfg0 a0).win 2).blk t).view.read (Elt F) (gathered0 a0 V c) := by
  show ((cfg0 a0).win 2).cut ((cfg0 a0).grid.coords t) ((dat0 a0 V c).after 2 t) = _
  rw [after0_2]
  have e0 : ((cfg0 a0).win 2).index t (0 : Fin 3) = t.val := congrFun (index0_2 a0 t) (0 : Fin 3)
  have e1 : ((cfg0 a0).win 2).index t (1 : Fin 3) = 0 := congrFun (index0_2 a0 t) (1 : Fin 3)
  have e2 : ((cfg0 a0).win 2).index t (2 : Fin 3) = 0 := congrFun (index0_2 a0 t) (2 : Fin 3)
  funext y
  have h0 : ((((cfg0 a0).win 2).blk t).view.emb y (0 : Fin 3)).val = t.val := by
    show ((cfg0 a0).win 2).index t (0 : Fin 3) * 1 + 1 * (y (0 : Fin 3)).val = t.val
    have hy : (y (0 : Fin 3)).val < 1 := (y (0 : Fin 3)).isLt
    omega
  have h1 : ((((cfg0 a0).win 2).blk t).view.emb y (1 : Fin 3)).val = (y (1 : Fin 3)).val := by
    show ((cfg0 a0).win 2).index t (1 : Fin 3) * 256 + 1 * (y (1 : Fin 3)).val = (y (1 : Fin 3)).val
    omega
  have h2 : ((((cfg0 a0).win 2).blk t).view.emb y (2 : Fin 3)).val = (y (2 : Fin 3)).val := by
    show ((cfg0 a0).win 2).index t (2 : Fin 3) * 256 + 1 * (y (2 : Fin 3)).val = (y (2 : Fin 3)).val
    omega
  exact (gathered0_of a0 V c t ((((cfg0 a0).win 2).blk t).view.emb y) (((cfg0 a0).win 2).xinj ((cfg0 a0).grid.coords t) y) h0 h1 h2).symm

/-- An index of the array is in point `t`'s block iff each coordinate is in the block's range on its axis. -/
theorem mem_blk0 (t : Fin (cfg0 a0).N) (i : S32x256x256.Idx) :
    i ∈ (((cfg0 a0).win 2).blk t).view.set ↔ ∀ a : Fin 3, ((cfg0 a0).win 2).index t a * S1x256x256.size a ≤ (i a).val ∧ (i a).val < ((cfg0 a0).win 2).index t a * S1x256x256.size a + S1x256x256.size a :=
  (iff_of_eq (congrArg (fun S : Finset S32x256x256.Idx => i ∈ S) (View.set_slice_whole main_v25 (((cfg0 a0).win 2).rect t)))).trans Rect.mem_set_unit

/-- The output block is written back at every point: its block index moves with the point. -/
theorem flush0_2 (t : Fin (cfg0 a0).N) : ((cfg0 a0).win 2).flush t = true := by
  unfold Pipeline.Window.flush
  rw [show ((cfg0 a0).win 2).isOut = true from rfl, Bool.true_and, Bool.or_eq_true, decide_eq_true_eq, decide_eq_true_eq]
  by_cases h : t.val + 1 = (cfg0 a0).grid.N
  · exact .inl h
  · have hN : (cfg0 a0).N = (cfg0 a0).grid.N := rfl
    have ht : t.val + 1 < (cfg0 a0).grid.N := by have := t.isLt; omega
    refine .inr ⟨ht, fun e => ?_⟩
    have e' := congrFun e (0 : Fin 3)
    rw [index0_2, index0_2] at e'
    have e'' : t.val + 1 = t.val := e'
    omega

/-- Every index of the output array is in the block of the point of its row. -/
theorem cover_out0 (i : S32x256x256.Idx) :
    ∃ t : Fin (cfg0 a0).N, ((cfg0 a0).win 2).flush t = true ∧ i ∈ (((cfg0 a0).win 2).blk t).view.set := by
  refine ⟨pt0 a0 (i 0), flush0_2 a0 _, ?_⟩
  rw [mem_blk0]
  have e0 : ((cfg0 a0).win 2).index (pt0 a0 (i 0)) (0 : Fin 3) = (i 0).val := congrFun (index0_2 a0 (pt0 a0 (i 0))) (0 : Fin 3)
  have e1 : ((cfg0 a0).win 2).index (pt0 a0 (i 0)) (1 : Fin 3) = 0 := congrFun (index0_2 a0 (pt0 a0 (i 0))) (1 : Fin 3)
  have e2 : ((cfg0 a0).win 2).index (pt0 a0 (i 0)) (2 : Fin 3) = 0 := congrFun (index0_2 a0 (pt0 a0 (i 0))) (2 : Fin 3)
  have h1 : (i 1).val < 256 := (i 1).isLt
  have h2 : (i 2).val < 256 := (i 2).isLt
  intro a
  match a with
  | ⟨0, _⟩ => show ((cfg0 a0).win 2).index (pt0 a0 (i 0)) (0 : Fin 3) * 1 ≤ (i 0).val ∧ (i 0).val < ((cfg0 a0).win 2).index (pt0 a0 (i 0)) (0 : Fin 3) * 1 + 1; omega
  | ⟨1, _⟩ => show ((cfg0 a0).win 2).index (pt0 a0 (i 0)) (1 : Fin 3) * 256 ≤ (i 1).val ∧ (i 1).val < ((cfg0 a0).win 2).index (pt0 a0 (i 0)) (1 : Fin 3) * 256 + 256; omega
  | ⟨2, _⟩ => show ((cfg0 a0).win 2).index (pt0 a0 (i 0)) (2 : Fin 3) * 256 ≤ (i 2).val ∧ (i 2).val < ((cfg0 a0).win 2).index (pt0 a0 (i 0)) (2 : Fin 3) * 256 + 256; omega

/-- THE OUTPUT ARRAY after the region: every point writes back its block of the function, and the blocks cover the array. -/
theorem final0 (c : Dev nD) : (dat0 a0 V c).arrAt 2 (cfg0 a0).N = gathered0 a0 V c :=
  (dat0 a0 V c).arrAt_eq_of_cover 2 (gathered0 a0 V c) (fun t _ => flushed0_eq a0 V c t) (cover_out0 a0)

end Cert.Kernel.Hand

end
-- ==== Proof.K.Run1.lean ====
/- The loss kernel's body run once on whole staging memrefs: the query rows, their labels, the feature matrix and the
   label row at their contents; the output lane block and the four column scratches at anything; the two wide scratches
   (the cached scaled products and the cached exponentials) at contents `d6`, `d7` that the pieces found may mention,
   because the three loops fill them one column tile at a time. The loops are passed by their invariants. -/
import proofs.«419518_j21423296873244_3_alg».proof.Proof.Gen.Kernel.Loops
import proofs.«419518_j21423296873244_3_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body of the loss kernel at grid coordinates `i`: it runs to the continuation with its four inputs unchanged,
    the output block holding the pieces `L.1` and each scratch the pieces listed for it. -/
noncomputable def kernelRun1 (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole)
    (x0 : Vec F S256x256 .f32) (x1 : Vec F S256x1 .i32) (x2 : Vec F S8192x256 .f32) (x3 : Vec F S1x8192 .i32)
    (d6 : Vec F S256x8192 .f32) (d7 : Vec F S256x8192 .f32) :
    { L : List (View.Piece (Elt F) S1x128 .f32) × List (View.Piece (Elt F) S256x8192 .f32) × List (View.Piece (Elt F) S256x8192 .f32)
          × List (View.Piece (Elt F) S256x1 .f32) × List (View.Piece (Elt F) S256x1 .f32) × List (View.Piece (Elt F) S256x1 .f32) × List (View.Piece (Elt F) S256x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ owns (c : Thread nD τ) arg6 fullShare d6
            ∗ owns (c : Thread nD τ) arg7 fullShare d7 ∗ (∃ d, owns (c : Thread nD τ) arg8 fullShare d)
            ∗ (∃ d, owns (c : Thread nD τ) arg9 fullShare d) ∗ (∃ d, owns (c : Thread nD τ) arg10 fullShare d)
            ∗ (∃ d, owns (c : Thread nD τ) arg11 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2.1)
                ∗ (∃ f, arg8.view.loc (c : Thread nD τ) ↦[arg8.view.set]{fullShare} arg8.view.writes (Elt F) f L.2.2.2.1)
                ∗ (∃ f, arg9.view.loc (c : Thread nD τ) ↦[arg9.view.set]{fullShare} arg9.view.writes (Elt F) f L.2.2.2.2.1)
                ∗ (∃ f, arg10.view.loc (c : Thread nD τ) ↦[arg10.view.set]{fullShare} arg10.view.writes (Elt F) f L.2.2.2.2.2.1)
                ∗ (∃ f, arg11.view.loc (c : Thread nD τ) ↦[arg11.view.set]{fullShare} arg11.view.writes (Elt F) f L.2.2.2.2.2.2)) -∗ K ⟨⟩))
          ⊢ wp frame (wpE (defs₀ (F := F)) Variants.none c none) E (cc1__loss_kernel i arg1 harg1 arg2 harg2 arg3 harg3 arg4 harg4 arg5 harg5 arg6 harg6 arg7 harg7 arg8 harg8 arg9 harg9 arg10 harg10 arg11 harg11) K } := by
  refine ⟨(?_, ?_, ?_, ?_, ?_, ?_, ?_), fun E K => ?run⟩
  case run =>
    simp only [cc1__loss_kernel_eq_skeleton]; unfold cc1__loss_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf1
    obtain rfl := harg2.eq_unread hf2
    obtain rfl := harg3.eq_unread hf3
    obtain rfl := harg4.eq_unread hf4
    obtain rfl := harg6.eq_unread hf6
    obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    iexists _; iexact H11

end Cert.Kernel.Hand

end
-- ==== Proof.K.Struct1.lean ====
/- The loss kernel's run, read back: the lane block the body leaves is the explicit function `lossBlk` of the query
   rows, their labels, the feature matrix and the label row — whatever the two wide scratches held before: the first
   loop fills the product cache tile by tile, the second the exponential cache, and the third reads both back tile by
   tile, so every word read was written in the same run. -/
import proofs.«419518_j21423296873244_3_alg».proof.Proof.K.Run1
import proofs.«419518_j21423296873244_3_alg».proof.Proof.K.Blocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

/-- A staging buffer of the output window, through which the block's contents are stated (the choice does not matter). -/
abbrev VO1 : View sig .tc .vmem S1x128 .f32 := (Memref.whole cc1_stg4_0 : Memref sig .tc .vmem S1x128 .f32).view

/-- What the run leaves in the output lane block: its pieces read back over junk. -/
def out1 (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole)
    (x0 : Vec F S256x256 .f32) (x1 : Vec F S256x1 .i32) (x2 : Vec F S8192x256 .f32) (x3 : Vec F S1x8192 .i32)
    (d6 : Vec F S256x8192 .f32) (d7 : Vec F S256x8192 .f32) : Vec F S1x128 .f32 :=
  VO1.read (Elt F) (VO1.writes (Elt F) VO1.junk (kernelRun1 c i arg1 harg1 arg2 harg2 arg3 harg3 arg4 harg4 arg5 harg5 arg6 harg6 arg7 harg7 arg8 harg8 arg9 harg9 arg10 harg10 arg11 harg11 x0 x1 x2 x3 d6 d7).1.1)

namespace Struct1

/-! ## Loads of written contents -/

section ViewLemmas
variable {sig' : RefSig} {κ : Kind} {sp : Space} {s : Shape} {e : EltTy} {Val : EltTy → Type}

theorem zeros2 : (![0, 0] : Fin 2 → ℕ) = fun _ => 0 := by funext a; fin_cases a <;> rfl

/-- A load through the last store's own rectangle reads that store's payload, whatever was stored before. -/
theorem readAt_writes_cons_unit (v : View sig' κ sp s e) (f : v.ty.Contents Val) {off off' size : Fin s.rank → ℕ}
    (inb : ∀ a, off a + size a ≤ s.size a) (inb' : ∀ a, off' a + size a ≤ s.size a) (h : off = off')
    (w : (Rect.unit off size inb).shape.Idx → Val e) (L : List (View.Piece Val s e)) :
    v.readAt Val (Rect.unit off' size inb').toLoadRect (v.writes Val f (⟨Rect.unit off size inb, w⟩ :: L)) = w := by
  subst h; funext j; exact View.read_writes_cons_emb v f _ w L j

/-- A load through a box the last store's rectangle misses reads what the earlier stores left. -/
theorem readAt_writes_cons_of_disjoint (v : View sig' κ sp s e) (f : v.ty.Contents Val) (p : View.Piece Val s e)
    (L : List (View.Piece Val s e)) (B : LoadRect s) (h : Disjoint p.1.set B.set) :
    v.readAt Val B (v.writes Val f (p :: L)) = v.readAt Val B (v.writes Val f L) := by
  funext j
  rw [View.readAt_apply, View.readAt_apply, View.writes_cons,
    View.read_slice_write_of_not_mem p.1 _ _ _ (by rw [Rect.map_emb_univ]; exact Finset.disjoint_right.mp h (B.idx_mem j))]

/-- After a last store through the whole shape the buffer reads that store's payload. -/
theorem read_writes_cons_whole (v : View sig' κ sp s e) (f : v.ty.Contents Val) {off : Fin s.rank → ℕ} (h : off = fun _ => 0)
    (inb : ∀ a, off a + s.size a ≤ s.size a) (w : s.Idx → Val e) (L : List (View.Piece Val s e)) :
    v.read Val (v.writes Val f (⟨Rect.unit off s.size inb, w⟩ :: L)) = w := by
  subst h; funext y
  have e := View.read_writes_cons_emb v f (Rect.whole s) w L y
  rw [Rect.emb_whole_apply] at e
  exact e

end ViewLemmas

/-! ## One trip of each loop, explicitly -/

theorem trip1_eq (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (v0 : Vec F S256x256 .f32) (X3 : BufTy.Contents (Elt F) arg3.view.ty) (k : Fin k1_t1_loop.trips)
    (f6 : BufTy.Contents (Elt F) arg6.view.ty) (f8 : BufTy.Contents (Elt F) arg8.view.ty) :
    tripL_k1_t1 (F := F) Variants.none c none i arg1 harg1 arg2 harg2 arg3 harg3 arg4 harg4 arg5 harg5 arg6 harg6 arg7 harg7 arg8 harg8 arg9 harg9 arg10 harg10 arg11 harg11 v0 X3 k f6 f8
      = ([⟨Rect.unit (s := S256x8192) (k1_off2 k) S256x1024.size (k1_off2_inb k), k1_pay11 v0 (View.readAt (Elt F) arg3.view (rFeat k).toLoadRect X3)⟩],
         [⟨rCol, k1_pay12 v0 (View.readAt (Elt F) arg3.view (rFeat k).toLoadRect X3) (View.readAt (Elt F) arg8.view rCol.toLoadRect f8)⟩]) := by
  unfold tripL_k1_t1 trip_k1_t1; rfl

theorem trip2_eq (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (v3 : Vec F S256x1 .i32) (v14 : Vec F S256x1 .f32) (X4 : BufTy.Contents (Elt F) arg4.view.ty)
    (X6 : BufTy.Contents (Elt F) arg6.view.ty) (k : Fin k1_t2_loop.trips)
    (f7 : BufTy.Contents (Elt F) arg7.view.ty) (f9 : BufTy.Contents (Elt F) arg9.view.ty) :
    tripL_k1_t2 (F := F) Variants.none c none i arg1 harg1 arg2 harg2 arg3 harg3 arg4 harg4 arg5 harg5 arg6 harg6 arg7 harg7 arg8 harg8 arg9 harg9 arg10 harg10 arg11 harg11 v3 v14 X4 X6 k f7 f9
      = ([⟨Rect.unit (s := S256x8192) (k1_off3 k) S256x1024.size (k1_off3_inb k),
            k1_pay15 v14 (View.readAt (Elt F) arg6.view (Rect.unit (s := S256x8192) (k1_off3 k) S256x1024.size (k1_off3_inb k)).toLoadRect X6)⟩],
         [⟨rCol, k1_pay16 v3 v14 (View.readAt (Elt F) arg6.view (Rect.unit (s := S256x8192) (k1_off3 k) S256x1024.size (k1_off3_inb k)).toLoadRect X6)
            (View.readAt (Elt F) arg4.view (rLab2 k).toLoadRect X4) (View.readAt (Elt F) arg9.view rCol.toLoadRect f9)⟩]) := by
  unfold tripL_k1_t2 trip_k1_t2; rfl

theorem trip3_eq (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (v4 : IVec S256x1 32) (v8 : IVec S256x1 32) (v14 : Vec F S256x1 .f32) (v20 : Vec F S256x1 .f32)
    (X4 : BufTy.Contents (Elt F) arg4.view.ty) (X6 : BufTy.Contents (Elt F) arg6.view.ty) (X7 : BufTy.Contents (Elt F) arg7.view.ty)
    (k : Fin k1_t3_loop.trips) (f10 : BufTy.Contents (Elt F) arg10.view.ty) (f11 : BufTy.Contents (Elt F) arg11.view.ty) :
    tripL_k1_t3 (F := F) Variants.none c none i arg1 harg1 arg2 harg2 arg3 harg3 arg4 harg4 arg5 harg5 arg6 harg6 arg7 harg7 arg8 harg8 arg9 harg9 arg10 harg10 arg11 harg11 v4 v8 v14 v20 X4 X6 X7 k f10 f11
      = ([⟨rCol, k1_pay5 v4 v8 v14 v20 0#32 1#32 k
            (View.readAt (Elt F) arg6.view (Rect.unit (s := S256x8192) (k1_off5 k) S256x1024.size (k1_off5_inb k)).toLoadRect X6)
            (View.readAt (Elt F) arg7.view (Rect.unit (s := S256x8192) (k1_off5 k) S256x1024.size (k1_off5_inb k)).toLoadRect X7)
            (View.readAt (Elt F) arg4.view (rLab3 k).toLoadRect X4) (View.readAt (Elt F) arg10.view rCol.toLoadRect f10)⟩],
         [⟨rCol, k1_pay2 (View.readAt (Elt F) arg11.view rCol.toLoadRect f11)
            (k1_pay6 (F := F) v4 v8 0#32 1#32 k (View.readAt (Elt F) arg4.view (rLab3 k).toLoadRect X4))⟩]) := by
  unfold tripL_k1_t3 trip_k1_t3; dsimp only; sl_unfold_run_names; rfl

/-! ## The first loop: the product cache and the running maximum -/

set_option maxHeartbeats 400000 in
theorem inv1 (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (x0 : Vec F S256x256 .f32) (x2 : Vec F S8192x256 .f32)
    (v0 : Vec F S256x256 .f32) (X3 : BufTy.Contents (Elt F) arg3.view.ty)
    (G6 : BufTy.Contents (Elt F) arg6.view.ty) (G8 : BufTy.Contents (Elt F) arg8.view.ty)
    (hv0 : v0 = View.ld x0 rQ) (hX3 : arg3.view.read (Elt F) X3 = x2) (hG8 : arg8.view.read (Elt F) G8 = k1_pay9) :
    ∀ k, k ≤ k1_t1_loop.trips →
      arg8.view.read (Elt F) (arg8.view.writes (Elt F) G8 (pb_k1_t1 (F := F) Variants.none c none i arg1 harg1 arg2 harg2 arg3 harg3 arg4 harg4 arg5 harg5 arg6 harg6 arg7 harg7 arg8 harg8 arg9 harg9 arg10 harg10 arg11 harg11 v0 X3 G6 G8 k).2) = lossMax x0 x2 k
      ∧ ∀ (j : Fin k1_t1_loop.trips), j.val < k → ∀ (off : Fin 2 → ℕ) (inb : ∀ a, off a + S256x1024.size a ≤ S256x8192.size a), off = ![0, 1024 * j.val] →
          View.readAt (Elt F) arg6.view (Rect.unit (s := S256x8192) off S256x1024.size inb).toLoadRect
            (arg6.view.writes (Elt F) G6 (pb_k1_t1 (F := F) Variants.none c none i arg1 harg1 arg2 harg2 arg3 harg3 arg4 harg4 arg5 harg5 arg6 harg6 arg7 harg7 arg8 harg8 arg9 harg9 arg10 harg10 arg11 harg11 v0 X3 G6 G8 k).1) = lossDot x0 x2 j := by
  intro k
  induction k with
  | zero =>
    intro _
    refine ⟨?_, fun j hj => absurd hj (Nat.not_lt_zero _)⟩
    rw [pb_k1_t1.eq_1]; exact hG8
  | succ k ih =>
    intro hk
    have hk' : k < k1_t1_loop.trips := hk
    obtain ⟨ih8, ih6⟩ := ih (Nat.le_of_lt hk')
    have hs := pb_k1_t1_succ (F := F) Variants.none c none i arg1 harg1 arg2 harg2 arg3 harg3 arg4 harg4 arg5 harg5 arg6 harg6 arg7 harg7 arg8 harg8 arg9 harg9 arg10 harg10 arg11 harg11 v0 X3 G6 G8 ⟨k, hk'⟩
    rw [trip1_eq] at hs
    dsimp only at hs
    rw [hs]
    dsimp only [List.singleton_append]
    refine ⟨?_, fun j hj off inb hoff => ?_⟩
    · rw [read_writes_cons_whole _ _ zeros2, View.readAt_eq_ld, View.readAt_eq_ld, hX3, ih8, hv0, lossMax, dif_pos hk']
    · rcases Nat.lt_succ_iff_lt_or_eq.mp hj with hlt | heq
      · rw [readAt_writes_cons_of_disjoint]
        · exact ih6 j hlt off inb hoff
        · refine Rect.unit_disjoint (inb := k1_off2_inb ⟨k, hk'⟩) (inb' := inb) 1 (Or.inr ?_)
          rw [hoff, k1_off2_eq]
          show 1024 * j.val + 1024 ≤ 1024 * k
          omega
      · obtain rfl : j = ⟨k, hk'⟩ := Fin.ext heq
        rw [readAt_writes_cons_unit _ _ _ _ ((k1_off2_eq _).trans hoff.symm), View.readAt_eq_ld, hX3, hv0]
        rfl

/-! ## The second loop: the exponential cache and the negatives' sum -/

set_option maxHeartbeats 400000 in
theorem inv2 (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (x0 : Vec F S256x256 .f32) (x1 : Vec F S256x1 .i32) (x2 : Vec F S8192x256 .f32) (x3 : Vec F S1x8192 .i32)
    (v3 : Vec F S256x1 .i32) (v14 : Vec F S256x1 .f32) (X4 : BufTy.Contents (Elt F) arg4.view.ty) (X6 : BufTy.Contents (Elt F) arg6.view.ty)
    (G7 : BufTy.Contents (Elt F) arg7.view.ty) (G9 : BufTy.Contents (Elt F) arg9.view.ty)
    (hv3 : v3 = View.ld x1 rCol) (hv14 : v14 = lossRowMax x0 x2) (hX4 : arg4.view.read (Elt F) X4 = x3)
    (hX6 : ∀ (j : Fin k1_t1_loop.trips) (off : Fin 2 → ℕ) (inb : ∀ a, off a + S256x1024.size a ≤ S256x8192.size a), off = ![0, 1024 * j.val] →
      View.readAt (Elt F) arg6.view (Rect.unit (s := S256x8192) off S256x1024.size inb).toLoadRect X6 = lossDot x0 x2 j)
    (hG9 : arg9.view.read (Elt F) G9 = k1_pay13) :
    ∀ k, k ≤ k1_t2_loop.trips →
      arg9.view.read (Elt F) (arg9.view.writes (Elt F) G9 (pb_k1_t2 (F := F) Variants.none c none i arg1 harg1 arg2 harg2 arg3 harg3 arg4 harg4 arg5 harg5 arg6 harg6 arg7 harg7 arg8 harg8 arg9 harg9 arg10 harg10 arg11 harg11 v3 v14 X4 X6 G7 G9 k).2) = lossNeg x0 x1 x2 x3 k
      ∧ ∀ (j : Fin k1_t2_loop.trips) (hj1 : j.val < k1_t1_loop.trips), j.val < k → ∀ (off : Fin 2 → ℕ) (inb : ∀ a, off a + S256x1024.size a ≤ S256x8192.size a), off = ![0, 1024 * j.val] →
          View.readAt (Elt F) arg7.view (Rect.unit (s := S256x8192) off S256x1024.size inb).toLoadRect
            (arg7.view.writes (Elt F) G7 (pb_k1_t2 (F := F) Variants.none c none i arg1 harg1 arg2 harg2 arg3 harg3 arg4 harg4 arg5 harg5 arg6 harg6 arg7 harg7 arg8 harg8 arg9 harg9 arg10 harg10 arg11 harg11 v3 v14 X4 X6 G7 G9 k).1) = lossExp x0 x2 j hj1 := by
  have t1 : k1_t1_loop.trips = 8 := by decide
  have t2 : k1_t2_loop.trips = 8 := by decide
  intro k
  induction k with
  | zero =>
    intro _
    refine ⟨?_, fun j _ hj => absurd hj (Nat.not_lt_zero _)⟩
    rw [pb_k1_t2.eq_1]; exact hG9
  | succ k ih =>
    intro hk
    have hk' : k < k1_t2_loop.trips := hk
    have hk1 : k < k1_t1_loop.trips := by omega
    obtain ⟨ih9, ih7⟩ := ih (Nat.le_of_lt hk')
    have hs := pb_k1_t2_succ (F := F) Variants.none c none i arg1 harg1 arg2 harg2 arg3 harg3 arg4 harg4 arg5 harg5 arg6 harg6 arg7 harg7 arg8 harg8 arg9 harg9 arg10 harg10 arg11 harg11 v3 v14 X4 X6 G7 G9 ⟨k, hk'⟩
    rw [trip2_eq] at hs
    dsimp only at hs
    rw [hs]
    dsimp only [List.singleton_append]
    have h6 := hX6 ⟨k, hk1⟩ (k1_off3 ⟨k, hk'⟩) (k1_off3_inb ⟨k, hk'⟩) (k1_off3_eq _)
    refine ⟨?_, fun j hj1 hj off inb hoff => ?_⟩
    · rw [read_writes_cons_whole _ _ zeros2, h6, View.readAt_eq_ld, View.readAt_eq_ld, hX4, ih9, hv3, hv14, lossNeg, dif_pos ⟨hk', hk1⟩]
    · rcases Nat.lt_succ_iff_lt_or_eq.mp hj with hlt | heq
      · rw [readAt_writes_cons_of_disjoint]
        · exact ih7 j hj1 hlt off inb hoff
        · refine Rect.unit_disjoint (inb := k1_off3_inb ⟨k, hk'⟩) (inb' := inb) 1 (Or.inr ?_)
          rw [hoff, k1_off3_eq]
          show 1024 * j.val + 1024 ≤ 1024 * k
          omega
      · obtain rfl : j = ⟨k, hk'⟩ := Fin.ext heq
        rw [readAt_writes_cons_unit _ _ _ _ ((k1_off3_eq _).trans hoff.symm), h6, hv14]
        rfl

/-! ## The third loop: the numerator and the denominator -/

set_option maxHeartbeats 400000 in
theorem inv3 (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (x0 : Vec F S256x256 .f32) (x1 : Vec F S256x1 .i32) (x2 : Vec F S8192x256 .f32) (x3 : Vec F S1x8192 .i32)
    (v4 : IVec S256x1 32) (v8 : IVec S256x1 32) (v14 : Vec F S256x1 .f32) (v20 : Vec F S256x1 .f32)
    (X4 : BufTy.Contents (Elt F) arg4.view.ty) (X6 : BufTy.Contents (Elt F) arg6.view.ty) (X7 : BufTy.Contents (Elt F) arg7.view.ty)
    (G10 : BufTy.Contents (Elt F) arg10.view.ty) (G11 : BufTy.Contents (Elt F) arg11.view.ty)
    (hv4 : v4 = k1_pay7 (View.ld x1 rCol)) (hv8 : v8 = k1_pay8 i) (hv14 : v14 = lossRowMax x0 x2) (hv20 : v20 = lossNegSum x0 x1 x2 x3)
    (hX4 : arg4.view.read (Elt F) X4 = x3)
    (hX6 : ∀ (j : Fin k1_t1_loop.trips) (off : Fin 2 → ℕ) (inb : ∀ a, off a + S256x1024.size a ≤ S256x8192.size a), off = ![0, 1024 * j.val] →
      View.readAt (Elt F) arg6.view (Rect.unit (s := S256x8192) off S256x1024.size inb).toLoadRect X6 = lossDot x0 x2 j)
    (hX7 : ∀ (j : Fin k1_t2_loop.trips) (hj1 : j.val < k1_t1_loop.trips) (off : Fin 2 → ℕ) (inb : ∀ a, off a + S256x1024.size a ≤ S256x8192.size a), off = ![0, 1024 * j.val] →
      View.readAt (Elt F) arg7.view (Rect.unit (s := S256x8192) off S256x1024.size inb).toLoadRect X7 = lossExp x0 x2 j hj1)
    (hG10 : arg10.view.read (Elt F) G10 = k1_pay17) (hG11 : arg11.view.read (Elt F) G11 = k1_pay1 k1_pay18) :
    ∀ k, k ≤ k1_t3_loop.trips →
      arg10.view.read (Elt F) (arg10.view.writes (Elt F) G10 (pb_k1_t3 (F := F) Variants.none c none i arg1 harg1 arg2 harg2 arg3 harg3 arg4 harg4 arg5 harg5 arg6 harg6 arg7 harg7 arg8 harg8 arg9 harg9 arg10 harg10 arg11 harg11 v4 v8 v14 v20 X4 X6 X7 G10 G11 k).1) = lossNum i x0 x1 x2 x3 k
      ∧ arg11.view.read (Elt F) (arg11.view.writes (Elt F) G11 (pb_k1_t3 (F := F) Variants.none c none i arg1 harg1 arg2 harg2 arg3 harg3 arg4 harg4 arg5 harg5 arg6 harg6 arg7 harg7 arg8 harg8 arg9 harg9 arg10 harg10 arg11 harg11 v4 v8 v14 v20 X4 X6 X7 G10 G11 k).2) = lossDen i x1 x3 k := by
  have t1 : k1_t1_loop.trips = 8 := by decide
  have t2 : k1_t2_loop.trips = 8 := by decide
  have t3 : k1_t3_loop.trips = 8 := by decide
  intro k
  induction k with
  | zero =>
    intro _
    rw [pb_k1_t3.eq_1]; exact ⟨hG10, hG11⟩
  | succ k ih =>
    intro hk
    have hk' : k < k1_t3_loop.trips := hk
    have hk2 : k < k1_t2_loop.trips := by omega
    have hk1 : k < k1_t1_loop.trips := by omega
    obtain ⟨ih10, ih11⟩ := ih (Nat.le_of_lt hk')
    have hs := pb_k1_t3_succ (F := F) Variants.none c none i arg1 harg1 arg2 harg2 arg3 harg3 arg4 harg4 arg5 harg5 arg6 harg6 arg7 harg7 arg8 harg8 arg9 harg9 arg10 harg10 arg11 harg11 v4 v8 v14 v20 X4 X6 X7 G10 G11 ⟨k, hk'⟩
    rw [trip3_eq] at hs
    dsimp only at hs
    rw [hs]
    dsimp only [List.singleton_append]
    have h6 := hX6 ⟨k, hk1⟩ (k1_off5 ⟨k, hk'⟩) (k1_off5_inb ⟨k, hk'⟩) (k1_off5_eq _)
    have h7 := hX7 ⟨k, hk2⟩ hk1 (k1_off5 ⟨k, hk'⟩) (k1_off5_inb ⟨k, hk'⟩) (k1_off5_eq _)
    constructor
    · rw [read_writes_cons_whole _ _ zeros2, h6, h7, View.readAt_eq_ld, View.readAt_eq_ld, hX4, ih10, hv4, hv8, hv14, hv20, lossNum,
        dif_pos ⟨hk', hk2, hk1⟩]
    · rw [read_writes_cons_whole _ _ zeros2, View.readAt_eq_ld, View.readAt_eq_ld, hX4, ih11, hv4, hv8, lossDen, dif_pos hk']

/-! ## The three loops in sequence -/

set_option maxHeartbeats 400000 in
/-- Whatever the six scratches hold at the start, once the four column scratches are initialised the three loops
    leave the numerator and denominator recursions in the last two. -/
theorem loops_eq (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (x0 : Vec F S256x256 .f32) (x1 : Vec F S256x1 .i32) (x2 : Vec F S8192x256 .f32) (x3 : Vec F S1x8192 .i32)
    (v0 : Vec F S256x256 .f32) (v3 : Vec F S256x1 .i32)
    (X3 : BufTy.Contents (Elt F) arg3.view.ty) (X4 : BufTy.Contents (Elt F) arg4.view.ty)
    (G6 : BufTy.Contents (Elt F) arg6.view.ty) (G7 : BufTy.Contents (Elt F) arg7.view.ty)
    (G8 : BufTy.Contents (Elt F) arg8.view.ty) (G9 : BufTy.Contents (Elt F) arg9.view.ty)
    (G10 : BufTy.Contents (Elt F) arg10.view.ty) (G11 : BufTy.Contents (Elt F) arg11.view.ty)
    (hv0 : v0 = View.ld x0 rQ) (hv3 : v3 = View.ld x1 rCol)
    (hX3 : arg3.view.read (Elt F) X3 = x2) (hX4 : arg4.view.read (Elt F) X4 = x3)
    (hG8 : arg8.view.read (Elt F) G8 = k1_pay9) (hG9 : arg9.view.read (Elt F) G9 = k1_pay13)
    (hG10 : arg10.view.read (Elt F) G10 = k1_pay17) (hG11 : arg11.view.read (Elt F) G11 = k1_pay1 k1_pay18) :
    let P1 := pb_k1_t1 (F := F) Variants.none c none i arg1 harg1 arg2 harg2 arg3 harg3 arg4 harg4 arg5 harg5 arg6 harg6 arg7 harg7 arg8 harg8 arg9 harg9 arg10 harg10 arg11 harg11 v0 X3 G6 G8 k1_t1_loop.trips
    let v14 := View.readAt (Elt F) arg8.view rCol.toLoadRect (arg8.view.writes (Elt F) G8 P1.2)
    let A6 := arg6.view.writes (Elt F) G6 P1.1
    let P2 := pb_k1_t2 (F := F) Variants.none c none i arg1 harg1 arg2 harg2 arg3 harg3 arg4 harg4 arg5 harg5 arg6 harg6 arg7 harg7 arg8 harg8 arg9 harg9 arg10 harg10 arg11 harg11 v3 v14 X4 A6 G7 G9 k1_t2_loop.trips
    let v20 := View.readAt (Elt F) arg9.view rCol.toLoadRect (arg9.view.writes (Elt F) G9 P2.2)
    let A7 := arg7.view.writes (Elt F) G7 P2.1
    let P3 := pb_k1_t3 (F := F) Variants.none c none i arg1 harg1 arg2 harg2 arg3 harg3 arg4 harg4 arg5 harg5 arg6 harg6 arg7 harg7 arg8 harg8 arg9 harg9 arg10 harg10 arg11 harg11 (k1_pay7 v3) (k1_pay8 i) v14 v20 X4 A6 A7 G10 G11 k1_t3_loop.trips
    View.readAt (Elt F) arg10.view rCol.toLoadRect (arg10.view.writes (Elt F) G10 P3.1) = View.ld (lossNum i x0 x1 x2 x3 k1_t3_loop.trips) rCol
    ∧ View.readAt (Elt F) arg11.view rCol.toLoadRect (arg11.view.writes (Elt F) G11 P3.2) = View.ld (lossDen i x1 x3 k1_t3_loop.trips) rCol := by
  intro P1 v14 A6 P2 v20 A7 P3
  obtain ⟨h8, h6⟩ := inv1 (F := F) c i arg1 harg1 arg2 harg2 arg3 harg3 arg4 harg4 arg5 harg5 arg6 harg6 arg7 harg7 arg8 harg8 arg9 harg9 arg10 harg10 arg11 harg11 x0 x2 v0 X3 G6 G8 hv0 hX3 hG8 k1_t1_loop.trips le_rfl
  have hv14 : v14 = lossRowMax x0 x2 := by
    show View.readAt (Elt F) arg8.view rCol.toLoadRect _ = _
    rw [View.readAt_eq_ld, h8]; rfl
  have h6' : ∀ (j : Fin k1_t1_loop.trips) (off : Fin 2 → ℕ) (inb : ∀ a, off a + S256x1024.size a ≤ S256x8192.size a), off = ![0, 1024 * j.val] →
      View.readAt (Elt F) arg6.view (Rect.unit (s := S256x8192) off S256x1024.size inb).toLoadRect A6 = lossDot x0 x2 j :=
    fun j off inb h => h6 j j.isLt off inb h
  obtain ⟨h9, h7⟩ := inv2 (F := F) c i arg1 harg1 arg2 harg2 arg3 harg3 arg4 harg4 arg5 harg5 arg6 harg6 arg7 harg7 arg8 harg8 arg9 harg9 arg10 harg10 arg11 harg11 x0 x1 x2 x3 v3 v14 X4 A6 G7 G9 hv3 hv14 hX4 h6' hG9 k1_t2_loop.trips le_rfl
  have hv20 : v20 = lossNegSum x0 x1 x2 x3 := by
    show View.readAt (Elt F) arg9.view rCol.toLoadRect _ = _
    rw [View.readAt_eq_ld, h9]; rfl
  obtain ⟨h10, h11⟩ := inv3 (F := F) c i arg1 harg1 arg2 harg2 arg3 harg3 arg4 harg4 arg5 harg5 arg6 harg6 arg7 harg7 arg8 harg8 arg9 harg9 arg10 harg10 arg11 harg11 x0 x1 x2 x3 (k1_pay7 v3) (k1_pay8 i) v14 v20 X4 A6 A7 G10 G11 (by rw [hv3]) rfl hv14 hv20 hX4 h6'
    (fun j hj1 off inb h => h7 j hj1 j.isLt off inb h) hG10 hG11 k1_t3_loop.trips le_rfl
  exact ⟨by rw [View.readAt_eq_ld, h10], by rw [View.readAt_eq_ld, h11]⟩

end Struct1

set_option maxHeartbeats 400000 in
/-- The run's one store into the output block covers it. -/
theorem cover1 (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole)
    (x0 : Vec F S256x256 .f32) (x1 : Vec F S256x1 .i32) (x2 : Vec F S8192x256 .f32) (x3 : Vec F S1x8192 .i32)
    (d6 : Vec F S256x8192 .f32) (d7 : Vec F S256x8192 .f32) (y : S1x128.Idx) :
    ∃ pc ∈ (kernelRun1 c i arg1 harg1 arg2 harg2 arg3 harg3 arg4 harg4 arg5 harg5 arg6 harg6 arg7 harg7 arg8 harg8 arg9 harg9 arg10 harg10 arg11 harg11 x0 x1 x2 x3 d6 d7).1.1, y ∈ pc.1.set := by
  unfold kernelRun1; dsimp only
  have hz : ∀ a : Fin 2, (![0, 0] : Fin 2 → ℕ) a = 0 := fun a => congrFun Struct1.zeros2 a
  refine ⟨_, List.mem_singleton_self _, ?_⟩
  show y ∈ (Rect.unit (s := S1x128) ![0, 0] S1x128.size inb_S1x128_S1x128_0_0).set
  refine (Rect.mem_set_unit (inb := inb_S1x128_S1x128_0_0)).mpr fun a => ⟨?_, ?_⟩
  · rw [hz a]; exact Nat.zero_le _
  · rw [hz a, Nat.zero_add]; exact (y a).isLt

set_option maxHeartbeats 400000 in
/-- The block the run leaves is `lossBlk` of the inputs, whatever the wide scratches held. -/
theorem out1_eq (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole)
    (x0 : Vec F S256x256 .f32) (x1 : Vec F S256x1 .i32) (x2 : Vec F S8192x256 .f32) (x3 : Vec F S1x8192 .i32)
    (d6 : Vec F S256x8192 .f32) (d7 : Vec F S256x8192 .f32) :
    out1 c i arg1 harg1 arg2 harg2 arg3 harg3 arg4 harg4 arg5 harg5 arg6 harg6 arg7 harg7 arg8 harg8 arg9 harg9 arg10 harg10 arg11 harg11 x0 x1 x2 x3 d6 d7 = lossBlk i x0 x1 x2 x3 := by
  have A := Struct1.loops_eq (F := F) c i arg1 harg1 arg2 harg2 arg3 harg3 arg4 harg4 arg5 harg5 arg6 harg6 arg7 harg7 arg8 harg8 arg9 harg9 arg10 harg10 arg11 harg11 x0 x1 x2 x3
    (View.readAt (Elt F) arg1.view rQ.toLoadRect (harg1.unread x0)) (View.readAt (Elt F) arg2.view rCol.toLoadRect (harg2.unread x1))
    (harg3.unread x2) (harg4.unread x3) (harg6.unread d6) (harg7.unread d7)
    (arg8.view.writes (Elt F) arg8.view.junk [⟨rCol, k1_pay9⟩]) (arg9.view.writes (Elt F) arg9.view.junk [⟨rCol, k1_pay13⟩])
    (arg10.view.writes (Elt F) arg10.view.junk [⟨rCol, k1_pay17⟩]) (arg11.view.writes (Elt F) arg11.view.junk [⟨rCol, k1_pay1 k1_pay18⟩])
    (by rw [View.readAt_eq_ld, harg1.read_unread]) (by rw [View.readAt_eq_ld, harg2.read_unread])
    (harg3.read_unread x2) (harg4.read_unread x3)
    (Struct1.read_writes_cons_whole _ _ Struct1.zeros2 _ _ _) (Struct1.read_writes_cons_whole _ _ Struct1.zeros2 _ _ _)
    (Struct1.read_writes_cons_whole _ _ Struct1.zeros2 _ _ _) (Struct1.read_writes_cons_whole _ _ Struct1.zeros2 _ _ _)
  dsimp only at A
  unfold out1 kernelRun1; dsimp only
  rw [View.read_writes_junk_eq_canon]
  sl_unfold_run_names
  simp only [View.writes_append]
  unfold lossBlk
  exact congrArg₂ (fun a b => View.canon [(⟨rOut1, k1_pay3 a b⟩ : View.Piece (Elt F) S1x128 .f32)]) A.1 A.2

end Cert.Kernel.Hand

end
-- ==== Proof.Spec.lean ====
/- The mathematics both programs compute, over the extended reals and plain finite index types.
   `total d lab eps` is the sum over rows `r` of the mean log-probability of `r`'s positives under the
   supervised-contrastive softmax of the similarities `d r ·` (positives: other rows with `r`'s label; negatives:
   rows with another label): the shifted logits `d r s − max_s d r s`, their exponentials, the negatives' sum, each
   column's log-probability `logit − log (exp logit + negatives' sum)`, the positives' sum of those over the clamped
   count of positives. It is invariant under one relabelling of rows and columns together (`total_equiv`), which is
   why a kernel may process the sample groups in any order. The remaining statements are the regroupings a tiled
   evaluation needs: a sum or a supremum over `8192` columns as eight tiles of `1024`, over `8192` rows as
   `32` tiles of `256`, a left-nested accumulation as one sum. -/
import Idealize.ShloMosaic.PureOps.Ideal
import Mathlib.Algebra.BigOperators.Fin
import Mathlib.Data.Finset.Lattice.Fold
import Mathlib.Data.Finset.Lattice.Prod
import Mathlib.Logic.Equiv.Fin.Basic

noncomputable section

namespace Cert.Spec

open Idealize.ShloMosaic
open scoped BigOperators

/-- A supremum over a finite type does not see a relabelling of the index by a bijection. -/
theorem sup_univ_equiv {α β : Type} [Fintype α] [Fintype β] (e : α ≃ β) (f : β → EReal) :
    (Finset.univ.sup fun a => f (e a)) = Finset.univ.sup f := by
  apply le_antisymm
  · exact Finset.sup_le fun a _ => Finset.le_sup (f := f) (Finset.mem_univ (e a))
  · refine Finset.sup_le fun b _ => ?_
    have h := Finset.le_sup (f := fun a => f (e a)) (Finset.mem_univ (e.symm b))
    simpa using h

/-! ## The loss over any finite set of rows -/

section Loss

variable {R : Type} [Fintype R] [DecidableEq R]
variable (d : R → R → EReal) (lab : R → BitVec 32) (eps : EReal)

/-- The largest similarity of row `r` (the supremum over all columns; `⊥` over no column). -/
def rowMax (r : R) : EReal := Finset.univ.sup (d r)
/-- The shifted logit. -/
def lg (r s : R) : EReal := d r s - rowMax d r
/-- Its exponential. -/
def ex (r s : R) : EReal := Ideal.exp (lg d r s)
/-- `1` where the labels agree, else `0`; `1` on the diagonal, else `0`. -/
def eqm (r s : R) : EReal := if lab r = lab s then 1 else 0
def dg (r s : R) : EReal := if r = s then 1 else 0
/-- The positives' and the negatives' masks. -/
def pos (r s : R) : EReal := eqm lab r s * (1 - dg r s)
def neg (r s : R) : EReal := 1 - eqm lab r s
/-- The negatives' sum of exponentials. -/
def negSum (r : R) : EReal := ∑ s, ex d r s * neg lab r s
/-- A column's log-probability. -/
def logProb (r s : R) : EReal := lg d r s - Ideal.log (ex d r s + negSum d lab r)
/-- The positives' log-probabilities summed, and the positives counted. -/
def num (r : R) : EReal := ∑ s, pos lab r s * logProb d lab r s
def den (r : R) : EReal := ∑ s, pos lab r s
/-- The mean log-probability of row `r`'s positives, the count clamped below by `eps`. -/
def mlpp (r : R) : EReal := Ideal.div (num d lab r) (max (den lab r) eps)
/-- Summed over the rows. -/
def total : EReal := ∑ r, mlpp d lab eps r

/-! Each quantity of the relabelled data at `(r, s)` is the same quantity of the original data at
    `(π r, π s)`: the sums and the supremum over columns are reindexed by `π`, and the diagonal test survives
    because `π` is injective. -/

section Relabel

variable {R' : Type} [Fintype R'] [DecidableEq R'] (π : R' ≃ R)

theorem rowMax_equiv (r : R') : rowMax (fun r s => d (π r) (π s)) r = rowMax d (π r) :=
  sup_univ_equiv π (d (π r))

theorem lg_equiv (r s : R') : lg (fun r s => d (π r) (π s)) r s = lg d (π r) (π s) := by
  unfold lg
  rw [rowMax_equiv]

theorem ex_equiv (r s : R') : ex (fun r s => d (π r) (π s)) r s = ex d (π r) (π s) := by
  unfold ex
  rw [lg_equiv]

theorem eqm_equiv (r s : R') : eqm (fun r => lab (π r)) r s = eqm lab (π r) (π s) := rfl

theorem dg_equiv (r s : R') : dg r s = dg (π r) (π s) := by
  unfold dg
  by_cases h : r = s
  · rw [if_pos h, if_pos (congrArg π h)]
  · rw [if_neg h, if_neg fun h' => h (π.injective h')]

theorem pos_equiv (r s : R') : pos (fun r => lab (π r)) r s = pos lab (π r) (π s) := by
  unfold pos
  rw [eqm_equiv, dg_equiv π]

theorem neg_equiv (r s : R') : neg (fun r => lab (π r)) r s = neg lab (π r) (π s) := rfl

theorem negSum_equiv (r : R') :
    negSum (fun r s => d (π r) (π s)) (fun r => lab (π r)) r = negSum d lab (π r) := by
  unfold negSum
  rw [← Equiv.sum_comp π]
  refine Finset.sum_congr rfl fun s _ => ?_
  rw [ex_equiv, neg_equiv]

theorem logProb_equiv (r s : R') :
    logProb (fun r s => d (π r) (π s)) (fun r => lab (π r)) r s = logProb d lab (π r) (π s) := by
  unfold logProb
  rw [lg_equiv, ex_equiv, negSum_equiv]

theorem num_equiv (r : R') :
    num (fun r s => d (π r) (π s)) (fun r => lab (π r)) r = num d lab (π r) := by
  unfold num
  rw [← Equiv.sum_comp π]
  refine Finset.sum_congr rfl fun s _ => ?_
  rw [pos_equiv, logProb_equiv]

theorem den_equiv (r : R') : den (fun r => lab (π r)) r = den lab (π r) := by
  unfold den
  rw [← Equiv.sum_comp π]
  exact Finset.sum_congr rfl fun s _ => pos_equiv lab π r s

theorem mlpp_relabel (r : R') :
    mlpp (fun r s => d (π r) (π s)) (fun r => lab (π r)) eps r = mlpp d lab eps (π r) := by
  unfold mlpp
  rw [num_equiv, den_equiv]

end Relabel

/-- Relabelling rows and columns by one bijection does not change the total. -/
theorem total_equiv {R' : Type} [Fintype R'] [DecidableEq R'] (π : R' ≃ R) :
    total (fun r s => d (π r) (π s)) (fun r => lab (π r)) eps = total d lab eps := by
  unfold total
  rw [← Equiv.sum_comp π (mlpp d lab eps)]
  exact Finset.sum_congr rfl fun r _ => mlpp_relabel d lab eps π r

/-- Row by row: the relabelled row `r` is the original row `π r`. -/
theorem mlpp_equiv {R' : Type} [Fintype R'] [DecidableEq R'] (π : R' ≃ R) (r : R') :
    mlpp (fun r s => d (π r) (π s)) (fun r => lab (π r)) eps r = mlpp d lab eps (π r) :=
  mlpp_relabel d lab eps π r

end Loss

/-! ## Tiles -/

/-- Column `1024 k + j` of `8192`, and row `256 i + r` of `8192`. -/
def col8 (k : Fin 8) (j : Fin 1024) : Fin 8192 := ⟨1024 * k.val + j.val, by omega⟩
def row32 (i : Fin 32) (r : Fin 256) : Fin 8192 := ⟨256 * i.val + r.val, by omega⟩

/-- The eight tiles of `1024` columns exhaust the `8192` columns, each once: column `s` is column
    `s % 1024` of tile `s / 1024`. -/
def colEquiv : Fin 8 × Fin 1024 ≃ Fin 8192 where
  toFun x := col8 x.1 x.2
  invFun s := (⟨s.val / 1024, by omega⟩, ⟨s.val % 1024, by omega⟩)
  left_inv := by
    rintro ⟨k, j⟩
    apply Prod.ext <;> apply Fin.ext <;> simp only [col8] <;> omega
  right_inv := by
    intro s
    apply Fin.ext
    simp only [col8]
    omega

/-- The `32` tiles of `256` rows exhaust the `8192` rows, each once. -/
def rowEquiv : Fin 32 × Fin 256 ≃ Fin 8192 where
  toFun x := row32 x.1 x.2
  invFun s := (⟨s.val / 256, by omega⟩, ⟨s.val % 256, by omega⟩)
  left_inv := by
    rintro ⟨i, r⟩
    apply Prod.ext <;> apply Fin.ext <;> simp only [row32] <;> omega
  right_inv := by
    intro s
    apply Fin.ext
    simp only [row32]
    omega

theorem sum_col8 (g : Fin 8192 → EReal) : (∑ s, g s) = ∑ k : Fin 8, ∑ j : Fin 1024, g (col8 k j) := by
  rw [← Equiv.sum_comp colEquiv g, Fintype.sum_prod_type]
  rfl
theorem sup_col8 (g : Fin 8192 → EReal) : Finset.univ.sup g = Finset.univ.sup fun k : Fin 8 => Finset.univ.sup fun j : Fin 1024 => g (col8 k j) := by
  rw [← sup_univ_equiv colEquiv g, ← Finset.univ_product_univ, Finset.sup_product_left]
  rfl
theorem sum_row32 (g : Fin 8192 → EReal) : (∑ s, g s) = ∑ i : Fin 32, ∑ r : Fin 256, g (row32 i r) := by
  rw [← Equiv.sum_comp rowEquiv g, Fintype.sum_prod_type]
  rfl

/-- A relabelling of the `32` groups acts on the `8192` rows group by group. -/
def rowPerm (σ : Equiv.Perm (Fin 32)) : Equiv.Perm (Fin 8192) :=
  (rowEquiv.symm.trans (Equiv.prodCongr σ (Equiv.refl (Fin 256)))).trans rowEquiv
theorem rowPerm_row32 (σ : Equiv.Perm (Fin 32)) (i : Fin 32) (r : Fin 256) : rowPerm σ (row32 i r) = row32 (σ i) r := by
  have h : rowEquiv.symm (row32 i r) = (i, r) := rowEquiv.symm_apply_apply (i, r)
  simp only [rowPerm, Equiv.trans_apply, h]
  rfl

/-- A left-nested accumulation from `a` is `a` plus the sum; the same for a running maximum. -/
def accAdd (a : EReal) (s : ℕ → EReal) : ℕ → EReal
  | 0 => a
  | n + 1 => accAdd a s n + s n
theorem accAdd_eq (a : EReal) (s : ℕ → EReal) (n : ℕ) : accAdd a s n = a + ∑ k : Fin n, s k.val := by
  induction n with
  | zero => simp [accAdd]
  | succ n ih =>
    rw [accAdd, ih, Fin.sum_univ_castSucc, add_assoc]
    simp only [Fin.coe_castSucc, Fin.val_last]
def accMax (a : EReal) (s : ℕ → EReal) : ℕ → EReal
  | 0 => a
  | n + 1 => max (accMax a s n) (s n)
/-- A supremum over `n + 1` indices is the supremum over the first `n` joined with the last term. -/
theorem sup_fin_succ (n : ℕ) (f : Fin (n + 1) → EReal) :
    Finset.univ.sup f = max (Finset.univ.sup fun k : Fin n => f k.castSucc) (f (Fin.last n)) := by
  apply le_antisymm
  · refine Finset.sup_le fun k _ => ?_
    induction k using Fin.lastCases with
    | last => exact le_max_right _ _
    | cast k =>
      exact le_trans (Finset.le_sup (f := fun k : Fin n => f k.castSucc) (Finset.mem_univ k)) (le_max_left _ _)
  · refine max_le (Finset.sup_le fun k _ => ?_) ?_
    · exact Finset.le_sup (f := f) (Finset.mem_univ k.castSucc)
    · exact Finset.le_sup (f := f) (Finset.mem_univ (Fin.last n))
theorem accMax_eq (a : EReal) (s : ℕ → EReal) (n : ℕ) : accMax a s n = max a (Finset.univ.sup fun k : Fin n => s k.val) := by
  induction n with
  | zero => simp [accMax]
  | succ n ih =>
    rw [accMax, ih, max_assoc, sup_fin_succ]
    simp only [Fin.coe_castSucc, Fin.val_last]

/-! ## Small laws of the extended reals the two programs differ by -/

/-- Doubling is dividing by one half. -/
theorem mul_two_eq_div_half (x : EReal) : x * ((2 : ℝ) : EReal) = Ideal.div x (((1 : ℝ) / 2 : ℝ) : EReal) := by
  rw [Ideal.div_coe (by norm_num)]
  norm_num
/-- Negating before or after a division by `8192`. -/
theorem div_neg_8192 (t : EReal) : Ideal.div (-t) ((8192 : ℝ) : EReal) = -(Ideal.div t ((8192 : ℝ) : EReal)) := by
  rw [Ideal.div_coe (by norm_num), Ideal.div_coe (by norm_num), EReal.neg_mul]
/-- A real minus itself. -/
theorem coe_sub_self (x : ℝ) : ((x : EReal) - (x : EReal)) = 0 := by
  rw [← EReal.coe_sub, sub_self, EReal.coe_zero]
/-- A sum against an indicator picks one term. -/
theorem sum_indicator_mul {n : ℕ} (p : Fin n) (y : Fin n → EReal) : (∑ k : Fin n, (if k = p then (1 : EReal) else 0) * y k) = y p := by
  rw [Finset.sum_eq_single p]
  · rw [if_pos rfl, one_mul]
  · intro b _ hb
    rw [if_neg hb, zero_mul]
  · intro h
    exact absurd (Finset.mem_univ p) h

end Cert.Spec

end
-- ==== Proof.K.Frame1.lean ====
/- Region 1 (the loss kernel's launch) of the frame, for the proof data of its pipeline at the region-entry buffer
   contents: each input window found at its block at every point, the body obligation from the body's run, and
   the result array after the region as one function of the entry contents, with the input blocks read at an index. -/
import proofs.«419518_j21423296873244_3_alg».proof.Proof.K.Struct1
import proofs.«419518_j21423296873244_3_alg».proof.Proof.K.Dat1
import proofs.«419518_j21423296873244_3_alg».proof.Proof.Spec
import proofs.«419518_j21423296873244_3_alg».proof.Proof.Gen.Kernel.Launch
import proofs.«419518_j21423296873244_3_alg».proof.Proof.Gen.Kernel.Points
import proofs.«419518_j21423296873244_3_alg».proof.Proof.Gen.Kernel.Loops
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents at the region's entry
variable (V : (c : Dev nD) → (b : Ref sig .tc) → Buf (Elt F) ((c : Thread nD τ).loc b))

/-! ## The input windows at every point -/

/-- Input window 0's current staging buffer holds its block at every point, fetched there or not, for any proof data
    whose array is the entry contents and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, fetched there or not: the query rows and their
    labels are fetched at every point; the feature matrix and the label row are fetched at the first point only, their
    block index never moves, and the body leaves them in place. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The invariant, opened -/

/-- The region invariant with the kernel's six scratch operands as memrefs owned at some contents; the scoped
    buffers of the other launch ride along untouched, each at some contents; and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f)
          ∗ (∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d) ∗ (∃ d, owns (c : Thread nD τ) (Memref.whole cc1_scratch5) fullShare d))
        ∗ (∃ r, prngReg c r)) := by
  unfold Pipeline.ΦA; rw [scopedRest1_eq]; simp only [owns_whole]

/-- A memref held at some buffer contents is owned at what it reads there. -/
theorem ex_owns_of_held (c : Dev nD) {sp : Space} {sh : Shape} {e : EltTy} (m : Memref sig .tc sp sh e)
    (g : m.view.ty.Contents (Elt F)) :
    (m.view.loc (c : Thread nD τ) ↦[m.view.set]{fullShare} g) ⊢ (iprop(∃ d, owns (c : Thread nD τ) m fullShare d) : sProp 𝕄) := by
  unfold owns
  iintro H
  iexists (m.view.read (Elt F) g); iexists g
  isplitr; · ipureintro; rfl
  iexact H

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1600000 in
/-- The body at any point: the four inputs' memrefs hold their blocks, the invariant hands over the six scratch operands at
    some contents, so the run applies at the two wide scratches' contents; the output block's pieces cover it and read
    back as `lossBlk` of the input blocks whatever the wide scratches held; the scratches go back into the invariant
    at what the run left; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  iintro ⟨⟨⟨Hr0, Hr1, Hr2, Hr3, Hr4, Hr5, Hr6, ⟨%d6, HS0⟩, ⟨%d7, HS1⟩, HS2, HS3, HS4, HS5⟩, Hg⟩, Ho, ⟨%d0, H0⟩, ⟨%d1, H1⟩, ⟨%d2, H2⟩, ⟨%d3, H3⟩, ⟨%d4, H4⟩⟩
  iapply ((kernelRun1 c (grid1.coords t) _ _ _ _ _ _ _ _ _ _ _ _ _ _ _ _ _ _ _ _ _ _
    (iblk1 V c 0 t) (iblk1 V c 1 t) (iblk1 V c 2 t) (iblk1 V c 3 t) d6 d7).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e4, H4⟩, ⟨%e6, HS0⟩, ⟨%e7, HS1⟩, ⟨%e8, HS2⟩, ⟨%e9, HS3⟩, ⟨%e10, HS4⟩, ⟨%e11, HS5⟩⟩
  isplitl [Hr0 Hr1 Hr2 Hr3 Hr4 Hr5 Hr6 HS0 HS1 HS2 HS3 HS4 HS5 Hg]
  · isplitr [Hg]
    swap; · iexact Hg
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [HS0]
    · iapply (ex_owns_of_held c _ _); iexact HS0
    isplitl [HS1]
    · iapply (ex_owns_of_held c _ _); iexact HS1
    isplitl [HS2]
    · iapply (ex_owns_of_held c _ _); iexact HS2
    isplitl [HS3]
    · iapply (ex_owns_of_held c _ _); iexact HS3
    isplitl [HS4]
    · iapply (ex_owns_of_held c _ _); iexact HS4
    iapply (ex_owns_of_held c _ _); iexact HS5
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact (View.read_writes_of_cover _ _ _ _ _ (cover1 c _ _ _ _ _ _ _ _ _ _ _ _ _ _ _ _ _ _ _ _ _ _ _ _ _ _ _ _ _)).trans
    (out1_eq c _ _ _ _ _ _ _ _ _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The region's result array, and the input blocks read at an index -/

open Idealize.ShloMosaic.ValueIdx

/-- The grid has 32 points. -/
theorem N_cfg1 : cfg1.N = 32 := N_1

/-- Point `k` of the grid. -/
abbrev pt1 (k : Fin 32) : Fin cfg1.N := ⟨k.val, by rw [N_cfg1]; exact k.isLt⟩

/-- The index maps, decided over the 32 points: the grid's one coordinate is the point's number, which is the row-block
    index of the query rows and of their labels and the lane-block index of the output; the feature matrix and the
    label row are one block each. -/
theorem idx_facts1 : ∀ t : Fin grid1.N, cc1_transform_0 (grid1.coords t) = ![t.val, 0]
    ∧ cc1_transform_1 (grid1.coords t) = ![t.val, 0] ∧ cc1_transform_2 (grid1.coords t) = ![0, 0]
    ∧ cc1_transform_3 (grid1.coords t) = ![0, 0] ∧ cc1_transform_4 (grid1.coords t) = ![0, t.val] := by
  decide +kernel

theorem index1_0 (t : Fin cfg1.N) : (cfg1.win 0).index t = ![t.val, 0] := (idx_facts1 t).1
theorem index1_1 (t : Fin cfg1.N) : (cfg1.win 1).index t = ![t.val, 0] := (idx_facts1 t).2.1
theorem index1_2 (t : Fin cfg1.N) : (cfg1.win 2).index t = ![0, 0] := (idx_facts1 t).2.2.1
theorem index1_3 (t : Fin cfg1.N) : (cfg1.win 3).index t = ![0, 0] := (idx_facts1 t).2.2.2.1
theorem index1_4 (t : Fin cfg1.N) : (cfg1.win 4).index t = ![0, t.val] := (idx_facts1 t).2.2.2.2

/-- The query rows at point `k` are rows `256 k …` of the feature matrix: a block's coordinate is the block index times
    the block's extent plus the coordinate inside the block. -/
theorem iblk1_0_apply (c : Dev nD) (k : Fin 32) (r q : Fin 256) :
    iblk1 V c 0 (pt1 k) (ix2 r q) = V c main_v26 (ix2 (Cert.Spec.row32 k r) q) := by
  unfold iblk1
  show (V c main_v26 : S8192x256.Idx → Elt F .f32) (((cfg1.win 0).blk (pt1 k)).view.emb (ix2 r q)) = _
  refine congrArg (V c main_v26 : S8192x256.Idx → Elt F .f32) ?_
  have e0 : (cfg1.win 0).index (pt1 k) (0 : Fin 2) = k.val := congrFun (index1_0 (pt1 k)) (0 : Fin 2)
  have e1 : (cfg1.win 0).index (pt1 k) (1 : Fin 2) = 0 := congrFun (index1_0 (pt1 k)) (1 : Fin 2)
  funext a
  apply Fin.ext
  match a with
  | ⟨0, _⟩ => show (cfg1.win 0).index (pt1 k) (0 : Fin 2) * 256 + 1 * r.val = 256 * k.val + r.val; omega
  | ⟨1, _⟩ => show (cfg1.win 0).index (pt1 k) (1 : Fin 2) * 256 + 1 * q.val = q.val; omega

/-- Their labels are rows `256 k …` of the label column. -/
theorem iblk1_1_apply (c : Dev nD) (k : Fin 32) (r : Fin 256) :
    iblk1 V c 1 (pt1 k) (ix2 r (0 : Fin 1)) = V c main_v29 (ix2 (Cert.Spec.row32 k r) (0 : Fin 1)) := by
  unfold iblk1
  show (V c main_v29 : S8192x1.Idx → Elt F .i32) (((cfg1.win 1).blk (pt1 k)).view.emb (ix2 r (0 : Fin 1))) = _
  refine congrArg (V c main_v29 : S8192x1.Idx → Elt F .i32) ?_
  have e0 : (cfg1.win 1).index (pt1 k) (0 : Fin 2) = k.val := congrFun (index1_1 (pt1 k)) (0 : Fin 2)
  have e1 : (cfg1.win 1).index (pt1 k) (1 : Fin 2) = 0 := congrFun (index1_1 (pt1 k)) (1 : Fin 2)
  funext a
  apply Fin.ext
  match a with
  | ⟨0, _⟩ => show (cfg1.win 1).index (pt1 k) (0 : Fin 2) * 256 + 1 * r.val = 256 * k.val + r.val; omega
  | ⟨1, _⟩ => show (cfg1.win 1).index (pt1 k) (1 : Fin 2) * 1 + 1 * 0 = 0; omega

/-- The whole feature matrix, at every point. -/
theorem iblk1_2_apply (c : Dev nD) (t : Fin cfg1.N) (r : Fin 8192) (q : Fin 256) :
    iblk1 V c 2 t (ix2 r q) = V c main_v26 (ix2 r q) := by
  unfold iblk1
  show (V c main_v26 : S8192x256.Idx → Elt F .f32) (((cfg1.win 2).blk t).view.emb (ix2 r q)) = _
  refine congrArg (V c main_v26 : S8192x256.Idx → Elt F .f32) ?_
  have e0 : (cfg1.win 2).index t (0 : Fin 2) = 0 := congrFun (index1_2 t) (0 : Fin 2)
  have e1 : (cfg1.win 2).index t (1 : Fin 2) = 0 := congrFun (index1_2 t) (1 : Fin 2)
  funext a
  apply Fin.ext
  match a with
  | ⟨0, _⟩ => show (cfg1.win 2).index t (0 : Fin 2) * 8192 + 1 * r.val = r.val; omega
  | ⟨1, _⟩ => show (cfg1.win 2).index t (1 : Fin 2) * 256 + 1 * q.val = q.val; omega

/-- The whole label row, at every point. -/
theorem iblk1_3_apply (c : Dev nD) (t : Fin cfg1.N) (r : Fin 8192) :
    iblk1 V c 3 t (ix2 (0 : Fin 1) r) = V c main_v30 (ix2 (0 : Fin 1) r) := by
  unfold iblk1
  show (V c main_v30 : S1x8192.Idx → Elt F .i32) (((cfg1.win 3).blk t).view.emb (ix2 (0 : Fin 1) r)) = _
  refine congrArg (V c main_v30 : S1x8192.Idx → Elt F .i32) ?_
  have e0 : (cfg1.win 3).index t (0 : Fin 2) = 0 := congrFun (index1_3 t) (0 : Fin 2)
  have e1 : (cfg1.win 3).index t (1 : Fin 2) = 0 := congrFun (index1_3 t) (1 : Fin 2)
  funext a
  apply Fin.ext
  match a with
  | ⟨0, _⟩ => show (cfg1.win 3).index t (0 : Fin 2) * 1 + 1 * 0 = 0; omega
  | ⟨1, _⟩ => show (cfg1.win 3).index t (1 : Fin 2) * 8192 + 1 * r.val = r.val; omega

/-- The result row after the region: lane `l` of lane block `k` (column `128 k + l`) is lane `l` of the loss block of
    the input blocks at point `k`. -/
def lossArr (c : Dev nD) : S1x4096.Idx → Elt F .f32 := fun j =>
  lossBlk (grid1.coords (pt1 ⟨(j 1).val / 128, by have := idx2_lt1 j; omega⟩))
    (iblk1 V c 0 (pt1 ⟨(j 1).val / 128, by have := idx2_lt1 j; omega⟩))
    (iblk1 V c 1 (pt1 ⟨(j 1).val / 128, by have := idx2_lt1 j; omega⟩))
    (iblk1 V c 2 (pt1 ⟨(j 1).val / 128, by have := idx2_lt1 j; omega⟩))
    (iblk1 V c 3 (pt1 ⟨(j 1).val / 128, by have := idx2_lt1 j; omega⟩))
    (ix2 (0 : Fin 1) (⟨(j 1).val % 128, Nat.mod_lt _ (by omega)⟩ : Fin 128))

/-- At a column in point `t`'s lane block, read at the lane inside the block. -/
theorem lossArr_of (c : Dev nD) (t : Fin cfg1.N) (j : S1x4096.Idx) (y : S1x128.Idx)
    (h : (j 1).val = 128 * t.val + (y 1).val) :
    lossArr V c j = lossBlk (grid1.coords t) (iblk1 V c 0 t) (iblk1 V c 1 t) (iblk1 V c 2 t) (iblk1 V c 3 t) y := by
  have hy1 : (y 1).val < 128 := idx2_lt1 y
  have hy0 : (y 0).val < 1 := idx2_lt0 y
  have e : pt1 ⟨(j 1).val / 128, by have := idx2_lt1 j; omega⟩ = t := Fin.ext (by show (j 1).val / 128 = t.val; omega)
  unfold lossArr
  rw [e]
  refine congrArg (lossBlk (grid1.coords t) (iblk1 V c 0 t) (iblk1 V c 1 t) (iblk1 V c 2 t) (iblk1 V c 3 t)) ?_
  funext a
  match a with
  | ⟨0, _⟩ => exact Fin.ext (by show 0 = (y 0).val; omega)
  | ⟨1, _⟩ => exact Fin.ext (by show (j 1).val % 128 = (y 1).val; omega)

/-- The result row at column `128 k + l`. -/
theorem lossArr_apply (c : Dev nD) (k : Fin 32) (l : Fin 128) :
    lossArr V c (ix2 (0 : Fin 1) (⟨128 * k.val + l.val, by omega⟩ : Fin 4096))
      = lossBlk (grid1.coords (pt1 k)) (iblk1 V c 0 (pt1 k)) (iblk1 V c 1 (pt1 k)) (iblk1 V c 2 (pt1 k)) (iblk1 V c 3 (pt1 k))
          (ix2 (0 : Fin 1) l) :=
  lossArr_of V c (pt1 k) _ (ix2 (0 : Fin 1) l) rfl

/-- WHAT POINT `t` WRITES BACK is lane block `t` of that row. -/
theorem flushed1_eq (c : Dev nD) (t : Fin cfg1.N) :
    (dat1 V c).flushed 4 t = ((cfg1.win 4).blk t).view.read (Elt F) (lossArr V c) := by
  show (cfg1.win 4).cut (cfg1.grid.coords t) ((dat1 V c).after 4 t) = _
  rw [after1_4]
  have e1 : (cfg1.win 4).index t (1 : Fin 2) = t.val := congrFun (index1_4 t) (1 : Fin 2)
  funext y
  show lossBlk (grid1.coords t) (iblk1 V c 0 t) (iblk1 V c 1 t) (iblk1 V c 2 t) (iblk1 V c 3 t) y
    = lossArr V c (((cfg1.win 4).blk t).view.emb y)
  symm
  refine lossArr_of V c t _ y ?_
  show (cfg1.win 4).index t (1 : Fin 2) * 128 + 1 * (y 1).val = 128 * t.val + (y 1).val
  omega

set_option backward.isDefEq.respectTransparency.types false in
/-- A column of the result row is in point `t`'s lane block iff each coordinate is in the block's range on its axis. -/
theorem mem_blk1 (t : Fin cfg1.N) (i : S1x4096.Idx) :
    i ∈ ((cfg1.win 4).blk t).view.set ↔ ∀ a : Fin 2, (cfg1.win 4).index t a * S1x128.size a ≤ (i a).val ∧ (i a).val < (cfg1.win 4).index t a * S1x128.size a + S1x128.size a := by
  show i ∈ ((View.whole main_v31).slice ((cfg1.win 4).rect t)).set ↔ _
  rw [View.set_slice_whole, Rect.mem_set_unit]
  exact Iff.rfl

/-- Every column of the result row is in the lane block of the point `column / 128`, which writes it back. -/
theorem cover_out1 (i : S1x4096.Idx) :
    ∃ t : Fin cfg1.N, (cfg1.win 4).flush t = true ∧ i ∈ ((cfg1.win 4).blk t).view.set := by
  have hi1 : (i 1).val < 4096 := idx2_lt1 i
  have hi0 : (i 0).val < 1 := idx2_lt0 i
  obtain ⟨t, ht⟩ : ∃ t : Fin cfg1.N, t.val = (i 1).val / 128 := ⟨pt1 ⟨(i 1).val / 128, by omega⟩, rfl⟩
  refine ⟨t, flush1_4 t, ?_⟩
  rw [mem_blk1]
  have e0 : (cfg1.win 4).index t (0 : Fin 2) = 0 := congrFun (index1_4 t) (0 : Fin 2)
  have e1 : (cfg1.win 4).index t (1 : Fin 2) = t.val := congrFun (index1_4 t) (1 : Fin 2)
  intro a
  match a with
  | ⟨0, _⟩ => show (cfg1.win 4).index t (0 : Fin 2) * 1 ≤ (i 0).val ∧ (i 0).val < (cfg1.win 4).index t (0 : Fin 2) * 1 + 1; omega
  | ⟨1, _⟩ => show (cfg1.win 4).index t (1 : Fin 2) * 128 ≤ (i 1).val ∧ (i 1).val < (cfg1.win 4).index t (1 : Fin 2) * 128 + 128; omega

/-- THE RESULT ARRAY after the region is `lossArr` of the entry contents: every point writes back its lane block of it, and
    the lane blocks cover the row. -/
theorem final1 (c : Dev nD) : (dat1 V c).arrAt 4 cfg1.N = lossArr V c :=
  (dat1 V c).arrAt_eq_of_cover 4 (lossArr V c) (fun t _ => flushed1_eq V c t) cover_out1

end Cert.Kernel.Hand

end
-- ==== Proof.K.AsmFrame.lean ====
/- The whole program's frame from the two regions' records: every weakly fair execution of @main terminates, faults
   nowhere and leaves the four argument arrays as launched. The host stretches, the chaining of the thread states and
   the launch are the conditional frame's; the regions' records are entered from and left at exactly its thread states,
   with the generator register and the (empty) debt riding along. -/
import proofs.«419518_j21423296873244_3_alg».proof.Proof.K.Reg0
import proofs.«419518_j21423296873244_3_alg».proof.Proof.K.Reg1
import proofs.«419518_j21423296873244_3_alg».proof.Proof.K.Frame0
import proofs.«419518_j21423296873244_3_alg».proof.Proof.K.Frame1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a0 : (pcfg0 (F := F)).Adm)

/-- The launch's ghost element is the one of the pipelines' staging cells; there is no ghost resource besides. -/
theorem hu₀ :
    (ownU (initOf (Pipeline.cells (Pipeline.pin (pcfgs (F := F)) (adm a0)) (cellOf_inj (adm a0))) (Pipeline.launchToks (Pipeline.pin (pcfgs (F := F)) (adm a0)) (cellOf_inj (adm a0)))) : sProp 𝕄)
      ⊢ |={Set.univ}=> iprop(BI.own (emb₁ (initOf (Pipeline.cells (Pipeline.pin (pcfgs (F := F)) (adm a0)) (cellOf_inj (adm a0))) (Pipeline.launchToks (Pipeline.pin (pcfgs (F := F)) (adm a0)) (cellOf_inj (adm a0)))))
          ∗ bigSep Finset.univ (fun _ : Dev nD => (BI.emp : sProp 𝕄))) := by
  iintro Hu; imodintro
  isplitl [Hu]
  · iapply (show (ownU (initOf (Pipeline.cells (Pipeline.pin (pcfgs (F := F)) (adm a0)) (cellOf_inj (adm a0))) (Pipeline.launchToks (Pipeline.pin (pcfgs (F := F)) (adm a0)) (cellOf_inj (adm a0)))) : sProp 𝕄)
        ⊢ BI.own (emb₁ (initOf (Pipeline.cells (Pipeline.pin (pcfgs (F := F)) (adm a0)) (cellOf_inj (adm a0))) (Pipeline.launchToks (Pipeline.pin (pcfgs (F := F)) (adm a0)) (cellOf_inj (adm a0))))) from .rfl)
    iexact Hu
  iapply (show (BI.emp : sProp 𝕄) ⊢ bigSep Finset.univ (fun _ : Dev nD => (BI.emp : sProp 𝕄)) from by rw [BI.bigSep_emp_const])
  iempintro

/-- What the launch deals each core makes the riding state on every core at once. -/
theorem hE0 :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- The riding state ends owing nothing. -/
theorem hE2 (c : Dev nD) : R (F := F) c ⊢ (iprop(∃ W, owes (c : Thread nD τ) (0 : CellTallies nD τ sig Unit) W) : sProp 𝕄) := by
  iintro ⟨-, HO⟩; iexact HO

/-- THE FRAME at any float instance, given admissible table contents that are the table buffer's entry contents. -/
theorem frame_of_adm (hA0 : ∀ c : Dev nD, ((fun k => Ve0 m c (pre0.ref k)) : pre0.Contents (Elt F)) = a0.1) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond (F := F) m emb₁ () Variants.none L lv (fun _ _ => rfl) ρ (outs m a0) (adm a0) (pdats m a0)
    (0 : Dev nD → CellTallies nD τ sig Unit) (fun _ => (BI.emp : sProp 𝕄)) _ (hu₀ a0)
    (fun _ => R) (hE0 ρ) hE2
    (reg0 m a0 hA0 (fun c => body_obligation0 a0 (Ve0 m) c)) (fun _ => .rfl) (fun _ => .rfl)
    (reg1 m a0 (fun c => body_obligation1 (Ve1 m a0) c)) (fun _ => .rfl) (fun _ => .rfl)

end Cert.Kernel.Hand

end
-- ==== Proof.Feat.lean ====
/- The two small functions the value statements share: a sampled column divided by its clamped Euclidean norm, and
   the similarity of two feature rows (their inner product, doubled: the temperature is one half). -/
import proofs.«419518_j21423296873244_3_alg».proof.Proof.Spec

noncomputable section

namespace Cert.Spec

open Idealize.ShloMosaic
open scoped BigOperators

/-- The float literals both programs carry: `1e-12` (the norm's floor) and `1e-10` (the positives' count's floor), as their binary values. -/
abbrev eps12 : EReal := Ideal.ofBits .f32 0x2B8CBCCC#32
abbrev eps10 : EReal := Ideal.ofBits .f32 0x2EDBE6FF#32

/-- Channel `c` of a column of `256` channel values divided by the column's norm, the norm floored at `eps12`. -/
def gnorm (col : Fin 256 → EReal) (c : Fin 256) : EReal :=
  Ideal.div (col c) (max (Ideal.sqrt (∑ c' : Fin 256, col c' * col c')) eps12)

/-- The similarity of rows `r` and `s` of a feature matrix: their inner product times two. -/
def sim (f : Fin 8192 → Fin 256 → EReal) (r s : Fin 8192) : EReal := (∑ k : Fin 256, f r k * f s k) * ((2 : ℝ) : EReal)

end Cert.Spec

end
-- ==== Proof.Args.lean ====
/- The four argument arrays read as plain functions: the image tensor as `image, channel, pixel` (a pixel `p` of
   the `96 × 96` plane at row `p / 96`, column `p % 96`), the image index of each of the `32` sample groups, the pixel
   index of each of its `256` samples (both as numbers below the extents: the precondition's index ranges), the label
   of each group. From them the reference's feature matrix: row `256 t + v` is sample `v` of group `t`, its channel
   vector divided by its floored norm; and the row's label, its group's. -/
import proofs.«419518_j21423296873244_3_alg».proof.Proof.Feat
import Idealize.ShloMosaic.Lib.ValueIdx

noncomputable section

namespace Cert.Spec

open Idealize.ShloMosaic Idealize.ShloMosaic.ValueIdx
open scoped BigOperators

/-- The group and the sample of a row. -/
def grp (r : Fin 8192) : Fin 32 := ⟨r.val / 256, by omega⟩
def smp (r : Fin 8192) : Fin 256 := ⟨r.val % 256, by omega⟩
theorem grp_row32 (i : Fin 32) (v : Fin 256) : grp (row32 i v) = i := by
  apply Fin.ext; simp only [grp, row32]; omega
theorem smp_row32 (i : Fin 32) (v : Fin 256) : smp (row32 i v) = v := by
  apply Fin.ext; simp only [smp, row32]; omega
theorem row32_grp_smp (r : Fin 8192) : row32 (grp r) (smp r) = r := by
  apply Fin.ext; simp only [grp, smp, row32]; omega

/-- Pixel `p` of the flattened plane. -/
def pixRow (p : Fin 9216) : Fin 96 := ⟨p.val / 96, by omega⟩
def pixCol (p : Fin 9216) : Fin 96 := ⟨p.val % 96, by omega⟩

/-- The image tensor as image, channel, pixel. -/
def imgOf (a0 : (⟨4, ![8, 256, 96, 96]⟩ : Shape).Idx → EReal) (b : Fin 8) (c : Fin 256) (p : Fin 9216) : EReal :=
  a0 (ix4 b c (pixRow p) (pixCol p))
/-- A group's image, a sample's pixel, a group's label: the index arrays as numbers, given their ranges. -/
def imgIdx (a1 : (⟨1, ![32]⟩ : Shape).Idx → BitVec 32) (hb : ∀ t : Fin 32, (a1 (ix1 t)).toNat < 8) (t : Fin 32) : Fin 8 :=
  ⟨(a1 (ix1 t)).toNat, hb t⟩
def pixIdx (a2 : (⟨2, ![32, 256]⟩ : Shape).Idx → BitVec 32) (hs : ∀ (t : Fin 32) (v : Fin 256), (a2 (ix2 t v)).toNat < 9216)
    (t : Fin 32) (v : Fin 256) : Fin 9216 := ⟨(a2 (ix2 t v)).toNat, hs t v⟩
def grpLab (a3 : (⟨1, ![32]⟩ : Shape).Idx → BitVec 32) (t : Fin 32) : BitVec 32 := a3 (ix1 t)

/-- The feature matrix of the sample groups taken in the order `ord` (the identity for the reference; the kernel's
    sort order for the kernel): row `256 s + v` is sample `v` of group `ord s`. -/
def featM (x : Fin 8 → Fin 256 → Fin 9216 → EReal) (b : Fin 32 → Fin 8) (p : Fin 32 → Fin 256 → Fin 9216)
    (ord : Fin 32 → Fin 32) (r : Fin 8192) (c : Fin 256) : EReal :=
  gnorm (fun c' => x (b (ord (grp r))) c' (p (ord (grp r)) (smp r))) c
/-- The rows' labels in that order. -/
def labM (lab : Fin 32 → BitVec 32) (ord : Fin 32 → Fin 32) (r : Fin 8192) : BitVec 32 := lab (ord (grp r))

/-- What both programs return: minus the total over `8192` rows, over `8192` (the reference divides, then negates). -/
def lossR (x : Fin 8 → Fin 256 → Fin 9216 → EReal) (b : Fin 32 → Fin 8) (p : Fin 32 → Fin 256 → Fin 9216) (lab : Fin 32 → BitVec 32) : EReal :=
  -(Ideal.div (total (sim (featM x b p id)) (labM lab id) eps10) ((8192 : ℝ) : EReal))

end Cert.Spec

end
-- ==== Proof.K.HostPre.lean ====
/- The host side before the first kernel call. The sample groups are processed in the order a stable sort of their
   image indices produces: that order is a permutation σ of the thirty-two groups (position s holds group σ s). Read at an
   index, the table of image indices handed to the first call holds, at s, the image index of group σ s; the labels
   handed on hold the label of group σ s; the sample indices hold, at (s, v), sample v of group σ s, the clip into
   0 … 9215 being the identity on indices already there; and the image tensor is handed over with each 96 × 96 plane
   flattened to 9216 pixels. The three gathers go through the sort order with negative positions counted from the end:
   the order's entries are positions 0 … 31, so that normalisation and the gather's clamp both leave them. Every entry
   of the table is an entry of the image-index argument, so it names one of the eight images as soon as every image
   index does. -/
import proofs.«419518_j21423296873244_3_alg».proof.Proof.Gen.Kernel.Regions
import proofs.«419518_j21423296873244_3_alg».proof.Proof.Args
import Idealize.ShloMosaic.Lib.StableHlo.Run
import Idealize.ShloMosaic.Lib.SortFacts
import Idealize.ShloMosaic.Lib.ValueIdx
import Idealize.ShloMosaic.Lib.Pipeline.Value
import Idealize.ShloMosaic.Lib.StableHlo.Predicate

set_option maxRecDepth 16384

noncomputable section

namespace Cert.Kernel.Hand

open Cert.Kernel Cert.Kernel.Gen
open Idealize.ShloMosaic Idealize.ShloMosaic.TcCoe Idealize.ShloMosaic.ValueIdx
open Idealize.ShloMosaic.StableHlo
open Idealize.SL.Sem
open Cert.Spec (pixRow pixCol)

variable {F : FTy → Type} [FloatOps F]
variable (m : (ℓ : Loc nD τ sig) → Buf (Elt F) ℓ) (c : Dev nD)

/-! ## Indices -/

theorem ix1_eq_ofFin {n : Nat} (k : Fin n) : (ix1 k : (⟨1, ![n]⟩ : Shape).Idx) = Shape.Idx.ofFin k := by
  funext a; match a with | ⟨0, _⟩ => rfl

/-! ## A stable sort of a vector carrying a second vector -/

/-- The order a stable sort of the pairs (x k, y k) by cmp produces: position k of the sorted vectors holds the
    entries of position sortOrd k. -/
def sortOrd {n : Nat} {α β : Type} (cmp : α × β → α × β → BitVec 1) (x : (⟨1, ![n]⟩ : Shape).Idx → α)
    (y : (⟨1, ![n]⟩ : Shape).Idx → β) : Fin n → Fin n :=
  sortedFrom fun k k' => cmp (x (Shape.Idx.ofFin k), y (Shape.Idx.ofFin k)) (x (Shape.Idx.ofFin k'), y (Shape.Idx.ofFin k')) == 1#1

/-- It is a bijection of the positions, whatever the comparator. -/
theorem sortOrd_bijective {n : Nat} {α β : Type} (cmp : α × β → α × β → BitVec 1) (x : (⟨1, ![n]⟩ : Shape).Idx → α)
    (y : (⟨1, ![n]⟩ : Shape).Idx → β) : Function.Bijective (sortOrd cmp x y) :=
  ⟨sortedFrom_injective _, sortedFrom_surjective _⟩

set_option maxHeartbeats 400000 in
/-- The carried vector after the sort, read at a position. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j = y (Shape.Idx.ofFin (sortOrd cmp x y (j 0))) := by
  unfold Host.sort2 sortOrd
  simp

attribute [irreducible] sortOrd

/-! ## Words -/

set_option maxHeartbeats 400000 in
/-- A position below 32, as a word, is not negative: wrapping it by 32 when negative leaves it, and read back signed and
    clamped into 0 … 31 it is itself. -/
theorem wrap_take : ∀ q : Fin 32,
    min (Scalar.select (IntOp.cmpi .slt (BitVec.ofNat 32 q.val) 0#32) (IntOp.addi (BitVec.ofNat 32 q.val) 32#32)
      (BitVec.ofNat 32 q.val)).toInt.toNat (32 - 1) = q.val := by
  decide

set_option maxHeartbeats 400000 in
/-- Clipping a word already in 0 … 9215 into that range leaves it. -/
theorem clip_id (w : BitVec 32) (hw : w.toNat < 9216) : IntOp.minsi 9215#32 (IntOp.maxsi 0#32 w) = w := by
  have hti : w.toInt = w.toNat := Predicate.toInt_eq_toNat_of_lt (by omega)
  have h0 : (0#32 : BitVec 32).toInt = 0 := by decide
  have h9 : (9215#32 : BitVec 32).toInt = 9215 := by decide
  have hmax : IntOp.maxsi 0#32 w = w := by
    unfold IntOp.maxsi
    split <;> rename_i hc <;> simp only [BitVec.slt, hti, h0, decide_eq_true_eq] at hc
    all_goals first | rfl | (apply BitVec.eq_of_toNat_eq; simp only [BitVec.toNat_ofNat]; omega)
  rw [hmax]
  unfold IntOp.minsi
  split <;> rename_i hc <;> simp only [BitVec.slt, hti, h9, decide_eq_true_eq] at hc
  all_goals first | rfl | (apply BitVec.eq_of_toNat_eq; simp only [BitVec.toNat_ofNat]; omega)

/-! ## The index-wrapped gathers -/

/-- Index normalisation: a negative position counts from the end. -/
def wrap32 (o : IVec S32 32) : IVec S32 32 :=
  select (cmpi .slt o (broadcastInDim S32 ![] bcast_S_S32 (constantI S_ 32 0#32)))
    (addi o (broadcastInDim S32 ![] bcast_S_S32 (constantI S_ 32 32#32))) o

set_option maxHeartbeats 400000 in
/-- A whole row of a [32, 256] array taken through a [32, 1] column of row numbers: row p of the result is the row of the
    operand whose number the column holds at p, read signed and clamped into 0 … 31. -/
theorem gather_rows_apply {α : Type} {w : Nat} (x : S32x256.Idx → α) (idx : IVec S32x1 w) (p : Fin 32) (v : Fin 256) :
    Host.gather gather_S32x256_S32x1_S32x256_1_0_n_n_0_1_1256 x idx (ix2 p v)
      = x (ix2 (⟨min (idx (Predicate.ixP p)).toInt.toNat (32 - 1), by omega⟩ : Fin 32) v) := by
  unfold Host.gather
  refine congrArg x (funext fun a => Fin.ext ?_)
  match a with
  | ⟨0, _⟩ =>
    show gather_S32x256_S32x1_S32x256_1_0_n_n_0_1_1256.start (ix2 p v) idx (0 : Fin S32x256.rank)
        + gather_S32x256_S32x1_S32x256_1_0_n_n_0_1_1256.batchCoord (ix2 p v) (0 : Fin S32x256.rank)
        + gather_S32x256_S32x1_S32x256_1_0_n_n_0_1_1256.offCoord (ix2 p v) (0 : Fin S32x256.rank)
        = min (idx (Predicate.ixP p)).toInt.toNat (32 - 1)
    have hb : (0 : Fin S32x256.rank) ∉ gather_S32x256_S32x1_S32x256_1_0_n_n_0_1_1256.operandBatchingDims := by decide
    have hk : (0 : Fin S32x256.rank) ∉ gather_S32x256_S32x1_S32x256_1_0_n_n_0_1_1256.sKept := by decide
    have hm : (0 : Fin S32x256.rank) ∈ gather_S32x256_S32x1_S32x256_1_0_n_n_0_1_1256.startIndexMap := by decide
    rw [GatherDims.batchCoord_eq_zero _ _ _ hb, GatherDims.offCoord_eq_zero _ _ _ hk]
    simp only [Nat.add_zero]
    unfold GatherDims.start
    rw [dif_pos hm]
    have hsi : gather_S32x256_S32x1_S32x256_1_0_n_n_0_1_1256.siIdx (ix2 p v)
        ⟨List.idxOf (0 : Fin S32x256.rank) gather_S32x256_S32x1_S32x256_1_0_n_n_0_1_1256.startIndexMap,
          List.idxOf_lt_length_iff.2 hm⟩ = Predicate.ixP p := by
      funext b; refine Fin.ext ?_
      match b with
      | ⟨0, _⟩ => rfl
      | ⟨1, _⟩ => rfl
    rw [hsi]
    rfl
  | ⟨1, _⟩ =>
    show gather_S32x256_S32x1_S32x256_1_0_n_n_0_1_1256.start (ix2 p v) idx (1 : Fin S32x256.rank)
        + gather_S32x256_S32x1_S32x256_1_0_n_n_0_1_1256.batchCoord (ix2 p v) (1 : Fin S32x256.rank)
        + gather_S32x256_S32x1_S32x256_1_0_n_n_0_1_1256.offCoord (ix2 p v) (1 : Fin S32x256.rank) = v.val
    have hb : (1 : Fin S32x256.rank) ∉ gather_S32x256_S32x1_S32x256_1_0_n_n_0_1_1256.operandBatchingDims := by decide
    have hk : (1 : Fin S32x256.rank) ∈ gather_S32x256_S32x1_S32x256_1_0_n_n_0_1_1256.sKept := by decide
    have hm : (1 : Fin S32x256.rank) ∉ gather_S32x256_S32x1_S32x256_1_0_n_n_0_1_1256.startIndexMap := by decide
    rw [GatherDims.batchCoord_eq_zero _ _ _ hb]
    unfold GatherDims.start GatherDims.offCoord
    rw [dif_neg hm, dif_pos hk]
    simp only [Nat.add_zero, Nat.zero_add]
    rfl

set_option maxHeartbeats 400000 in
/-- The wrapped positions at p, read back signed and clamped, when the position vector holds the number q there. -/
theorem wrapped_at (o : IVec S32 32) (p q : Fin 32) (ho : o (Shape.Idx.ofFin p) = BitVec.ofNat 32 q.val) :
    min (broadcastInDim S32x1 ![0] bcast_S32_S32x1_0 (wrap32 o) (Predicate.ixP p)).toInt.toNat (32 - 1) = q.val := by
  rw [Predicate.bcast_col1]
  show min (Scalar.select (IntOp.cmpi .slt (o (Shape.Idx.ofFin p)) 0#32) (IntOp.addi (o (Shape.Idx.ofFin p)) 32#32)
    (o (Shape.Idx.ofFin p))).toInt.toNat (32 - 1) = q.val
  rw [ho]
  exact wrap_take q

set_option maxHeartbeats 400000 in
/-- An entry of a vector taken through the wrapped positions: at p, the entry the position vector names there. -/
theorem take_wrapped {α : Type} (x : S32.Idx → α) (o : IVec S32 32) (p q : Fin 32)
    (ho : o (Shape.Idx.ofFin p) = BitVec.ofNat 32 q.val) :
    Host.gather gather_S32_S32x1_S32_n_0_n_n_0_1_1 x (broadcastInDim S32x1 ![0] bcast_S32_S32x1_0 (wrap32 o)) (Shape.Idx.ofFin p)
      = x (Shape.Idx.ofFin q) := by
  rw [Predicate.gather_take gather_S32_S32x1_S32_n_0_n_n_0_1_1 rfl rfl rfl rfl x _ p (by decide)]
  exact congrArg x (congrArg Shape.Idx.ofFin (Fin.ext (wrapped_at o p q ho)))

set_option maxHeartbeats 400000 in
/-- A row taken through the wrapped positions: row p is the row the position vector names there. -/
theorem take_rows_wrapped {α : Type} (x : S32x256.Idx → α) (o : IVec S32 32) (p q : Fin 32) (v : Fin 256)
    (ho : o (Shape.Idx.ofFin p) = BitVec.ofNat 32 q.val) :
    Host.gather gather_S32x256_S32x1_S32x256_1_0_n_n_0_1_1256 x (broadcastInDim S32x1 ![0] bcast_S32_S32x1_0 (wrap32 o)) (ix2 p v)
      = x (ix2 q v) := by
  rw [gather_rows_apply]
  exact congrArg x (congrArg (fun r : Fin 32 => ix2 r v) (Fin.ext (wrapped_at o p q ho)))

/-! ## The host stretches, read off at any contents before them -/

section Stretches
variable (V : Valuation τ sig (Elt F))

set_option maxHeartbeats 400000 in
theorem ops0_v0 : (StableHlo.after (hostOps0 (F := F)) V (Proc.devRef .tc main_v0) : S8x256x9216.Idx → F .f32)
    = shapeCast S8x256x9216 (V main_arg0 : S8x256x96x96.Idx → F .f32) shapeCasts_S8x256x96x96_S8x256x9216 := by
  after_results
  rfl

set_option maxHeartbeats 400000 in
theorem ops1_v1 : (StableHlo.after (hostOps0_1 (F := F)) V (Proc.devRef .tc main_v1) : S32.Idx → BitVec 32)
    = (Host.sort2 S32 0 comparator_i32_i32_d0 (V main_arg1 : S32.Idx → BitVec 32) (iotaInDim S32 32 0)).2 := by
  after_results
  rfl

set_option maxHeartbeats 1000000 in
theorem ops2_v8 : (StableHlo.after (hostOps0_2 (F := F)) V (Proc.devRef .tc main_v8) : S32.Idx → BitVec 32)
    = Host.gather gather_S32_S32x1_S32_n_0_n_n_0_1_1 (V main_arg1 : S32.Idx → BitVec 32)
        (broadcastInDim S32x1 ![0] bcast_S32_S32x1_0 (wrap32 (V main_v1))) := by
  after_results_simp
  rfl

set_option maxHeartbeats 1000000 in
theorem ops2_v22 : (StableHlo.after (hostOps0_2 (F := F)) V (Proc.devRef .tc main_v22) : S32.Idx → BitVec 32)
    = Host.gather gather_S32_S32x1_S32_n_0_n_n_0_1_1 (V main_arg3 : S32.Idx → BitVec 32)
        (broadcastInDim S32x1 ![0] bcast_S32_S32x1_0 (wrap32 (V main_v1))) := by
  after_results_simp
  rfl

set_option maxHeartbeats 1000000 in
theorem ops2_v15 : (StableHlo.after (hostOps0_2 (F := F)) V (Proc.devRef .tc main_v15) : S32x256.Idx → BitVec 32)
    = Host.gather gather_S32x256_S32x1_S32x256_1_0_n_n_0_1_1256 (V main_arg2 : S32x256.Idx → BitVec 32)
        (broadcastInDim S32x1 ![0] bcast_S32_S32x1_0 (wrap32 (V main_v1))) := by
  after_results_simp
  rfl

set_option maxHeartbeats 1000000 in
theorem ops2_c5 : (StableHlo.after (hostOps0_2 (F := F)) V (Proc.devRef .tc main_c_5) : S_.Idx → BitVec 32)
    = constantI S_ 32 0#32 := by
  after_results_simp

set_option maxHeartbeats 1000000 in
theorem ops2_c6 : (StableHlo.after (hostOps0_2 (F := F)) V (Proc.devRef .tc main_c_6) : S_.Idx → BitVec 32)
    = constantI S_ 32 9215#32 := by
  after_results_simp

set_option maxHeartbeats 400000 in
theorem ops3_v23 : (StableHlo.after (hostOps0_3 (F := F)) V (Proc.devRef .tc main_v23) : S32x256.Idx → BitVec 32)
    = minsi (broadcastInDim S32x256 ![] bcast_S_S32x256 (V main_c_6 : S_.Idx → BitVec 32))
        (maxsi (broadcastInDim S32x256 ![] bcast_S_S32x256 (V main_c_5 : S_.Idx → BitVec 32)) (V main_v15 : S32x256.Idx → BitVec 32)) := by
  after_results
  rfl

set_option maxHeartbeats 400000 in
theorem ops4_v24 : (StableHlo.after (hostOps0_4 (F := F)) V (Proc.devRef .tc main_v24) : S32x1x256.Idx → BitVec 32)
    = shapeCast S32x1x256 (V main_v23 : S32x256.Idx → BitVec 32) shapeCasts_S32x256_S32x1x256 := by
  after_results
  rfl

end Stretches

/-! ## The order of the groups, and the arrays handed to the first call -/

/-- The order of the sample groups: position s holds group sortPerm s (the order a stable sort of the groups' image
    indices, as signed words, produces). -/
def sortPerm : Equiv.Perm (Fin 32) :=
  Equiv.ofBijective (sortOrd comparator_i32_i32_d0 (m ((c : Thread nD τ).loc main_arg1)) (iotaInDim S32 32 0))
    (sortOrd_bijective _ _ _)

/-- No host operation before the first call writes an argument. -/
theorem V1_arg1 : (V1 m c main_arg1 : S32.Idx → BitVec 32) = m ((c : Thread nD τ).loc main_arg1) :=
  (V1_of m c main_arg1 (by decide)).trans rfl
theorem V2_arg1 : (V2 m c main_arg1 : S32.Idx → BitVec 32) = m ((c : Thread nD τ).loc main_arg1) :=
  (V2_of m c main_arg1 (by decide)).trans (V1_arg1 m c)
theorem V2_arg2 : (V2 m c main_arg2 : S32x256.Idx → BitVec 32) = m ((c : Thread nD τ).loc main_arg2) :=
  (V2_of m c main_arg2 (by decide)).trans ((V1_of m c main_arg2 (by decide)).trans rfl)
theorem V2_arg3 : (V2 m c main_arg3 : S32.Idx → BitVec 32) = m ((c : Thread nD τ).loc main_arg3) :=
  (V2_of m c main_arg3 (by decide)).trans ((V1_of m c main_arg3 (by decide)).trans rfl)

set_option maxHeartbeats 400000 in
/-- The sort order as words: position s holds the number of group sortPerm s. -/
theorem V2_v1_apply (s : Fin 32) : V2 m c main_v1 (Shape.Idx.ofFin s) = BitVec.ofNat 32 (sortPerm m c s).val := by
  show StableHlo.after hostOps0_1 (V1 m c) (Proc.devRef .tc main_v1) (Shape.Idx.ofFin s) = _
  rw [ops1_v1, V1_arg1, sort2_snd_rank1, Predicate.iota_apply, Shape.Idx.ofFin_zero]
  rfl

set_option maxHeartbeats 400000 in
/-- The table of image indices at position s: the image index of group sortPerm s. -/
theorem v8_apply (s : Fin 32) :
    V5 m c main_v8 (ix1 s) = m ((c : Thread nD τ).loc main_arg1) (ix1 (sortPerm m c s)) := by
  rw [V5_of m c main_v8 (by decide), V4_of m c main_v8 (by decide)]
  simp only [ix1_eq_ofFin]
  show StableHlo.after hostOps0_2 (V2 m c) (Proc.devRef .tc main_v8) (Shape.Idx.ofFin s) = _
  rw [ops2_v8, V2_arg1]
  exact take_wrapped _ _ s (sortPerm m c s) (V2_v1_apply m c s)

set_option maxHeartbeats 400000 in
/-- The labels at position s: the label of group sortPerm s. -/
theorem v22_apply (s : Fin 32) :
    V5 m c main_v22 (ix1 s) = m ((c : Thread nD τ).loc main_arg3) (ix1 (sortPerm m c s)) := by
  rw [V5_of m c main_v22 (by decide), V4_of m c main_v22 (by decide)]
  simp only [ix1_eq_ofFin]
  show StableHlo.after hostOps0_2 (V2 m c) (Proc.devRef .tc main_v22) (Shape.Idx.ofFin s) = _
  rw [ops2_v22, V2_arg3]
  exact take_wrapped _ _ s (sortPerm m c s) (V2_v1_apply m c s)

set_option maxHeartbeats 400000 in
/-- The sorted sample indices before the clip, at (s, v): sample v of group sortPerm s. -/
theorem V3_v15_apply (s : Fin 32) (v : Fin 256) :
    V3 m c main_v15 (ix2 s v) = m ((c : Thread nD τ).loc main_arg2) (ix2 (sortPerm m c s) v) := by
  show StableHlo.after hostOps0_2 (V2 m c) (Proc.devRef .tc main_v15) (ix2 s v) = _
  rw [ops2_v15, V2_arg2]
  exact take_rows_wrapped _ _ s (sortPerm m c s) v (V2_v1_apply m c s)

set_option maxHeartbeats 400000 in
/-- The sample indices at (s, 0, v): sample v of group sortPerm s, when every sample index is below 9216. -/
theorem v24_apply (hs : ∀ (t : Fin 32) (v : Fin 256), (m ((c : Thread nD τ).loc main_arg2) (ix2 t v)).toNat < 9216)
    (s : Fin 32) (u : Fin 1) (v : Fin 256) :
    V5 m c main_v24 (ix3 s u v) = m ((c : Thread nD τ).loc main_arg2) (ix2 (sortPerm m c s) v) := by
  show StableHlo.after hostOps0_4 (V4 m c) (Proc.devRef .tc main_v24) (ix3 s u v) = _
  rw [ops4_v24]
  rw [shapeCast_apply (s := S32x256) (t := S32x1x256) _ shapeCasts_S32x256_S32x1x256 (ix3 s u v) (ix2 s v) (by
    rw [Shape.rowMajor_val_two, Shape.rowMajor_val_three]
    show s.val * 256 + v.val = (s.val * 1 + u.val) * 256 + v.val
    have := u.isLt
    omega)]
  show StableHlo.after hostOps0_3 (V3 m c) (Proc.devRef .tc main_v23) (ix2 s v) = _
  rw [ops3_v23]
  have h5 : (V3 m c main_c_5 : S_.Idx → BitVec 32) = constantI S_ 32 0#32 := ops2_c5 (V2 m c)
  have h6 : (V3 m c main_c_6 : S_.Idx → BitVec 32) = constantI S_ 32 9215#32 := ops2_c6 (V2 m c)
  rw [h5, h6]
  show IntOp.minsi 9215#32 (IntOp.maxsi 0#32 (V3 m c main_v15 (ix2 s v))) = _
  rw [V3_v15_apply]
  exact clip_id _ (hs _ _)

set_option maxHeartbeats 400000 in
/-- The image tensor with its planes flattened: pixel p is row p / 96, column p % 96. -/
theorem v0_apply (b : Fin 8) (ch : Fin 256) (p : Fin 9216) :
    V5 m c main_v0 (ix3 b ch p) = m ((c : Thread nD τ).loc main_arg0) (ix4 b ch (pixRow p) (pixCol p)) := by
  rw [V5_of m c main_v0 (by decide), V4_of m c main_v0 (by decide), V3_of m c main_v0 (by decide), V2_of m c main_v0 (by decide)]
  show StableHlo.after hostOps0 (V0 m c) (Proc.devRef .tc main_v0) (ix3 b ch p) = _
  rw [ops0_v0]
  refine shapeCast_apply (s := S8x256x96x96) (t := S8x256x9216) _ _ _ _ ?_
  rw [Shape.rowMajor_val_four, Shape.rowMajor_val_three]
  show ((b.val * 256 + ch.val) * 96 + (pixRow p).val) * 96 + (pixCol p).val = (b.val * 256 + ch.val) * 9216 + p.val
  simp only [pixRow, pixCol]
  omega

/-! ## The table the first call's index maps read -/

/-- The contents of the table at the first call's entry. -/
def tbl : pre0.Contents (Elt F) := fun j => V5 m c (pre0.ref j)

theorem tbl_eq (j : Fin pre0.K) : tbl m c j = V5 m c (pre0.ref j) := rfl
theorem tbl_zero : tbl m c 0 = V5 m c main_v8 := rfl

set_option maxHeartbeats 400000 in
theorem tbl_apply (s : Fin 32) :
    tbl m c 0 (ix1 s) = m ((c : Thread nD τ).loc main_arg1) (ix1 (sortPerm m c s)) := by
  show V5 m c main_v8 (ix1 s) = _
  exact v8_apply m c s

set_option maxHeartbeats 400000 in
/-- A table whose every entry is below 8 names an image at every grid point: the block of the image tensor the first
    call fetches there lies inside it (and is of whole words, the elements being words). -/
theorem ok0_of_lt (pf : pre0.Contents (Elt F)) (h : ∀ x : S32.Idx, (pf 0 x : BitVec 32).toNat < 8) : ok0 pf := by
  intro i
  obtain ⟨w, hw, e⟩ : ∃ w : BitVec 32, w.toNat < 8 ∧ cc0_transform_0 k0_off1_inb numel1_S1 pf i = ![w.toNat, 0, 0] :=
    ⟨_, h _, rfl⟩
  refine ⟨fun a => ?_, Or.inl rfl⟩
  rw [e]
  fin_cases a <;> simp [S1x256x9216, S8x256x9216] <;> omega

set_option maxHeartbeats 400000 in
/-- Every entry of the table names one of the eight images as soon as every image index does: the blocks of the
    image tensor the first call fetches lie inside it. -/
theorem ok0_of (hb : ∀ t : Fin 32, (m ((c : Thread nD τ).loc main_arg1) (ix1 t)).toNat < 8) :
    ok0 (tbl m c) :=
  ok0_of_lt (tbl m c) fun x => by
    obtain ⟨t, rfl⟩ : ∃ t : Fin 32, x = ix1 t := ⟨x 0, eq_ix1 x⟩
    rw [tbl_apply]
    exact hb _

attribute [irreducible] sortPerm

end Cert.Kernel.Hand

end
-- ==== Proof.KI.Blocks.lean ====
/- What each kernel's body computes from its input blocks, as pure functions over the arithmetic of the printed
   bodies (the payload terms): for the gather kernel the accumulator after each column chunk and the normalised rows;
   for the loss kernel the scaled product tile by tile, the running row maximum, the cached exponentials, the
   negatives' sum, the numerator and denominator of the mean log-probability, and the lane block it stores.
   Nothing here mentions memory: the runs are tied to these functions elsewhere. -/
import proofs.«419518_j21423296873244_3_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F]

/-! ## The gather kernel -/

/-- The whole index row, the whole accumulator, the whole output block. -/
abbrev rIdx : Rect S1x1x256 := Rect.unit (s := S1x1x256) ![0, 0, 0] S1x1x256.size inb_S1x1x256_S1x1x256_0_0_0
abbrev rAcc : Rect S256x256 := Rect.unit (s := S256x256) ![0, 0] S256x256.size inb_S256x256_S256x256_0_0
abbrev rOut0 : Rect S1x256x256 := Rect.unit (s := S1x256x256) ![0, 0, 0] S1x256x256.size inb_S1x256x256_S1x256x256_0_0_0
/-- Column chunk `k` of the image block: all channels, columns `2304 k … 2304 k + 2303`. -/
abbrev rImg (k : Fin k0_t1_loop.trips) : Rect S1x256x9216 := Rect.unit (s := S1x256x9216) (k0_off2 k) S1x256x2304.size (k0_off2_inb k)

/-- The accumulator before chunk `k`: zero, then one chunk's one-hot products added per step. -/
def gatherAcc (x0 : Vec F S1x256x9216 .f32) (x1 : Vec F S1x1x256 .i32) : ℕ → Vec F S256x256 .f32
  | 0 => k0_pay1
  | k + 1 => if h : k < k0_t1_loop.trips then
      k0_pay2 (View.ld x1 rIdx) ⟨k, h⟩ (View.ld x0 (rImg ⟨k, h⟩)) (View.ld (gatherAcc x0 x1 k) rAcc)
    else gatherAcc x0 x1 k

/-- What the gather kernel stores in its output block: the accumulated rows, each divided by its clamped norm. -/
def gatherBlk (x0 : Vec F S1x256x9216 .f32) (x1 : Vec F S1x1x256 .i32) : Vec F S1x256x256 .f32 :=
  View.canon [⟨rOut0, k0_pay3 (View.ld (gatherAcc x0 x1 k0_t1_loop.trips) rAcc)⟩]

/-! ## The loss kernel -/

abbrev rQ : Rect S256x256 := Rect.unit (s := S256x256) ![0, 0] S256x256.size inb_S256x256_S256x256_0_0
abbrev rCol : Rect S256x1 := Rect.unit (s := S256x1) ![0, 0] S256x1.size inb_S256x1_S256x1_0_0
abbrev rOut1 : Rect S1x128 := Rect.unit (s := S1x128) ![0, 0] S1x128.size inb_S1x128_S1x128_0_0
/-- Row tile `k` of the feature matrix (rows `1024 k …`), and the matching tile of the label row, as each loop addresses it. -/
abbrev rFeat (k : Fin k1_t1_loop.trips) : Rect S8192x256 := Rect.unit (s := S8192x256) (k1_off1 k) S1024x256.size (k1_off1_inb k)
abbrev rLab2 (k : Fin k1_t2_loop.trips) : Rect S1x8192 := Rect.unit (s := S1x8192) (k1_off4 k) S1x1024.size (k1_off4_inb k)
abbrev rLab3 (k : Fin k1_t3_loop.trips) : Rect S1x8192 := Rect.unit (s := S1x8192) (k1_off6 k) S1x1024.size (k1_off6_inb k)

section Loss
variable (i : grid1.Coords) (x0 : Vec F S256x256 .f32) (x1 : Vec F S256x1 .i32) (x2 : Vec F S8192x256 .f32) (x3 : Vec F S1x8192 .i32)

/-- The scaled product of the query rows with feature tile `k`. -/
def lossDot (k : Fin k1_t1_loop.trips) : Vec F S256x1024 .f32 := k1_pay11 (View.ld x0 rQ) (View.ld x2 (rFeat k))

/-- The running row maximum before tile `k`. -/
def lossMax : ℕ → Vec F S256x1 .f32
  | 0 => k1_pay9
  | k + 1 => if h : k < k1_t1_loop.trips then
      k1_pay12 (View.ld x0 rQ) (View.ld x2 (rFeat ⟨k, h⟩)) (View.ld (lossMax k) rCol)
    else lossMax k

/-- The row maximum over all columns. -/
def lossRowMax : Vec F S256x1 .f32 := View.ld (lossMax x0 x2 k1_t1_loop.trips) rCol

/-- The exponentials of the shifted products of tile `k`. -/
def lossExp (k : Fin k1_t2_loop.trips) (hk : k.val < k1_t1_loop.trips) : Vec F S256x1024 .f32 :=
  k1_pay15 (lossRowMax x0 x2) (lossDot x0 x2 ⟨k.val, hk⟩)

/-- The negatives' sum before tile `k`. -/
def lossNeg : ℕ → Vec F S256x1 .f32
  | 0 => k1_pay13
  | k + 1 => if h : k < k1_t2_loop.trips ∧ k < k1_t1_loop.trips then
      k1_pay16 (View.ld x1 rCol) (lossRowMax x0 x2) (lossDot x0 x2 ⟨k, h.2⟩) (View.ld x3 (rLab2 ⟨k, h.1⟩)) (View.ld (lossNeg k) rCol)
    else lossNeg k

/-- The negatives' sum over all columns. -/
def lossNegSum : Vec F S256x1 .f32 := View.ld (lossNeg x0 x1 x2 x3 k1_t2_loop.trips) rCol

/-- The numerator (the positives' log-probabilities summed) before tile `k`. -/
def lossNum : ℕ → Vec F S256x1 .f32
  | 0 => k1_pay17
  | k + 1 => if h : k < k1_t3_loop.trips ∧ k < k1_t2_loop.trips ∧ k < k1_t1_loop.trips then
      k1_pay5 (k1_pay7 (View.ld x1 rCol)) (k1_pay8 i) (lossRowMax x0 x2) (lossNegSum x0 x1 x2 x3) 0#32 1#32 ⟨k, h.1⟩
        (lossDot x0 x2 ⟨k, h.2.2⟩) (lossExp x0 x2 ⟨k, h.2.1⟩ h.2.2) (View.ld x3 (rLab3 ⟨k, h.1⟩)) (View.ld (lossNum k) rCol)
    else lossNum k

/-- The denominator (the count of positives) before tile `k`. -/
def lossDen : ℕ → Vec F S256x1 .f32
  | 0 => k1_pay1 k1_pay18
  | k + 1 => if h : k < k1_t3_loop.trips then
      k1_pay2 (View.ld (lossDen k) rCol) (k1_pay6 (F := F) (k1_pay7 (View.ld x1 rCol)) (k1_pay8 i) 0#32 1#32 ⟨k, h⟩ (View.ld x3 (rLab3 ⟨k, h⟩)))
    else lossDen k

/-- What the loss kernel stores in its output lane block: the tile's summed mean log-probabilities in lane 0. -/
def lossBlk : Vec F S1x128 .f32 :=
  View.canon [⟨rOut1, k1_pay3 (View.ld (lossNum i x0 x1 x2 x3 k1_t3_loop.trips) rCol) (View.ld (lossDen i x1 x3 k1_t3_loop.trips) rCol)⟩]

end Loss

end Cert.KernelIdeal.Hand

end
-- ==== Proof.KI.Dat0.lean ====
/- The gather region's proof data, at any admissible contents `a0` of the prefetched table and any contents `V` of the
   TensorCore's buffers at the region's entry: each input window's staging buffer holds its block after the body as
   before it; the output window's holds the gathered, normalised block of the two input blocks; the region's invariant
   is the scoped buffers no window stages, the generator register, and the table held whole. -/
import proofs.«419518_j21423296873244_3_alg».proof.Proof.KI.Blocks
import proofs.«419518_j21423296873244_3_alg».proof.Proof.Gen.KernelIdeal.Launch
import Idealize.ShloMosaic.Lib.Pipeline.FrameBody
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a0 : (pcfg0 (F := F)).Adm)
variable (V : (c : Dev nD) → (b : Ref sig .tc) → Buf (Elt F) ((c : Thread nD τ).loc b))

/-- Window `w`'s block at point `t`, read off its array as the region finds it. -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-- The proof data of the gather pipeline on core `c`. -/
def dat0 (c : Dev nD) : Dat τ (Elt F) Unit ℕ (UR sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => gatherBlk (iblk0 a0 V c 0 t) (iblk0 a0 V c 1 t)
  Φ _ := iprop(Pipeline.ΦA spec0 c ∗ Pipeline.prefHeld (Ix := Unit) (Name := ℕ) (U := UR sig nD τ) (Lvl := ℕ) pre0 c (fun _ => fullShare) a0.1)
  q _ := fullShare
  owed _ := 0

theorem A_eq0 (c : Dev nD) (w : Fin (cfg0 a0).W) : (dat0 a0 V c).A w = V c (Pipeline.arrRef spec0 w) := by
  dsimp only [dat0]
theorem after0_0 (c : Dev nD) (t : Fin (cfg0 a0).N) : (dat0 a0 V c).after 0 t = iblk0 a0 V c 0 t := by dsimp only [dat0]; rfl
theorem after0_1 (c : Dev nD) (t : Fin (cfg0 a0).N) : (dat0 a0 V c).after 1 t = iblk0 a0 V c 1 t := by dsimp only [dat0]; rfl
theorem after0_2 (c : Dev nD) (t : Fin (cfg0 a0).N) :
    (dat0 a0 V c).after 2 t = gatherBlk (iblk0 a0 V c 0 t) (iblk0 a0 V c 1 t) := by dsimp only [dat0]; rfl

end Cert.KernelIdeal.Hand

end
-- ==== Proof.KI.Dat1.lean ====
/- The loss region's proof data, at any contents `V` of the TensorCore's buffers at the region's entry: each input
   window's staging buffer holds its block after the body as before it; the output window's holds the loss block of the
   four input blocks; the invariant is the scoped buffers no window stages and the generator register. The query-row
   window and the whole-matrix window are blocks of one array: each holds it at one half of the full share. -/
import proofs.«419518_j21423296873244_3_alg».proof.Proof.KI.Blocks
import proofs.«419518_j21423296873244_3_alg».proof.Proof.Gen.KernelIdeal.Launch
import proofs.«419518_j21423296873244_3_alg».proof.Proof.Gen.KernelIdeal.Points
import Idealize.ShloMosaic.Lib.Pipeline.FrameBody
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The proof data of the loss pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => lossBlk (grid1.coords t) (iblk1 V c 0 t) (iblk1 V c 1 t) (iblk1 V c 2 t) (iblk1 V c 3 t)
  Φ _ := Pipeline.ΦA spec1 c
  q w := match w with
    | ⟨0, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = lossBlk (grid1.coords t) (iblk1 V c 0 t) (iblk1 V c 1 t) (iblk1 V c 2 t) (iblk1 V c 3 t) := by
  dsimp only [dat1]

end Cert.KernelIdeal.Hand

end
-- ==== Proof.KI.Family.lean ====
/- The two pipelines together: the admissible table contents of each (the loss pipeline has no table), the contents
   of the TensorCore's buffers at each region's entry, what each region leaves in the one array it writes (the
   pipeline's own account of it: the last write-backs folded over the entry contents), and each pipeline's proof data
   at its region's entry contents. -/
import proofs.«419518_j21423296873244_3_alg».proof.Proof.KI.Dat0
import proofs.«419518_j21423296873244_3_alg».proof.Proof.KI.Dat1
import proofs.«419518_j21423296873244_3_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a0 : (pcfg0 (F := F)).Adm)

/-- Each pipeline's admissible table contents: the gather pipeline's are given, the loss pipeline has none. -/
def adm : (p : Fin 2) → (pcfgs (F := F) p).Adm
  | ⟨0, _⟩ => a0
  | ⟨1, _⟩ => cfg1.toPCfg_adm
  | ⟨_ + 2, h⟩ => absurd h (Nat.not_lt.2 (Nat.le_add_left _ _))

/-- The gather region's entry contents, read at the TensorCore's references. -/
abbrev Ve0 : (c : Dev nD) → (b : Ref sig .tc) → Buf (Elt F) ((c : Thread nD τ).loc b) := fun c b => V5 m c b

/-- What the gather region leaves in its result array. -/
def res0 (c : Dev nD) : Buf (Elt F) ((c : Thread nD τ).loc main_v25) := (dat0 a0 (Ve0 m) c).arrAt 2 (cfg0 a0).N

/-- The regions' results so far: the gather region's, wherever asked. -/
def outs0 : Outs (F := F) := fun _ r c => if h : r = main_v25 then h ▸ res0 m a0 c else V0 m c r

/-- The loss region's entry contents. -/
abbrev Ve1 : (c : Dev nD) → (b : Ref sig .tc) → Buf (Elt F) ((c : Thread nD τ).loc b) := fun c b => V7 m (outs0 m a0) c b

/-- What the loss region leaves in its result array. -/
def res1 (c : Dev nD) : Buf (Elt F) ((c : Thread nD τ).loc main_v31) := (dat1 (Ve1 m a0) c).arrAt 4 cfg1.N

/-- What the regions leave: the gather region's result array, the loss region's. -/
def outs : Outs (F := F) := fun _ r c =>
  if h : r = main_v25 then h ▸ res0 m a0 c else if h' : r = main_v31 then h' ▸ res1 m a0 c else V0 m c r

theorem outs_v25 (n : ℕ) (c : Dev nD) : outs m a0 n main_v25 c = res0 m a0 c := by
  unfold outs; rw [dif_pos rfl]
theorem outs0_v25 (n : ℕ) (c : Dev nD) : outs0 m a0 n main_v25 c = res0 m a0 c := by
  unfold outs0; rw [dif_pos rfl]
theorem outs_v31 (n : ℕ) (c : Dev nD) : outs m a0 n main_v31 c = res1 m a0 c := by
  unfold outs; rw [dif_neg (by decide), dif_pos rfl]

/-- Every pipeline's proof data, each at its region's entry contents. -/
def pdats : (p : Fin 2) → (c : Dev nD) → Dat τ (Elt F) Unit ℕ (UR sig nD τ) ℕ (Pipeline.pin (pcfgs (F := F)) (adm a0) p) c
  | ⟨0, _⟩ => fun c => dat0 a0 (Ve0 m) c
  | ⟨1, _⟩ => fun c => dat1 (Ve1 m a0) c
  | ⟨_ + 2, h⟩ => absurd h (Nat.not_lt.2 (Nat.le_add_left _ _))

/-! ## What every segment's thread state carries beside the buffers -/

/-- No core owes another anything: no level is assigned. -/
abbrev L : GSem nD τ sig → Finset Unit := fun _ => ∅
abbrev lv : GSem nD τ sig → Unit → ℕ := fun _ _ => 0
/-- The core's generator register at some state and its `owes` at nothing. -/
abbrev R (c : Dev nD) : sProp 𝕄 :=
  iprop((∃ r, prngReg c r) ∗ ∃ W, owes (c : Thread nD τ) (0 : CellTallies nD τ sig Unit) W)

/-- The loss region is entered from the same buffer contents whichever account of the regions' results is read:
    both give the gather region's result array the pipeline's own account of it. -/
theorem V7_outs (c : Dev nD) : V7 m (outs m a0) c = V7 m (outs0 m a0) c := by
  show StableHlo.after hostOps1 (Function.update (V5 m c) main_v25 (outs m a0 6 main_v25 c))
    = StableHlo.after hostOps1 (Function.update (V5 m c) main_v25 (outs0 m a0 6 main_v25 c))
  rw [outs_v25, outs0_v25]

end Cert.KernelIdeal.Hand

end
-- ==== Proof.KI.Reg0.lean ====
/- The gather region as a segment of @main: entered with every unscoped buffer at the contents the host operations
   before it leave, left with its result array at the pipeline's account of it and every other unscoped buffer as
   entered. The prefetched table is an unscoped buffer that is no window's array: at entry it is taken out of the
   unscoped rest, held whole at the admissible contents it is assumed to hold, and handed to the pipeline's invariant;
   at exit the invariant gives it back and it rejoins the rest. -/
import proofs.«419518_j21423296873244_3_alg».proof.Proof.KI.Family
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a0 : (pcfg0 (F := F)).Adm)

/-- The gather region's exit contents, read at the TensorCore's references. -/
abbrev Vx0 : (c : Dev nD) → (b : Ref sig .tc) → Buf (Elt F) ((c : Thread nD τ).loc b) := fun c b => V6 m (outs m a0) c b

/-- At the region's exit each of its arrays holds what the pipeline leaves: the two input arrays are never written
    back, so they hold the entry contents, which the region's result array does not disturb; the result array holds
    the pipeline's own account of it. -/
theorem hF0 (c : Dev nD) : ∀ w : Fin (cfg0 a0).W,
    (dat0 a0 (Ve0 m) c).arrAt w (cfg0 a0).N = Vx0 m a0 c (Pipeline.arrRef spec0 w)
  | ⟨0, _⟩ => ((dat0 a0 (Ve0 m) c).arrAt_in 0 rfl _).trans
      ((A_eq0 a0 (Ve0 m) c 0).trans (V6_of m (outs m a0) c (Pipeline.arrRef spec0 0) (by decide)).symm)
  | ⟨1, _⟩ => ((dat0 a0 (Ve0 m) c).arrAt_in 1 rfl _).trans
      ((A_eq0 a0 (Ve0 m) c 1).trans (V6_of m (outs m a0) c (Pipeline.arrRef spec0 1) (by decide)).symm)
  | ⟨2, _⟩ => by
    show (dat0 a0 (Ve0 m) c).arrAt 2 (cfg0 a0).N = Function.update (V5 m c) main_v25 (outs m a0 6 main_v25 c) main_v25
    rw [Function.update_self, outs_v25]; rfl

/-- Every other unscoped buffer holds at exit what it held at entry. -/
theorem hrest0 (c : Dev nD) : ∀ b, b ∉ Finset.univ.image (Pipeline.arrRef spec0) → Vx0 m a0 c b = Ve0 m c b :=
  fun b hb => V6_of m (outs m a0) c b fun h => hb (by
    rw [List.mem_singleton] at h; subst h
    exact Finset.mem_image.mpr ⟨2, Finset.mem_univ _, rfl⟩)

/-- The unscoped buffers that are no array of the gather pipeline are the prefetched table, held whole at the admissible
    contents it holds, and the rest. -/
theorem rest0_split (hA0 : ∀ c : Dev nD, ((fun k => Ve0 m c (pre0.ref k)) : pre0.Contents (Elt F)) = a0.1) (c : Dev nD) :
    (Pipeline.unscopedRest (Ix := Unit) (Name := ℕ) (U := UR sig nD τ) (Lvl := ℕ) spec0 c (Ve0 m c) : sProp 𝕄)
      = iprop(Pipeline.prefHeld pre0 c (fun _ => fullShare) a0.1 ∗ Pipeline.unscopedRestP pre0 spec0 c (Ve0 m c)) :=
  (Pipeline.unscopedRest_split (launch0 (F := F)).pre c (Ve0 m c)).trans
    (congrArg (fun T : pre0.Contents (Elt F) =>
      (iprop(Pipeline.prefHeld pre0 c (fun _ => fullShare) T ∗ Pipeline.unscopedRestP pre0 spec0 c (Ve0 m c)) : sProp 𝕄)) (hA0 c))

set_option backward.isDefEq.respectTransparency.types false in
/-- REGION 0 (the gather kernel's call) over the thread state: entered from every unscoped buffer at the contents before
    the call, left at those contents updated at the result array. Its arrays split out of the unscoped buffers and put
    back at the exit contents; the prefetched table taken out of the unscoped rest (`hA0`: it holds the admissible
    contents `a0`), through the invariant and back; the generator register into the invariant and out; nothing owed; no
    semaphore of the kernel's own. -/
def reg0 (hA0 : ∀ c : Dev nD, ((fun k => Ve0 m c (pre0.ref k)) : pre0.Contents (Elt F)) = a0.1)
    (hbody0 : ∀ c : Dev nD, BodyObligation (dat0 (F := F) a0 (Ve0 m) c) (defs₀ (F := F)) Variants.none () Set.univ) :
    Pipeline.RegionSeg (pcfgs (F := F)) (adm a0) (pdats m a0) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (hbody0 c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m a0) c) ∗ R c)
  X c := iprop(∃ r, prngReg c r)
  Y c := iprop((∃ r, prngReg c r) ∗ Pipeline.prefHeld (Ix := Unit) (Name := ℕ) (U := UR sig nD τ) (Lvl := ℕ) pre0 c (fun _ => fullShare) a0.1)
  Z c := Pipeline.unscopedRestP (Ix := Unit) (Name := ℕ) (U := UR sig nD τ) (Lvl := ℕ) pre0 spec0 c (Ve0 m c)
  hentry c := by
    rw [Pipeline.ownSems0_none]
    have hsplit := Pipeline.arrays_of_unscopedBufs (p := 0) (pcfgs (F := F)) (adm a0) (pdats m a0) (launch0 (F := F)).win (launch0 (F := F)).arr_whole c
      ((pdats m a0 0 c).share_full fun _ => rfl) (Ve0 m c) fun _ => rfl
    rw [Pipeline.unscopedBufs_held] at hsplit
    have hsplit' := hsplit.trans (sep_mono .rfl (Entails.of_eq (rest0_split m a0 hA0 c)))
    iintro ⟨⟨Hub, Hp, HO⟩, -, -⟩
    ihave H := hsplit' $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 0 c).Φ 0 = iprop(Pipeline.ΦA spec0 c ∗ Pipeline.prefHeld (Ix := Unit) (Name := ℕ) (U := UR sig nD τ) (Lvl := ℕ) pre0 c (fun _ => fullShare) a0.1) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m a0 0 c).Φ (Fin.last _) = iprop(Pipeline.ΦA spec0 c ∗ Pipeline.prefHeld (Ix := Unit) (Name := ℕ) (U := UR sig nD τ) (Lvl := ℕ) pre0 c (fun _ => fullShare) a0.1) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 0) (pcfgs (F := F)) (adm a0) (Ix := Unit) (Name := ℕ) (U := UR sig nD τ) (Lvl := ℕ)
      (launch0 (F := F)).win (launch0 (F := F)).arr_whole c (pdats m a0) ((pdats m a0 0 c).share_full fun _ => rfl)
      (Ve0 m c) (Vx0 m a0 c) ((pdats m a0 0 c).arrAt · (cfg0 a0).N) (hF0 m a0 c) (hrest0 m a0 c)
    rw [Pipeline.unscopedBufs_held] at hjoin
    have hjoin' := (sep_mono .rfl (Entails.of_eq (rest0_split m a0 hA0 c).symm)).trans hjoin
    iintro ⟨Ha, HO, ⟨HY, Hpf⟩, Hrest⟩
    imodintro
    isplitl [Ha Hpf Hrest]
    · iapply hjoin'
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

theorem reg0_pre (hA0) (hbody0) (c : Dev nD) :
    (reg0 m a0 hA0 hbody0).pre c = iprop(StableHlo.held (c : Thread nD τ) (Pipeline.ucRefs τ sig) (V5 m c) ∗ R c) := rfl
theorem reg0_post (hA0) (hbody0) (c : Dev nD) :
    (reg0 m a0 hA0 hbody0).post c = iprop(StableHlo.held (c : Thread nD τ) (Pipeline.ucRefs τ sig) (V6 m (outs m a0) c) ∗ R c) := rfl

end Cert.KernelIdeal.Hand

end
-- ==== Proof.KI.Shares1.lean ====
/- The loss pipeline's five windows name four arrays: the query-row window and the whole-matrix window are blocks of
   one array, held by each at one half of the full share. At the region's entry the four buffers, each whole at the full
   share, become the pipeline's five window arrays (the shared buffer split into its halves); at its exit the halves
   are joined again. -/
import proofs.«419518_j21423296873244_3_alg».proof.Proof.KI.Family
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a0 : (pcfg0 (F := F)).Adm)

/-- The four distinct buffers behind the loss pipeline's five windows. -/
theorem arrImage1 : (Finset.univ.image (Pipeline.arrRef spec1) : Finset (Ref sig .tc)) = ([main_v26, main_v29, main_v30, main_v31] : List (Ref sig .tc)).toFinset := by
  decide

/-- The four buffers one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v26) ↦{fullShare} V main_v26) ∗ (((c : Thread nD τ).loc main_v29) ↦{fullShare} V main_v29)
          ∗ (((c : Thread nD τ).loc main_v30) ↦{fullShare} V main_v30) ∗ (((c : Thread nD τ).loc main_v31) ↦{fullShare} V main_v31)) :=
  bigSep_eq_bigSepL_of_eq [main_v26, main_v29, main_v30, main_v31] arrImage1 (by decide) _

/-- The five window arrays one by one: the query-row window and the whole-matrix window each hold one half of the
    one buffer behind them. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v26) ↦{fullShare.left} G 0) ∗ (((c : Thread nD τ).loc main_v29) ↦{fullShare} G 1)
          ∗ (((c : Thread nD τ).loc main_v26) ↦{fullShare.right} G 2) ∗ (((c : Thread nD τ).loc main_v30) ↦{fullShare} G 3)
          ∗ (((c : Thread nD τ).loc main_v31) ↦{fullShare} G 4)) := by
  unfold Pipeline.Dat.arrays
  rw [bigSep_W1]
  simp only [View.set_whole]
  rfl

/-- ENTRY at any entry contents: the shared buffer is split into its halves. -/
theorem arrays_of_arrBufs_at (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H26, H29, H30, H31⟩
  ihave H := (pointsTo_share (PosShare.mem_left_op_right fullShare)).1 $$ H26
  icases H with ⟨Hl, Hr⟩
  isplitl [Hl]; · iexact Hl
  isplitl [H29]; · iexact H29
  isplitl [Hr]; · iexact Hr
  isplitl [H30]; · iexact H30
  iexact H31

/-- EXIT at any entry contents `V` and any exit contents `V'` that agree with `V` on the three input buffers and
    hold the pipeline's account of the result array: the halves are joined. -/
theorem arrBufs_of_arrays_at (V : (c : Dev nD) → (b : Ref sig .tc) → Buf (Elt F) ((c : Thread nD τ).loc b)) (c : Dev nD)
    (V' : (b : Ref sig .tc) → Buf (Elt F) ((c : Thread nD τ).loc b))
    (h26 : V' main_v26 = V c main_v26) (h29 : V' main_v29 = V c main_v29) (h30 : V' main_v30 = V c main_v30)
    (h31 : V' main_v31 = (dat1 V c).arrAt 4 cfg1.N) :
    (dat1 V c).arrays ((dat1 V c).arrAt · cfg1.N)
      ⊢ (Pipeline.arrBufs (Ix := Unit) (Name := ℕ) (U := UR sig nD τ) (Lvl := ℕ) spec1 c V' : sProp 𝕄) := by
  have e0 : (dat1 V c).arrAt 0 cfg1.N = V c main_v26 := (dat1 V c).arrAt_in 0 rfl _
  have e1 : (dat1 V c).arrAt 1 cfg1.N = V c main_v29 := (dat1 V c).arrAt_in 1 rfl _
  have e2 : (dat1 V c).arrAt 2 cfg1.N = V c main_v26 := (dat1 V c).arrAt_in 2 rfl _
  have e3 : (dat1 V c).arrAt 3 cfg1.N = V c main_v30 := (dat1 V c).arrAt_in 3 rfl _
  rw [arrBufs1_eq, arrays1_eq, h26, h29, h30, h31, e0, e1, e2, e3]
  iintro ⟨Hl, H29, Hr, H30, H31⟩
  ihave H26 := (pointsTo_share (PosShare.mem_left_op_right fullShare)).2 $$ [Hl Hr]
  · isplitl [Hl] <;> iassumption
  isplitl [H26]; · iexact H26
  isplitl [H29]; · iexact H29
  isplitl [H30]; · iexact H30
  iexact H31

/-- ENTRY: the four buffers, each whole at the full share at the entry contents, are the pipeline's arrays at the proof
    data's entry contents: the shared buffer split into its halves. -/
theorem arrays_of_arrBufs1 (c : Dev nD) :
    (Pipeline.arrBufs (Ix := Unit) (Name := ℕ) (U := UR sig nD τ) (Lvl := ℕ) spec1 c (Ve1 m a0 c) : sProp 𝕄)
      ⊢ (pdats m a0 1 c).arrays ((pdats m a0 1 c).arrAt · 0) :=
  arrays_of_arrBufs_at (Ve1 m a0) c

/-- EXIT: the pipeline's arrays at their final contents are the four buffers at the exit contents: the halves joined. -/
theorem arrBufs_of_arrays1 (c : Dev nD) :
    (pdats m a0 1 c).arrays ((pdats m a0 1 c).arrAt · cfg1.N)
      ⊢ (Pipeline.arrBufs (Ix := Unit) (Name := ℕ) (U := UR sig nD τ) (Lvl := ℕ) spec1 c (fun b => V8 m (outs m a0) c b) : sProp 𝕄) := by
  refine arrBufs_of_arrays_at (Ve1 m a0) c (fun b => V8 m (outs m a0) c b) ?_ ?_ ?_ ?_
  · show V8 m (outs m a0) c main_v26 = Ve1 m a0 c main_v26
    rw [V8_of m (outs m a0) c main_v26 (by decide), V7_outs]
  · show V8 m (outs m a0) c main_v29 = Ve1 m a0 c main_v29
    rw [V8_of m (outs m a0) c main_v29 (by decide), V7_outs]
  · show V8 m (outs m a0) c main_v30 = Ve1 m a0 c main_v30
    rw [V8_of m (outs m a0) c main_v30 (by decide), V7_outs]
  · show V8 m (outs m a0) c main_v31 = (dat1 (Ve1 m a0) c).arrAt 4 cfg1.N
    simp only [V8, Function.update_self]
    exact outs_v31 m a0 8 c

end Cert.KernelIdeal.Hand

end
-- ==== Proof.KI.Reg1.lean ====
/- The loss region as a segment of @main: entered with every unscoped buffer at the contents the host operations
   before it leave, left with its result array at the pipeline's account of it and every other unscoped buffer as
   entered. Its five windows name four arrays — the query rows and the whole feature matrix are blocks of one array —
   so at entry that array's buffer is dealt between the two windows, a half share each, and at exit the halves are
   joined again. -/
import proofs.«419518_j21423296873244_3_alg».proof.Proof.KI.Shares1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a0 : (pcfg0 (F := F)).Adm)

/-- Off the four buffers the exit contents are the entry contents. -/
theorem hrest1 (c : Dev nD) (b : Ref sig .tc) (hb : b ∉ Finset.univ.image (Pipeline.arrRef spec1)) :
    V8 m (outs m a0) c b = Ve1 m a0 c b := by
  have hb' : b ∉ ([main_v31] : List (Ref sig .tc)) := fun h => hb (by
    rw [arrImage1]; simp only [List.mem_singleton] at h; subst h; decide)
  rw [V8_of m (outs m a0) c b hb', V7_outs]

/-- The unscoped buffers that are no window's array: at the exit contents they are as at entry. -/
theorem rest1_eq (c : Dev nD) :
    (Pipeline.unscopedRest (Ix := Unit) (Name := ℕ) (U := UR sig nD τ) (Lvl := ℕ) spec1 c (Ve1 m a0 c) : sProp 𝕄)
      = Pipeline.unscopedRest spec1 c (fun b => V8 m (outs m a0) c b) := by
  unfold Pipeline.unscopedRest
  exact bigSep_congr fun b hb => by dsimp only; rw [hrest1 m a0 c b (Finset.mem_sdiff.mp hb).2]

-- The family's pipeline pinned at its admissible contents, `pin pcs a p`, is the loss pipeline's configuration: the two
-- are one term once plain definitions are unfolded.
set_option backward.isDefEq.respectTransparency.types false in
/-- The loss region over the thread state: entered from every unscoped buffer at the contents after the host
    operations between the regions, left at those contents with the result array at the pipeline's account of it; the
    generator register into the class invariant and out; nothing owed; no semaphore of the kernel's own. -/
def reg1 (hbody1 : ∀ c : Dev nD, BodyObligation (dat1 (F := F) (Ve1 m a0) c) (defs₀ (F := F)) Variants.none () Set.univ) :
    Pipeline.RegionSeg (pcfgs (F := F)) (adm a0) (pdats m a0) () defs₀ Variants.none L lv 1 where
  win := winFacts₀1
  block_pos := block_pos1
  stage_whole := stage_whole1
  K := PEmpty
  osem k := k.elim
  ho := Pipeline.OwnSemFacts.none _
  hbody c := (hbody1 c).loose
  hwaits := Pipeline.hwaits_of_owed_zero _ _ _ _ L lv 1 fun _ _ => rfl
  pre c := iprop(StableHlo.held (c : Thread nD τ) (Pipeline.ucRefs τ sig) (V7 m (outs m a0) c) ∗ R c)
  post c := iprop(StableHlo.held (c : Thread nD τ) (Pipeline.ucRefs τ sig) (V8 m (outs m a0) c) ∗ R c)
  X c := iprop(∃ r, prngReg c r)
  Y c := iprop(∃ r, prngReg c r)
  Z c := Pipeline.unscopedRest (Ix := Unit) (Name := ℕ) (U := UR sig nD τ) (Lvl := ℕ) spec1 c (Ve1 m a0 c)
  hentry c := by
    rw [Pipeline.ownSems0_none, V7_outs, ← Pipeline.unscopedBufs_held,
      Pipeline.unscopedBufs_split₀ (Pipeline.pin (pcfgs (F := F)) (adm a0)) (1 : Fin 2) winFacts₀1.arr_unscoped c (Ve1 m a0 c)]
    iintro ⟨⟨⟨Hab, Hrest⟩, Hp, HO⟩, -, -⟩
    have hsp := arrays_of_arrBufs1 m a0 c
    ihave Ha := hsp $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a0 1 c).Φ (Fin.last _) = Pipeline.ΦA spec1 c from rfl]; unfold Pipeline.ΦA
    iintro ⟨Hr, Hp⟩
    isplitl [Hp]; · iexact Hp
    isplitr; · iempintro
    iexact Hr
  hexit c := by
    rw [rest1_eq m a0 c, ← Pipeline.unscopedBufs_held,
      Pipeline.unscopedBufs_split₀ (Pipeline.pin (pcfgs (F := F)) (adm a0)) (1 : Fin 2) winFacts₀1.arr_unscoped c (fun b => V8 m (outs m a0) c b)]
    iintro ⟨Ha, HO, HY, Hrest⟩
    imodintro
    isplitl [Ha Hrest]
    · isplitl [Ha]
      · iapply (arrBufs_of_arrays1 m a0 c); iexact Ha
      · iexact Hrest
    isplitl [HY]; · iexact HY
    unfold Pipeline.Dat.owesAt Pipeline.owesWithin
    icases HO with ⟨%W, -, HO⟩; iexists W; iexact HO

end Cert.KernelIdeal.Hand

end
-- ==== Proof.KI.Run0.lean ====
/- The gather kernel's body run once on whole staging memrefs: the image block and the index row at their
   contents, the output block and the accumulator scratch at anything. What the stores leave in the output block and
   in the scratch is found by the run itself (the accumulation loop is passed by its invariant, one symbolic trip). -/
import proofs.«419518_j21423296873244_3_alg».proof.Proof.Gen.KernelIdeal.Loops
import proofs.«419518_j21423296873244_3_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of the gather kernel at grid coordinates `i`: from the image block `x0` and the index row `x1` it runs to
    the continuation with both unchanged, the output block holding the pieces `L.1` and the scratch the pieces `L.2`. -/
noncomputable def kernelRun0 (c : Dev nD) (i : grid0.Coords) (arg1 : Memref sig .tc .smem S32 .i32) (harg1 : arg1.IsWhole)
    (arg2 : Memref sig .tc .vmem S1x256x9216 .f32) (harg2 : arg2.IsWhole) (arg3 : Memref sig .tc .vmem S1x1x256 .i32) (harg3 : arg3.IsWhole)
    (arg4 : Memref sig .tc .vmem S1x256x256 .f32) (harg4 : arg4.IsWhole) (arg5 : Memref sig .tc .vmem S256x256 .f32) (harg5 : arg5.IsWhole)
    (x0 : Vec F S1x256x9216 .f32) (x1 : Vec F S1x1x256 .i32) :
    { L : List (View.Piece (Elt F) S1x256x256 .f32) × List (View.Piece (Elt F) S256x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__gather_kernel i arg1 harg1 arg2 harg2 arg3 harg3 arg4 harg4 arg5 harg5) K } := by
  refine ⟨(?_, ?_), fun E K => ?run⟩
  case run =>
    simp only [cc0__gather_kernel_eq_skeleton]; unfold cc0__gather_kernel_skel
    unfold owns
    iintro ⟨⟨%f2, %hf2, H2⟩, ⟨%f3, %hf3, H3⟩, ⟨%d4, %f4, -, H4⟩, ⟨%d5, %f5, -, H5⟩, Hk⟩
    obtain rfl := harg2.eq_unread hf2
    obtain rfl := harg3.eq_unread hf3
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

end Cert.KernelIdeal.Hand

end
-- ==== Proof.KI.Struct0.lean ====
/- The gather kernel's run, read back: the output block the body leaves is the explicit function `gatherBlk` of the
   image block and the index row — the accumulator cleared, one chunk's products added per trip of the loop, the rows
   normalised and stored whole. -/
import proofs.«419518_j21423296873244_3_alg».proof.Proof.KI.Run0
import proofs.«419518_j21423296873244_3_alg».proof.Proof.KI.Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- The zero offsets of the whole-buffer rectangles are the constant zero function. -/
private theorem hz2 : (![0, 0] : Fin 2 → ℕ) = fun _ => 0 := funext fun a => by fin_cases a <;> rfl
private theorem hz3 : (![0, 0, 0] : Fin 3 → ℕ) = fun _ => 0 := funext fun a => by fin_cases a <;> rfl

/-- The zero fill's piece: the whole accumulator, cleared. -/
abbrev pZero0 : View.Piece (Elt F) S256x256 .f32 := ⟨rAcc, k0_pay1 (F := F)⟩

/-- One trip of the accumulation loop leaves ONE piece: the whole accumulator, holding the trip's payload of the index
    row, the trip's column chunk of the image block and the accumulator as the trip found it. -/
theorem tripL0_eq (c : Dev nD) (i : grid0.Coords) (arg1 : Memref sig .tc .smem S32 .i32) (harg1 : arg1.IsWhole)
    (arg2 : Memref sig .tc .vmem S1x256x9216 .f32) (harg2 : arg2.IsWhole) (arg3 : Memref sig .tc .vmem S1x1x256 .i32) (harg3 : arg3.IsWhole)
    (arg4 : Memref sig .tc .vmem S1x256x256 .f32) (harg4 : arg4.IsWhole) (arg5 : Memref sig .tc .vmem S256x256 .f32) (harg5 : arg5.IsWhole)
    (v0 : Vec F S1x1x256 .i32) (X : BufTy.Contents (Elt F) arg2.view.ty) (k : Fin k0_t1_loop.trips)
    (f : BufTy.Contents (Elt F) arg5.view.ty) :
    tripL_k0_t1 (F := F) Variants.none c none i arg1 harg1 arg2 harg2 arg3 harg3 arg4 harg4 arg5 harg5 v0 X k f
      = [(⟨rAcc, k0_pay2 v0 k (View.readAt (Elt F) arg2.view (rImg k).toLoadRect X)
            (View.readAt (Elt F) arg5.view rAcc.toLoadRect f)⟩ : View.Piece (Elt F) S256x256 .f32)] := by
  unfold tripL_k0_t1 trip_k0_t1
  rfl

/-- The accumulator after the zero fill and the trips before `k`, read whole, is `gatherAcc … k`: by induction on `k`.
    Each trip stores the whole accumulator, so its piece in front hides everything behind it; the accumulator the trip
    found is the one the earlier trips left, which the induction hypothesis names. -/
theorem acc0_eq (c : Dev nD) (i : grid0.Coords) (arg1 : Memref sig .tc .smem S32 .i32) (harg1 : arg1.IsWhole)
    (arg2 : Memref sig .tc .vmem S1x256x9216 .f32) (harg2 : arg2.IsWhole) (arg3 : Memref sig .tc .vmem S1x1x256 .i32) (harg3 : arg3.IsWhole)
    (arg4 : Memref sig .tc .vmem S1x256x256 .f32) (harg4 : arg4.IsWhole) (arg5 : Memref sig .tc .vmem S256x256 .f32) (harg5 : arg5.IsWhole)
    (x0 : Vec F S1x256x9216 .f32) (x1 : Vec F S1x1x256 .i32) (v0 : Vec F S1x1x256 .i32) (hv0 : v0 = View.ld x1 rIdx) :
    ∀ k : ℕ, k ≤ k0_t1_loop.trips →
      arg5.view.read (Elt F) (arg5.view.writes (Elt F) arg5.view.junk
        (pb_k0_t1 (F := F) Variants.none c none i arg1 harg1 arg2 harg2 arg3 harg3 arg4 harg4 arg5 harg5 v0 (harg2.unread x0)
            (arg5.view.writes (Elt F) arg5.view.junk [pZero0]) k ++ [pZero0]))
        = gatherAcc x0 x1 k
  | 0, _ => by
    rw [View.read_writes_junk_eq_canon]
    exact View.canon_unit_zero hz2 _ _
  | k + 1, hk => by
    have hk' : k < k0_t1_loop.trips := hk
    have ih := acc0_eq c i arg1 harg1 arg2 harg2 arg3 harg3 arg4 harg4 arg5 harg5 x0 x1 v0 hv0 k (Nat.le_of_lt hk')
    have hs := pb_k0_t1_succ (F := F) Variants.none c none i arg1 harg1 arg2 harg2 arg3 harg3 arg4 harg4 arg5 harg5 v0 (harg2.unread x0)
      (arg5.view.writes (Elt F) arg5.view.junk [pZero0]) ⟨k, hk'⟩
    dsimp only at hs
    rw [hs, tripL0_eq, List.append_assoc, List.singleton_append, View.read_writes_junk_eq_canon,
      View.canon_cons_unit_zero hz2]
    rw [gatherAcc, dif_pos hk', ← View.writes_append, View.readAt_eq_ld, View.readAt_eq_ld, ih, harg2.read_unread, hv0]

/-- A staging buffer of the output window, through which the block's contents are stated (the choice does not matter). -/
abbrev VO0 : View sig .tc .vmem S1x256x256 .f32 := (Memref.whole cc0_stg2_0 : Memref sig .tc .vmem S1x256x256 .f32).view

/-- What the run leaves in the output block: its pieces read back over junk. -/
def out0 (c : Dev nD) (i : grid0.Coords) (arg1 : Memref sig .tc .smem S32 .i32) (harg1 : arg1.IsWhole)
    (arg2 : Memref sig .tc .vmem S1x256x9216 .f32) (harg2 : arg2.IsWhole) (arg3 : Memref sig .tc .vmem S1x1x256 .i32) (harg3 : arg3.IsWhole)
    (arg4 : Memref sig .tc .vmem S1x256x256 .f32) (harg4 : arg4.IsWhole) (arg5 : Memref sig .tc .vmem S256x256 .f32) (harg5 : arg5.IsWhole)
    (x0 : Vec F S1x256x9216 .f32) (x1 : Vec F S1x1x256 .i32) : Vec F S1x256x256 .f32 :=
  VO0.read (Elt F) (VO0.writes (Elt F) VO0.junk (kernelRun0 c i arg1 harg1 arg2 harg2 arg3 harg3 arg4 harg4 arg5 harg5 x0 x1).1.1)

/-- The run's one store into the output block covers it. -/
theorem cover0 (c : Dev nD) (i : grid0.Coords) (arg1 : Memref sig .tc .smem S32 .i32) (harg1 : arg1.IsWhole)
    (arg2 : Memref sig .tc .vmem S1x256x9216 .f32) (harg2 : arg2.IsWhole) (arg3 : Memref sig .tc .vmem S1x1x256 .i32) (harg3 : arg3.IsWhole)
    (arg4 : Memref sig .tc .vmem S1x256x256 .f32) (harg4 : arg4.IsWhole) (arg5 : Memref sig .tc .vmem S256x256 .f32) (harg5 : arg5.IsWhole)
    (x0 : Vec F S1x256x9216 .f32) (x1 : Vec F S1x1x256 .i32) (y : S1x256x256.Idx) :
    ∃ pc ∈ (kernelRun0 c i arg1 harg1 arg2 harg2 arg3 harg3 arg4 harg4 arg5 harg5 x0 x1).1.1, y ∈ pc.1.set := by
  unfold kernelRun0; dsimp only
  exact ⟨_, List.mem_singleton_self _, View.mem_set_unit_zero hz3 inb_S1x256x256_S1x256x256_0_0_0 y⟩

/-- The block the run leaves is `gatherBlk` of the inputs. -/
theorem out0_eq (c : Dev nD) (i : grid0.Coords) (arg1 : Memref sig .tc .smem S32 .i32) (harg1 : arg1.IsWhole)
    (arg2 : Memref sig .tc .vmem S1x256x9216 .f32) (harg2 : arg2.IsWhole) (arg3 : Memref sig .tc .vmem S1x1x256 .i32) (harg3 : arg3.IsWhole)
    (arg4 : Memref sig .tc .vmem S1x256x256 .f32) (harg4 : arg4.IsWhole) (arg5 : Memref sig .tc .vmem S256x256 .f32) (harg5 : arg5.IsWhole)
    (x0 : Vec F S1x256x9216 .f32) (x1 : Vec F S1x1x256 .i32) :
    out0 c i arg1 harg1 arg2 harg2 arg3 harg3 arg4 harg4 arg5 harg5 x0 x1 = gatherBlk x0 x1 := by
  unfold out0 gatherBlk
  rw [View.read_writes_junk_eq_canon]
  unfold kernelRun0; dsimp only
  sl_unfold_run_names
  refine congrArg (fun w => View.canon [(⟨rOut0, k0_pay3 w⟩ : View.Piece (Elt F) S1x256x256 .f32)]) ?_
  rw [View.readAt_eq_ld]
  exact congrArg (fun A => View.ld A rAcc)
    (acc0_eq c i arg1 harg1 arg2 harg2 arg3 harg3 arg4 harg4 arg5 harg5 x0 x1 _ (congrArg (fun A => View.ld A rIdx) (harg3.read_unread x1)) _ (Nat.le_refl _))

end Cert.KernelIdeal.Hand

end
-- ==== Proof.KI.Frame0.lean ====
/- Region 0, the gather kernel's pipeline, at admissible contents `a0` of its prefetched table and at region-entry
   buffer contents `V`: every input window's staging buffer holds its block at every point, the body obligation from
   the body's run, and the output array after the region as one function of the entry contents. -/
import proofs.«419518_j21423296873244_3_alg».proof.Proof.KI.Struct0
import proofs.«419518_j21423296873244_3_alg».proof.Proof.KI.Dat0
import proofs.«419518_j21423296873244_3_alg».proof.Proof.Gen.KernelIdeal.Launch
import proofs.«419518_j21423296873244_3_alg».proof.Proof.Gen.KernelIdeal.Loops
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the table's admissible contents and the buffer contents the region is entered at
variable (a0 : (pcfg0 (F := F)).Adm)
variable (V : (c : Dev nD) → (b : Ref sig .tc) → Buf (Elt F) ((c : Thread nD τ).loc b))

/-! ## The input windows' buffers -/

/-- An input window's current staging buffer holds its block at every point, fetched there or not (unfetched, the
    block index has not moved), for any proof data whose array is the entry contents and whose body leaves the
    block in place. -/
theorem before0_0_of {c : Dev nD} (dat : Dat τ (Elt F) Unit ℕ (UR sig nD τ) ℕ (cfg0 a0) c) (hA : dat.A 0 = V c (Pipeline.arrRef spec0 0))
    (hafter : ∀ t, dat.after 0 t = iblk0 a0 V c 0 t) (t : Fin (cfg0 a0).N) (d) : dat.before 0 t d = iblk0 a0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a0) c) (hA : dat.A 1 = V c (Pipeline.arrRef spec0 1))
    (hafter : ∀ t, dat.after 1 t = iblk0 a0 V c 1 t) (t : Fin (cfg0 a0).N) (d) : dat.before 1 t d = iblk0 a0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- So for the gather pipeline's proof data. -/
theorem before0_0 (c : Dev nD) (t : Fin (cfg0 a0).N) (d) : (dat0 a0 V c).before 0 t d = iblk0 a0 V c 0 t :=
  before0_0_of a0 V (dat0 a0 V c) (A_eq0 a0 V c 0) (after0_0 a0 V c) t d
theorem before0_1 (c : Dev nD) (t : Fin (cfg0 a0).N) (d) : (dat0 a0 V c).before 1 t d = iblk0 a0 V c 1 t :=
  before0_1_of a0 V (dat0 a0 V c) (A_eq0 a0 V c 1) (after0_1 a0 V c) t d

/-! ## The staging memrefs and the body at a point -/

/-- Each window's current staging memref at point `t`, and that it is a whole buffer. -/
abbrev ms0_0 (t : Fin (cfg0 a0).N) : Memref sig .tc .vmem S1x256x9216 .f32 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S1x1x256 .i32 := spec0_1.stage ((cfg0 a0).slots t 1)
abbrev hs0_1 (t : Fin (cfg0 a0).N) : (ms0_1 a0 t).IsWhole := hstage0_1 (((cfg0 a0).slots t 1).cast nbuf0_1)
abbrev ms0_2 (t : Fin (cfg0 a0).N) : Memref sig .tc .vmem S1x256x256 .f32 := spec0_2.stage ((cfg0 a0).slots t 2)
abbrev hs0_2 (t : Fin (cfg0 a0).N) : (ms0_2 a0 t).IsWhole := hstage0_2 (((cfg0 a0).slots t 2).cast nbuf0_2)
/-- The table as the body is handed it, and the accumulator scratch. -/
abbrev tbM0 : Memref sig .tc .smem S32 .i32 := Memref.whole main_v8
abbrev scM0 : Memref sig .tc .vmem S256x256 .f32 := Memref.whole cc0_scratch0

/-- The kernel body at point `t`, on what the pipeline calls it with. -/
abbrev bodyAt0 (t : Fin (cfg0 a0).N) : Prog (TpuEff nD τ sig (Elt F) Λ₀ .tc) PUnit :=
  cc0__gather_kernel (grid0.coords t) (Memref.whole main_v8) (Memref.isWhole_whole _) (spec0_0.stage ((cfg0 a0).slots t 0)) (hstage0_0 (((cfg0 a0).slots t 0).cast nbuf0_0)) (spec0_1.stage ((cfg0 a0).slots t 1)) (hstage0_1 (((cfg0 a0).slots t 1).cast nbuf0_1)) (spec0_2.stage ((cfg0 a0).slots t 2)) (hstage0_2 (((cfg0 a0).slots t 2).cast nbuf0_2)) (Memref.whole cc0_scratch0) (Memref.isWhole_whole _)

/-! ## The invariant -/

/-- The scoped buffers the body is not handed (the other kernel's staging buffers and scratch), each whole at some
    contents: they ride along untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f))

/-- The class invariant with the accumulator scratch as a memref owned at some contents, beside the buffers that ride
    along and the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-! ## The body obligation, at a generic point -/

/-- What the body is called with at point `t`, the windows one by one, -/
def bodyPre0 (c : Dev nD) (t : Fin (cfg0 a0).N) : sProp 𝕄 :=
  iprop((dat0 a0 V c).Φ t.castSucc ∗ (dat0 a0 V c).owesAt () t.castSucc
    ∗ (∃ d, owns (c : Thread nD τ) (ms0_0 a0 t) fullShare ((dat0 a0 V c).before 0 t d))
    ∗ (∃ d, owns (c : Thread nD τ) (ms0_1 a0 t) fullShare ((dat0 a0 V c).before 1 t d))
    ∗ (∃ d, owns (c : Thread nD τ) (ms0_2 a0 t) fullShare ((dat0 a0 V c).before 2 t d)))

/-- and what it returns. -/
def bodyPost0 (c : Dev nD) (t : Fin (cfg0 a0).N) : sProp 𝕄 :=
  iprop((dat0 a0 V c).Φ t.succ ∗ (dat0 a0 V c).owesAt () t.succ
    ∗ owns (c : Thread nD τ) (ms0_0 a0 t) fullShare ((dat0 a0 V c).after 0 t)
    ∗ owns (c : Thread nD τ) (ms0_1 a0 t) fullShare ((dat0 a0 V c).after 1 t)
    ∗ owns (c : Thread nD τ) (ms0_2 a0 t) fullShare ((dat0 a0 V c).after 2 t))

set_option maxHeartbeats 400000 in
/-- The body at any point: the input windows' memrefs hold their blocks, so the run applies; the table, the buffers
    that ride along, the generator register and the core's dues pass through unread; the scratch is handed over at
    some contents and taken back at some contents; the output block the run leaves is the gather of the input blocks. -/
theorem sound_body0 (c : Dev nD) (t : Fin (cfg0 a0).N) :
    bodyPre0 a0 V c t ⊢ wp frame (wpE (defs₀ (F := F)) Variants.none c none) Set.univ (bodyAt0 a0 t) (fun _ => bodyPost0 a0 V c t) := by
  unfold bodyPre0 bodyPost0 bodyAt0
  simp only [before0_0, before0_1]
  rw [show (dat0 a0 V c).Φ t.succ = (dat0 a0 V c).Φ t.castSucc from rfl,
    show (dat0 a0 V c).owesAt () t.succ = (dat0 a0 V c).owesAt () t.castSucc from rfl,
    after0_0, after0_1, after0_2]
  rw [show (dat0 a0 V c).Φ t.castSucc = iprop(Pipeline.ΦA spec0 c ∗ Pipeline.prefHeld pre0 c (fun _ => fullShare) a0.1) from rfl, PhiA0_eq]
  iintro ⟨⟨⟨⟨HS, HR⟩, Hg⟩, HT⟩, Ho, ⟨%d0, H0⟩, ⟨%d1, H1⟩, ⟨%d2, H2⟩⟩
  iapply ((kernelRun0 c (grid0.coords t) _ _ _ _ _ _ _ _ _ _ (iblk0 a0 V c 0 t) (iblk0 a0 V c 1 t)).2 Set.univ _)
  isplitl [H0]; · iexact H0
  isplitl [H1]; · iexact H1
  isplitl [H2]; · iexists _; iexact H2
  isplitl [HS]; · iexact HS
  iintro ⟨H0, H1, ⟨%e2, H2⟩, ⟨%e5, HS⟩⟩
  isplitl [HS HR Hg HT]
  · isplitl [HS HR Hg]
    · isplitl [HS HR]
      · isplitl [HS]
        · unfold owns; iexists _; iexists _; isplitr
          swap; · iexact HS
          ipureintro; rfl
        iexact HR
      iexact Hg
    iexact HT
  isplitl [Ho]; · iexact Ho
  isplitl [H0]; · iexact H0
  isplitl [H1]; · iexact H1
  unfold owns; iexists _; isplitr
  swap; · iexact H2
  ipureintro
  refine Eq.trans ?_ (out0_eq c (grid0.coords t) tbM0 (Memref.isWhole_whole _) (ms0_0 a0 t) (hs0_0 a0 t) (ms0_1 a0 t) (hs0_1 a0 t) (ms0_2 a0 t) (hs0_2 a0 t) scM0 (Memref.isWhole_whole _) (iblk0 a0 V c 0 t) (iblk0 a0 V c 1 t))
  unfold out0
  exact View.read_writes_of_cover _ _ _ _ _ (cover0 c _ _ _ _ _ _ _ _ _ _ _ _ _)

/-- The body obligation, at every point. -/
theorem body_obligation0 (c : Dev nD) : BodyObligation (dat0 (F := F) a0 V c) (defs₀ (F := F)) Variants.none () Set.univ := fun t => by
  rw [bigSep_W0, bigSep_W0]
  exact sound_body0 a0 V c t

/-! ## The blocks as the entry arrays, and the output array after the region -/

open Idealize.ShloMosaic.ValueIdx

/-- The grid has 32 points, at any contents of the table. -/
theorem N_cfg0 : (cfg0 a0).N = 32 := N_0

/-- Grid point `k`. -/
abbrev pt0 (k : Fin 32) : Fin (cfg0 a0).N := ⟨k.val, by rw [N_cfg0]; exact k.isLt⟩

/-- The table's word for row `k`, as a number: which image the row's block is cut from. -/
def tblAt (k : Fin 32) : ℕ := ((a0.1 0 : S32.Idx → Elt F .i32) (ix1 k)).toNat

/-- The index maps that read no table, decided over the 32 points: the grid's one coordinate is the point's number, which
    is the offset of the table's word the image window's map loads and the block index of the other two windows. -/
theorem idx_facts0 : ∀ t : Fin grid0.N, k0_off1 (grid0.coords t) (0 : Fin 1) = t.val
    ∧ cc0_transform_1 (grid0.coords t) = ![t.val, 0, 0] ∧ cc0_transform_2 (grid0.coords t) = ![t.val, 0, 0] := by
  decide +kernel

/-- The index maps at a point, the table's contents a variable: the image window is at the block the table's word names,
    the index row and the output block at the point's own. -/
theorem index0_1 (t : Fin (cfg0 a0).N) : ((cfg0 a0).win 1).index t = ![t.val, 0, 0] := (idx_facts0 t).2.1
theorem index0_2 (t : Fin (cfg0 a0).N) : ((cfg0 a0).win 2).index t = ![t.val, 0, 0] := (idx_facts0 t).2.2
set_option maxHeartbeats 400000 in
theorem index0_0 (t : Fin (cfg0 a0).N) : ((cfg0 a0).win 0).index t = ![tblAt a0 ⟨t.val, by rw [← N_cfg0 a0]; exact t.isLt⟩, 0, 0] := by
  show cc0_transform_0 k0_off1_inb numel1_S1 a0.1 (grid0.coords t) = _
  funext a
  match a with
  | ⟨0, _⟩ =>
    show ((a0.1 0 : S32.Idx → Elt F .i32) ((Rect.unit (s := S32) (k0_off1 (grid0.coords t)) S1.size (k0_off1_inb (grid0.coords t))).emb (Shape.Idx.first (numel1_S1.symm ▸ Nat.one_pos)))).toNat = tblAt a0 _
    unfold tblAt
    refine congrArg (fun x : S32.Idx => ((a0.1 0 : S32.Idx → Elt F .i32) x).toNat) ?_
    funext b
    apply Fin.ext
    match b with
    | ⟨0, _⟩ =>
      show k0_off1 (grid0.coords t) (0 : Fin 1) + 1 * 0 = t.val
      rw [(idx_facts0 t).1]; omega
  | ⟨1, _⟩ => rfl
  | ⟨2, _⟩ => rfl

/-- The table's word is an image number: the side condition on the table's contents says the block is inside the array. -/
theorem tblAt_lt (k : Fin 32) : tblAt a0 k < 8 := by
  obtain ⟨h, -⟩ := a0.2 (grid0.coords (pt0 a0 k))
  have h0 : (cc0_transform_0 k0_off1_inb numel1_S1 a0.1 (grid0.coords (pt0 a0 k)) (0 : Fin 3) + 1) * 1 ≤ 8 := h (0 : Fin 3)
  have e : cc0_transform_0 k0_off1_inb numel1_S1 a0.1 (grid0.coords (pt0 a0 k)) (0 : Fin 3) = tblAt a0 k :=
    congrFun (index0_0 a0 (pt0 a0 k)) (0 : Fin 3)
  omega

/-- The image the table names for row `k`. -/
abbrev src0 (k : Fin 32) : Fin 8 := ⟨tblAt a0 k, tblAt_lt a0 k⟩

/-- The image window's block at point `k` is image `src0 k` of the entry array: a block's coordinate is the block index
    times the block's extent plus the coordinate inside the block. -/
theorem iblk0_0_apply (c : Dev nD) (k : Fin 32) (r : Fin 256) (q : Fin 9216) :
    (iblk0 a0 V c 0 (pt0 a0 k) : S1x256x9216.Idx → Elt F .f32) (ix3 (0 : Fin 1) r q)
      = (V c main_v0 : S8x256x9216.Idx → Elt F .f32) (ix3 (src0 a0 k) r q) := by
  unfold iblk0
  show (V c main_v0 : S8x256x9216.Idx → Elt F .f32) ((((cfg0 a0).win 0).blk (pt0 a0 k)).view.emb (ix3 (0 : Fin 1) r q)) = _
  refine congrArg (V c main_v0 : S8x256x9216.Idx → Elt F .f32) ?_
  have e0 : ((cfg0 a0).win 0).index (pt0 a0 k) (0 : Fin 3) = tblAt a0 k := congrFun (index0_0 a0 (pt0 a0 k)) (0 : Fin 3)
  have e1 : ((cfg0 a0).win 0).index (pt0 a0 k) (1 : Fin 3) = 0 := congrFun (index0_0 a0 (pt0 a0 k)) (1 : Fin 3)
  have e2 : ((cfg0 a0).win 0).index (pt0 a0 k) (2 : Fin 3) = 0 := congrFun (index0_0 a0 (pt0 a0 k)) (2 : Fin 3)
  funext a
  apply Fin.ext
  match a with
  | ⟨0, _⟩ => show ((cfg0 a0).win 0).index (pt0 a0 k) (0 : Fin 3) * 1 + 1 * 0 = tblAt a0 k; omega
  | ⟨1, _⟩ => show ((cfg0 a0).win 0).index (pt0 a0 k) (1 : Fin 3) * 256 + 1 * r.val = r.val; omega
  | ⟨2, _⟩ => show ((cfg0 a0).win 0).index (pt0 a0 k) (2 : Fin 3) * 9216 + 1 * q.val = q.val; omega

/-- The index window's block at point `k` is row `k` of the entry array. -/
theorem iblk0_1_apply (c : Dev nD) (k : Fin 32) (q : Fin 256) :
    (iblk0 a0 V c 1 (pt0 a0 k) : S1x1x256.Idx → Elt F .i32) (ix3 (0 : Fin 1) (0 : Fin 1) q)
      = (V c main_v24 : S32x1x256.Idx → Elt F .i32) (ix3 k (0 : Fin 1) q) := by
  unfold iblk0
  show (V c main_v24 : S32x1x256.Idx → Elt F .i32) ((((cfg0 a0).win 1).blk (pt0 a0 k)).view.emb (ix3 (0 : Fin 1) (0 : Fin 1) q)) = _
  refine congrArg (V c main_v24 : S32x1x256.Idx → Elt F .i32) ?_
  have e0 : ((cfg0 a0).win 1).index (pt0 a0 k) (0 : Fin 3) = k.val := congrFun (index0_1 a0 (pt0 a0 k)) (0 : Fin 3)
  have e1 : ((cfg0 a0).win 1).index (pt0 a0 k) (1 : Fin 3) = 0 := congrFun (index0_1 a0 (pt0 a0 k)) (1 : Fin 3)
  have e2 : ((cfg0 a0).win 1).index (pt0 a0 k) (2 : Fin 3) = 0 := congrFun (index0_1 a0 (pt0 a0 k)) (2 : Fin 3)
  funext a
  apply Fin.ext
  match a with
  | ⟨0, _⟩ => show ((cfg0 a0).win 1).index (pt0 a0 k) (0 : Fin 3) * 1 + 1 * 0 = k.val; omega
  | ⟨1, _⟩ => show ((cfg0 a0).win 1).index (pt0 a0 k) (1 : Fin 3) * 1 + 1 * 0 = 0; omega
  | ⟨2, _⟩ => show ((cfg0 a0).win 1).index (pt0 a0 k) (2 : Fin 3) * 256 + 1 * q.val = q.val; omega

/-- What the region leaves in the output array, index by index: row `j 0` is the gather of the blocks at point `j 0`. -/
def gathered0 (c : Dev nD) : S32x256x256.Idx → Elt F .f32 := fun j =>
  gatherBlk (iblk0 a0 V c 0 (pt0 a0 (j 0))) (iblk0 a0 V c 1 (pt0 a0 (j 0))) (ix3 (0 : Fin 1) (j 1) (j 2))

-- the gather of two blocks enters only through its arguments and its index
attribute [local irreducible] gatherBlk

/-- At an index whose row is point `t`'s, read at the coordinates inside the block. -/
theorem gathered0_of (c : Dev nD) (t : Fin (cfg0 a0).N) (j : S32x256x256.Idx) (y : S1x256x256.Idx)
    (h0 : (j 0).val = t.val) (h1 : (j 1).val = (y 1).val) (h2 : (j 2).val = (y 2).val) :
    gathered0 a0 V c j = gatherBlk (iblk0 a0 V c 0 t) (iblk0 a0 V c 1 t) y := by
  have e : pt0 a0 (j 0) = t := Fin.ext h0
  unfold gathered0
  show gatherBlk (iblk0 a0 V c 0 (pt0 a0 (j 0))) (iblk0 a0 V c 1 (pt0 a0 (j 0))) (ix3 (0 : Fin 1) (j 1) (j 2)) = _
  rw [e]
  refine congrArg (gatherBlk (iblk0 a0 V c 0 t) (iblk0 a0 V c 1 t)) ?_
  funext a
  match a with
  | ⟨0, _⟩ => exact Fin.ext (by show 0 = (y 0).val; have hy : (y 0).val < 1 := (y 0).isLt; omega)
  | ⟨1, _⟩ => exact Fin.ext h1
  | ⟨2, _⟩ => exact Fin.ext h2

/-- WHAT POINT `t` WRITES BACK is block `t` of that function. -/
theorem flushed0_eq (c : Dev nD) (t : Fin (cfg0 a0).N) :
    (dat0 a0 V c).flushed 2 t = (((cfg0 a0).win 2).blk t).view.read (Elt F) (gathered0 a0 V c) := by
  show ((cfg0 a0).win 2).cut ((cfg0 a0).grid.coords t) ((dat0 a0 V c).after 2 t) = _
  rw [after0_2]
  have e0 : ((cfg0 a0).win 2).index t (0 : Fin 3) = t.val := congrFun (index0_2 a0 t) (0 : Fin 3)
  have e1 : ((cfg0 a0).win 2).index t (1 : Fin 3) = 0 := congrFun (index0_2 a0 t) (1 : Fin 3)
  have e2 : ((cfg0 a0).win 2).index t (2 : Fin 3) = 0 := congrFun (index0_2 a0 t) (2 : Fin 3)
  funext y
  have h0 : ((((cfg0 a0).win 2).blk t).view.emb y (0 : Fin 3)).val = t.val := by
    show ((cfg0 a0).win 2).index t (0 : Fin 3) * 1 + 1 * (y (0 : Fin 3)).val = t.val
    have hy : (y (0 : Fin 3)).val < 1 := (y (0 : Fin 3)).isLt
    omega
  have h1 : ((((cfg0 a0).win 2).blk t).view.emb y (1 : Fin 3)).val = (y (1 : Fin 3)).val := by
    show ((cfg0 a0).win 2).index t (1 : Fin 3) * 256 + 1 * (y (1 : Fin 3)).val = (y (1 : Fin 3)).val
    omega
  have h2 : ((((cfg0 a0).win 2).blk t).view.emb y (2 : Fin 3)).val = (y (2 : Fin 3)).val := by
    show ((cfg0 a0).win 2).index t (2 : Fin 3) * 256 + 1 * (y (2 : Fin 3)).val = (y (2 : Fin 3)).val
    omega
  exact (gathered0_of a0 V c t ((((cfg0 a0).win 2).blk t).view.emb y) (((cfg0 a0).win 2).xinj ((cfg0 a0).grid.coords t) y) h0 h1 h2).symm

/-- An index of the array is in point `t`'s block iff each coordinate is in the block's range on its axis. -/
theorem mem_blk0 (t : Fin (cfg0 a0).N) (i : S32x256x256.Idx) :
    i ∈ (((cfg0 a0).win 2).blk t).view.set ↔ ∀ a : Fin 3, ((cfg0 a0).win 2).index t a * S1x256x256.size a ≤ (i a).val ∧ (i a).val < ((cfg0 a0).win 2).index t a * S1x256x256.size a + S1x256x256.size a :=
  (iff_of_eq (congrArg (fun S : Finset S32x256x256.Idx => i ∈ S) (View.set_slice_whole main_v25 (((cfg0 a0).win 2).rect t)))).trans Rect.mem_set_unit

/-- The output block is written back at every point: its block index moves with the point. -/
theorem flush0_2 (t : Fin (cfg0 a0).N) : ((cfg0 a0).win 2).flush t = true := by
  unfold Pipeline.Window.flush
  rw [show ((cfg0 a0).win 2).isOut = true from rfl, Bool.true_and, Bool.or_eq_true, decide_eq_true_eq, decide_eq_true_eq]
  by_cases h : t.val + 1 = (cfg0 a0).grid.N
  · exact .inl h
  · have hN : (cfg0 a0).N = (cfg0 a0).grid.N := rfl
    have ht : t.val + 1 < (cfg0 a0).grid.N := by have := t.isLt; omega
    refine .inr ⟨ht, fun e => ?_⟩
    have e' := congrFun e (0 : Fin 3)
    rw [index0_2, index0_2] at e'
    have e'' : t.val + 1 = t.val := e'
    omega

/-- Every index of the output array is in the block of the point of its row. -/
theorem cover_out0 (i : S32x256x256.Idx) :
    ∃ t : Fin (cfg0 a0).N, ((cfg0 a0).win 2).flush t = true ∧ i ∈ (((cfg0 a0).win 2).blk t).view.set := by
  refine ⟨pt0 a0 (i 0), flush0_2 a0 _, ?_⟩
  rw [mem_blk0]
  have e0 : ((cfg0 a0).win 2).index (pt0 a0 (i 0)) (0 : Fin 3) = (i 0).val := congrFun (index0_2 a0 (pt0 a0 (i 0))) (0 : Fin 3)
  have e1 : ((cfg0 a0).win 2).index (pt0 a0 (i 0)) (1 : Fin 3) = 0 := congrFun (index0_2 a0 (pt0 a0 (i 0))) (1 : Fin 3)
  have e2 : ((cfg0 a0).win 2).index (pt0 a0 (i 0)) (2 : Fin 3) = 0 := congrFun (index0_2 a0 (pt0 a0 (i 0))) (2 : Fin 3)
  have h1 : (i 1).val < 256 := (i 1).isLt
  have h2 : (i 2).val < 256 := (i 2).isLt
  intro a
  match a with
  | ⟨0, _⟩ => show ((cfg0 a0).win 2).index (pt0 a0 (i 0)) (0 : Fin 3) * 1 ≤ (i 0).val ∧ (i 0).val < ((cfg0 a0).win 2).index (pt0 a0 (i 0)) (0 : Fin 3) * 1 + 1; omega
  | ⟨1, _⟩ => show ((cfg0 a0).win 2).index (pt0 a0 (i 0)) (1 : Fin 3) * 256 ≤ (i 1).val ∧ (i 1).val < ((cfg0 a0).win 2).index (pt0 a0 (i 0)) (1 : Fin 3) * 256 + 256; omega
  | ⟨2, _⟩ => show ((cfg0 a0).win 2).index (pt0 a0 (i 0)) (2 : Fin 3) * 256 ≤ (i 2).val ∧ (i 2).val < ((cfg0 a0).win 2).index (pt0 a0 (i 0)) (2 : Fin 3) * 256 + 256; omega

/-- THE OUTPUT ARRAY after the region: every point writes back its block of the function, and the blocks cover the array. -/
theorem final0 (c : Dev nD) : (dat0 a0 V c).arrAt 2 (cfg0 a0).N = gathered0 a0 V c :=
  (dat0 a0 V c).arrAt_eq_of_cover 2 (gathered0 a0 V c) (fun t _ => flushed0_eq a0 V c t) (cover_out0 a0)

end Cert.KernelIdeal.Hand

end
-- ==== Proof.KI.Run1.lean ====
/- The loss kernel's body run once on whole staging memrefs: the query rows, their labels, the feature matrix and the
   label row at their contents; the output lane block and the four column scratches at anything; the two wide scratches
   (the cached scaled products and the cached exponentials) at contents `d6`, `d7` that the pieces found may mention,
   because the three loops fill them one column tile at a time. The loops are passed by their invariants. -/
import proofs.«419518_j21423296873244_3_alg».proof.Proof.Gen.KernelIdeal.Loops
import proofs.«419518_j21423296873244_3_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body of the loss kernel at grid coordinates `i`: it runs to the continuation with its four inputs unchanged,
    the output block holding the pieces `L.1` and each scratch the pieces listed for it. -/
noncomputable def kernelRun1 (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole)
    (x0 : Vec F S256x256 .f32) (x1 : Vec F S256x1 .i32) (x2 : Vec F S8192x256 .f32) (x3 : Vec F S1x8192 .i32)
    (d6 : Vec F S256x8192 .f32) (d7 : Vec F S256x8192 .f32) :
    { L : List (View.Piece (Elt F) S1x128 .f32) × List (View.Piece (Elt F) S256x8192 .f32) × List (View.Piece (Elt F) S256x8192 .f32)
          × List (View.Piece (Elt F) S256x1 .f32) × List (View.Piece (Elt F) S256x1 .f32) × List (View.Piece (Elt F) S256x1 .f32) × List (View.Piece (Elt F) S256x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ owns (c : Thread nD τ) arg6 fullShare d6
            ∗ owns (c : Thread nD τ) arg7 fullShare d7 ∗ (∃ d, owns (c : Thread nD τ) arg8 fullShare d)
            ∗ (∃ d, owns (c : Thread nD τ) arg9 fullShare d) ∗ (∃ d, owns (c : Thread nD τ) arg10 fullShare d)
            ∗ (∃ d, owns (c : Thread nD τ) arg11 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2.1)
                ∗ (∃ f, arg8.view.loc (c : Thread nD τ) ↦[arg8.view.set]{fullShare} arg8.view.writes (Elt F) f L.2.2.2.1)
                ∗ (∃ f, arg9.view.loc (c : Thread nD τ) ↦[arg9.view.set]{fullShare} arg9.view.writes (Elt F) f L.2.2.2.2.1)
                ∗ (∃ f, arg10.view.loc (c : Thread nD τ) ↦[arg10.view.set]{fullShare} arg10.view.writes (Elt F) f L.2.2.2.2.2.1)
                ∗ (∃ f, arg11.view.loc (c : Thread nD τ) ↦[arg11.view.set]{fullShare} arg11.view.writes (Elt F) f L.2.2.2.2.2.2)) -∗ K ⟨⟩))
          ⊢ wp frame (wpE (defs₀ (F := F)) Variants.none c none) E (cc1__loss_kernel i arg1 harg1 arg2 harg2 arg3 harg3 arg4 harg4 arg5 harg5 arg6 harg6 arg7 harg7 arg8 harg8 arg9 harg9 arg10 harg10 arg11 harg11) K } := by
  refine ⟨(?_, ?_, ?_, ?_, ?_, ?_, ?_), fun E K => ?run⟩
  case run =>
    simp only [cc1__loss_kernel_eq_skeleton]; unfold cc1__loss_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf1
    obtain rfl := harg2.eq_unread hf2
    obtain rfl := harg3.eq_unread hf3
    obtain rfl := harg4.eq_unread hf4
    obtain rfl := harg6.eq_unread hf6
    obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    iexists _; iexact H11

end Cert.KernelIdeal.Hand

end
-- ==== Proof.KI.Struct1.lean ====
/- The loss kernel's run, read back: the lane block the body leaves is the explicit function `lossBlk` of the query
   rows, their labels, the feature matrix and the label row — whatever the two wide scratches held before: the first
   loop fills the product cache tile by tile, the second the exponential cache, and the third reads both back tile by
   tile, so every word read was written in the same run. -/
import proofs.«419518_j21423296873244_3_alg».proof.Proof.KI.Run1
import proofs.«419518_j21423296873244_3_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- A staging buffer of the output window, through which the block's contents are stated (the choice does not matter). -/
abbrev VO1 : View sig .tc .vmem S1x128 .f32 := (Memref.whole cc1_stg4_0 : Memref sig .tc .vmem S1x128 .f32).view

/-- What the run leaves in the output lane block: its pieces read back over junk. -/
def out1 (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole)
    (x0 : Vec F S256x256 .f32) (x1 : Vec F S256x1 .i32) (x2 : Vec F S8192x256 .f32) (x3 : Vec F S1x8192 .i32)
    (d6 : Vec F S256x8192 .f32) (d7 : Vec F S256x8192 .f32) : Vec F S1x128 .f32 :=
  VO1.read (Elt F) (VO1.writes (Elt F) VO1.junk (kernelRun1 c i arg1 harg1 arg2 harg2 arg3 harg3 arg4 harg4 arg5 harg5 arg6 harg6 arg7 harg7 arg8 harg8 arg9 harg9 arg10 harg10 arg11 harg11 x0 x1 x2 x3 d6 d7).1.1)

namespace Struct1

/-! ## Loads of written contents -/

section ViewLemmas
variable {sig' : RefSig} {κ : Kind} {sp : Space} {s : Shape} {e : EltTy} {Val : EltTy → Type}

theorem zeros2 : (![0, 0] : Fin 2 → ℕ) = fun _ => 0 := by funext a; fin_cases a <;> rfl

/-- A load through the last store's own rectangle reads that store's payload, whatever was stored before. -/
theorem readAt_writes_cons_unit (v : View sig' κ sp s e) (f : v.ty.Contents Val) {off off' size : Fin s.rank → ℕ}
    (inb : ∀ a, off a + size a ≤ s.size a) (inb' : ∀ a, off' a + size a ≤ s.size a) (h : off = off')
    (w : (Rect.unit off size inb).shape.Idx → Val e) (L : List (View.Piece Val s e)) :
    v.readAt Val (Rect.unit off' size inb').toLoadRect (v.writes Val f (⟨Rect.unit off size inb, w⟩ :: L)) = w := by
  subst h; funext j; exact View.read_writes_cons_emb v f _ w L j

/-- A load through a box the last store's rectangle misses reads what the earlier stores left. -/
theorem readAt_writes_cons_of_disjoint (v : View sig' κ sp s e) (f : v.ty.Contents Val) (p : View.Piece Val s e)
    (L : List (View.Piece Val s e)) (B : LoadRect s) (h : Disjoint p.1.set B.set) :
    v.readAt Val B (v.writes Val f (p :: L)) = v.readAt Val B (v.writes Val f L) := by
  funext j
  rw [View.readAt_apply, View.readAt_apply, View.writes_cons,
    View.read_slice_write_of_not_mem p.1 _ _ _ (by rw [Rect.map_emb_univ]; exact Finset.disjoint_right.mp h (B.idx_mem j))]

/-- After a last store through the whole shape the buffer reads that store's payload. -/
theorem read_writes_cons_whole (v : View sig' κ sp s e) (f : v.ty.Contents Val) {off : Fin s.rank → ℕ} (h : off = fun _ => 0)
    (inb : ∀ a, off a + s.size a ≤ s.size a) (w : s.Idx → Val e) (L : List (View.Piece Val s e)) :
    v.read Val (v.writes Val f (⟨Rect.unit off s.size inb, w⟩ :: L)) = w := by
  subst h; funext y
  have e := View.read_writes_cons_emb v f (Rect.whole s) w L y
  rw [Rect.emb_whole_apply] at e
  exact e

end ViewLemmas

/-! ## One trip of each loop, explicitly -/

theorem trip1_eq (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (v0 : Vec F S256x256 .f32) (X3 : BufTy.Contents (Elt F) arg3.view.ty) (k : Fin k1_t1_loop.trips)
    (f6 : BufTy.Contents (Elt F) arg6.view.ty) (f8 : BufTy.Contents (Elt F) arg8.view.ty) :
    tripL_k1_t1 (F := F) Variants.none c none i arg1 harg1 arg2 harg2 arg3 harg3 arg4 harg4 arg5 harg5 arg6 harg6 arg7 harg7 arg8 harg8 arg9 harg9 arg10 harg10 arg11 harg11 v0 X3 k f6 f8
      = ([⟨Rect.unit (s := S256x8192) (k1_off2 k) S256x1024.size (k1_off2_inb k), k1_pay11 v0 (View.readAt (Elt F) arg3.view (rFeat k).toLoadRect X3)⟩],
         [⟨rCol, k1_pay12 v0 (View.readAt (Elt F) arg3.view (rFeat k).toLoadRect X3) (View.readAt (Elt F) arg8.view rCol.toLoadRect f8)⟩]) := by
  unfold tripL_k1_t1 trip_k1_t1; rfl

theorem trip2_eq (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (v3 : Vec F S256x1 .i32) (v14 : Vec F S256x1 .f32) (X4 : BufTy.Contents (Elt F) arg4.view.ty)
    (X6 : BufTy.Contents (Elt F) arg6.view.ty) (k : Fin k1_t2_loop.trips)
    (f7 : BufTy.Contents (Elt F) arg7.view.ty) (f9 : BufTy.Contents (Elt F) arg9.view.ty) :
    tripL_k1_t2 (F := F) Variants.none c none i arg1 harg1 arg2 harg2 arg3 harg3 arg4 harg4 arg5 harg5 arg6 harg6 arg7 harg7 arg8 harg8 arg9 harg9 arg10 harg10 arg11 harg11 v3 v14 X4 X6 k f7 f9
      = ([⟨Rect.unit (s := S256x8192) (k1_off3 k) S256x1024.size (k1_off3_inb k),
            k1_pay15 v14 (View.readAt (Elt F) arg6.view (Rect.unit (s := S256x8192) (k1_off3 k) S256x1024.size (k1_off3_inb k)).toLoadRect X6)⟩],
         [⟨rCol, k1_pay16 v3 v14 (View.readAt (Elt F) arg6.view (Rect.unit (s := S256x8192) (k1_off3 k) S256x1024.size (k1_off3_inb k)).toLoadRect X6)
            (View.readAt (Elt F) arg4.view (rLab2 k).toLoadRect X4) (View.readAt (Elt F) arg9.view rCol.toLoadRect f9)⟩]) := by
  unfold tripL_k1_t2 trip_k1_t2; rfl

theorem trip3_eq (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (v4 : IVec S256x1 32) (v8 : IVec S256x1 32) (v14 : Vec F S256x1 .f32) (v20 : Vec F S256x1 .f32)
    (X4 : BufTy.Contents (Elt F) arg4.view.ty) (X6 : BufTy.Contents (Elt F) arg6.view.ty) (X7 : BufTy.Contents (Elt F) arg7.view.ty)
    (k : Fin k1_t3_loop.trips) (f10 : BufTy.Contents (Elt F) arg10.view.ty) (f11 : BufTy.Contents (Elt F) arg11.view.ty) :
    tripL_k1_t3 (F := F) Variants.none c none i arg1 harg1 arg2 harg2 arg3 harg3 arg4 harg4 arg5 harg5 arg6 harg6 arg7 harg7 arg8 harg8 arg9 harg9 arg10 harg10 arg11 harg11 v4 v8 v14 v20 X4 X6 X7 k f10 f11
      = ([⟨rCol, k1_pay5 v4 v8 v14 v20 0#32 1#32 k
            (View.readAt (Elt F) arg6.view (Rect.unit (s := S256x8192) (k1_off5 k) S256x1024.size (k1_off5_inb k)).toLoadRect X6)
            (View.readAt (Elt F) arg7.view (Rect.unit (s := S256x8192) (k1_off5 k) S256x1024.size (k1_off5_inb k)).toLoadRect X7)
            (View.readAt (Elt F) arg4.view (rLab3 k).toLoadRect X4) (View.readAt (Elt F) arg10.view rCol.toLoadRect f10)⟩],
         [⟨rCol, k1_pay2 (View.readAt (Elt F) arg11.view rCol.toLoadRect f11)
            (k1_pay6 (F := F) v4 v8 0#32 1#32 k (View.readAt (Elt F) arg4.view (rLab3 k).toLoadRect X4))⟩]) := by
  unfold tripL_k1_t3 trip_k1_t3; dsimp only; sl_unfold_run_names; rfl

/-! ## The first loop: the product cache and the running maximum -/

set_option maxHeartbeats 400000 in
theorem inv1 (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (x0 : Vec F S256x256 .f32) (x2 : Vec F S8192x256 .f32)
    (v0 : Vec F S256x256 .f32) (X3 : BufTy.Contents (Elt F) arg3.view.ty)
    (G6 : BufTy.Contents (Elt F) arg6.view.ty) (G8 : BufTy.Contents (Elt F) arg8.view.ty)
    (hv0 : v0 = View.ld x0 rQ) (hX3 : arg3.view.read (Elt F) X3 = x2) (hG8 : arg8.view.read (Elt F) G8 = k1_pay9) :
    ∀ k, k ≤ k1_t1_loop.trips →
      arg8.view.read (Elt F) (arg8.view.writes (Elt F) G8 (pb_k1_t1 (F := F) Variants.none c none i arg1 harg1 arg2 harg2 arg3 harg3 arg4 harg4 arg5 harg5 arg6 harg6 arg7 harg7 arg8 harg8 arg9 harg9 arg10 harg10 arg11 harg11 v0 X3 G6 G8 k).2) = lossMax x0 x2 k
      ∧ ∀ (j : Fin k1_t1_loop.trips), j.val < k → ∀ (off : Fin 2 → ℕ) (inb : ∀ a, off a + S256x1024.size a ≤ S256x8192.size a), off = ![0, 1024 * j.val] →
          View.readAt (Elt F) arg6.view (Rect.unit (s := S256x8192) off S256x1024.size inb).toLoadRect
            (arg6.view.writes (Elt F) G6 (pb_k1_t1 (F := F) Variants.none c none i arg1 harg1 arg2 harg2 arg3 harg3 arg4 harg4 arg5 harg5 arg6 harg6 arg7 harg7 arg8 harg8 arg9 harg9 arg10 harg10 arg11 harg11 v0 X3 G6 G8 k).1) = lossDot x0 x2 j := by
  intro k
  induction k with
  | zero =>
    intro _
    refine ⟨?_, fun j hj => absurd hj (Nat.not_lt_zero _)⟩
    rw [pb_k1_t1.eq_1]; exact hG8
  | succ k ih =>
    intro hk
    have hk' : k < k1_t1_loop.trips := hk
    obtain ⟨ih8, ih6⟩ := ih (Nat.le_of_lt hk')
    have hs := pb_k1_t1_succ (F := F) Variants.none c none i arg1 harg1 arg2 harg2 arg3 harg3 arg4 harg4 arg5 harg5 arg6 harg6 arg7 harg7 arg8 harg8 arg9 harg9 arg10 harg10 arg11 harg11 v0 X3 G6 G8 ⟨k, hk'⟩
    rw [trip1_eq] at hs
    dsimp only at hs
    rw [hs]
    dsimp only [List.singleton_append]
    refine ⟨?_, fun j hj off inb hoff => ?_⟩
    · rw [read_writes_cons_whole _ _ zeros2, View.readAt_eq_ld, View.readAt_eq_ld, hX3, ih8, hv0, lossMax, dif_pos hk']
    · rcases Nat.lt_succ_iff_lt_or_eq.mp hj with hlt | heq
      · rw [readAt_writes_cons_of_disjoint]
        · exact ih6 j hlt off inb hoff
        · refine Rect.unit_disjoint (inb := k1_off2_inb ⟨k, hk'⟩) (inb' := inb) 1 (Or.inr ?_)
          rw [hoff, k1_off2_eq]
          show 1024 * j.val + 1024 ≤ 1024 * k
          omega
      · obtain rfl : j = ⟨k, hk'⟩ := Fin.ext heq
        rw [readAt_writes_cons_unit _ _ _ _ ((k1_off2_eq _).trans hoff.symm), View.readAt_eq_ld, hX3, hv0]
        rfl

/-! ## The second loop: the exponential cache and the negatives' sum -/

set_option maxHeartbeats 400000 in
theorem inv2 (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (x0 : Vec F S256x256 .f32) (x1 : Vec F S256x1 .i32) (x2 : Vec F S8192x256 .f32) (x3 : Vec F S1x8192 .i32)
    (v3 : Vec F S256x1 .i32) (v14 : Vec F S256x1 .f32) (X4 : BufTy.Contents (Elt F) arg4.view.ty) (X6 : BufTy.Contents (Elt F) arg6.view.ty)
    (G7 : BufTy.Contents (Elt F) arg7.view.ty) (G9 : BufTy.Contents (Elt F) arg9.view.ty)
    (hv3 : v3 = View.ld x1 rCol) (hv14 : v14 = lossRowMax x0 x2) (hX4 : arg4.view.read (Elt F) X4 = x3)
    (hX6 : ∀ (j : Fin k1_t1_loop.trips) (off : Fin 2 → ℕ) (inb : ∀ a, off a + S256x1024.size a ≤ S256x8192.size a), off = ![0, 1024 * j.val] →
      View.readAt (Elt F) arg6.view (Rect.unit (s := S256x8192) off S256x1024.size inb).toLoadRect X6 = lossDot x0 x2 j)
    (hG9 : arg9.view.read (Elt F) G9 = k1_pay13) :
    ∀ k, k ≤ k1_t2_loop.trips →
      arg9.view.read (Elt F) (arg9.view.writes (Elt F) G9 (pb_k1_t2 (F := F) Variants.none c none i arg1 harg1 arg2 harg2 arg3 harg3 arg4 harg4 arg5 harg5 arg6 harg6 arg7 harg7 arg8 harg8 arg9 harg9 arg10 harg10 arg11 harg11 v3 v14 X4 X6 G7 G9 k).2) = lossNeg x0 x1 x2 x3 k
      ∧ ∀ (j : Fin k1_t2_loop.trips) (hj1 : j.val < k1_t1_loop.trips), j.val < k → ∀ (off : Fin 2 → ℕ) (inb : ∀ a, off a + S256x1024.size a ≤ S256x8192.size a), off = ![0, 1024 * j.val] →
          View.readAt (Elt F) arg7.view (Rect.unit (s := S256x8192) off S256x1024.size inb).toLoadRect
            (arg7.view.writes (Elt F) G7 (pb_k1_t2 (F := F) Variants.none c none i arg1 harg1 arg2 harg2 arg3 harg3 arg4 harg4 arg5 harg5 arg6 harg6 arg7 harg7 arg8 harg8 arg9 harg9 arg10 harg10 arg11 harg11 v3 v14 X4 X6 G7 G9 k).1) = lossExp x0 x2 j hj1 := by
  have t1 : k1_t1_loop.trips = 8 := by decide
  have t2 : k1_t2_loop.trips = 8 := by decide
  intro k
  induction k with
  | zero =>
    intro _
    refine ⟨?_, fun j _ hj => absurd hj (Nat.not_lt_zero _)⟩
    rw [pb_k1_t2.eq_1]; exact hG9
  | succ k ih =>
    intro hk
    have hk' : k < k1_t2_loop.trips := hk
    have hk1 : k < k1_t1_loop.trips := by omega
    obtain ⟨ih9, ih7⟩ := ih (Nat.le_of_lt hk')
    have hs := pb_k1_t2_succ (F := F) Variants.none c none i arg1 harg1 arg2 harg2 arg3 harg3 arg4 harg4 arg5 harg5 arg6 harg6 arg7 harg7 arg8 harg8 arg9 harg9 arg10 harg10 arg11 harg11 v3 v14 X4 X6 G7 G9 ⟨k, hk'⟩
    rw [trip2_eq] at hs
    dsimp only at hs
    rw [hs]
    dsimp only [List.singleton_append]
    have h6 := hX6 ⟨k, hk1⟩ (k1_off3 ⟨k, hk'⟩) (k1_off3_inb ⟨k, hk'⟩) (k1_off3_eq _)
    refine ⟨?_, fun j hj1 hj off inb hoff => ?_⟩
    · rw [read_writes_cons_whole _ _ zeros2, h6, View.readAt_eq_ld, View.readAt_eq_ld, hX4, ih9, hv3, hv14, lossNeg, dif_pos ⟨hk', hk1⟩]
    · rcases Nat.lt_succ_iff_lt_or_eq.mp hj with hlt | heq
      · rw [readAt_writes_cons_of_disjoint]
        · exact ih7 j hj1 hlt off inb hoff
        · refine Rect.unit_disjoint (inb := k1_off3_inb ⟨k, hk'⟩) (inb' := inb) 1 (Or.inr ?_)
          rw [hoff, k1_off3_eq]
          show 1024 * j.val + 1024 ≤ 1024 * k
          omega
      · obtain rfl : j = ⟨k, hk'⟩ := Fin.ext heq
        rw [readAt_writes_cons_unit _ _ _ _ ((k1_off3_eq _).trans hoff.symm), h6, hv14]
        rfl

/-! ## The third loop: the numerator and the denominator -/

set_option maxHeartbeats 400000 in
theorem inv3 (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (x0 : Vec F S256x256 .f32) (x1 : Vec F S256x1 .i32) (x2 : Vec F S8192x256 .f32) (x3 : Vec F S1x8192 .i32)
    (v4 : IVec S256x1 32) (v8 : IVec S256x1 32) (v14 : Vec F S256x1 .f32) (v20 : Vec F S256x1 .f32)
    (X4 : BufTy.Contents (Elt F) arg4.view.ty) (X6 : BufTy.Contents (Elt F) arg6.view.ty) (X7 : BufTy.Contents (Elt F) arg7.view.ty)
    (G10 : BufTy.Contents (Elt F) arg10.view.ty) (G11 : BufTy.Contents (Elt F) arg11.view.ty)
    (hv4 : v4 = k1_pay7 (View.ld x1 rCol)) (hv8 : v8 = k1_pay8 i) (hv14 : v14 = lossRowMax x0 x2) (hv20 : v20 = lossNegSum x0 x1 x2 x3)
    (hX4 : arg4.view.read (Elt F) X4 = x3)
    (hX6 : ∀ (j : Fin k1_t1_loop.trips) (off : Fin 2 → ℕ) (inb : ∀ a, off a + S256x1024.size a ≤ S256x8192.size a), off = ![0, 1024 * j.val] →
      View.readAt (Elt F) arg6.view (Rect.unit (s := S256x8192) off S256x1024.size inb).toLoadRect X6 = lossDot x0 x2 j)
    (hX7 : ∀ (j : Fin k1_t2_loop.trips) (hj1 : j.val < k1_t1_loop.trips) (off : Fin 2 → ℕ) (inb : ∀ a, off a + S256x1024.size a ≤ S256x8192.size a), off = ![0, 1024 * j.val] →
      View.readAt (Elt F) arg7.view (Rect.unit (s := S256x8192) off S256x1024.size inb).toLoadRect X7 = lossExp x0 x2 j hj1)
    (hG10 : arg10.view.read (Elt F) G10 = k1_pay17) (hG11 : arg11.view.read (Elt F) G11 = k1_pay1 k1_pay18) :
    ∀ k, k ≤ k1_t3_loop.trips →
      arg10.view.read (Elt F) (arg10.view.writes (Elt F) G10 (pb_k1_t3 (F := F) Variants.none c none i arg1 harg1 arg2 harg2 arg3 harg3 arg4 harg4 arg5 harg5 arg6 harg6 arg7 harg7 arg8 harg8 arg9 harg9 arg10 harg10 arg11 harg11 v4 v8 v14 v20 X4 X6 X7 G10 G11 k).1) = lossNum i x0 x1 x2 x3 k
      ∧ arg11.view.read (Elt F) (arg11.view.writes (Elt F) G11 (pb_k1_t3 (F := F) Variants.none c none i arg1 harg1 arg2 harg2 arg3 harg3 arg4 harg4 arg5 harg5 arg6 harg6 arg7 harg7 arg8 harg8 arg9 harg9 arg10 harg10 arg11 harg11 v4 v8 v14 v20 X4 X6 X7 G10 G11 k).2) = lossDen i x1 x3 k := by
  have t1 : k1_t1_loop.trips = 8 := by decide
  have t2 : k1_t2_loop.trips = 8 := by decide
  have t3 : k1_t3_loop.trips = 8 := by decide
  intro k
  induction k with
  | zero =>
    intro _
    rw [pb_k1_t3.eq_1]; exact ⟨hG10, hG11⟩
  | succ k ih =>
    intro hk
    have hk' : k < k1_t3_loop.trips := hk
    have hk2 : k < k1_t2_loop.trips := by omega
    have hk1 : k < k1_t1_loop.trips := by omega
    obtain ⟨ih10, ih11⟩ := ih (Nat.le_of_lt hk')
    have hs := pb_k1_t3_succ (F := F) Variants.none c none i arg1 harg1 arg2 harg2 arg3 harg3 arg4 harg4 arg5 harg5 arg6 harg6 arg7 harg7 arg8 harg8 arg9 harg9 arg10 harg10 arg11 harg11 v4 v8 v14 v20 X4 X6 X7 G10 G11 ⟨k, hk'⟩
    rw [trip3_eq] at hs
    dsimp only at hs
    rw [hs]
    dsimp only [List.singleton_append]
    have h6 := hX6 ⟨k, hk1⟩ (k1_off5 ⟨k, hk'⟩) (k1_off5_inb ⟨k, hk'⟩) (k1_off5_eq _)
    have h7 := hX7 ⟨k, hk2⟩ hk1 (k1_off5 ⟨k, hk'⟩) (k1_off5_inb ⟨k, hk'⟩) (k1_off5_eq _)
    constructor
    · rw [read_writes_cons_whole _ _ zeros2, h6, h7, View.readAt_eq_ld, View.readAt_eq_ld, hX4, ih10, hv4, hv8, hv14, hv20, lossNum,
        dif_pos ⟨hk', hk2, hk1⟩]
    · rw [read_writes_cons_whole _ _ zeros2, View.readAt_eq_ld, View.readAt_eq_ld, hX4, ih11, hv4, hv8, lossDen, dif_pos hk']

/-! ## The three loops in sequence -/

set_option maxHeartbeats 400000 in
/-- Whatever the six scratches hold at the start, once the four column scratches are initialised the three loops
    leave the numerator and denominator recursions in the last two. -/
theorem loops_eq (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole) (x0 : Vec F S256x256 .f32) (x1 : Vec F S256x1 .i32) (x2 : Vec F S8192x256 .f32) (x3 : Vec F S1x8192 .i32)
    (v0 : Vec F S256x256 .f32) (v3 : Vec F S256x1 .i32)
    (X3 : BufTy.Contents (Elt F) arg3.view.ty) (X4 : BufTy.Contents (Elt F) arg4.view.ty)
    (G6 : BufTy.Contents (Elt F) arg6.view.ty) (G7 : BufTy.Contents (Elt F) arg7.view.ty)
    (G8 : BufTy.Contents (Elt F) arg8.view.ty) (G9 : BufTy.Contents (Elt F) arg9.view.ty)
    (G10 : BufTy.Contents (Elt F) arg10.view.ty) (G11 : BufTy.Contents (Elt F) arg11.view.ty)
    (hv0 : v0 = View.ld x0 rQ) (hv3 : v3 = View.ld x1 rCol)
    (hX3 : arg3.view.read (Elt F) X3 = x2) (hX4 : arg4.view.read (Elt F) X4 = x3)
    (hG8 : arg8.view.read (Elt F) G8 = k1_pay9) (hG9 : arg9.view.read (Elt F) G9 = k1_pay13)
    (hG10 : arg10.view.read (Elt F) G10 = k1_pay17) (hG11 : arg11.view.read (Elt F) G11 = k1_pay1 k1_pay18) :
    let P1 := pb_k1_t1 (F := F) Variants.none c none i arg1 harg1 arg2 harg2 arg3 harg3 arg4 harg4 arg5 harg5 arg6 harg6 arg7 harg7 arg8 harg8 arg9 harg9 arg10 harg10 arg11 harg11 v0 X3 G6 G8 k1_t1_loop.trips
    let v14 := View.readAt (Elt F) arg8.view rCol.toLoadRect (arg8.view.writes (Elt F) G8 P1.2)
    let A6 := arg6.view.writes (Elt F) G6 P1.1
    let P2 := pb_k1_t2 (F := F) Variants.none c none i arg1 harg1 arg2 harg2 arg3 harg3 arg4 harg4 arg5 harg5 arg6 harg6 arg7 harg7 arg8 harg8 arg9 harg9 arg10 harg10 arg11 harg11 v3 v14 X4 A6 G7 G9 k1_t2_loop.trips
    let v20 := View.readAt (Elt F) arg9.view rCol.toLoadRect (arg9.view.writes (Elt F) G9 P2.2)
    let A7 := arg7.view.writes (Elt F) G7 P2.1
    let P3 := pb_k1_t3 (F := F) Variants.none c none i arg1 harg1 arg2 harg2 arg3 harg3 arg4 harg4 arg5 harg5 arg6 harg6 arg7 harg7 arg8 harg8 arg9 harg9 arg10 harg10 arg11 harg11 (k1_pay7 v3) (k1_pay8 i) v14 v20 X4 A6 A7 G10 G11 k1_t3_loop.trips
    View.readAt (Elt F) arg10.view rCol.toLoadRect (arg10.view.writes (Elt F) G10 P3.1) = View.ld (lossNum i x0 x1 x2 x3 k1_t3_loop.trips) rCol
    ∧ View.readAt (Elt F) arg11.view rCol.toLoadRect (arg11.view.writes (Elt F) G11 P3.2) = View.ld (lossDen i x1 x3 k1_t3_loop.trips) rCol := by
  intro P1 v14 A6 P2 v20 A7 P3
  obtain ⟨h8, h6⟩ := inv1 (F := F) c i arg1 harg1 arg2 harg2 arg3 harg3 arg4 harg4 arg5 harg5 arg6 harg6 arg7 harg7 arg8 harg8 arg9 harg9 arg10 harg10 arg11 harg11 x0 x2 v0 X3 G6 G8 hv0 hX3 hG8 k1_t1_loop.trips le_rfl
  have hv14 : v14 = lossRowMax x0 x2 := by
    show View.readAt (Elt F) arg8.view rCol.toLoadRect _ = _
    rw [View.readAt_eq_ld, h8]; rfl
  have h6' : ∀ (j : Fin k1_t1_loop.trips) (off : Fin 2 → ℕ) (inb : ∀ a, off a + S256x1024.size a ≤ S256x8192.size a), off = ![0, 1024 * j.val] →
      View.readAt (Elt F) arg6.view (Rect.unit (s := S256x8192) off S256x1024.size inb).toLoadRect A6 = lossDot x0 x2 j :=
    fun j off inb h => h6 j j.isLt off inb h
  obtain ⟨h9, h7⟩ := inv2 (F := F) c i arg1 harg1 arg2 harg2 arg3 harg3 arg4 harg4 arg5 harg5 arg6 harg6 arg7 harg7 arg8 harg8 arg9 harg9 arg10 harg10 arg11 harg11 x0 x1 x2 x3 v3 v14 X4 A6 G7 G9 hv3 hv14 hX4 h6' hG9 k1_t2_loop.trips le_rfl
  have hv20 : v20 = lossNegSum x0 x1 x2 x3 := by
    show View.readAt (Elt F) arg9.view rCol.toLoadRect _ = _
    rw [View.readAt_eq_ld, h9]; rfl
  obtain ⟨h10, h11⟩ := inv3 (F := F) c i arg1 harg1 arg2 harg2 arg3 harg3 arg4 harg4 arg5 harg5 arg6 harg6 arg7 harg7 arg8 harg8 arg9 harg9 arg10 harg10 arg11 harg11 x0 x1 x2 x3 (k1_pay7 v3) (k1_pay8 i) v14 v20 X4 A6 A7 G10 G11 (by rw [hv3]) rfl hv14 hv20 hX4 h6'
    (fun j hj1 off inb h => h7 j hj1 j.isLt off inb h) hG10 hG11 k1_t3_loop.trips le_rfl
  exact ⟨by rw [View.readAt_eq_ld, h10], by rw [View.readAt_eq_ld, h11]⟩

end Struct1

set_option maxHeartbeats 400000 in
/-- The run's one store into the output block covers it. -/
theorem cover1 (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole)
    (x0 : Vec F S256x256 .f32) (x1 : Vec F S256x1 .i32) (x2 : Vec F S8192x256 .f32) (x3 : Vec F S1x8192 .i32)
    (d6 : Vec F S256x8192 .f32) (d7 : Vec F S256x8192 .f32) (y : S1x128.Idx) :
    ∃ pc ∈ (kernelRun1 c i arg1 harg1 arg2 harg2 arg3 harg3 arg4 harg4 arg5 harg5 arg6 harg6 arg7 harg7 arg8 harg8 arg9 harg9 arg10 harg10 arg11 harg11 x0 x1 x2 x3 d6 d7).1.1, y ∈ pc.1.set := by
  unfold kernelRun1; dsimp only
  have hz : ∀ a : Fin 2, (![0, 0] : Fin 2 → ℕ) a = 0 := fun a => congrFun Struct1.zeros2 a
  refine ⟨_, List.mem_singleton_self _, ?_⟩
  show y ∈ (Rect.unit (s := S1x128) ![0, 0] S1x128.size inb_S1x128_S1x128_0_0).set
  refine (Rect.mem_set_unit (inb := inb_S1x128_S1x128_0_0)).mpr fun a => ⟨?_, ?_⟩
  · rw [hz a]; exact Nat.zero_le _
  · rw [hz a, Nat.zero_add]; exact (y a).isLt

set_option maxHeartbeats 400000 in
/-- The block the run leaves is `lossBlk` of the inputs, whatever the wide scratches held. -/
theorem out1_eq (c : Dev nD) (i : grid1.Coords) (arg1 : Memref sig .tc .vmem S256x256 .f32) (harg1 : arg1.IsWhole) (arg2 : Memref sig .tc .vmem S256x1 .i32) (harg2 : arg2.IsWhole)
    (arg3 : Memref sig .tc .vmem S8192x256 .f32) (harg3 : arg3.IsWhole) (arg4 : Memref sig .tc .vmem S1x8192 .i32) (harg4 : arg4.IsWhole)
    (arg5 : Memref sig .tc .vmem S1x128 .f32) (harg5 : arg5.IsWhole) (arg6 : Memref sig .tc .vmem S256x8192 .f32) (harg6 : arg6.IsWhole)
    (arg7 : Memref sig .tc .vmem S256x8192 .f32) (harg7 : arg7.IsWhole) (arg8 : Memref sig .tc .vmem S256x1 .f32) (harg8 : arg8.IsWhole)
    (arg9 : Memref sig .tc .vmem S256x1 .f32) (harg9 : arg9.IsWhole) (arg10 : Memref sig .tc .vmem S256x1 .f32) (harg10 : arg10.IsWhole)
    (arg11 : Memref sig .tc .vmem S256x1 .f32) (harg11 : arg11.IsWhole)
    (x0 : Vec F S256x256 .f32) (x1 : Vec F S256x1 .i32) (x2 : Vec F S8192x256 .f32) (x3 : Vec F S1x8192 .i32)
    (d6 : Vec F S256x8192 .f32) (d7 : Vec F S256x8192 .f32) :
    out1 c i arg1 harg1 arg2 harg2 arg3 harg3 arg4 harg4 arg5 harg5 arg6 harg6 arg7 harg7 arg8 harg8 arg9 harg9 arg10 harg10 arg11 harg11 x0 x1 x2 x3 d6 d7 = lossBlk i x0 x1 x2 x3 := by
  have A := Struct1.loops_eq (F := F) c i arg1 harg1 arg2 harg2 arg3 harg3 arg4 harg4 arg5 harg5 arg6 harg6 arg7 harg7 arg8 harg8 arg9 harg9 arg10 harg10 arg11 harg11 x0 x1 x2 x3
    (View.readAt (Elt F) arg1.view rQ.toLoadRect (harg1.unread x0)) (View.readAt (Elt F) arg2.view rCol.toLoadRect (harg2.unread x1))
    (harg3.unread x2) (harg4.unread x3) (harg6.unread d6) (harg7.unread d7)
    (arg8.view.writes (Elt F) arg8.view.junk [⟨rCol, k1_pay9⟩]) (arg9.view.writes (Elt F) arg9.view.junk [⟨rCol, k1_pay13⟩])
    (arg10.view.writes (Elt F) arg10.view.junk [⟨rCol, k1_pay17⟩]) (arg11.view.writes (Elt F) arg11.view.junk [⟨rCol, k1_pay1 k1_pay18⟩])
    (by rw [View.readAt_eq_ld, harg1.read_unread]) (by rw [View.readAt_eq_ld, harg2.read_unread])
    (harg3.read_unread x2) (harg4.read_unread x3)
    (Struct1.read_writes_cons_whole _ _ Struct1.zeros2 _ _ _) (Struct1.read_writes_cons_whole _ _ Struct1.zeros2 _ _ _)
    (Struct1.read_writes_cons_whole _ _ Struct1.zeros2 _ _ _) (Struct1.read_writes_cons_whole _ _ Struct1.zeros2 _ _ _)
  dsimp only at A
  unfold out1 kernelRun1; dsimp only
  rw [View.read_writes_junk_eq_canon]
  sl_unfold_run_names
  simp only [View.writes_append]
  unfold lossBlk
  exact congrArg₂ (fun a b => View.canon [(⟨rOut1, k1_pay3 a b⟩ : View.Piece (Elt F) S1x128 .f32)]) A.1 A.2

end Cert.KernelIdeal.Hand

end
-- ==== Proof.KI.Frame1.lean ====
/- Region 1 (the loss kernel's launch) of the frame, for the proof data of its pipeline at the region-entry buffer
   contents: each input window found at its block at every point, the body obligation from the body's run, and
   the result array after the region as one function of the entry contents, with the input blocks read at an index. -/
import proofs.«419518_j21423296873244_3_alg».proof.Proof.KI.Struct1
import proofs.«419518_j21423296873244_3_alg».proof.Proof.KI.Dat1
import proofs.«419518_j21423296873244_3_alg».proof.Proof.Spec
import proofs.«419518_j21423296873244_3_alg».proof.Proof.Gen.KernelIdeal.Launch
import proofs.«419518_j21423296873244_3_alg».proof.Proof.Gen.KernelIdeal.Points
import proofs.«419518_j21423296873244_3_alg».proof.Proof.Gen.KernelIdeal.Loops
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents at the region's entry
variable (V : (c : Dev nD) → (b : Ref sig .tc) → Buf (Elt F) ((c : Thread nD τ).loc b))

/-! ## The input windows at every point -/

/-- Input window 0's current staging buffer holds its block at every point, fetched there or not, for any proof data
    whose array is the entry contents and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, fetched there or not: the query rows and their
    labels are fetched at every point; the feature matrix and the label row are fetched at the first point only, their
    block index never moves, and the body leaves them in place. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The invariant, opened -/

/-- The region invariant with the kernel's six scratch operands as memrefs owned at some contents; the scoped
    buffers of the other launch ride along untouched, each at some contents; and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f)
          ∗ (∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d) ∗ (∃ d, owns (c : Thread nD τ) (Memref.whole cc1_scratch5) fullShare d))
        ∗ (∃ r, prngReg c r)) := by
  unfold Pipeline.ΦA; rw [scopedRest1_eq]; simp only [owns_whole]

/-- A memref held at some buffer contents is owned at what it reads there. -/
theorem ex_owns_of_held (c : Dev nD) {sp : Space} {sh : Shape} {e : EltTy} (m : Memref sig .tc sp sh e)
    (g : m.view.ty.Contents (Elt F)) :
    (m.view.loc (c : Thread nD τ) ↦[m.view.set]{fullShare} g) ⊢ (iprop(∃ d, owns (c : Thread nD τ) m fullShare d) : sProp 𝕄) := by
  unfold owns
  iintro H
  iexists (m.view.read (Elt F) g); iexists g
  isplitr; · ipureintro; rfl
  iexact H

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1600000 in
/-- The body at any point: the four inputs' memrefs hold their blocks, the invariant hands over the six scratch operands at
    some contents, so the run applies at the two wide scratches' contents; the output block's pieces cover it and read
    back as `lossBlk` of the input blocks whatever the wide scratches held; the scratches go back into the invariant
    at what the run left; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  iintro ⟨⟨⟨Hr0, Hr1, Hr2, Hr3, Hr4, Hr5, Hr6, ⟨%d6, HS0⟩, ⟨%d7, HS1⟩, HS2, HS3, HS4, HS5⟩, Hg⟩, Ho, ⟨%d0, H0⟩, ⟨%d1, H1⟩, ⟨%d2, H2⟩, ⟨%d3, H3⟩, ⟨%d4, H4⟩⟩
  iapply ((kernelRun1 c (grid1.coords t) _ _ _ _ _ _ _ _ _ _ _ _ _ _ _ _ _ _ _ _ _ _
    (iblk1 V c 0 t) (iblk1 V c 1 t) (iblk1 V c 2 t) (iblk1 V c 3 t) d6 d7).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e4, H4⟩, ⟨%e6, HS0⟩, ⟨%e7, HS1⟩, ⟨%e8, HS2⟩, ⟨%e9, HS3⟩, ⟨%e10, HS4⟩, ⟨%e11, HS5⟩⟩
  isplitl [Hr0 Hr1 Hr2 Hr3 Hr4 Hr5 Hr6 HS0 HS1 HS2 HS3 HS4 HS5 Hg]
  · isplitr [Hg]
    swap; · iexact Hg
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [HS0]
    · iapply (ex_owns_of_held c _ _); iexact HS0
    isplitl [HS1]
    · iapply (ex_owns_of_held c _ _); iexact HS1
    isplitl [HS2]
    · iapply (ex_owns_of_held c _ _); iexact HS2
    isplitl [HS3]
    · iapply (ex_owns_of_held c _ _); iexact HS3
    isplitl [HS4]
    · iapply (ex_owns_of_held c _ _); iexact HS4
    iapply (ex_owns_of_held c _ _); iexact HS5
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact (View.read_writes_of_cover _ _ _ _ _ (cover1 c _ _ _ _ _ _ _ _ _ _ _ _ _ _ _ _ _ _ _ _ _ _ _ _ _ _ _ _ _)).trans
    (out1_eq c _ _ _ _ _ _ _ _ _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The region's result array, and the input blocks read at an index -/

open Idealize.ShloMosaic.ValueIdx

/-- The grid has 32 points. -/
theorem N_cfg1 : cfg1.N = 32 := N_1

/-- Point `k` of the grid. -/
abbrev pt1 (k : Fin 32) : Fin cfg1.N := ⟨k.val, by rw [N_cfg1]; exact k.isLt⟩

/-- The index maps, decided over the 32 points: the grid's one coordinate is the point's number, which is the row-block
    index of the query rows and of their labels and the lane-block index of the output; the feature matrix and the
    label row are one block each. -/
theorem idx_facts1 : ∀ t : Fin grid1.N, cc1_transform_0 (grid1.coords t) = ![t.val, 0]
    ∧ cc1_transform_1 (grid1.coords t) = ![t.val, 0] ∧ cc1_transform_2 (grid1.coords t) = ![0, 0]
    ∧ cc1_transform_3 (grid1.coords t) = ![0, 0] ∧ cc1_transform_4 (grid1.coords t) = ![0, t.val] := by
  decide +kernel

theorem index1_0 (t : Fin cfg1.N) : (cfg1.win 0).index t = ![t.val, 0] := (idx_facts1 t).1
theorem index1_1 (t : Fin cfg1.N) : (cfg1.win 1).index t = ![t.val, 0] := (idx_facts1 t).2.1
theorem index1_2 (t : Fin cfg1.N) : (cfg1.win 2).index t = ![0, 0] := (idx_facts1 t).2.2.1
theorem index1_3 (t : Fin cfg1.N) : (cfg1.win 3).index t = ![0, 0] := (idx_facts1 t).2.2.2.1
theorem index1_4 (t : Fin cfg1.N) : (cfg1.win 4).index t = ![0, t.val] := (idx_facts1 t).2.2.2.2

/-- The query rows at point `k` are rows `256 k …` of the feature matrix: a block's coordinate is the block index times
    the block's extent plus the coordinate inside the block. -/
theorem iblk1_0_apply (c : Dev nD) (k : Fin 32) (r q : Fin 256) :
    iblk1 V c 0 (pt1 k) (ix2 r q) = V c main_v26 (ix2 (Cert.Spec.row32 k r) q) := by
  unfold iblk1
  show (V c main_v26 : S8192x256.Idx → Elt F .f32) (((cfg1.win 0).blk (pt1 k)).view.emb (ix2 r q)) = _
  refine congrArg (V c main_v26 : S8192x256.Idx → Elt F .f32) ?_
  have e0 : (cfg1.win 0).index (pt1 k) (0 : Fin 2) = k.val := congrFun (index1_0 (pt1 k)) (0 : Fin 2)
  have e1 : (cfg1.win 0).index (pt1 k) (1 : Fin 2) = 0 := congrFun (index1_0 (pt1 k)) (1 : Fin 2)
  funext a
  apply Fin.ext
  match a with
  | ⟨0, _⟩ => show (cfg1.win 0).index (pt1 k) (0 : Fin 2) * 256 + 1 * r.val = 256 * k.val + r.val; omega
  | ⟨1, _⟩ => show (cfg1.win 0).index (pt1 k) (1 : Fin 2) * 256 + 1 * q.val = q.val; omega

/-- Their labels are rows `256 k …` of the label column. -/
theorem iblk1_1_apply (c : Dev nD) (k : Fin 32) (r : Fin 256) :
    iblk1 V c 1 (pt1 k) (ix2 r (0 : Fin 1)) = V c main_v29 (ix2 (Cert.Spec.row32 k r) (0 : Fin 1)) := by
  unfold iblk1
  show (V c main_v29 : S8192x1.Idx → Elt F .i32) (((cfg1.win 1).blk (pt1 k)).view.emb (ix2 r (0 : Fin 1))) = _
  refine congrArg (V c main_v29 : S8192x1.Idx → Elt F .i32) ?_
  have e0 : (cfg1.win 1).index (pt1 k) (0 : Fin 2) = k.val := congrFun (index1_1 (pt1 k)) (0 : Fin 2)
  have e1 : (cfg1.win 1).index (pt1 k) (1 : Fin 2) = 0 := congrFun (index1_1 (pt1 k)) (1 : Fin 2)
  funext a
  apply Fin.ext
  match a with
  | ⟨0, _⟩ => show (cfg1.win 1).index (pt1 k) (0 : Fin 2) * 256 + 1 * r.val = 256 * k.val + r.val; omega
  | ⟨1, _⟩ => show (cfg1.win 1).index (pt1 k) (1 : Fin 2) * 1 + 1 * 0 = 0; omega

/-- The whole feature matrix, at every point. -/
theorem iblk1_2_apply (c : Dev nD) (t : Fin cfg1.N) (r : Fin 8192) (q : Fin 256) :
    iblk1 V c 2 t (ix2 r q) = V c main_v26 (ix2 r q) := by
  unfold iblk1
  show (V c main_v26 : S8192x256.Idx → Elt F .f32) (((cfg1.win 2).blk t).view.emb (ix2 r q)) = _
  refine congrArg (V c main_v26 : S8192x256.Idx → Elt F .f32) ?_
  have e0 : (cfg1.win 2).index t (0 : Fin 2) = 0 := congrFun (index1_2 t) (0 : Fin 2)
  have e1 : (cfg1.win 2).index t (1 : Fin 2) = 0 := congrFun (index1_2 t) (1 : Fin 2)
  funext a
  apply Fin.ext
  match a with
  | ⟨0, _⟩ => show (cfg1.win 2).index t (0 : Fin 2) * 8192 + 1 * r.val = r.val; omega
  | ⟨1, _⟩ => show (cfg1.win 2).index t (1 : Fin 2) * 256 + 1 * q.val = q.val; omega

/-- The whole label row, at every point. -/
theorem iblk1_3_apply (c : Dev nD) (t : Fin cfg1.N) (r : Fin 8192) :
    iblk1 V c 3 t (ix2 (0 : Fin 1) r) = V c main_v30 (ix2 (0 : Fin 1) r) := by
  unfold iblk1
  show (V c main_v30 : S1x8192.Idx → Elt F .i32) (((cfg1.win 3).blk t).view.emb (ix2 (0 : Fin 1) r)) = _
  refine congrArg (V c main_v30 : S1x8192.Idx → Elt F .i32) ?_
  have e0 : (cfg1.win 3).index t (0 : Fin 2) = 0 := congrFun (index1_3 t) (0 : Fin 2)
  have e1 : (cfg1.win 3).index t (1 : Fin 2) = 0 := congrFun (index1_3 t) (1 : Fin 2)
  funext a
  apply Fin.ext
  match a with
  | ⟨0, _⟩ => show (cfg1.win 3).index t (0 : Fin 2) * 1 + 1 * 0 = 0; omega
  | ⟨1, _⟩ => show (cfg1.win 3).index t (1 : Fin 2) * 8192 + 1 * r.val = r.val; omega

/-- The result row after the region: lane `l` of lane block `k` (column `128 k + l`) is lane `l` of the loss block of
    the input blocks at point `k`. -/
def lossArr (c : Dev nD) : S1x4096.Idx → Elt F .f32 := fun j =>
  lossBlk (grid1.coords (pt1 ⟨(j 1).val / 128, by have := idx2_lt1 j; omega⟩))
    (iblk1 V c 0 (pt1 ⟨(j 1).val / 128, by have := idx2_lt1 j; omega⟩))
    (iblk1 V c 1 (pt1 ⟨(j 1).val / 128, by have := idx2_lt1 j; omega⟩))
    (iblk1 V c 2 (pt1 ⟨(j 1).val / 128, by have := idx2_lt1 j; omega⟩))
    (iblk1 V c 3 (pt1 ⟨(j 1).val / 128, by have := idx2_lt1 j; omega⟩))
    (ix2 (0 : Fin 1) (⟨(j 1).val % 128, Nat.mod_lt _ (by omega)⟩ : Fin 128))

/-- At a column in point `t`'s lane block, read at the lane inside the block. -/
theorem lossArr_of (c : Dev nD) (t : Fin cfg1.N) (j : S1x4096.Idx) (y : S1x128.Idx)
    (h : (j 1).val = 128 * t.val + (y 1).val) :
    lossArr V c j = lossBlk (grid1.coords t) (iblk1 V c 0 t) (iblk1 V c 1 t) (iblk1 V c 2 t) (iblk1 V c 3 t) y := by
  have hy1 : (y 1).val < 128 := idx2_lt1 y
  have hy0 : (y 0).val < 1 := idx2_lt0 y
  have e : pt1 ⟨(j 1).val / 128, by have := idx2_lt1 j; omega⟩ = t := Fin.ext (by show (j 1).val / 128 = t.val; omega)
  unfold lossArr
  rw [e]
  refine congrArg (lossBlk (grid1.coords t) (iblk1 V c 0 t) (iblk1 V c 1 t) (iblk1 V c 2 t) (iblk1 V c 3 t)) ?_
  funext a
  match a with
  | ⟨0, _⟩ => exact Fin.ext (by show 0 = (y 0).val; omega)
  | ⟨1, _⟩ => exact Fin.ext (by show (j 1).val % 128 = (y 1).val; omega)

/-- The result row at column `128 k + l`. -/
theorem lossArr_apply (c : Dev nD) (k : Fin 32) (l : Fin 128) :
    lossArr V c (ix2 (0 : Fin 1) (⟨128 * k.val + l.val, by omega⟩ : Fin 4096))
      = lossBlk (grid1.coords (pt1 k)) (iblk1 V c 0 (pt1 k)) (iblk1 V c 1 (pt1 k)) (iblk1 V c 2 (pt1 k)) (iblk1 V c 3 (pt1 k))
          (ix2 (0 : Fin 1) l) :=
  lossArr_of V c (pt1 k) _ (ix2 (0 : Fin 1) l) rfl

/-- WHAT POINT `t` WRITES BACK is lane block `t` of that row. -/
theorem flushed1_eq (c : Dev nD) (t : Fin cfg1.N) :
    (dat1 V c).flushed 4 t = ((cfg1.win 4).blk t).view.read (Elt F) (lossArr V c) := by
  show (cfg1.win 4).cut (cfg1.grid.coords t) ((dat1 V c).after 4 t) = _
  rw [after1_4]
  have e1 : (cfg1.win 4).index t (1 : Fin 2) = t.val := congrFun (index1_4 t) (1 : Fin 2)
  funext y
  show lossBlk (grid1.coords t) (iblk1 V c 0 t) (iblk1 V c 1 t) (iblk1 V c 2 t) (iblk1 V c 3 t) y
    = lossArr V c (((cfg1.win 4).blk t).view.emb y)
  symm
  refine lossArr_of V c t _ y ?_
  show (cfg1.win 4).index t (1 : Fin 2) * 128 + 1 * (y 1).val = 128 * t.val + (y 1).val
  omega

set_option backward.isDefEq.respectTransparency.types false in
/-- A column of the result row is in point `t`'s lane block iff each coordinate is in the block's range on its axis. -/
theorem mem_blk1 (t : Fin cfg1.N) (i : S1x4096.Idx) :
    i ∈ ((cfg1.win 4).blk t).view.set ↔ ∀ a : Fin 2, (cfg1.win 4).index t a * S1x128.size a ≤ (i a).val ∧ (i a).val < (cfg1.win 4).index t a * S1x128.size a + S1x128.size a := by
  show i ∈ ((View.whole main_v31).slice ((cfg1.win 4).rect t)).set ↔ _
  rw [View.set_slice_whole, Rect.mem_set_unit]
  exact Iff.rfl

/-- Every column of the result row is in the lane block of the point `column / 128`, which writes it back. -/
theorem cover_out1 (i : S1x4096.Idx) :
    ∃ t : Fin cfg1.N, (cfg1.win 4).flush t = true ∧ i ∈ ((cfg1.win 4).blk t).view.set := by
  have hi1 : (i 1).val < 4096 := idx2_lt1 i
  have hi0 : (i 0).val < 1 := idx2_lt0 i
  obtain ⟨t, ht⟩ : ∃ t : Fin cfg1.N, t.val = (i 1).val / 128 := ⟨pt1 ⟨(i 1).val / 128, by omega⟩, rfl⟩
  refine ⟨t, flush1_4 t, ?_⟩
  rw [mem_blk1]
  have e0 : (cfg1.win 4).index t (0 : Fin 2) = 0 := congrFun (index1_4 t) (0 : Fin 2)
  have e1 : (cfg1.win 4).index t (1 : Fin 2) = t.val := congrFun (index1_4 t) (1 : Fin 2)
  intro a
  match a with
  | ⟨0, _⟩ => show (cfg1.win 4).index t (0 : Fin 2) * 1 ≤ (i 0).val ∧ (i 0).val < (cfg1.win 4).index t (0 : Fin 2) * 1 + 1; omega
  | ⟨1, _⟩ => show (cfg1.win 4).index t (1 : Fin 2) * 128 ≤ (i 1).val ∧ (i 1).val < (cfg1.win 4).index t (1 : Fin 2) * 128 + 128; omega

/-- THE RESULT ARRAY after the region is `lossArr` of the entry contents: every point writes back its lane block of it, and
    the lane blocks cover the row. -/
theorem final1 (c : Dev nD) : (dat1 V c).arrAt 4 cfg1.N = lossArr V c :=
  (dat1 V c).arrAt_eq_of_cover 4 (lossArr V c) (fun t _ => flushed1_eq V c t) cover_out1

end Cert.KernelIdeal.Hand

end
-- ==== Proof.KI.AsmFrame.lean ====
/- The whole program's frame from the two regions' records: every weakly fair execution of @main terminates, faults
   nowhere and leaves the four argument arrays as launched. The host stretches, the chaining of the thread states and
   the launch are the conditional frame's; the regions' records are entered from and left at exactly its thread states,
   with the generator register and the (empty) debt riding along. -/
import proofs.«419518_j21423296873244_3_alg».proof.Proof.KI.Reg0
import proofs.«419518_j21423296873244_3_alg».proof.Proof.KI.Reg1
import proofs.«419518_j21423296873244_3_alg».proof.Proof.KI.Frame0
import proofs.«419518_j21423296873244_3_alg».proof.Proof.KI.Frame1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a0 : (pcfg0 (F := F)).Adm)

/-- The launch's ghost element is the one of the pipelines' staging cells; there is no ghost resource besides. -/
theorem hu₀ :
    (ownU (initOf (Pipeline.cells (Pipeline.pin (pcfgs (F := F)) (adm a0)) (cellOf_inj (adm a0))) (Pipeline.launchToks (Pipeline.pin (pcfgs (F := F)) (adm a0)) (cellOf_inj (adm a0)))) : sProp 𝕄)
      ⊢ |={Set.univ}=> iprop(BI.own (emb₁ (initOf (Pipeline.cells (Pipeline.pin (pcfgs (F := F)) (adm a0)) (cellOf_inj (adm a0))) (Pipeline.launchToks (Pipeline.pin (pcfgs (F := F)) (adm a0)) (cellOf_inj (adm a0)))))
          ∗ bigSep Finset.univ (fun _ : Dev nD => (BI.emp : sProp 𝕄))) := by
  iintro Hu; imodintro
  isplitl [Hu]
  · iapply (show (ownU (initOf (Pipeline.cells (Pipeline.pin (pcfgs (F := F)) (adm a0)) (cellOf_inj (adm a0))) (Pipeline.launchToks (Pipeline.pin (pcfgs (F := F)) (adm a0)) (cellOf_inj (adm a0)))) : sProp 𝕄)
        ⊢ BI.own (emb₁ (initOf (Pipeline.cells (Pipeline.pin (pcfgs (F := F)) (adm a0)) (cellOf_inj (adm a0))) (Pipeline.launchToks (Pipeline.pin (pcfgs (F := F)) (adm a0)) (cellOf_inj (adm a0))))) from .rfl)
    iexact Hu
  iapply (show (BI.emp : sProp 𝕄) ⊢ bigSep Finset.univ (fun _ : Dev nD => (BI.emp : sProp 𝕄)) from by rw [BI.bigSep_emp_const])
  iempintro

/-- What the launch deals each core makes the riding state on every core at once. -/
theorem hE0 :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- The riding state ends owing nothing. -/
theorem hE2 (c : Dev nD) : R (F := F) c ⊢ (iprop(∃ W, owes (c : Thread nD τ) (0 : CellTallies nD τ sig Unit) W) : sProp 𝕄) := by
  iintro ⟨-, HO⟩; iexact HO

/-- THE FRAME at any float instance, given admissible table contents that are the table buffer's entry contents. -/
theorem frame_of_adm (hA0 : ∀ c : Dev nD, ((fun k => Ve0 m c (pre0.ref k)) : pre0.Contents (Elt F)) = a0.1) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond (F := F) m emb₁ () Variants.none L lv (fun _ _ => rfl) ρ (outs m a0) (adm a0) (pdats m a0)
    (0 : Dev nD → CellTallies nD τ sig Unit) (fun _ => (BI.emp : sProp 𝕄)) _ (hu₀ a0)
    (fun _ => R) (hE0 ρ) hE2
    (reg0 m a0 hA0 (fun c => body_obligation0 a0 (Ve0 m) c)) (fun _ => .rfl) (fun _ => .rfl)
    (reg1 m a0 (fun c => body_obligation1 (Ve1 m a0) c)) (fun _ => .rfl) (fun _ => .rfl)

end Cert.KernelIdeal.Hand

end
-- ==== Proof.KI.AsmRun.lean ====
/- The whole program's run with its result: as the frame, and the result buffer holds what the host operations after
   the loss region compute from that region's result array. -/
import proofs.«419518_j21423296873244_3_alg».proof.Proof.KI.AsmFrame
import proofs.«419518_j21423296873244_3_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a0 : (pcfg0 (F := F)).Adm)
/-- THE RUN with the result: the same, and the result buffer at the last boundary's contents. -/
theorem run_of_adm (hA0 : ∀ c : Dev nD, ((fun k => Ve0 m c (pre0.ref k)) : pre0.Contents (Elt F)) = a0.1) : θ_run defs (onTc (τ := τ) (main (F := F))) ⟨m, fun _ => 0, ρ⟩ (fun r => ∀ c : Dev nD,
      r.2.mem ((c.tc : Thread nD τ).loc main_v37) = V9 m (outs m a0) c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Cert.KernelIdeal.GenP.run_cond (F := F) m emb₁ () Variants.none L lv (fun _ _ => rfl) ρ (outs m a0) (adm a0) (pdats m a0)
    (0 : Dev nD → CellTallies nD τ sig Unit) (fun _ => (BI.emp : sProp 𝕄)) _ (hu₀ a0)
    (fun _ => R) (hE0 ρ) hE2
    (reg0 m a0 hA0 (fun c => body_obligation0 a0 (Ve0 m) c)) (fun _ => .rfl) (fun _ => .rfl)
    (reg1 m a0 (fun c => body_obligation1 (Ve1 m a0) c)) (fun _ => .rfl) (fun _ => .rfl)

end Cert.KernelIdeal.Hand

end
-- ==== Proof.KI.HostPre.lean ====
/- The host side before the first kernel call. The sample groups are processed in the order a stable sort of their
   image indices produces: that order is a permutation σ of the thirty-two groups (position s holds group σ s). Read at an
   index, the table of image indices handed to the first call holds, at s, the image index of group σ s; the labels
   handed on hold the label of group σ s; the sample indices hold, at (s, v), sample v of group σ s, the clip into
   0 … 9215 being the identity on indices already there; and the image tensor is handed over with each 96 × 96 plane
   flattened to 9216 pixels. The three gathers go through the sort order with negative positions counted from the end:
   the order's entries are positions 0 … 31, so that normalisation and the gather's clamp both leave them. Every entry
   of the table is an entry of the image-index argument, so it names one of the eight images as soon as every image
   index does. -/
import proofs.«419518_j21423296873244_3_alg».proof.Proof.Gen.KernelIdeal.Regions
import proofs.«419518_j21423296873244_3_alg».proof.Proof.Args
import Idealize.ShloMosaic.Lib.StableHlo.Run
import Idealize.ShloMosaic.Lib.SortFacts
import Idealize.ShloMosaic.Lib.ValueIdx
import Idealize.ShloMosaic.Lib.Pipeline.Value
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Idealize.SL.Sem
open Cert.Spec (pixRow pixCol)

variable {F : FTy → Type} [FloatOps F]
variable (m : (ℓ : Loc nD τ sig) → Buf (Elt F) ℓ) (c : Dev nD)

/-! ## Indices -/

theorem ix1_eq_ofFin {n : Nat} (k : Fin n) : (ix1 k : (⟨1, ![n]⟩ : Shape).Idx) = Shape.Idx.ofFin k := by
  funext a; match a with | ⟨0, _⟩ => rfl

/-! ## A stable sort of a vector carrying a second vector -/

/-- The order a stable sort of the pairs (x k, y k) by cmp produces: position k of the sorted vectors holds the
    entries of position sortOrd k. -/
def sortOrd {n : Nat} {α β : Type} (cmp : α × β → α × β → BitVec 1) (x : (⟨1, ![n]⟩ : Shape).Idx → α)
    (y : (⟨1, ![n]⟩ : Shape).Idx → β) : Fin n → Fin n :=
  sortedFrom fun k k' => cmp (x (Shape.Idx.ofFin k), y (Shape.Idx.ofFin k)) (x (Shape.Idx.ofFin k'), y (Shape.Idx.ofFin k')) == 1#1

/-- It is a bijection of the positions, whatever the comparator. -/
theorem sortOrd_bijective {n : Nat} {α β : Type} (cmp : α × β → α × β → BitVec 1) (x : (⟨1, ![n]⟩ : Shape).Idx → α)
    (y : (⟨1, ![n]⟩ : Shape).Idx → β) : Function.Bijective (sortOrd cmp x y) :=
  ⟨sortedFrom_injective _, sortedFrom_surjective _⟩

set_option maxHeartbeats 400000 in
/-- The carried vector after the sort, read at a position. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j = y (Shape.Idx.ofFin (sortOrd cmp x y (j 0))) := by
  unfold Host.sort2 sortOrd
  simp

attribute [irreducible] sortOrd

/-! ## Words -/

set_option maxHeartbeats 400000 in
/-- A position below 32, as a word, is not negative: wrapping it by 32 when negative leaves it, and read back signed and
    clamped into 0 … 31 it is itself. -/
theorem wrap_take : ∀ q : Fin 32,
    min (Scalar.select (IntOp.cmpi .slt (BitVec.ofNat 32 q.val) 0#32) (IntOp.addi (BitVec.ofNat 32 q.val) 32#32)
      (BitVec.ofNat 32 q.val)).toInt.toNat (32 - 1) = q.val := by
  decide

set_option maxHeartbeats 400000 in
/-- Clipping a word already in 0 … 9215 into that range leaves it. -/
theorem clip_id (w : BitVec 32) (hw : w.toNat < 9216) : IntOp.minsi 9215#32 (IntOp.maxsi 0#32 w) = w := by
  have hti : w.toInt = w.toNat := Predicate.toInt_eq_toNat_of_lt (by omega)
  have h0 : (0#32 : BitVec 32).toInt = 0 := by decide
  have h9 : (9215#32 : BitVec 32).toInt = 9215 := by decide
  have hmax : IntOp.maxsi 0#32 w = w := by
    unfold IntOp.maxsi
    split <;> rename_i hc <;> simp only [BitVec.slt, hti, h0, decide_eq_true_eq] at hc
    all_goals first | rfl | (apply BitVec.eq_of_toNat_eq; simp only [BitVec.toNat_ofNat]; omega)
  rw [hmax]
  unfold IntOp.minsi
  split <;> rename_i hc <;> simp only [BitVec.slt, hti, h9, decide_eq_true_eq] at hc
  all_goals first | rfl | (apply BitVec.eq_of_toNat_eq; simp only [BitVec.toNat_ofNat]; omega)

/-! ## The index-wrapped gathers -/

/-- Index normalisation: a negative position counts from the end. -/
def wrap32 (o : IVec S32 32) : IVec S32 32 :=
  select (cmpi .slt o (broadcastInDim S32 ![] bcast_S_S32 (constantI S_ 32 0#32)))
    (addi o (broadcastInDim S32 ![] bcast_S_S32 (constantI S_ 32 32#32))) o

set_option maxHeartbeats 400000 in
/-- A whole row of a [32, 256] array taken through a [32, 1] column of row numbers: row p of the result is the row of the
    operand whose number the column holds at p, read signed and clamped into 0 … 31. -/
theorem gather_rows_apply {α : Type} {w : Nat} (x : S32x256.Idx → α) (idx : IVec S32x1 w) (p : Fin 32) (v : Fin 256) :
    Host.gather gather_S32x256_S32x1_S32x256_1_0_n_n_0_1_1256 x idx (ix2 p v)
      = x (ix2 (⟨min (idx (Predicate.ixP p)).toInt.toNat (32 - 1), by omega⟩ : Fin 32) v) := by
  unfold Host.gather
  refine congrArg x (funext fun a => Fin.ext ?_)
  match a with
  | ⟨0, _⟩ =>
    show gather_S32x256_S32x1_S32x256_1_0_n_n_0_1_1256.start (ix2 p v) idx (0 : Fin S32x256.rank)
        + gather_S32x256_S32x1_S32x256_1_0_n_n_0_1_1256.batchCoord (ix2 p v) (0 : Fin S32x256.rank)
        + gather_S32x256_S32x1_S32x256_1_0_n_n_0_1_1256.offCoord (ix2 p v) (0 : Fin S32x256.rank)
        = min (idx (Predicate.ixP p)).toInt.toNat (32 - 1)
    have hb : (0 : Fin S32x256.rank) ∉ gather_S32x256_S32x1_S32x256_1_0_n_n_0_1_1256.operandBatchingDims := by decide
    have hk : (0 : Fin S32x256.rank) ∉ gather_S32x256_S32x1_S32x256_1_0_n_n_0_1_1256.sKept := by decide
    have hm : (0 : Fin S32x256.rank) ∈ gather_S32x256_S32x1_S32x256_1_0_n_n_0_1_1256.startIndexMap := by decide
    rw [GatherDims.batchCoord_eq_zero _ _ _ hb, GatherDims.offCoord_eq_zero _ _ _ hk]
    simp only [Nat.add_zero]
    unfold GatherDims.start
    rw [dif_pos hm]
    have hsi : gather_S32x256_S32x1_S32x256_1_0_n_n_0_1_1256.siIdx (ix2 p v)
        ⟨List.idxOf (0 : Fin S32x256.rank) gather_S32x256_S32x1_S32x256_1_0_n_n_0_1_1256.startIndexMap,
          List.idxOf_lt_length_iff.2 hm⟩ = Predicate.ixP p := by
      funext b; refine Fin.ext ?_
      match b with
      | ⟨0, _⟩ => rfl
      | ⟨1, _⟩ => rfl
    rw [hsi]
    rfl
  | ⟨1, _⟩ =>
    show gather_S32x256_S32x1_S32x256_1_0_n_n_0_1_1256.start (ix2 p v) idx (1 : Fin S32x256.rank)
        + gather_S32x256_S32x1_S32x256_1_0_n_n_0_1_1256.batchCoord (ix2 p v) (1 : Fin S32x256.rank)
        + gather_S32x256_S32x1_S32x256_1_0_n_n_0_1_1256.offCoord (ix2 p v) (1 : Fin S32x256.rank) = v.val
    have hb : (1 : Fin S32x256.rank) ∉ gather_S32x256_S32x1_S32x256_1_0_n_n_0_1_1256.operandBatchingDims := by decide
    have hk : (1 : Fin S32x256.rank) ∈ gather_S32x256_S32x1_S32x256_1_0_n_n_0_1_1256.sKept := by decide
    have hm : (1 : Fin S32x256.rank) ∉ gather_S32x256_S32x1_S32x256_1_0_n_n_0_1_1256.startIndexMap := by decide
    rw [GatherDims.batchCoord_eq_zero _ _ _ hb]
    unfold GatherDims.start GatherDims.offCoord
    rw [dif_neg hm, dif_pos hk]
    simp only [Nat.add_zero, Nat.zero_add]
    rfl

set_option maxHeartbeats 400000 in
/-- The wrapped positions at p, read back signed and clamped, when the position vector holds the number q there. -/
theorem wrapped_at (o : IVec S32 32) (p q : Fin 32) (ho : o (Shape.Idx.ofFin p) = BitVec.ofNat 32 q.val) :
    min (broadcastInDim S32x1 ![0] bcast_S32_S32x1_0 (wrap32 o) (Predicate.ixP p)).toInt.toNat (32 - 1) = q.val := by
  rw [Predicate.bcast_col1]
  show min (Scalar.select (IntOp.cmpi .slt (o (Shape.Idx.ofFin p)) 0#32) (IntOp.addi (o (Shape.Idx.ofFin p)) 32#32)
    (o (Shape.Idx.ofFin p))).toInt.toNat (32 - 1) = q.val
  rw [ho]
  exact wrap_take q

set_option maxHeartbeats 400000 in
/-- An entry of a vector taken through the wrapped positions: at p, the entry the position vector names there. -/
theorem take_wrapped {α : Type} (x : S32.Idx → α) (o : IVec S32 32) (p q : Fin 32)
    (ho : o (Shape.Idx.ofFin p) = BitVec.ofNat 32 q.val) :
    Host.gather gather_S32_S32x1_S32_n_0_n_n_0_1_1 x (broadcastInDim S32x1 ![0] bcast_S32_S32x1_0 (wrap32 o)) (Shape.Idx.ofFin p)
      = x (Shape.Idx.ofFin q) := by
  rw [Predicate.gather_take gather_S32_S32x1_S32_n_0_n_n_0_1_1 rfl rfl rfl rfl x _ p (by decide)]
  exact congrArg x (congrArg Shape.Idx.ofFin (Fin.ext (wrapped_at o p q ho)))

set_option maxHeartbeats 400000 in
/-- A row taken through the wrapped positions: row p is the row the position vector names there. -/
theorem take_rows_wrapped {α : Type} (x : S32x256.Idx → α) (o : IVec S32 32) (p q : Fin 32) (v : Fin 256)
    (ho : o (Shape.Idx.ofFin p) = BitVec.ofNat 32 q.val) :
    Host.gather gather_S32x256_S32x1_S32x256_1_0_n_n_0_1_1256 x (broadcastInDim S32x1 ![0] bcast_S32_S32x1_0 (wrap32 o)) (ix2 p v)
      = x (ix2 q v) := by
  rw [gather_rows_apply]
  exact congrArg x (congrArg (fun r : Fin 32 => ix2 r v) (Fin.ext (wrapped_at o p q ho)))

/-! ## The host stretches, read off at any contents before them -/

section Stretches
variable (V : Valuation τ sig (Elt F))

set_option maxHeartbeats 400000 in
theorem ops0_v0 : (StableHlo.after (hostOps0 (F := F)) V (Proc.devRef .tc main_v0) : S8x256x9216.Idx → F .f32)
    = shapeCast S8x256x9216 (V main_arg0 : S8x256x96x96.Idx → F .f32) shapeCasts_S8x256x96x96_S8x256x9216 := by
  after_results
  rfl

set_option maxHeartbeats 400000 in
theorem ops1_v1 : (StableHlo.after (hostOps0_1 (F := F)) V (Proc.devRef .tc main_v1) : S32.Idx → BitVec 32)
    = (Host.sort2 S32 0 comparator_i32_i32_d0 (V main_arg1 : S32.Idx → BitVec 32) (iotaInDim S32 32 0)).2 := by
  after_results
  rfl

set_option maxHeartbeats 1000000 in
theorem ops2_v8 : (StableHlo.after (hostOps0_2 (F := F)) V (Proc.devRef .tc main_v8) : S32.Idx → BitVec 32)
    = Host.gather gather_S32_S32x1_S32_n_0_n_n_0_1_1 (V main_arg1 : S32.Idx → BitVec 32)
        (broadcastInDim S32x1 ![0] bcast_S32_S32x1_0 (wrap32 (V main_v1))) := by
  after_results_simp
  rfl

set_option maxHeartbeats 1000000 in
theorem ops2_v22 : (StableHlo.after (hostOps0_2 (F := F)) V (Proc.devRef .tc main_v22) : S32.Idx → BitVec 32)
    = Host.gather gather_S32_S32x1_S32_n_0_n_n_0_1_1 (V main_arg3 : S32.Idx → BitVec 32)
        (broadcastInDim S32x1 ![0] bcast_S32_S32x1_0 (wrap32 (V main_v1))) := by
  after_results_simp
  rfl

set_option maxHeartbeats 1000000 in
theorem ops2_v15 : (StableHlo.after (hostOps0_2 (F := F)) V (Proc.devRef .tc main_v15) : S32x256.Idx → BitVec 32)
    = Host.gather gather_S32x256_S32x1_S32x256_1_0_n_n_0_1_1256 (V main_arg2 : S32x256.Idx → BitVec 32)
        (broadcastInDim S32x1 ![0] bcast_S32_S32x1_0 (wrap32 (V main_v1))) := by
  after_results_simp
  rfl

set_option maxHeartbeats 1000000 in
theorem ops2_c5 : (StableHlo.after (hostOps0_2 (F := F)) V (Proc.devRef .tc main_c_5) : S_.Idx → BitVec 32)
    = constantI S_ 32 0#32 := by
  after_results_simp

set_option maxHeartbeats 1000000 in
theorem ops2_c6 : (StableHlo.after (hostOps0_2 (F := F)) V (Proc.devRef .tc main_c_6) : S_.Idx → BitVec 32)
    = constantI S_ 32 9215#32 := by
  after_results_simp

set_option maxHeartbeats 400000 in
theorem ops3_v23 : (StableHlo.after (hostOps0_3 (F := F)) V (Proc.devRef .tc main_v23) : S32x256.Idx → BitVec 32)
    = minsi (broadcastInDim S32x256 ![] bcast_S_S32x256 (V main_c_6 : S_.Idx → BitVec 32))
        (maxsi (broadcastInDim S32x256 ![] bcast_S_S32x256 (V main_c_5 : S_.Idx → BitVec 32)) (V main_v15 : S32x256.Idx → BitVec 32)) := by
  after_results
  rfl

set_option maxHeartbeats 400000 in
theorem ops4_v24 : (StableHlo.after (hostOps0_4 (F := F)) V (Proc.devRef .tc main_v24) : S32x1x256.Idx → BitVec 32)
    = shapeCast S32x1x256 (V main_v23 : S32x256.Idx → BitVec 32) shapeCasts_S32x256_S32x1x256 := by
  after_results
  rfl

end Stretches

/-! ## The order of the groups, and the arrays handed to the first call -/

/-- The order of the sample groups: position s holds group sortPerm s (the order a stable sort of the groups' image
    indices, as signed words, produces). -/
def sortPerm : Equiv.Perm (Fin 32) :=
  Equiv.ofBijective (sortOrd comparator_i32_i32_d0 (m ((c : Thread nD τ).loc main_arg1)) (iotaInDim S32 32 0))
    (sortOrd_bijective _ _ _)

/-- No host operation before the first call writes an argument. -/
theorem V1_arg1 : (V1 m c main_arg1 : S32.Idx → BitVec 32) = m ((c : Thread nD τ).loc main_arg1) :=
  (V1_of m c main_arg1 (by decide)).trans rfl
theorem V2_arg1 : (V2 m c main_arg1 : S32.Idx → BitVec 32) = m ((c : Thread nD τ).loc main_arg1) :=
  (V2_of m c main_arg1 (by decide)).trans (V1_arg1 m c)
theorem V2_arg2 : (V2 m c main_arg2 : S32x256.Idx → BitVec 32) = m ((c : Thread nD τ).loc main_arg2) :=
  (V2_of m c main_arg2 (by decide)).trans ((V1_of m c main_arg2 (by decide)).trans rfl)
theorem V2_arg3 : (V2 m c main_arg3 : S32.Idx → BitVec 32) = m ((c : Thread nD τ).loc main_arg3) :=
  (V2_of m c main_arg3 (by decide)).trans ((V1_of m c main_arg3 (by decide)).trans rfl)

set_option maxHeartbeats 400000 in
/-- The sort order as words: position s holds the number of group sortPerm s. -/
theorem V2_v1_apply (s : Fin 32) : V2 m c main_v1 (Shape.Idx.ofFin s) = BitVec.ofNat 32 (sortPerm m c s).val := by
  show StableHlo.after hostOps0_1 (V1 m c) (Proc.devRef .tc main_v1) (Shape.Idx.ofFin s) = _
  rw [ops1_v1, V1_arg1, sort2_snd_rank1, Predicate.iota_apply, Shape.Idx.ofFin_zero]
  rfl

set_option maxHeartbeats 400000 in
/-- The table of image indices at position s: the image index of group sortPerm s. -/
theorem v8_apply (s : Fin 32) :
    V5 m c main_v8 (ix1 s) = m ((c : Thread nD τ).loc main_arg1) (ix1 (sortPerm m c s)) := by
  rw [V5_of m c main_v8 (by decide), V4_of m c main_v8 (by decide)]
  simp only [ix1_eq_ofFin]
  show StableHlo.after hostOps0_2 (V2 m c) (Proc.devRef .tc main_v8) (Shape.Idx.ofFin s) = _
  rw [ops2_v8, V2_arg1]
  exact take_wrapped _ _ s (sortPerm m c s) (V2_v1_apply m c s)

set_option maxHeartbeats 400000 in
/-- The labels at position s: the label of group sortPerm s. -/
theorem v22_apply (s : Fin 32) :
    V5 m c main_v22 (ix1 s) = m ((c : Thread nD τ).loc main_arg3) (ix1 (sortPerm m c s)) := by
  rw [V5_of m c main_v22 (by decide), V4_of m c main_v22 (by decide)]
  simp only [ix1_eq_ofFin]
  show StableHlo.after hostOps0_2 (V2 m c) (Proc.devRef .tc main_v22) (Shape.Idx.ofFin s) = _
  rw [ops2_v22, V2_arg3]
  exact take_wrapped _ _ s (sortPerm m c s) (V2_v1_apply m c s)

set_option maxHeartbeats 400000 in
/-- The sorted sample indices before the clip, at (s, v): sample v of group sortPerm s. -/
theorem V3_v15_apply (s : Fin 32) (v : Fin 256) :
    V3 m c main_v15 (ix2 s v) = m ((c : Thread nD τ).loc main_arg2) (ix2 (sortPerm m c s) v) := by
  show StableHlo.after hostOps0_2 (V2 m c) (Proc.devRef .tc main_v15) (ix2 s v) = _
  rw [ops2_v15, V2_arg2]
  exact take_rows_wrapped _ _ s (sortPerm m c s) v (V2_v1_apply m c s)

set_option maxHeartbeats 400000 in
/-- The sample indices at (s, 0, v): sample v of group sortPerm s, when every sample index is below 9216. -/
theorem v24_apply (hs : ∀ (t : Fin 32) (v : Fin 256), (m ((c : Thread nD τ).loc main_arg2) (ix2 t v)).toNat < 9216)
    (s : Fin 32) (u : Fin 1) (v : Fin 256) :
    V5 m c main_v24 (ix3 s u v) = m ((c : Thread nD τ).loc main_arg2) (ix2 (sortPerm m c s) v) := by
  show StableHlo.after hostOps0_4 (V4 m c) (Proc.devRef .tc main_v24) (ix3 s u v) = _
  rw [ops4_v24]
  rw [shapeCast_apply (s := S32x256) (t := S32x1x256) _ shapeCasts_S32x256_S32x1x256 (ix3 s u v) (ix2 s v) (by
    rw [Shape.rowMajor_val_two, Shape.rowMajor_val_three]
    show s.val * 256 + v.val = (s.val * 1 + u.val) * 256 + v.val
    have := u.isLt
    omega)]
  show StableHlo.after hostOps0_3 (V3 m c) (Proc.devRef .tc main_v23) (ix2 s v) = _
  rw [ops3_v23]
  have h5 : (V3 m c main_c_5 : S_.Idx → BitVec 32) = constantI S_ 32 0#32 := ops2_c5 (V2 m c)
  have h6 : (V3 m c main_c_6 : S_.Idx → BitVec 32) = constantI S_ 32 9215#32 := ops2_c6 (V2 m c)
  rw [h5, h6]
  show IntOp.minsi 9215#32 (IntOp.maxsi 0#32 (V3 m c main_v15 (ix2 s v))) = _
  rw [V3_v15_apply]
  exact clip_id _ (hs _ _)

set_option maxHeartbeats 400000 in
/-- The image tensor with its planes flattened: pixel p is row p / 96, column p % 96. -/
theorem v0_apply (b : Fin 8) (ch : Fin 256) (p : Fin 9216) :
    V5 m c main_v0 (ix3 b ch p) = m ((c : Thread nD τ).loc main_arg0) (ix4 b ch (pixRow p) (pixCol p)) := by
  rw [V5_of m c main_v0 (by decide), V4_of m c main_v0 (by decide), V3_of m c main_v0 (by decide), V2_of m c main_v0 (by decide)]
  show StableHlo.after hostOps0 (V0 m c) (Proc.devRef .tc main_v0) (ix3 b ch p) = _
  rw [ops0_v0]
  refine shapeCast_apply (s := S8x256x96x96) (t := S8x256x9216) _ _ _ _ ?_
  rw [Shape.rowMajor_val_four, Shape.rowMajor_val_three]
  show ((b.val * 256 + ch.val) * 96 + (pixRow p).val) * 96 + (pixCol p).val = (b.val * 256 + ch.val) * 9216 + p.val
  simp only [pixRow, pixCol]
  omega

/-! ## The table the first call's index maps read -/

/-- The contents of the table at the first call's entry. -/
def tbl : pre0.Contents (Elt F) := fun j => V5 m c (pre0.ref j)

theorem tbl_eq (j : Fin pre0.K) : tbl m c j = V5 m c (pre0.ref j) := rfl
theorem tbl_zero : tbl m c 0 = V5 m c main_v8 := rfl

set_option maxHeartbeats 400000 in
theorem tbl_apply (s : Fin 32) :
    tbl m c 0 (ix1 s) = m ((c : Thread nD τ).loc main_arg1) (ix1 (sortPerm m c s)) := by
  show V5 m c main_v8 (ix1 s) = _
  exact v8_apply m c s

set_option maxHeartbeats 400000 in
/-- A table whose every entry is below 8 names an image at every grid point: the block of the image tensor the first
    call fetches there lies inside it (and is of whole words, the elements being words). -/
theorem ok0_of_lt (pf : pre0.Contents (Elt F)) (h : ∀ x : S32.Idx, (pf 0 x : BitVec 32).toNat < 8) : ok0 pf := by
  intro i
  obtain ⟨w, hw, e⟩ : ∃ w : BitVec 32, w.toNat < 8 ∧ cc0_transform_0 k0_off1_inb numel1_S1 pf i = ![w.toNat, 0, 0] :=
    ⟨_, h _, rfl⟩
  refine ⟨fun a => ?_, Or.inl rfl⟩
  rw [e]
  fin_cases a <;> simp [S1x256x9216, S8x256x9216] <;> omega

set_option maxHeartbeats 400000 in
/-- Every entry of the table names one of the eight images as soon as every image index does: the blocks of the
    image tensor the first call fetches lie inside it. -/
theorem ok0_of (hb : ∀ t : Fin 32, (m ((c : Thread nD τ).loc main_arg1) (ix1 t)).toNat < 8) :
    ok0 (tbl m c) :=
  ok0_of_lt (tbl m c) fun x => by
    obtain ⟨t, rfl⟩ : ∃ t : Fin 32, x = ix1 t := ⟨x 0, eq_ix1 x⟩
    rw [tbl_apply]
    exact hb _

attribute [irreducible] sortPerm

end Cert.KernelIdeal.Hand

end
-- ==== Proof.KI.Val0.lean ====
/- The gather kernel's block function at the ideal instance, read at an index: with every image value a real and
   every index below `9216`, row `v`, channel `c` of the block is the image's channel `c` at pixel `idx v` over the
   floored norm of that pixel's channel vector. The one-hot products pick the pixel (a sum against an indicator is one
   term; `0 · x = 0`), the low-order halves vanish (a real minus itself), and the four chunks add up to the whole sum. -/
import proofs.«419518_j21423296873244_3_alg».proof.Proof.KI.Blocks
import proofs.«419518_j21423296873244_3_alg».proof.Proof.Feat
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.SL.Sem
open Idealize.ShloMosaic.ValueIdx
open scoped BigOperators

namespace Gather

/-! ## Words -/

/-- A comparison bit, widened to a word and read as a signed integer, is the real `1` or `0`. -/
theorem onehot_word (x y : BitVec 32) :
    FloatOps.sitofp (F := Ideal) .f32 ((IntOp.cmpi .eq x y).setWidth 32) = if x = y then (1 : EReal) else 0 := by
  show (((((IntOp.cmpi .eq x y).setWidth 32).toInt : ℝ)) : EReal) = _
  by_cases h : x = y
  · subst h; simp [IntOp.cmpi]
  · have hb : (x == y) = false := by simpa using h
    simp [IntOp.cmpi, hb, h]

/-- The chunk's first column as a word: `2304 k`. -/
theorem chunk_word : ∀ k : Fin k0_t1_loop.trips,
    Scalar.muli (Scalar.addi 0#32 (Scalar.muli (Scf.iv 0#32 1#32 k) 1#32)) 2304#32 = BitVec.ofNat 32 (2304 * k.val) := by
  decide +kernel

/-- The loop over the column chunks runs four times. -/
theorem trips_eq : k0_t1_loop.trips = 4 := by decide +kernel

/-- Column `2304 k + j` as a word equals an index word exactly when the numbers agree. -/
theorem col_word_eq (k : Fin k0_t1_loop.trips) (j : Fin 2304) (w : BitVec 32) :
    (BitVec.ofNat 32 (2304 * k.val) + BitVec.ofNat 32 j.val = w) ↔ 2304 * k.val + j.val = w.toNat := by
  have hk : k.val < 4 := lt_of_lt_of_eq k.isLt trips_eq
  have hj := j.isLt
  rw [← BitVec.ofNat_add]
  constructor
  · intro h
    rw [← h, BitVec.toNat_ofNat, Nat.mod_eq_of_lt (by omega)]
  · intro h
    rw [h, BitVec.ofNat_toNat, BitVec.setWidth_eq]

/-! ## Layout operations at an index -/

/-- The zero offsets of the whole-block rectangles. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The index row `[1, 1, 256]` viewed as `[256]`. -/
theorem cast_idx_apply {α : Type} (x : S1x1x256.Idx → α) (h : S1x1x256.ShapeCasts S256) (v : Fin 256) :
    shapeCast S256 x h (ix1 v) = x (ix3 (0 : Fin 1) (0 : Fin 1) v) :=
  shapeCast_apply x h _ _ (by
    rw [Shape.rowMajor_val_three, Shape.rowMajor_val_one]
    show (0 * 1 + 0) * 256 + v.val = v.val
    omega)

/-- A vector `[256]` viewed as a column `[256, 1]`. -/
theorem cast_col_apply {α : Type} (x : S256.Idx → α) (h : S256.ShapeCasts S256x1) (v : Fin 256) (u : Fin 1) :
    shapeCast S256x1 x h (ix2 v u) = x (ix1 v) :=
  shapeCast_apply x h _ _ (by
    have hu : u.val = 0 := by omega
    rw [Shape.rowMajor_val_two, Shape.rowMajor_val_one]
    show v.val = v.val * 1 + u.val
    omega)

/-- A column `[256, 1]` broadcast along the lanes reads its row's entry. -/
theorem bcast_col_apply {α : Type} {n : ℕ} (x : S256x1.Idx → α) (h : S256x1.Broadcasts ⟨2, ![256, n]⟩) (v : Fin 256) (j : Fin n) :
    broadcastTo ⟨2, ![256, n]⟩ x h (ix2 v j) = x (ix2 v (0 : Fin 1)) := by
  refine broadcastTo_apply x h (ix2 v j) (ix2 v (0 : Fin 1)) fun ax => ?_
  match ax with
  | ⟨0, _⟩ => rfl
  | ⟨1, _⟩ => rfl

/-! ## The matrix product at an index -/

/-- The product's operand indices, axis by axis: the left operand's row is the output's row, the right operand's row the
    output's column, and both lanes the contraction's one coordinate. -/
theorem lhs_mm_0 (i : S256x256.Idx) (q : dot_S256x2304_S256x2304_S256x256_1_1_0_0_n_n.contr.Idx) :
    (dot_S256x2304_S256x2304_S256x256_1_1_0_0_n_n.lhsIdx i q 0).val = (i 0).val := by
  unfold DotDims.lhsIdx
  rw [dif_neg (show ¬(0 : Fin S256x2304.rank) ∈ dot_S256x2304_S256x2304_S256x256_1_1_0_0_n_n.lhsBatch by decide), dif_pos (show (0 : Fin S256x2304.rank) ∈ dot_S256x2304_S256x2304_S256x256_1_1_0_0_n_n.lhsNonContracting by decide)]
  rfl
theorem lhs_mm_1 (i : S256x256.Idx) (q : dot_S256x2304_S256x2304_S256x256_1_1_0_0_n_n.contr.Idx) :
    (dot_S256x2304_S256x2304_S256x256_1_1_0_0_n_n.lhsIdx i q 1).val = (q ⟨0, by decide⟩).val :=
  dot_S256x2304_S256x2304_S256x256_1_1_0_0_n_n.lhsIdx_val_of_single rfl i q
theorem rhs_mm_0 (i : S256x256.Idx) (q : dot_S256x2304_S256x2304_S256x256_1_1_0_0_n_n.contr.Idx) :
    (dot_S256x2304_S256x2304_S256x256_1_1_0_0_n_n.rhsIdx i q 0).val = (i 1).val := by
  unfold DotDims.rhsIdx
  rw [dif_neg (show ¬(0 : Fin S256x2304.rank) ∈ dot_S256x2304_S256x2304_S256x256_1_1_0_0_n_n.rhsBatch by decide), dif_pos (show (0 : Fin S256x2304.rank) ∈ dot_S256x2304_S256x2304_S256x256_1_1_0_0_n_n.rhsNonContracting by decide)]
  rfl
theorem rhs_mm_1 (i : S256x256.Idx) (q : dot_S256x2304_S256x2304_S256x256_1_1_0_0_n_n.contr.Idx) :
    (dot_S256x2304_S256x2304_S256x256_1_1_0_0_n_n.rhsIdx i q 1).val = (q ⟨0, by decide⟩).val :=
  dot_S256x2304_S256x2304_S256x256_1_1_0_0_n_n.rhsIdx_val_of_single rfl i q

/-- Row `v`, column `c` of the product of two `[256, 2304]` matrices contracted along their lanes, into a zero
    accumulator: the sum over the lanes of the two rows' products. -/
theorem mm_apply (lhs rhs : FVec Ideal S256x2304 .bf16) (v c : Fin 256) :
    matmul dot_S256x2304_S256x2304_S256x256_1_1_0_0_n_n none lhs rhs (constant (F := Ideal) S256x256 .f32 0x00000000#32) (ix2 v c)
      = ∑ j : Fin 2304, lhs (ix2 v j) * rhs (ix2 c j) := by
  simp only [matmul]
  rw [Ideal.matmul_constant_zero_apply, ← Equiv.sum_comp (ValueIdx.contrEquiv1 dot_S256x2304_S256x2304_S256x256_1_1_0_0_n_n 2304 rfl rfl).symm]
  refine Finset.sum_congr rfl fun k _ => ?_
  have hk := ValueIdx.contrEquiv1_symm_val dot_S256x2304_S256x2304_S256x256_1_1_0_0_n_n 2304 rfl rfl k
  have el : dot_S256x2304_S256x2304_S256x256_1_1_0_0_n_n.lhsIdx (ix2 v c) ((ValueIdx.contrEquiv1 dot_S256x2304_S256x2304_S256x256_1_1_0_0_n_n 2304 rfl rfl).symm k) = ix2 v k := funext fun a => Fin.ext (by
    match a with
    | ⟨0, _⟩ => exact lhs_mm_0 _ _
    | ⟨1, _⟩ => exact (lhs_mm_1 _ _).trans hk)
  have er : dot_S256x2304_S256x2304_S256x256_1_1_0_0_n_n.rhsIdx (ix2 v c) ((ValueIdx.contrEquiv1 dot_S256x2304_S256x2304_S256x256_1_1_0_0_n_n 2304 rfl rfl).symm k) = ix2 c k := funext fun a => Fin.ext (by
    match a with
    | ⟨0, _⟩ => exact rhs_mm_0 _ _
    | ⟨1, _⟩ => exact (rhs_mm_1 _ _).trans hk)
  rw [el, er]

/-! ## One chunk's step -/

/-- The one-hot entry for the index `I` at column `j` of chunk `k`: `1` where `2304 k + j = I`, else `0`. -/
def hot (I : ℕ) (k : Fin k0_t1_loop.trips) (j : Fin 2304) : EReal :=
  if 2304 * k.val + j.val = I then 1 else 0

/-- The one-hot operand of the products, at row `v` and column `j`: the comparison of the column's number with the
    row's index, as a real. -/
theorem hot_apply (v0 : Vec Ideal S1x1x256 .i32) (k : Fin k0_t1_loop.trips) (v : Fin 256) (j : Fin 2304) :
    (sitofp (F := Ideal) .f32 (extui 32 (cmpi .eq
        (addi (broadcast S256x2304 (Scalar.muli (Scalar.addi 0#32 (Scalar.muli (Scf.iv 0#32 1#32 k) 1#32)) 2304#32))
          (iota .tc S256x2304 32 [1] iota_S256x2304_d1_w32))
        (broadcastTo S256x2304 (shapeCast S256x1 (shapeCast S256 v0 shapeCasts_S1x1x256_S256) shapeCasts_S256_S256x1)
          broadcasts_S256x1_S256x2304))
      natLt_1_32) : FVec Ideal S256x2304 .f32) (ix2 v j) = hot (v0 (ix3 (0 : Fin 1) (0 : Fin 1) v)).toNat k j := by
  show FloatOps.sitofp (F := Ideal) .f32 ((IntOp.cmpi .eq (_ + iota .tc S256x2304 32 [1] iota_S256x2304_d1_w32 (ix2 v j))
    (broadcastTo S256x2304 _ broadcasts_S256x1_S256x2304 (ix2 v j))).setWidth 32) = _
  rw [onehot_word, iota_single_apply, bcast_col_apply, cast_col_apply, cast_idx_apply, chunk_word]
  unfold hot
  exact if_congr (col_word_eq k j _) rfl rfl

set_option maxHeartbeats 400000 in
/-- One chunk's step at row `v`, channel `c`: the accumulator plus the one-hot row against the chunk's channel row and
    against that row minus itself. -/
theorem pay2_apply (v0 : Vec Ideal S1x1x256 .i32) (k : Fin k0_t1_loop.trips) (v24 : Vec Ideal S1x256x2304 .f32)
    (v42 : Vec Ideal S256x256 .f32) (v c : Fin 256) :
    k0_pay2 (F := Ideal) v0 k v24 v42 (ix2 v c)
      = v42 (ix2 v c) + ((∑ j : Fin 2304, hot (v0 (ix3 (0 : Fin 1) (0 : Fin 1) v)).toNat k j * v24 (ix3 (0 : Fin 1) c j))
          + ∑ j : Fin 2304, hot (v0 (ix3 (0 : Fin 1) (0 : Fin 1) v)).toNat k j * (v24 (ix3 (0 : Fin 1) c j) - v24 (ix3 (0 : Fin 1) c j))) := by
  unfold k0_pay2
  simp only [shapeCast_self]
  rw [addf_apply, addf_apply, mm_apply, mm_apply]
  simp only [truncf_apply, subf_apply, shapeCast_1ab_ab_apply]
  refine congrArg (v42 (ix2 v c) + ·) (congrArg₂ (· + ·) (Finset.sum_congr rfl fun j _ => ?_) (Finset.sum_congr rfl fun j _ => ?_))
  · exact congrArg (· * _) (hot_apply v0 k v j)
  · exact congrArg (· * _) (hot_apply v0 k v j)

/-! ## The normalisation -/

/-- A row's sum of a `[256, 256]` block. -/
theorem rowsum_apply (src : FVec Ideal S256x256 .f32) (h : S256x256.Reduces [1] S256) (hφ : FKind.Formats .f32)
    (hacc : (0x00000000#32 : BitVec 32) = 0x00000000#32) (v : Fin 256) :
    multiReduction (F := Ideal) .add [1] S256 src 0x00000000#32 h hφ hacc (ix1 v) = ∑ c' : Fin 256, src (ix2 v c') := by
  refine (Ideal.multiReduction_add_single src 0x00000000#32 h hφ hacc (ix1 v)).trans ?_
  refine Finset.sum_congr rfl fun c' _ => congrArg src ?_
  funext a
  apply Fin.ext
  match a with
  | ⟨0, _⟩ => rfl
  | ⟨1, _⟩ => rfl

set_option maxHeartbeats 400000 in
/-- The stored block at row `v`, channel `c`: the accumulated entry over the floored norm of its row. -/
theorem pay3_apply (v7 : Vec Ideal S256x256 .f32) (u : Fin 1) (v c : Fin 256) :
    k0_pay3 (F := Ideal) v7 (ix3 u v c)
      = Ideal.div (v7 (ix2 v c)) (max (Ideal.sqrt (∑ c' : Fin 256, v7 (ix2 v c') * v7 (ix2 v c'))) Cert.Spec.eps12) := by
  unfold k0_pay3
  rw [shapeCast_ab_1ab_apply, divf_apply, bcast_col_apply, maximumf_apply, broadcast_apply]
  show Ideal.div _ (max (Ideal.sqrt (shapeCast S256x1 _ shapeCasts_S256_S256x1 (ix2 v (0 : Fin 1)))) _) = _
  rw [cast_col_apply, rowsum_apply]
  rfl

/-! ## The chunks add up -/

/-- The zero block. -/
theorem pay1_apply (j : S256x256.Idx) : k0_pay1 (F := Ideal) j = 0 := by
  unfold k0_pay1
  rw [shapeCast_self]
  exact Ideal.ofBits_zero_f32

/-- Chunk `k` of the image block, channel `c`, column `j`: column `2304 k + j` of the block. -/
theorem img_apply (x0 : Vec Ideal S1x256x9216 .f32) (k : Fin k0_t1_loop.trips) (c : Fin 256) (j : Fin 2304)
    (hlt : 2304 * k.val + j.val < 9216) :
    View.ld x0 (rImg k) (ix3 (0 : Fin 1) c j) = x0 (ix3 (0 : Fin 1) c (⟨2304 * k.val + j.val, hlt⟩ : Fin 9216)) := by
  show x0 ((rImg k).emb (ix3 (0 : Fin 1) c j)) = _
  refine congrArg x0 (funext fun a => Fin.ext ?_)
  rw [Rect.emb_apply]
  show k0_off2 k a + 1 * _ = _
  rw [k0_off2_eq]
  match a with
  | ⟨0, _⟩ => rfl
  | ⟨1, _⟩ => show 0 + 1 * c.val = c.val; omega
  | ⟨2, _⟩ => show 2304 * k.val + 1 * j.val = 2304 * k.val + j.val; omega

/-- One chunk's sum against the one-hot row: the image at pixel `I` when `I` lies in the chunk, else `0`. -/
theorem chunk_sum (x0 : Vec Ideal S1x256x9216 .f32) (I : ℕ) (hI : I < 9216) (k : Fin k0_t1_loop.trips) (c : Fin 256) :
    ∑ j : Fin 2304, hot I k j * View.ld x0 (rImg k) (ix3 (0 : Fin 1) c j)
      = if 2304 * k.val ≤ I ∧ I < 2304 * k.val + 2304 then x0 (ix3 (0 : Fin 1) c (⟨I, hI⟩ : Fin 9216)) else 0 := by
  have hk : k.val < 4 := lt_of_lt_of_eq k.isLt trips_eq
  by_cases h : 2304 * k.val ≤ I ∧ I < 2304 * k.val + 2304
  · rw [if_pos h]
    have hp : I - 2304 * k.val < 2304 := by omega
    have hh : ∀ j : Fin 2304, hot I k j = if j = (⟨I - 2304 * k.val, hp⟩ : Fin 2304) then 1 else 0 := by
      intro j
      unfold hot
      refine if_congr ?_ rfl rfl
      constructor
      · intro e; apply Fin.ext; show j.val = I - 2304 * k.val; omega
      · intro e; subst e; show 2304 * k.val + (I - 2304 * k.val) = I; omega
    rw [Finset.sum_congr rfl fun j _ => by rw [hh j]]
    rw [Cert.Spec.sum_indicator_mul (⟨I - 2304 * k.val, hp⟩ : Fin 2304) (fun j => View.ld x0 (rImg k) (ix3 (0 : Fin 1) c j))]
    rw [img_apply x0 k c _ (by show 2304 * k.val + (I - 2304 * k.val) < 9216; omega)]
    refine congrArg x0 (congrArg (ix3 (0 : Fin 1) c) (Fin.ext ?_))
    show 2304 * k.val + (I - 2304 * k.val) = I
    omega
  · rw [if_neg h]
    refine Finset.sum_eq_zero fun j _ => ?_
    have h0 : hot I k j = 0 := by
      unfold hot
      exact if_neg (by have := j.isLt; omega)
    rw [h0, zero_mul]

/-- The low-order halves contribute nothing: each is a real minus itself. -/
theorem chunk_low (x0 : Vec Ideal S1x256x9216 .f32) (hfin : ∀ j, ∃ r : ℝ, x0 j = (r : EReal)) (I : ℕ)
    (k : Fin k0_t1_loop.trips) (c : Fin 256) :
    ∑ j : Fin 2304, hot I k j * (View.ld x0 (rImg k) (ix3 (0 : Fin 1) c j) - View.ld x0 (rImg k) (ix3 (0 : Fin 1) c j)) = 0 := by
  refine Finset.sum_eq_zero fun j _ => ?_
  obtain ⟨r, hr⟩ := hfin ((rImg k).emb (ix3 (0 : Fin 1) c j))
  show hot I k j * (x0 ((rImg k).emb (ix3 (0 : Fin 1) c j)) - x0 ((rImg k).emb (ix3 (0 : Fin 1) c j))) = 0
  rw [hr, Cert.Spec.coe_sub_self, mul_zero]

/-- The accumulator before chunk `n`: the picked pixel once its chunk has passed, else still zero. -/
theorem gatherAcc_apply (x0 : Vec Ideal S1x256x9216 .f32) (x1 : Vec Ideal S1x1x256 .i32)
    (hfin : ∀ j, ∃ r : ℝ, x0 j = (r : EReal)) (v c : Fin 256) (hI : (x1 (ix3 (0 : Fin 1) (0 : Fin 1) v)).toNat < 9216) :
    ∀ n : ℕ, n ≤ 4 → gatherAcc (F := Ideal) x0 x1 n (ix2 v c)
      = if (x1 (ix3 (0 : Fin 1) (0 : Fin 1) v)).toNat < 2304 * n
          then x0 (ix3 (0 : Fin 1) c (⟨(x1 (ix3 (0 : Fin 1) (0 : Fin 1) v)).toNat, hI⟩ : Fin 9216)) else 0 := by
  intro n
  induction n with
  | zero =>
    intro _
    rw [gatherAcc, pay1_apply, if_neg (by omega)]
  | succ n ih =>
    intro hn
    have hlt : n < k0_t1_loop.trips := by rw [trips_eq]; omega
    rw [gatherAcc, dif_pos hlt, View.ld_unit_zero (S := S1x1x256) hz3, View.ld_unit_zero (S := S256x256) hz2, pay2_apply,
      ih (by omega), chunk_sum x0 _ hI, chunk_low x0 hfin, add_zero]
    show (if _ then _ else _) + (if 2304 * n ≤ _ ∧ _ < 2304 * n + 2304 then _ else _) = _
    by_cases h1 : (x1 (ix3 (0 : Fin 1) (0 : Fin 1) v)).toNat < 2304 * n
    · rw [if_pos h1, if_neg (by omega), if_pos (by omega), add_zero]
    · by_cases h2 : (x1 (ix3 (0 : Fin 1) (0 : Fin 1) v)).toNat < 2304 * n + 2304
      · rw [if_neg h1, if_pos ⟨by omega, h2⟩, if_pos (by omega), zero_add]
      · rw [if_neg h1, if_neg (by omega), if_neg (by omega), zero_add]

end Gather

open Gather

/-! ## The block -/

/-- Row `v`, channel `c` of the gathered block. -/
theorem gatherBlk_apply (x0 : Vec Ideal S1x256x9216 .f32) (x1 : Vec Ideal S1x1x256 .i32)
    (hfin : ∀ j, ∃ r : ℝ, x0 j = (r : EReal))
    (hidx : ∀ v : Fin 256, (x1 (ix3 0 0 v)).toNat < 9216) (v c : Fin 256) :
    gatherBlk (F := Ideal) x0 x1 (ix3 0 v c)
      = Cert.Spec.gnorm (fun c' : Fin 256 => x0 (ix3 0 c' (⟨(x1 (ix3 0 0 v)).toNat, hidx v⟩ : Fin 9216))) c := by
  have hacc : ∀ c' : Fin 256, gatherAcc (F := Ideal) x0 x1 k0_t1_loop.trips (ix2 v c')
      = x0 (ix3 (0 : Fin 1) c' (⟨(x1 (ix3 (0 : Fin 1) (0 : Fin 1) v)).toNat, hidx v⟩ : Fin 9216)) := by
    intro c'
    rw [gatherAcc_apply x0 x1 hfin v c' (hidx v) _ (le_of_eq trips_eq), if_pos (by rw [trips_eq]; exact hidx v)]
  unfold gatherBlk
  rw [View.canon_unit_zero (S := S1x256x256) hz3, View.ld_unit_zero (S := S256x256) hz2, pay3_apply]
  unfold Cert.Spec.gnorm
  simp only [hacc]

end Cert.KernelIdeal.Hand

end
-- ==== Proof.KI.Bridge0.lean ====
/- The gather region's result array is the specification's feature matrix in the kernel's sort order: row `256 s + v`
   is sample `v` of the group the sort puts at position `s`, its channel vector over its floored norm. The region's
   block at point `s` is the gather of the image the table names for `s` at the pixels the index row `s` names; the
   table's word at `s` is the image index of group `σ s`, the index row `s` the pixel indices of group `σ s`, and
   the image handed to the region is the image argument with its planes flattened. -/
import proofs.«419518_j21423296873244_3_alg».proof.Proof.KI.Frame0
import proofs.«419518_j21423296873244_3_alg».proof.Proof.KI.HostPre
import proofs.«419518_j21423296873244_3_alg».proof.Proof.KI.Val0
import proofs.«419518_j21423296873244_3_alg».proof.Proof.KI.Family
import proofs.«419518_j21423296873244_3_alg».proof.Proof.Args
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem

/-! ## The region's result from its entry contents -/

section Region

variable (a0 : (pcfg0 (F := Ideal)).Adm)
variable (V : (c : Dev nD) → (b : Ref sig .tc) → Buf (Elt Ideal) ((c : Thread nD τ).loc b))

/-- Position `s`, sample `v`, channel `ch` of the region's result, from the contents the region is entered at, the image
    array read as `W0` (image, channel, pixel) and the index array as `W24` (position, sample): the image the table names
    for `s`, at the pixel `W24 s v`, over the floored norm of that pixel's channel vector — when the image is real
    everywhere and every pixel index is below `9216`. -/
theorem gathered0_apply (c : Dev nD)
    (W0 : Fin 8 → Fin 256 → Fin 9216 → EReal) (W24 : Fin 32 → Fin 256 → BitVec 32)
    (hW0 : ∀ (b : Fin 8) (r : Fin 256) (q : Fin 9216), (V c main_v0 : S8x256x9216.Idx → EReal) (ix3 b r q) = W0 b r q)
    (hW24 : ∀ (k : Fin 32) (q : Fin 256), (V c main_v24 : S32x1x256.Idx → BitVec 32) (ix3 k (0 : Fin 1) q) = W24 k q)
    (hfinW : ∀ (b : Fin 8) (r : Fin 256) (q : Fin 9216), ∃ x : ℝ, W0 b r q = (x : EReal))
    (hidxW : ∀ (k : Fin 32) (q : Fin 256), (W24 k q).toNat < 9216)
    (s : Fin 32) (v ch : Fin 256) :
    gathered0 a0 V c (ix3 s v ch)
      = Cert.Spec.gnorm (fun c' : Fin 256 => W0 (src0 a0 s) c' (⟨(W24 s v).toNat, hidxW s v⟩ : Fin 9216)) ch := by
  have hfinX : ∀ j, ∃ r : ℝ, (iblk0 a0 V c 0 (pt0 a0 s) : S1x256x9216.Idx → EReal) j = (r : EReal) := by
    intro (j : S1x256x9216.Idx)
    obtain ⟨a, b, d, rfl⟩ : ∃ (a : Fin 1) (b : Fin 256) (d : Fin 9216), j = ix3 a b d := ⟨j 0, j 1, j 2, eq_ix3 j⟩
    obtain rfl : a = 0 := Subsingleton.elim _ _
    rw [iblk0_0_apply, hW0]
    exact hfinW _ _ _
  have hidxX : ∀ q : Fin 256,
      ((iblk0 a0 V c 1 (pt0 a0 s) : S1x1x256.Idx → BitVec 32) (ix3 0 0 q)).toNat < 9216 := by
    intro q
    rw [iblk0_1_apply, hW24]
    exact hidxW s q
  show gatherBlk (F := Ideal) (iblk0 a0 V c 0 (pt0 a0 s)) (iblk0 a0 V c 1 (pt0 a0 s)) (ix3 (0 : Fin 1) v ch) = _
  rw [gatherBlk_apply _ _ hfinX hidxX v ch]
  refine congrArg (fun col => Cert.Spec.gnorm col ch) (funext fun c' => ?_)
  rw [iblk0_0_apply, hW0]
  refine congrArg (W0 (src0 a0 s) c') (Fin.ext ?_)
  show BitVec.toNat _ = BitVec.toNat _
  rw [iblk0_1_apply, hW24]

end Region

/-! ## The result array is the feature matrix in the sort order -/

variable (m : (ℓ : Loc nD τ sig) → Buf (Elt Ideal) ℓ) (a0 : (pcfg0 (F := Ideal)).Adm) (c : Dev nD)

/-- The table's word at position `s` is the image index of the group the sort puts there. -/
theorem src0_eq (hA0 : ∀ c : Dev nD, ((fun k => Ve0 m c (pre0.ref k)) : pre0.Contents (Elt Ideal)) = a0.1)
    (hb : ∀ t : Fin 32, (m ((c : Thread nD τ).loc main_arg1) (ix1 t)).toNat < 8) (s : Fin 32) :
    src0 a0 s = Cert.Spec.imgIdx (m ((c : Thread nD τ).loc main_arg1)) hb (sortPerm m c s) := by
  apply Fin.ext
  show tblAt a0 s = (m ((c : Thread nD τ).loc main_arg1) (ix1 (sortPerm m c s))).toNat
  unfold tblAt
  have e : a0.1 0 = tbl m c 0 := (congrFun (hA0 c) 0).symm
  rw [e]
  exact congrArg BitVec.toNat (tbl_apply m c s)

/-- Row `256 s + v`, channel `ch` of the gather region's result array: sample `v` of the group the sort puts at position
    `s`, its channel vector over its floored norm. -/
theorem res0_apply
    (hA0 : ∀ c : Dev nD, ((fun k => Ve0 m c (pre0.ref k)) : pre0.Contents (Elt Ideal)) = a0.1)
    (hfin : ∀ j, ∃ r : ℝ, m ((c : Thread nD τ).loc main_arg0) j = (r : EReal))
    (hb : ∀ t : Fin 32, (m ((c : Thread nD τ).loc main_arg1) (ix1 t)).toNat < 8)
    (hs : ∀ (t : Fin 32) (v : Fin 256), (m ((c : Thread nD τ).loc main_arg2) (ix2 t v)).toNat < 9216)
    (s : Fin 32) (v ch : Fin 256) :
    (res0 m a0 c : S32x256x256.Idx → EReal) (ix3 s v ch)
      = Cert.Spec.featM (Cert.Spec.imgOf (m ((c : Thread nD τ).loc main_arg0)))
          (Cert.Spec.imgIdx (m ((c : Thread nD τ).loc main_arg1)) hb)
          (Cert.Spec.pixIdx (m ((c : Thread nD τ).loc main_arg2)) hs) (sortPerm m c) (Cert.Spec.row32 s v) ch := by
  unfold res0
  rw [final0, gathered0_apply a0 (Ve0 m) c (Cert.Spec.imgOf (m ((c : Thread nD τ).loc main_arg0)))
    (fun k q => m ((c : Thread nD τ).loc main_arg2) (ix2 (sortPerm m c k) q))
    (fun b r q => v0_apply m c b r q) (fun k q => v24_apply m c hs k 0 q) (fun b r q => hfin _) (fun k q => hs _ _) s v ch]
  unfold Cert.Spec.featM
  rw [Cert.Spec.grp_row32, Cert.Spec.smp_row32, src0_eq m a0 c hA0 hb s]
  rfl

end Cert.KernelIdeal.Hand

end
-- ==== Proof.KI.Val1.lean ====
/- The loss kernel's block function at the ideal instance, read at a lane: when the query rows and their labels are
   tile `ti` of the feature matrix and of the label row, lane `0` of the block is the sum over the tile's `256` rows of
   the mean log-probability of the row's positives, and every other lane is `0`. The row maximum, the negatives' sum,
   the numerator and the denominator are accumulated over eight column tiles; each is the whole maximum or sum. -/
import proofs.«419518_j21423296873244_3_alg».proof.Proof.KI.Blocks
import proofs.«419518_j21423296873244_3_alg».proof.Proof.Feat
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.SL.Sem
open Idealize.ShloMosaic.ValueIdx
open scoped BigOperators

/-- The labels as a function of the row. -/
def labOf (x3 : Vec Ideal S1x8192 .i32) (s : Fin 8192) : BitVec 32 := x3 (ix2 0 s)
/-- The feature matrix as rows of channel values. -/
def featOf (x2 : Vec Ideal S8192x256 .f32) (r : Fin 8192) (k : Fin 256) : EReal := x2 (ix2 r k)

/-! The facts about the loss kernel's arithmetic on which the block's reading at a lane rests. -/
namespace Loss

/-! ## The three loops run eight trips -/

theorem trips1 : k1_t1_loop.trips = 8 := by decide
theorem trips2 : k1_t2_loop.trips = 8 := by decide
theorem trips3 : k1_t3_loop.trips = 8 := by decide

/-! ## The float literals -/

theorem ofBits_one : Ideal.ofBits .f32 0x3F800000#32 = 1 := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_negInf : Ideal.ofBits .f32 0xFF800000#32 = ⊥ := by
  simp [Ideal.ofBits, Ideal.ieee]

/-! ## Layout operations read at an index given by coordinates -/

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The reductions read at a row -/

/-- The lane sum of a `256 × 1024` tile at row `r` is the sum over the row's `1024` columns. -/
theorem rowSum_apply (src : FVec Ideal S256x1024 .f32) (hφ : FTy.f32 = FTy.f32 ∨ FTy.f32 = FTy.bf16)
    (hacc : (0x00000000#32 : BitVec 32) = 0x00000000#32) (r : Fin 256) :
    multiReduction .add [1] S256 src 0x00000000#32 reduces_S256x1024_S256 hφ hacc (ix1 r)
      = ∑ j : Fin 1024, src (ix2 r j) := by
  refine (Ideal.multiReduction_add_single src 0x00000000#32 reduces_S256x1024_S256 hφ hacc (ix1 r)).trans ?_
  refine Finset.sum_congr rfl fun j _ => congrArg src ?_
  funext a
  apply Fin.ext
  match a with
  | ⟨0, _⟩ => rfl
  | ⟨1, _⟩ => rfl

/-- The sum over the `256` rows of a column. -/
theorem colSum_apply (src : FVec Ideal S256x1 .f32) (hφ : FTy.f32 = FTy.f32 ∨ FTy.f32 = FTy.bf16)
    (hacc : (0x00000000#32 : BitVec 32) = 0x00000000#32) :
    multiReduction .add [0] S1 src 0x00000000#32 reduces_S256x1_S1 hφ hacc (ix1 (0 : Fin 1))
      = ∑ r : Fin 256, src (ix2 r (0 : Fin 1)) := by
  refine (Ideal.multiReduction_add_single src 0x00000000#32 reduces_S256x1_S1 hφ hacc (ix1 (0 : Fin 1))).trans ?_
  refine Finset.sum_congr rfl fun j _ => congrArg src ?_
  funext a
  apply Fin.ext
  match a with
  | ⟨0, _⟩ => rfl
  | ⟨1, _⟩ => rfl

/-- A fold of `max` from the bottom element is the supremum. -/
theorem fold_max_bot {ι : Type} (s : Finset ι) (f : ι → EReal) : s.fold max ⊥ f = s.sup f := rfl

/-- The lane maximum of a `256 × 1024` tile at row `r` is the supremum over the row's `1024` columns. -/
theorem rowMax_apply (src : FVec Ideal S256x1024 .f32) (hφ : FTy.f32 = FTy.f32 ∨ FTy.f32 = FTy.bf16)
    (hacc : (0xFF800000#32 : BitVec 32) = 0xFF800000#32) (r : Fin 256) :
    multiReduction .maximumf [1] S256 src 0xFF800000#32 reduces_S256x1024_S256 hφ hacc (ix1 r)
      = Finset.univ.sup fun j : Fin 1024 => src (ix2 r j) := by
  refine (Ideal.multiReduction_maximumf_single src 0xFF800000#32 reduces_S256x1024_S256 hφ hacc (ix1 r)).trans ?_
  rw [Ideal.ofBits_def, ofBits_negInf]
  refine (fold_max_bot _ _).trans ?_
  refine Finset.sup_congr rfl fun j _ => congrArg src ?_
  funext a
  apply Fin.ext
  match a with
  | ⟨0, _⟩ => rfl
  | ⟨1, _⟩ => rfl

/-! ## The loaded tiles read at an index -/

/-- Row `j` of feature tile `k` is row `1024 k + j` of the matrix. -/
theorem ld_feat (x2 : Vec Ideal S8192x256 .f32) (k : Fin k1_t1_loop.trips) (k8 : Fin 8) (hk : k.val = k8.val)
    (j : Fin 1024) (c : Fin 256) :
    View.ld x2 (rFeat k) (ix2 j c) = x2 (ix2 (Cert.Spec.col8 k8 j) c) := by
  show x2 ((rFeat k).idx (ix2 j c)) = _
  congr 1
  funext a
  apply Fin.ext
  match a with
  | ⟨0, _⟩ =>
    show k1_off1 k 0 + 1 * j.val = 1024 * k8.val + j.val
    rw [k1_off1_eq]; show 1024 * k.val + 1 * j.val = _; omega
  | ⟨1, _⟩ =>
    show k1_off1 k 1 + 1 * c.val = c.val
    rw [k1_off1_eq]; show 0 + 1 * c.val = _; omega

/-- Entry `j` of label tile `k` is entry `1024 k + j` of the label row, as the second loop addresses it. -/
theorem ld_lab2 (x3 : Vec Ideal S1x8192 .i32) (k : Fin k1_t2_loop.trips) (k8 : Fin 8) (hk : k.val = k8.val)
    (u : Fin 1) (j : Fin 1024) :
    View.ld x3 (rLab2 k) (ix2 u j) = x3 (ix2 0 (Cert.Spec.col8 k8 j)) := by
  show x3 ((rLab2 k).idx (ix2 u j)) = _
  congr 1
  funext a
  apply Fin.ext
  match a with
  | ⟨0, _⟩ =>
    show k1_off4 k 0 + 1 * u.val = 0
    rw [k1_off4_eq]; show 0 + 1 * u.val = _; omega
  | ⟨1, _⟩ =>
    show k1_off4 k 1 + 1 * j.val = 1024 * k8.val + j.val
    rw [k1_off4_eq]; show 1024 * k.val + 1 * j.val = _; omega

/-- The same as the third loop addresses it. -/
theorem ld_lab3 (x3 : Vec Ideal S1x8192 .i32) (k : Fin k1_t3_loop.trips) (k8 : Fin 8) (hk : k.val = k8.val)
    (u : Fin 1) (j : Fin 1024) :
    View.ld x3 (rLab3 k) (ix2 u j) = x3 (ix2 0 (Cert.Spec.col8 k8 j)) := by
  show x3 ((rLab3 k).idx (ix2 u j)) = _
  congr 1
  funext a
  apply Fin.ext
  match a with
  | ⟨0, _⟩ =>
    show k1_off6 k 0 + 1 * u.val = 0
    rw [k1_off6_eq]; show 0 + 1 * u.val = _; omega
  | ⟨1, _⟩ =>
    show k1_off6 k 1 + 1 * j.val = 1024 * k8.val + j.val
    rw [k1_off6_eq]; show 1024 * k.val + 1 * j.val = _; omega

/-- The whole-buffer loads read the contents. -/
theorem ld_rQ (x0 : Vec Ideal S256x256 .f32) : View.ld x0 rQ = x0 := View.ld_unit_zero (by funext a; fin_cases a <;> rfl) _ x0
theorem ld_rCol_f (v : Vec Ideal S256x1 .f32) : View.ld v rCol = v := View.ld_unit_zero (by funext a; fin_cases a <;> rfl) _ v
theorem ld_rCol_i (v : Vec Ideal S256x1 .i32) : View.ld v rCol = v := View.ld_unit_zero (by funext a; fin_cases a <;> rfl) _ v

/-! ## The scaled product tile -/

theorem lhs_dot_0 (i : S256x1024.Idx) (q : dot_S256x256_S1024x256_S256x1024_1_1_0_0_n_n.contr.Idx) :
    (dot_S256x256_S1024x256_S256x1024_1_1_0_0_n_n.lhsIdx i q 0).val = (i 0).val := by
  unfold DotDims.lhsIdx
  rw [dif_neg (show ¬(0 : Fin S256x256.rank) ∈ dot_S256x256_S1024x256_S256x1024_1_1_0_0_n_n.lhsBatch by decide), dif_pos (show (0 : Fin S256x256.rank) ∈ dot_S256x256_S1024x256_S256x1024_1_1_0_0_n_n.lhsNonContracting by decide)]
  rfl
theorem lhs_dot_1 (i : S256x1024.Idx) (q : dot_S256x256_S1024x256_S256x1024_1_1_0_0_n_n.contr.Idx) :
    (dot_S256x256_S1024x256_S256x1024_1_1_0_0_n_n.lhsIdx i q 1).val = (q ⟨0, by decide⟩).val :=
  dot_S256x256_S1024x256_S256x1024_1_1_0_0_n_n.lhsIdx_val_of_single rfl i q
theorem rhs_dot_0 (i : S256x1024.Idx) (q : dot_S256x256_S1024x256_S256x1024_1_1_0_0_n_n.contr.Idx) :
    (dot_S256x256_S1024x256_S256x1024_1_1_0_0_n_n.rhsIdx i q 0).val = (i 1).val := by
  unfold DotDims.rhsIdx
  rw [dif_neg (show ¬(0 : Fin S1024x256.rank) ∈ dot_S256x256_S1024x256_S256x1024_1_1_0_0_n_n.rhsBatch by decide), dif_pos (show (0 : Fin S1024x256.rank) ∈ dot_S256x256_S1024x256_S256x1024_1_1_0_0_n_n.rhsNonContracting by decide)]
  rfl
theorem rhs_dot_1 (i : S256x1024.Idx) (q : dot_S256x256_S1024x256_S256x1024_1_1_0_0_n_n.contr.Idx) :
    (dot_S256x256_S1024x256_S256x1024_1_1_0_0_n_n.rhsIdx i q 1).val = (q ⟨0, by decide⟩).val :=
  dot_S256x256_S1024x256_S256x1024_1_1_0_0_n_n.rhsIdx_val_of_single rfl i q

/-- The product of the query rows with a tile's rows, into a zero accumulator, at `(r, j)`: the inner product of
    query row `r` and tile row `j`. -/
theorem matmul_apply_rj (a : FVec Ideal S256x256 .bf16) (b : FVec Ideal S1024x256 .bf16) (r : Fin 256) (j : Fin 1024) :
    matmul dot_S256x256_S1024x256_S256x1024_1_1_0_0_n_n none a b (constant S256x1024 .f32 0x00000000#32) (ix2 r j)
      = ∑ c : Fin 256, a (ix2 r c) * b (ix2 j c) := by
  simp only [matmul]
  rw [Ideal.matmul_constant_zero_apply, ← Equiv.sum_comp (ValueIdx.contrEquiv1 dot_S256x256_S1024x256_S256x1024_1_1_0_0_n_n 256 rfl rfl).symm]
  refine Finset.sum_congr rfl fun k _ => ?_
  have hk := ValueIdx.contrEquiv1_symm_val dot_S256x256_S1024x256_S256x1024_1_1_0_0_n_n 256 rfl rfl k
  have el : dot_S256x256_S1024x256_S256x1024_1_1_0_0_n_n.lhsIdx (ix2 r j) ((ValueIdx.contrEquiv1 dot_S256x256_S1024x256_S256x1024_1_1_0_0_n_n 256 rfl rfl).symm k) = ix2 r k := funext fun a => Fin.ext (by
    match a with
    | ⟨0, _⟩ => exact lhs_dot_0 _ _
    | ⟨1, _⟩ => exact (lhs_dot_1 _ _).trans hk)
  have er : dot_S256x256_S1024x256_S256x1024_1_1_0_0_n_n.rhsIdx (ix2 r j) ((ValueIdx.contrEquiv1 dot_S256x256_S1024x256_S256x1024_1_1_0_0_n_n 256 rfl rfl).symm k) = ix2 j k := funext fun a => Fin.ext (by
    match a with
    | ⟨0, _⟩ => exact rhs_dot_0 _ _
    | ⟨1, _⟩ => exact (rhs_dot_1 _ _).trans hk)
  rw [el, er]

/-- The scaled product payload at `(r, j)`. -/
theorem pay10_apply (v0 : Vec Ideal S256x256 .f32) (v50 : Vec Ideal S1024x256 .f32) (r : Fin 256) (j : Fin 1024) :
    k1_pay10 (F := Ideal) v0 v50 (ix2 r j) = (∑ c : Fin 256, v0 (ix2 r c) * v50 (ix2 j c)) * ((2 : ℝ) : EReal) := by
  unfold k1_pay10
  simp only [shapeCast_self, mulf_apply, broadcast_apply]
  rw [matmul_apply_rj]
  simp only [truncf_apply]
  show _ * Ideal.ofBits .f32 0x40000000#32 = _
  rw [ofBits_two]

/-! ## Pointwise operations and the masks -/

section Pointwise
variable {s : Shape}

theorem exp_apply (x : FVec Ideal s .f32) (i : s.Idx) : exp x i = Ideal.exp (x i) := rfl
theorem log_apply (x : FVec Ideal s .f32) (i : s.Idx) : log x i = Ideal.log (x i) := rfl
theorem cmpi_apply {w : ℕ} (p : CmpIPredicate) (x y : IVec s w) (i : s.Idx) : cmpi p x y i = IntOp.cmpi p (x i) (y i) := rfl
theorem addi_apply {w : ℕ} (x y : IVec s w) (i : s.Idx) : addi x y i = IntOp.addi (x i) (y i) := rfl

theorem scalar_ofBits_one : Scalar.ofBits (F := Ideal) .f32 0x3F800000#32 = (1 : EReal) := ofBits_one
theorem scalar_ofBits_zero : Scalar.ofBits (F := Ideal) .f32 0x00000000#32 = (0 : EReal) := Ideal.ofBits_zero_f32
theorem scalar_ofBits_negInf : Scalar.ofBits (F := Ideal) .f32 0xFF800000#32 = (⊥ : EReal) := ofBits_negInf

/-- A one-bit comparison for equality, widened and converted, is `1` where the words agree and `0` where not. -/
theorem mask_eq (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  unfold IntOp.cmpi
  by_cases h : a = b
  · subst h; simp
  · have hb : (a == b) = false := by simpa using h
    simp [hb, h]

theorem maskv_apply (a b : IVec s 32) (h : 1 < 32) (i : s.Idx) :
    (sitofp .f32 (extui 32 (cmpi .eq a b) h) : FVec Ideal s .f32) i = if a i = b i then (1 : EReal) else 0 :=
  mask_eq (a i) (b i)

end Pointwise

/-! ## The payloads read at an index -/

/-- The exponential of the shifted product. -/
theorem pay14_apply (v14 : Vec Ideal S256x1 .f32) (v50 : Vec Ideal S256x1024 .f32) (r : Fin 256) (j : Fin 1024) :
    k1_pay14 (F := Ideal) v14 v50 (ix2 r j) = Ideal.exp (v50 (ix2 r j) - v14 (ix2 r (0 : Fin 1))) := by
  unfold k1_pay14
  simp only [exp_apply, subf_apply, broadcastTo_a1_ab_apply]

/-- The running maximum after a tile. -/
theorem pay12_apply (v0 : Vec Ideal S256x256 .f32) (v50 : Vec Ideal S1024x256 .f32) (v60 : Vec Ideal S256x1 .f32) (r : Fin 256) :
    k1_pay12 (F := Ideal) v0 v50 v60 (ix2 r (0 : Fin 1))
      = max (v60 (ix2 r (0 : Fin 1))) (Finset.univ.sup fun j : Fin 1024 => k1_pay10 (F := Ideal) v0 v50 (ix2 r j)) := by
  unfold k1_pay12
  simp only [shapeCast_self, maximumf_apply, shapeCast_a_a1_apply]
  rw [rowMax_apply]

/-- The negatives' sum after a tile. -/
theorem pay16_apply (v3 : Vec Ideal S256x1 .i32) (v14 : Vec Ideal S256x1 .f32) (v50 : Vec Ideal S256x1024 .f32)
    (v59 : Vec Ideal S1x1024 .i32) (v69 : Vec Ideal S256x1 .f32) (r : Fin 256) :
    k1_pay16 (F := Ideal) v3 v14 v50 v59 v69 (ix2 r (0 : Fin 1))
      = v69 (ix2 r (0 : Fin 1)) + ∑ j : Fin 1024, Ideal.exp (v50 (ix2 r j) - v14 (ix2 r (0 : Fin 1)))
          * (1 - (if v3 (ix2 r (0 : Fin 1)) = v59 (ix2 (0 : Fin 1) j) then (1 : EReal) else 0)) := by
  unfold k1_pay16 k1_pay7
  simp only [shapeCast_self, shapeCast_shapeCast, addf_apply, shapeCast_a_a1_apply]
  rw [rowSum_apply]
  simp only [mulf_apply, pay14_apply, subf_apply, broadcast_apply, maskv_apply, broadcastTo_a1_ab_apply,
    broadcastTo_1b_ab_apply, scalar_ofBits_one]

/-! ## Row and column numbers as 32-bit words -/

/-- The row number the kernel forms for row `r` of tile `ti`. -/
theorem rowWord (ti r : ℕ) :
    IntOp.addi (Scalar.muli (BitVec.ofNat 32 ti) 256#32) (BitVec.ofNat 32 r) = BitVec.ofNat 32 (256 * ti + r) := by
  apply BitVec.eq_of_toNat_eq
  simp [IntOp.addi, Scalar.muli, IntOp.muli]
  omega

/-- The column number the kernel forms for column `j` of tile `k`. -/
theorem colWord (k j : ℕ) :
    IntOp.addi (Scalar.muli (Scalar.addi 0#32 (Scalar.muli (Scf.iv 0#32 1#32 k) 1#32)) 1024#32) (BitVec.ofNat 32 j)
      = BitVec.ofNat 32 (1024 * k + j) := by
  apply BitVec.eq_of_toNat_eq
  simp [IntOp.addi, Scalar.muli, Scalar.addi, IntOp.muli, Scf.iv]
  omega

/-- Two numbers below `2 ^ 32` are equal when their words are. -/
theorem ofNat_eq_iff (a b : ℕ) (ha : a < 2 ^ 32) (hb : b < 2 ^ 32) : BitVec.ofNat 32 a = BitVec.ofNat 32 b ↔ a = b := by
  constructor
  · intro h
    have := congrArg BitVec.toNat h
    simp only [BitVec.toNat_ofNat] at this
    omega
  · intro h; rw [h]

/-- The row numbers payload at row `r`. -/
theorem pay8_apply (i : grid1.Coords) (r : Fin 256) :
    k1_pay8 i (ix2 r (0 : Fin 1)) = BitVec.ofNat 32 (256 * (i 0).val + r.val) := by
  unfold k1_pay8
  simp only [addi_apply, broadcast_apply]
  rw [iota_single_apply]
  exact rowWord _ _

/-- The positives' mask of a tile at `(r, j)`: labels agree, and the row number is not the column number. -/
theorem pay4_apply (v4 v8 : IVec S256x1 32) (k : Fin k1_t3_loop.trips) (v56 : Vec Ideal S1x1024 .i32) (r : Fin 256) (j : Fin 1024) :
    k1_pay4 (F := Ideal) v4 v8 0#32 1#32 k v56 (ix2 r j)
      = (if v4 (ix2 r (0 : Fin 1)) = v56 (ix2 (0 : Fin 1) j) then (1 : EReal) else 0)
          * (1 - (if v8 (ix2 r (0 : Fin 1)) = BitVec.ofNat 32 (1024 * k.val + j.val) then (1 : EReal) else 0)) := by
  unfold k1_pay4
  simp only [shapeCast_shapeCast, mulf_apply, subf_apply, broadcast_apply, maskv_apply, broadcastTo_a1_ab_apply,
    broadcastTo_1b_ab_apply, scalar_ofBits_one, addi_apply]
  rw [iota_single_apply]
  rw [colWord]

/-- The numerator after a tile. -/
theorem pay5_apply (v4 v8 : IVec S256x1 32) (v14 v20 : Vec Ideal S256x1 .f32) (k : Fin k1_t3_loop.trips)
    (v50 v54 : Vec Ideal S256x1024 .f32) (v56 : Vec Ideal S1x1024 .i32) (v78 : Vec Ideal S256x1 .f32) (r : Fin 256) :
    k1_pay5 (F := Ideal) v4 v8 v14 v20 0#32 1#32 k v50 v54 v56 v78 (ix2 r (0 : Fin 1))
      = v78 (ix2 r (0 : Fin 1)) + ∑ j : Fin 1024, k1_pay4 (F := Ideal) v4 v8 0#32 1#32 k v56 (ix2 r j)
          * ((v50 (ix2 r j) - v14 (ix2 r (0 : Fin 1))) - Ideal.log (v54 (ix2 r j) + v20 (ix2 r (0 : Fin 1)))) := by
  unfold k1_pay5
  simp only [shapeCast_self, addf_apply, shapeCast_a_a1_apply]
  rw [rowSum_apply]
  simp only [mulf_apply, subf_apply, addf_apply, log_apply, broadcastTo_a1_ab_apply]

/-- The denominator after a tile. -/
theorem pay2_apply (v86 : Vec Ideal S256x1 .f32) (v4 v8 : IVec S256x1 32) (k : Fin k1_t3_loop.trips)
    (v56 : Vec Ideal S1x1024 .i32) (r : Fin 256) :
    k1_pay2 (F := Ideal) v86 (k1_pay6 (F := Ideal) v4 v8 0#32 1#32 k v56) (ix2 r (0 : Fin 1))
      = v86 (ix2 r (0 : Fin 1)) + ∑ j : Fin 1024, k1_pay4 (F := Ideal) v4 v8 0#32 1#32 k v56 (ix2 r j) := by
  unfold k1_pay2 k1_pay6
  simp only [shapeCast_self, addf_apply, shapeCast_a_a1_apply]
  rw [rowSum_apply]

/-- The four initial columns. -/
theorem pay9_apply (r : Fin 256) : (k1_pay9 (F := Ideal)) (ix2 r (0 : Fin 1)) = (⊥ : EReal) := by
  unfold k1_pay9
  simp only [shapeCast_self, broadcast_apply, scalar_ofBits_negInf]
theorem pay13_apply (r : Fin 256) : (k1_pay13 (F := Ideal)) (ix2 r (0 : Fin 1)) = (0 : EReal) := by
  unfold k1_pay13
  simp only [shapeCast_self, broadcast_apply, scalar_ofBits_zero]
theorem pay17_apply (r : Fin 256) : (k1_pay17 (F := Ideal)) (ix2 r (0 : Fin 1)) = (0 : EReal) := by
  unfold k1_pay17
  simp only [shapeCast_self, broadcast_apply, scalar_ofBits_zero]
theorem pay1_apply (r : Fin 256) : k1_pay1 (F := Ideal) (k1_pay18 (F := Ideal)) (ix2 r (0 : Fin 1)) = (0 : EReal) := by
  unfold k1_pay1 k1_pay18
  simp only [shapeCast_self, broadcast_apply, scalar_ofBits_zero]

/-- The stored lane block at lane `l`: the rows' quotients summed, in lane `0`. -/
theorem pay3_apply (v30 v31 : Vec Ideal S256x1 .f32) (l : Fin 128) :
    k1_pay3 (F := Ideal) v30 v31 (ix2 (0 : Fin 1) l)
      = (∑ r : Fin 256, Ideal.div (v30 (ix2 r (0 : Fin 1))) (max (v31 (ix2 r (0 : Fin 1))) Cert.Spec.eps10))
          * (if l = (0 : Fin 128) then (1 : EReal) else 0) := by
  unfold k1_pay3
  simp only [mulf_apply, maskv_apply, broadcast_apply]
  rw [broadcastTo_a1_ab_apply, shapeCast_a_1a_apply, colSum_apply, iota_single_apply]
  simp only [divf_apply, maximumf_apply, broadcast_apply]
  congr 1
  show (if BitVec.ofNat 32 l.val = BitVec.ofNat 32 0 then (1 : EReal) else 0) = if l = (0 : Fin 128) then (1 : EReal) else 0
  have hl : (BitVec.ofNat 32 l.val = BitVec.ofNat 32 0) ↔ l = (0 : Fin 128) := by
    rw [ofNat_eq_iff _ _ (by have := l.isLt; omega) (by omega)]
    exact ⟨fun h => Fin.ext h, fun h => by rw [h]; rfl⟩
  by_cases h : l = (0 : Fin 128)
  · rw [if_pos h, if_pos (hl.mpr h)]
  · rw [if_neg h, if_neg (fun h' => h (hl.mp h'))]

/-! ## Column tiles: a sum or a supremum over all columns, tile by tile -/

/-- A function of the column summed over column tile `k` (nothing from the eighth tile on). -/
def tileSum (g : Fin 8192 → EReal) (k : ℕ) : EReal :=
  if h : k < 8 then ∑ j : Fin 1024, g (Spec.col8 ⟨k, h⟩ j) else 0
/-- Its supremum over column tile `k`. -/
def tileSup (g : Fin 8192 → EReal) (k : ℕ) : EReal :=
  if h : k < 8 then Finset.univ.sup fun j : Fin 1024 => g (Spec.col8 ⟨k, h⟩ j) else ⊥

/-- Eight tile sums accumulated from zero are the whole sum. -/
theorem accAdd_tileSum (g : Fin 8192 → EReal) : Spec.accAdd 0 (tileSum g) 8 = ∑ s, g s := by
  rw [Spec.accAdd_eq, zero_add, Spec.sum_col8]
  refine Finset.sum_congr rfl fun k _ => ?_
  unfold tileSum
  rw [dif_pos k.isLt]
/-- Eight tile suprema accumulated from the bottom are the whole supremum. -/
theorem accMax_tileSup (g : Fin 8192 → EReal) : Spec.accMax ⊥ (tileSup g) 8 = Finset.univ.sup g := by
  rw [Spec.accMax_eq, Spec.sup_col8, max_eq_right bot_le]
  refine Finset.sup_congr rfl fun k _ => ?_
  unfold tileSup
  rw [dif_pos k.isLt]

/-! ## The four accumulations -/

section Rec
variable (i : grid1.Coords) (ti : Fin 32)
  (x0 : Vec Ideal S256x256 .f32) (x1 : Vec Ideal S256x1 .i32) (x2 : Vec Ideal S8192x256 .f32) (x3 : Vec Ideal S1x8192 .i32)

/-- The scaled product of query row `r` with row `j` of feature tile `k` is the similarity of the two rows. -/
theorem dotTile_apply (h0 : ∀ (r k : Fin 256), x0 (ix2 r k) = x2 (ix2 (Spec.row32 ti r) k))
    (k : Fin k1_t1_loop.trips) (k8 : Fin 8) (hk : k.val = k8.val) (r : Fin 256) (j : Fin 1024) :
    k1_pay10 (F := Ideal) (View.ld x0 rQ) (View.ld x2 (rFeat k)) (ix2 r j)
      = Spec.sim (featOf x2) (Spec.row32 ti r) (Spec.col8 k8 j) := by
  rw [pay10_apply, ld_rQ]
  unfold Spec.sim featOf
  congr 1
  refine Finset.sum_congr rfl fun c _ => ?_
  rw [h0, ld_feat x2 k k8 hk]

theorem lossDot_apply (h0 : ∀ (r k : Fin 256), x0 (ix2 r k) = x2 (ix2 (Spec.row32 ti r) k))
    (k : Fin k1_t1_loop.trips) (k8 : Fin 8) (hk : k.val = k8.val) (r : Fin 256) (j : Fin 1024) :
    lossDot (F := Ideal) x0 x2 k (ix2 r j) = Spec.sim (featOf x2) (Spec.row32 ti r) (Spec.col8 k8 j) := by
  unfold lossDot k1_pay11
  rw [shapeCast_self]
  exact dotTile_apply ti x0 x2 h0 k k8 hk r j

/-- The running maximum before tile `n`. -/
theorem lossMax_apply (h0 : ∀ (r k : Fin 256), x0 (ix2 r k) = x2 (ix2 (Spec.row32 ti r) k)) (r : Fin 256) :
    ∀ n : ℕ, n ≤ 8 → lossMax (F := Ideal) x0 x2 n (ix2 r (0 : Fin 1))
      = Spec.accMax ⊥ (tileSup (Spec.sim (featOf x2) (Spec.row32 ti r))) n
  | 0, _ => by
    show (k1_pay9 (F := Ideal)) (ix2 r (0 : Fin 1)) = _
    rw [pay9_apply]; rfl
  | n + 1, hn => by
    have h : n < k1_t1_loop.trips := by rw [trips1]; omega
    rw [lossMax, dif_pos h, pay12_apply, ld_rCol_f, lossMax_apply h0 r n (by omega)]
    show _ = max (Spec.accMax ⊥ _ n) (tileSup _ n)
    congr 1
    unfold tileSup
    rw [dif_pos (show n < 8 by omega)]
    refine Finset.sup_congr rfl fun j _ => ?_
    exact dotTile_apply ti x0 x2 h0 ⟨n, h⟩ ⟨n, by omega⟩ rfl r j

/-- The row maximum over all columns. -/
theorem lossRowMax_apply (h0 : ∀ (r k : Fin 256), x0 (ix2 r k) = x2 (ix2 (Spec.row32 ti r) k)) (r : Fin 256) :
    lossRowMax (F := Ideal) x0 x2 (ix2 r (0 : Fin 1)) = Spec.rowMax (Spec.sim (featOf x2)) (Spec.row32 ti r) := by
  unfold lossRowMax
  rw [ld_rCol_f, trips1, lossMax_apply ti x0 x2 h0 r 8 le_rfl, accMax_tileSup]
  rfl

/-- The cached exponential at `(r, j)` of tile `k`. -/
theorem lossExp_apply (h0 : ∀ (r k : Fin 256), x0 (ix2 r k) = x2 (ix2 (Spec.row32 ti r) k))
    (k : Fin k1_t2_loop.trips) (hk' : k.val < k1_t1_loop.trips) (k8 : Fin 8) (hk : k.val = k8.val) (r : Fin 256) (j : Fin 1024) :
    lossExp (F := Ideal) x0 x2 k hk' (ix2 r j) = Spec.ex (Spec.sim (featOf x2)) (Spec.row32 ti r) (Spec.col8 k8 j) := by
  unfold lossExp k1_pay15
  rw [shapeCast_self, pay14_apply, lossRowMax_apply ti x0 x2 h0, lossDot_apply ti x0 x2 h0 ⟨k.val, hk'⟩ k8 hk]
  rfl

/-- The negatives' sum before tile `n`. -/
theorem lossNeg_apply (h0 : ∀ (r k : Fin 256), x0 (ix2 r k) = x2 (ix2 (Spec.row32 ti r) k))
    (h1 : ∀ r : Fin 256, x1 (ix2 r 0) = x3 (ix2 0 (Spec.row32 ti r))) (r : Fin 256) :
    ∀ n : ℕ, n ≤ 8 → lossNeg (F := Ideal) x0 x1 x2 x3 n (ix2 r (0 : Fin 1))
      = Spec.accAdd 0 (tileSum fun s => Spec.ex (Spec.sim (featOf x2)) (Spec.row32 ti r) s * Spec.neg (labOf x3) (Spec.row32 ti r) s) n
  | 0, _ => by
    show (k1_pay13 (F := Ideal)) (ix2 r (0 : Fin 1)) = _
    rw [pay13_apply]; rfl
  | n + 1, hn => by
    have h : n < k1_t2_loop.trips ∧ n < k1_t1_loop.trips := ⟨by rw [trips2]; omega, by rw [trips1]; omega⟩
    rw [lossNeg, dif_pos h, pay16_apply, ld_rCol_f, ld_rCol_i, lossNeg_apply h0 h1 r n (by omega)]
    show _ = Spec.accAdd 0 _ n + tileSum _ n
    congr 1
    unfold tileSum
    rw [dif_pos (show n < 8 by omega)]
    refine Finset.sum_congr rfl fun j _ => ?_
    rw [lossRowMax_apply ti x0 x2 h0, lossDot_apply ti x0 x2 h0 ⟨n, h.2⟩ ⟨n, by omega⟩ rfl,
      ld_lab2 x3 ⟨n, h.1⟩ ⟨n, by omega⟩ rfl, h1]
    rfl

/-- The negatives' sum over all columns. -/
theorem lossNegSum_apply (h0 : ∀ (r k : Fin 256), x0 (ix2 r k) = x2 (ix2 (Spec.row32 ti r) k))
    (h1 : ∀ r : Fin 256, x1 (ix2 r 0) = x3 (ix2 0 (Spec.row32 ti r))) (r : Fin 256) :
    lossNegSum (F := Ideal) x0 x1 x2 x3 (ix2 r (0 : Fin 1))
      = Spec.negSum (Spec.sim (featOf x2)) (labOf x3) (Spec.row32 ti r) := by
  unfold lossNegSum
  rw [ld_rCol_f, trips2, lossNeg_apply ti x0 x1 x2 x3 h0 h1 r 8 le_rfl, accAdd_tileSum]
  rfl

/-- The positives' mask of tile `k` at `(r, j)`. -/
theorem posTile_apply (hti : (i 0).val = ti.val) (h1 : ∀ r : Fin 256, x1 (ix2 r 0) = x3 (ix2 0 (Spec.row32 ti r)))
    (k : Fin k1_t3_loop.trips) (k8 : Fin 8) (hk : k.val = k8.val) (r : Fin 256) (j : Fin 1024) :
    k1_pay4 (F := Ideal) (k1_pay7 (View.ld x1 rCol)) (k1_pay8 i) 0#32 1#32 k (View.ld x3 (rLab3 k)) (ix2 r j)
      = Spec.pos (labOf x3) (Spec.row32 ti r) (Spec.col8 k8 j) := by
  rw [pay4_apply, pay8_apply, ld_lab3 x3 k k8 hk]
  unfold k1_pay7
  rw [shapeCast_self, ld_rCol_i, h1, hti]
  have hd : (BitVec.ofNat 32 (256 * ti.val + r.val) = BitVec.ofNat 32 (1024 * k.val + j.val))
      ↔ Spec.row32 ti r = Spec.col8 k8 j := by
    rw [ofNat_eq_iff _ _ (by have := ti.isLt; have := r.isLt; omega) (by have := k8.isLt; have := j.isLt; omega), hk]
    exact ⟨fun h => Fin.ext h, fun h => congrArg Fin.val h⟩
  unfold Spec.pos Spec.eqm Spec.dg labOf
  simp only [hd]

/-- The numerator before tile `n`. -/
theorem lossNum_apply (hti : (i 0).val = ti.val) (h0 : ∀ (r k : Fin 256), x0 (ix2 r k) = x2 (ix2 (Spec.row32 ti r) k))
    (h1 : ∀ r : Fin 256, x1 (ix2 r 0) = x3 (ix2 0 (Spec.row32 ti r))) (r : Fin 256) :
    ∀ n : ℕ, n ≤ 8 → lossNum (F := Ideal) i x0 x1 x2 x3 n (ix2 r (0 : Fin 1))
      = Spec.accAdd 0 (tileSum fun s => Spec.pos (labOf x3) (Spec.row32 ti r) s
          * Spec.logProb (Spec.sim (featOf x2)) (labOf x3) (Spec.row32 ti r) s) n
  | 0, _ => by
    show (k1_pay17 (F := Ideal)) (ix2 r (0 : Fin 1)) = _
    rw [pay17_apply]; rfl
  | n + 1, hn => by
    have h : n < k1_t3_loop.trips ∧ n < k1_t2_loop.trips ∧ n < k1_t1_loop.trips :=
      ⟨by rw [trips3]; omega, by rw [trips2]; omega, by rw [trips1]; omega⟩
    rw [lossNum, dif_pos h, pay5_apply, ld_rCol_f, lossNum_apply hti h0 h1 r n (by omega)]
    show _ = Spec.accAdd 0 _ n + tileSum _ n
    congr 1
    unfold tileSum
    rw [dif_pos (show n < 8 by omega)]
    refine Finset.sum_congr rfl fun j _ => ?_
    rw [posTile_apply i ti x1 x3 hti h1 ⟨n, h.1⟩ ⟨n, by omega⟩ rfl, lossRowMax_apply ti x0 x2 h0,
      lossDot_apply ti x0 x2 h0 ⟨n, h.2.2⟩ ⟨n, by omega⟩ rfl, lossExp_apply ti x0 x2 h0 ⟨n, h.2.1⟩ h.2.2 ⟨n, by omega⟩ rfl,
      lossNegSum_apply ti x0 x1 x2 x3 h0 h1]
    rfl

/-- The denominator before tile `n`. -/
theorem lossDen_apply (hti : (i 0).val = ti.val) (h1 : ∀ r : Fin 256, x1 (ix2 r 0) = x3 (ix2 0 (Spec.row32 ti r))) (r : Fin 256) :
    ∀ n : ℕ, n ≤ 8 → lossDen (F := Ideal) i x1 x3 n (ix2 r (0 : Fin 1))
      = Spec.accAdd 0 (tileSum fun s => Spec.pos (labOf x3) (Spec.row32 ti r) s) n
  | 0, _ => by
    show k1_pay1 (F := Ideal) (k1_pay18 (F := Ideal)) (ix2 r (0 : Fin 1)) = _
    rw [pay1_apply]; rfl
  | n + 1, hn => by
    have h : n < k1_t3_loop.trips := by rw [trips3]; omega
    rw [lossDen, dif_pos h, pay2_apply, ld_rCol_f, lossDen_apply hti h1 r n (by omega)]
    show _ = Spec.accAdd 0 _ n + tileSum _ n
    congr 1
    unfold tileSum
    rw [dif_pos (show n < 8 by omega)]
    refine Finset.sum_congr rfl fun j _ => ?_
    exact posTile_apply i ti x1 x3 hti h1 ⟨n, h⟩ ⟨n, by omega⟩ rfl r j

end Rec

end Loss

open Loss

/-- Lane `l` of the loss block of row tile `ti`. -/
theorem lossBlk_apply (i : grid1.Coords) (ti : Fin 32) (hti : (i 0).val = ti.val)
    (x0 : Vec Ideal S256x256 .f32) (x1 : Vec Ideal S256x1 .i32) (x2 : Vec Ideal S8192x256 .f32) (x3 : Vec Ideal S1x8192 .i32)
    (h0 : ∀ (r k : Fin 256), x0 (ix2 r k) = x2 (ix2 (Cert.Spec.row32 ti r) k))
    (h1 : ∀ r : Fin 256, x1 (ix2 r 0) = x3 (ix2 0 (Cert.Spec.row32 ti r)))
    (l : Fin 128) :
    lossBlk (F := Ideal) i x0 x1 x2 x3 (ix2 0 l)
      = (∑ r : Fin 256, Cert.Spec.mlpp (Cert.Spec.sim (featOf x2)) (labOf x3) Cert.Spec.eps10 (Cert.Spec.row32 ti r))
          * (if l = (0 : Fin 128) then (1 : EReal) else 0) := by
  unfold lossBlk
  rw [View.canon_unit_zero (by funext a; fin_cases a <;> rfl), pay3_apply]
  refine congrArg (fun t : EReal => t * (if l = (0 : Fin 128) then (1 : EReal) else 0)) ?_
  refine Finset.sum_congr rfl fun r _ => ?_
  rw [ld_rCol_f, ld_rCol_f, trips3, lossNum_apply i ti x0 x1 x2 x3 hti h0 h1 r 8 le_rfl,
    lossDen_apply i ti x1 x3 hti h1 r 8 le_rfl, accAdd_tileSum, accAdd_tileSum]
  rfl

end Cert.KernelIdeal.Hand

end
-- ==== Proof.KI.Bridge1.lean ====
/- The loss region's result row, read at the first lane of each of its 32 lane blocks: when the label column agrees
   with the label row, lane 0 of block `i` is the sum, over the 256 rows of row tile `i`, of the mean log-probability
   of the row's positives, for the feature matrix and labels the region finds in its arrays. The result row is, block
   by block, the loss block of the four input blocks at the block's grid point; at that point the query rows and their
   labels are tile `i` of the feature matrix and of the label column, the other two blocks are the whole arrays, and
   lane 0 of the loss block is that sum. -/
import proofs.«419518_j21423296873244_3_alg».proof.Proof.KI.Frame1
import proofs.«419518_j21423296873244_3_alg».proof.Proof.KI.Val1
import proofs.«419518_j21423296873244_3_alg».proof.Proof.KI.Dat1
import proofs.«419518_j21423296873244_3_alg».proof.Proof.Args

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b)) (c : Dev nD)

/-- The one grid coordinate of point `k` is `k`. -/
theorem coords_pt1 (k : Fin 32) : ((grid1.coords (pt1 k)) 0).val = k.val := by
  show k.val / 1 % 32 = k.val
  have := k.isLt
  omega

set_option maxHeartbeats 400000 in
/-- Lane 0 of lane block `i` of the result row is the sum over row tile `i` of the rows' mean log-probabilities. -/
theorem loss_lane0
    (hlab : ∀ r : Fin 8192, (V c main_v29 : S8192x1.Idx → BitVec 32) (ix2 r (0 : Fin 1)) = (V c main_v30 : S1x8192.Idx → BitVec 32) (ix2 (0 : Fin 1) r))
    (i : Fin 32) :
    ((dat1 V c).arrAt 4 cfg1.N : S1x4096.Idx → EReal) (ix2 (0 : Fin 1) ⟨128 * i.val, by have := i.isLt; omega⟩)
      = ∑ r : Fin 256, Cert.Spec.mlpp (Cert.Spec.sim (featOf (V c main_v26))) (labOf (V c main_v30)) Cert.Spec.eps10 (Cert.Spec.row32 i r) := by
  -- the two whole-array blocks are the arrays
  have hx2 : (iblk1 V c 2 (pt1 i) : Vec Ideal S8192x256 .f32) = V c main_v26 := by
    funext (j : S8192x256.Idx); rw [eq_ix2 j]; exact iblk1_2_apply V c (pt1 i) (j 0) (j 1)
  have hx3 : (iblk1 V c 3 (pt1 i) : Vec Ideal S1x8192 .i32) = V c main_v30 := by
    funext (j : S1x8192.Idx)
    have h0 : j 0 = (0 : Fin 1) := Fin.ext (by
      have h : (j 0).val < 1 := (j 0).isLt
      show (j 0).val = 0
      omega)
    rw [eq_ix2 j, h0]; exact iblk1_3_apply V c (pt1 i) (j 1)
  -- column `128 i` is lane 0 of lane block `i`
  have e := lossArr_apply V c i (0 : Fin 128)
  have hidx : (⟨128 * i.val, by have := i.isLt; omega⟩ : Fin 4096) = ⟨128 * i.val + (0 : Fin 128).val, by have := i.isLt; simp; omega⟩ := Fin.ext (by simp)
  rw [final1 V c, hidx, e]
  -- the query rows and their labels at point `i` are tile `i` of the feature matrix and of the label row
  rw [lossBlk_apply (grid1.coords (pt1 i)) i (coords_pt1 i) _ _ _ _
    (fun r k => by rw [iblk1_0_apply V c i r k, iblk1_2_apply V c (pt1 i)])
    (fun r => by rw [iblk1_1_apply V c i r, iblk1_3_apply V c (pt1 i)]; exact hlab _) (0 : Fin 128)]
  rw [if_pos rfl, mul_one, hx2, hx3]

end Cert.KernelIdeal.Hand

end
-- ==== Proof.KI.HostPost.lean ====
/- The host side of the kernel program after its two regions. After region 0: the feature matrix handed to the loss
   kernel is the region's three-axis result flattened (row `256 s + v` is sample `v` of sorted group `s`), and the two
   label arrays (a column and a row of `8192` words) hold at row `256 s + v` the sorted label of group `s`. After
   region 1: the program's result is minus the sum of lane `0` of the `32` lane blocks the loss kernel leaves, over `8192`. -/
import proofs.«419518_j21423296873244_3_alg».proof.Proof.Gen.KernelIdeal.Regions
import proofs.«419518_j21423296873244_3_alg».proof.Proof.Args
import Idealize.ShloMosaic.Lib.StableHlo.Run
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx Idealize.ShloMosaic.StableHlo
open scoped BigOperators

section Generic

variable {F : FTy → Type} [FloatOps F]

/-- A `32 × 256 × 256` array flattened to `8192 × 256`, read at row `256 s + v`. -/
theorem HostPost.reshape_rows_apply (y : Vec F S32x256x256 .f32) (s : Fin 32) (v ch : Fin 256) :
    shapeCast S8192x256 y shapeCasts_S32x256x256_S8192x256 (ix2 (Cert.Spec.row32 s v) ch) = y (ix3 s v ch) :=
  shapeCast_apply y shapeCasts_S32x256x256_S8192x256 (ix2 (Cert.Spec.row32 s v) ch) (ix3 s v ch)
    (by rewrite [Shape.rowMajor_val_three, Shape.rowMajor_val_two]
        show (s.val * 256 + v.val) * 256 + ch.val = (256 * s.val + v.val) * 256 + ch.val
        omega)

/-- `32` words broadcast along `256` samples and flattened to `8192`, read at `256 s + v`. -/
theorem HostPost.bcast_flat_apply (x : Vec F S32 .i32) (s : Fin 32) (v : Fin 256) :
    shapeCast S8192 (broadcastInDim S32x256 ![0] bcast_S32_S32x256_0 x) shapeCasts_S32x256_S8192 (ix1 (Cert.Spec.row32 s v)) = x (ix1 s) := by
  refine (shapeCast_apply _ shapeCasts_S32x256_S8192 (ix1 (Cert.Spec.row32 s v)) (ix2 s v)
    (by rewrite [Shape.rowMajor_val_two, Shape.rowMajor_val_one]
        show s.val * 256 + v.val = 256 * s.val + v.val
        omega)).trans ?_
  exact broadcastInDim_apply _ bcast_S32_S32x256_0 x (ix2 s v) (ix1 s) (fun a => match a with
    | ⟨0, _⟩ => by show s.val = if (32 : Nat) = 1 then 0 else s.val; rw [if_neg (by decide)])

/-- The flat vector as a column, read at row `r`. -/
theorem HostPost.col_apply (x : Vec F S8192 .i32) (r : Fin 8192) :
    shapeCast S8192x1 x shapeCasts_S8192_S8192x1 (ix2 r 0) = x (ix1 r) :=
  shapeCast_apply x shapeCasts_S8192_S8192x1 (ix2 r 0) (ix1 r)
    (by rewrite [Shape.rowMajor_val_one, Shape.rowMajor_val_two]
        show r.val = r.val * 1 + 0
        omega)

/-- The flat vector as a row, read at column `r`. -/
theorem HostPost.row_apply (x : Vec F S8192 .i32) (r : Fin 8192) :
    shapeCast S1x8192 x shapeCasts_S8192_S1x8192 (ix2 0 r) = x (ix1 r) :=
  shapeCast_apply x shapeCasts_S8192_S1x8192 (ix2 0 r) (ix1 r)
    (by rewrite [Shape.rowMajor_val_one, Shape.rowMajor_val_two]
        show r.val = 0 * 8192 + r.val
        omega)

variable (m : (ℓ : Loc nD τ sig) → Buf (Elt F) ℓ) (outs : Outs (F := F)) (c : Dev nD)

/-- The feature matrix is region 0's result reshaped. -/
theorem V7_main_v26_eq :
    (V7 m outs c main_v26 : Vec F S8192x256 .f32)
      = shapeCast S8192x256 (outs 6 main_v25 c : Vec F S32x256x256 .f32) shapeCasts_S32x256x256_S8192x256 := by
  show StableHlo.after hostOps1 _ (Proc.devRef .tc main_v26) = _
  after_results
  rfl

/-- The feature matrix after region 0's host stretch: row `256 s + v`, channel `ch`, is region 0's result at `(s, v, ch)`. -/
theorem V7_main_v26_apply (s : Fin 32) (v ch : Fin 256) :
    (V7 m outs c main_v26 : Vec F S8192x256 .f32) (ix2 (Cert.Spec.row32 s v) ch)
      = (outs 6 main_v25 c : Vec F S32x256x256 .f32) (ix3 s v ch) := by
  rw [V7_main_v26_eq]
  exact HostPost.reshape_rows_apply _ s v ch

/-- The flat label vector `main_v28` of the stretch, over the labels `x` it starts from. -/
def HostPost.flatLab (x : Vec F S32 .i32) : Vec F S8192 .i32 :=
  shapeCast S8192 (broadcastInDim S32x256 ![0] bcast_S32_S32x256_0 x) shapeCasts_S32x256_S8192

/-- The label column is the sorted labels broadcast along the samples, flattened, as a column. -/
theorem V7_main_v29_eq :
    (V7 m outs c main_v29 : Vec F S8192x1 .i32)
      = shapeCast S8192x1 (HostPost.flatLab (V6 m outs c main_v22 : Vec F S32 .i32)) shapeCasts_S8192_S8192x1 := by
  show StableHlo.after hostOps1 _ (Proc.devRef .tc main_v29) = _
  after_results
  rfl

/-- The label row likewise, as a row. -/
theorem V7_main_v30_eq :
    (V7 m outs c main_v30 : Vec F S1x8192 .i32)
      = shapeCast S1x8192 (HostPost.flatLab (V6 m outs c main_v22 : Vec F S32 .i32)) shapeCasts_S8192_S1x8192 := by
  show StableHlo.after hostOps1 _ (Proc.devRef .tc main_v30) = _
  after_results
  rfl

/-- The label column: row `256 s + v` holds the sorted label of group `s`. -/
theorem V7_main_v29_apply (s : Fin 32) (v : Fin 256) :
    (V7 m outs c main_v29 : Vec F S8192x1 .i32) (ix2 (Cert.Spec.row32 s v) 0)
      = (V5 m c main_v22 : Vec F S32 .i32) (ix1 s) := by
  rw [V7_main_v29_eq, V6_of m outs c main_v22 (by decide)]
  exact (HostPost.col_apply _ _).trans (HostPost.bcast_flat_apply _ s v)

/-- The label row: column `256 s + v` holds the sorted label of group `s`. -/
theorem V7_main_v30_apply (s : Fin 32) (v : Fin 256) :
    (V7 m outs c main_v30 : Vec F S1x8192 .i32) (ix2 0 (Cert.Spec.row32 s v))
      = (V5 m c main_v22 : Vec F S32 .i32) (ix1 s) := by
  rw [V7_main_v30_eq, V6_of m outs c main_v22 (by decide)]
  exact (HostPost.row_apply _ _).trans (HostPost.bcast_flat_apply _ s v)

end Generic

section AtIdeal

/-- The literal `8192.0`. -/
theorem HostPost.ofBits_8192 : Ideal.ofBits .f32 0x46000000#32 = ((8192 : ℝ) : EReal) := by
  simp [Ideal.ofBits, Ideal.ieee, -EReal.coe_mul]; norm_num

/-- Lane `0` of lane block `i`: the `1 × 4096` array as `32 × 128`, its first column, as a vector of `32`. -/
theorem HostPost.lane0_apply (y : Vec Ideal S1x4096 .f32) (i : Fin 32) :
    shapeCast S32 (extractStridedSlice S32x1 ![0, 0] (shapeCast S32x128 y shapeCasts_S1x4096_S32x128) slices_S32x128_S32x1_0_0)
        shapeCasts_S32x1_S32 (ix1 i)
      = y (ix2 0 ⟨128 * i.val, by have := i.isLt; omega⟩) := by
  refine (shapeCast_apply _ shapeCasts_S32x1_S32 (ix1 i) (ix2 i 0)
    (by rewrite [Shape.rowMajor_val_two, Shape.rowMajor_val_one]
        show i.val * 1 + 0 = i.val
        omega)).trans ?_
  refine (extractStridedSlice_apply ![0, 0] _ slices_S32x128_S32x1_0_0 (ix2 i 0) (ix2 i 0) (fun a => match a with
    | ⟨0, _⟩ => by show i.val = 0 + i.val; omega
    | ⟨1, _⟩ => by show (0 : Nat) = 0 + 0; rfl)).trans ?_
  exact shapeCast_apply y shapeCasts_S1x4096_S32x128 (ix2 i 0) (ix2 0 ⟨128 * i.val, by have := i.isLt; omega⟩)
    (by rewrite [Shape.rowMajor_val_two, Shape.rowMajor_val_two]
        show 0 * 4096 + 128 * i.val = i.val * 128 + 0
        omega)

/-- The host stretch after region 1 as one function of the loss array. -/
def HostPost.lossTail (y : Vec Ideal S1x4096 .f32) : Vec Ideal S_ .f32 :=
  Host.divf (F := Ideal)
    (Host.negf (F := Ideal) (Host.reduceAdd (F := Ideal)
      (shapeCast S32 (extractStridedSlice S32x1 ![0, 0] (shapeCast S32x128 y shapeCasts_S1x4096_S32x128) slices_S32x128_S32x1_0_0)
        shapeCasts_S32x1_S32)
      (constant (F := Ideal) S_ .f32 0x00000000#32) reducesTo_S32_S_d0 h_S_))
    (constant (F := Ideal) S_ .f32 0x46000000#32)

/-- It is minus the sum of the `32` blocks' lane `0`, over `8192`. -/
theorem HostPost.lossTail_apply (y : Vec Ideal S1x4096 .f32) (j : S_.Idx) :
    HostPost.lossTail y j = Ideal.div (-(∑ i : Fin 32, y (ix2 0 ⟨128 * i.val, by have := i.isLt; omega⟩))) ((8192 : ℝ) : EReal) := by
  have ht : ∀ b : Fin S_.rank, S_.size b = 1 := fun b => b.elim0
  show Ideal.div (-(Ideal.hostReduceAdd reducesTo_S32_S_d0
      (shapeCast S32 (extractStridedSlice S32x1 ![0, 0] (shapeCast S32x128 y shapeCasts_S1x4096_S32x128) slices_S32x128_S32x1_0_0)
        shapeCasts_S32x1_S32) (Ideal.ofBits .f32 0x00000000#32) j)) (Ideal.ofBits .f32 0x46000000#32) = _
  rw [Ideal.hostReduceAdd_total reducesTo_S32_S_d0 ht, Ideal.ofBits_zero_f32, zero_add, HostPost.ofBits_8192]
  refine congrArg (fun t => Ideal.div (-t) ((8192 : ℝ) : EReal)) ?_
  rw [← Equiv.sum_comp (idxEquiv1 (n := 32)).symm]
  exact Finset.sum_congr rfl fun i _ => HostPost.lane0_apply y i

variable (m : (ℓ : Loc nD τ sig) → Buf (Elt Ideal) ℓ) (outs : Outs (F := Ideal)) (c : Dev nD)

/-- What region 1 leaves in its output array: the `32` lane blocks of `128` side by side. -/
abbrev lossOut : Vec Ideal S1x4096 .f32 := outs 8 main_v31 c

/-- The result buffer after the last host stretch is that function of region 1's output. -/
theorem V9_main_v37_term :
    (V9 m outs c main_v37 : Vec Ideal S_ .f32) = HostPost.lossTail (lossOut outs c) := by
  show StableHlo.after hostOps2 _ (Proc.devRef .tc main_v37) = _
  after_results
  rfl

/-- The program's result: minus the sum over the `32` lane blocks of lane `0`, divided by `8192`. -/
theorem V9_main_v37_eq :
    (V9 m outs c main_v37 : Vec Ideal S_ .f32)
      = fun _ => Ideal.div (-(∑ i : Fin 32, lossOut outs c (ix2 0 ⟨128 * i.val, by have := i.isLt; omega⟩)))
          ((8192 : ℝ) : EReal) := by
  rw [V9_main_v37_term]
  exact funext fun j => HostPost.lossTail_apply (lossOut outs c) j

end AtIdeal

end Cert.KernelIdeal.Hand

end
-- ==== Proof.BridgeAlg.lean ====
/- The program-free heart of the equivalence. One program takes the `32` sample groups in a sorted order `σ`, the
   other in the given order; row `r` of the sorted feature matrix is row `rowPerm σ r` of the unsorted one (the group
   of `rowPerm σ r` is `σ` of the group of `r`, the sample is the same), and likewise for the labels. So the sorted
   similarities are the unsorted ones relabelled by the one bijection `rowPerm σ` on rows and columns together, and the
   total does not see such a relabelling. A sum over `32` tiles of `256` rows is the sum over all rows, and the sign
   may be taken before or after the division by `8192`. -/
import proofs.«419518_j21423296873244_3_alg».proof.Proof.Args

noncomputable section

namespace Cert.Spec

open Idealize.ShloMosaic
open scoped BigOperators

/-- Relabelling the groups moves a row to the same sample of the relabelled group. -/
theorem rowPerm_eq (σ : Equiv.Perm (Fin 32)) (r : Fin 8192) : rowPerm σ r = row32 (σ (grp r)) (smp r) := by
  have h := rowPerm_row32 σ (grp r) (smp r)
  rw [row32_grp_smp] at h
  exact h
theorem grp_rowPerm (σ : Equiv.Perm (Fin 32)) (r : Fin 8192) : grp (rowPerm σ r) = σ (grp r) := by
  rw [rowPerm_eq, grp_row32]
theorem smp_rowPerm (σ : Equiv.Perm (Fin 32)) (r : Fin 8192) : smp (rowPerm σ r) = smp r := by
  rw [rowPerm_eq, smp_row32]

/-- Row `r` of the feature matrix in the order `σ` is row `rowPerm σ r` of the one in the given order. -/
theorem featM_perm (x : Fin 8 → Fin 256 → Fin 9216 → EReal) (b : Fin 32 → Fin 8) (p : Fin 32 → Fin 256 → Fin 9216)
    (σ : Equiv.Perm (Fin 32)) (r : Fin 8192) : featM x b p σ r = featM x b p id (rowPerm σ r) := by
  funext c
  show gnorm (fun c' => x (b (σ (grp r))) c' (p (σ (grp r)) (smp r))) c
    = gnorm (fun c' => x (b (grp (rowPerm σ r))) c' (p (grp (rowPerm σ r)) (smp (rowPerm σ r)))) c
  rw [grp_rowPerm, smp_rowPerm]
/-- The same for the rows' labels. -/
theorem labM_perm (lab : Fin 32 → BitVec 32) (σ : Equiv.Perm (Fin 32)) (r : Fin 8192) :
    labM lab σ r = labM lab id (rowPerm σ r) := by
  show lab (σ (grp r)) = lab (grp (rowPerm σ r))
  rw [grp_rowPerm]
/-- Hence the similarities in the order `σ` are those in the given order at the relabelled rows. -/
theorem sim_perm (x : Fin 8 → Fin 256 → Fin 9216 → EReal) (b : Fin 32 → Fin 8) (p : Fin 32 → Fin 256 → Fin 9216)
    (σ : Equiv.Perm (Fin 32)) (r s : Fin 8192) :
    sim (featM x b p σ) r s = sim (featM x b p id) (rowPerm σ r) (rowPerm σ s) := by
  unfold sim
  rw [featM_perm x b p σ r, featM_perm x b p σ s]

/-- The total does not depend on the order the groups are taken in. -/
theorem total_perm (x : Fin 8 → Fin 256 → Fin 9216 → EReal) (b : Fin 32 → Fin 8) (p : Fin 32 → Fin 256 → Fin 9216)
    (lab : Fin 32 → BitVec 32) (eps : EReal) (σ : Equiv.Perm (Fin 32)) :
    total (sim (featM x b p σ)) (labM lab σ) eps = total (sim (featM x b p id)) (labM lab id) eps := by
  have hd : sim (featM x b p σ) = fun r s => sim (featM x b p id) (rowPerm σ r) (rowPerm σ s) := by
    funext r s
    exact sim_perm x b p σ r s
  have hl : labM lab σ = fun r => labM lab id (rowPerm σ r) := by
    funext r
    exact labM_perm lab σ r
  rw [hd, hl]
  exact total_equiv (sim (featM x b p id)) (labM lab id) eps (rowPerm σ)

/-- The rows' mean log-probabilities summed tile by tile are the total. -/
theorem tiles_total (d : Fin 8192 → Fin 8192 → EReal) (lab : Fin 8192 → BitVec 32) (eps : EReal) :
    (∑ i : Fin 32, ∑ r : Fin 256, mlpp d lab eps (row32 i r)) = total d lab eps :=
  (sum_row32 (mlpp d lab eps)).symm

/-- Minus the tile-by-tile sum in the order `σ`, over `8192`, is what the other program returns. -/
theorem kernel_total_eq (x : Fin 8 → Fin 256 → Fin 9216 → EReal) (b : Fin 32 → Fin 8) (p : Fin 32 → Fin 256 → Fin 9216)
    (lab : Fin 32 → BitVec 32) (σ : Equiv.Perm (Fin 32)) :
    Ideal.div (-(∑ i : Fin 32, ∑ r : Fin 256, mlpp (sim (featM x b p σ)) (labM lab σ) eps10 (row32 i r))) ((8192 : ℝ) : EReal)
      = lossR x b p lab := by
  rw [tiles_total, div_neg_8192, total_perm]
  rfl

end Cert.Spec

end
-- ==== Proof.KI.Value.lean ====
/- The kernel program's result is the specification's loss. The program's last host operations return minus the sum
   of lane 0 of the thirty-two lane blocks the loss region leaves, over 8192; each lane 0 is its tile's sum of the
   rows' mean log-probabilities, over the feature matrix and the labels the loss region is entered with; that matrix
   is the gather region's result flattened, which is the specification's feature matrix with the sample groups taken in
   the sorted order, and the labels are the groups' labels in the same order; and the total does not depend on the
   order the groups are taken in. -/
import proofs.«419518_j21423296873244_3_alg».proof.Proof.KI.Bridge0
import proofs.«419518_j21423296873244_3_alg».proof.Proof.KI.Bridge1
import proofs.«419518_j21423296873244_3_alg».proof.Proof.KI.HostPre
import proofs.«419518_j21423296873244_3_alg».proof.Proof.KI.HostPost
import proofs.«419518_j21423296873244_3_alg».proof.Proof.KI.Family
import proofs.«419518_j21423296873244_3_alg».proof.Proof.BridgeAlg
import proofs.«419518_j21423296873244_3_alg».proof.Proof.PreFacts

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

variable (m : (ℓ : Loc nD τ sig) → Buf (Elt Ideal) ℓ) (a0 : (pcfg0 (F := Ideal)).Adm) (c : Dev nD)

/-! The feature matrix and the labels the loss region reads, entry by entry. -/
namespace Value

/-- Every row is a sample of a group. -/
theorem exists_row32 (r : Fin 8192) : ∃ (s : Fin 32) (v : Fin 256), r = Cert.Spec.row32 s v :=
  ⟨Cert.Spec.grp r, Cert.Spec.smp r, (Cert.Spec.row32_grp_smp r).symm⟩

/-- The loss region is entered with the label column and the label row holding the same labels. -/
theorem lab_col_row (r : Fin 8192) :
    (Ve1 m a0 c main_v29 : S8192x1.Idx → BitVec 32) (ix2 r (0 : Fin 1)) = (Ve1 m a0 c main_v30 : S1x8192.Idx → BitVec 32) (ix2 (0 : Fin 1) r) := by
  obtain ⟨s, v, rfl⟩ := exists_row32 r
  exact (V7_main_v29_apply m (outs0 m a0) c s v).trans (V7_main_v30_apply m (outs0 m a0) c s v).symm

/-- The labels the loss region is entered with are the groups' labels in the sorted order. -/
theorem labOf_entry :
    labOf (Ve1 m a0 c main_v30) = Cert.Spec.labM (Cert.Spec.grpLab (m ((c : Thread nD τ).loc main_arg3))) (sortPerm m c) := by
  funext r
  obtain ⟨s, v, rfl⟩ := exists_row32 r
  show (Ve1 m a0 c main_v30 : S1x8192.Idx → BitVec 32) (ix2 0 (Cert.Spec.row32 s v))
    = m ((c : Thread nD τ).loc main_arg3) (ix1 (sortPerm m c (Cert.Spec.grp (Cert.Spec.row32 s v))))
  rw [Cert.Spec.grp_row32]
  exact (V7_main_v30_apply m (outs0 m a0) c s v).trans (v22_apply m c s)

/-- The feature matrix the loss region is entered with is the specification's, the groups taken in the sorted order. -/
theorem featOf_entry
    (hA0 : ∀ c : Dev nD, ((fun k => Ve0 m c (pre0.ref k)) : pre0.Contents (Elt Ideal)) = a0.1)
    (hfin : ∀ j, ∃ r : ℝ, m ((c : Thread nD τ).loc main_arg0) j = (r : EReal))
    (hb : ∀ t : Fin 32, (m ((c : Thread nD τ).loc main_arg1) (ix1 t)).toNat < 8)
    (hs : ∀ (t : Fin 32) (v : Fin 256), (m ((c : Thread nD τ).loc main_arg2) (ix2 t v)).toNat < 9216) :
    featOf (Ve1 m a0 c main_v26)
      = Cert.Spec.featM (Cert.Spec.imgOf (m ((c : Thread nD τ).loc main_arg0))) (Cert.Spec.imgIdx (m ((c : Thread nD τ).loc main_arg1)) hb)
          (Cert.Spec.pixIdx (m ((c : Thread nD τ).loc main_arg2)) hs) (sortPerm m c) := by
  funext r k
  obtain ⟨s, v, rfl⟩ := exists_row32 r
  refine (V7_main_v26_apply m (outs0 m a0) c s v k).trans ?_
  rw [outs0_v25]
  exact res0_apply m a0 c hA0 hfin hb hs s v k

end Value

open Value in
/-- THE KERNEL PROGRAM'S RESULT: the specification's loss of the four argument arrays. -/
theorem kernel_value
    (hA0 : ∀ c : Dev nD, ((fun k => Ve0 m c (pre0.ref k)) : pre0.Contents (Elt Ideal)) = a0.1)
    (hfin : ∀ j, ∃ r : ℝ, m ((c : Thread nD τ).loc main_arg0) j = (r : EReal))
    (hb : ∀ t : Fin 32, (m ((c : Thread nD τ).loc main_arg1) (ix1 t)).toNat < 8)
    (hs : ∀ (t : Fin 32) (v : Fin 256), (m ((c : Thread nD τ).loc main_arg2) (ix2 t v)).toNat < 9216) :
    (V9 m (outs m a0) c main_v37 : S_.Idx → EReal)
      = fun _ => Cert.Spec.lossR (Cert.Spec.imgOf (m ((c : Thread nD τ).loc main_arg0))) (Cert.Spec.imgIdx (m ((c : Thread nD τ).loc main_arg1)) hb)
          (Cert.Spec.pixIdx (m ((c : Thread nD τ).loc main_arg2)) hs) (Cert.Spec.grpLab (m ((c : Thread nD τ).loc main_arg3))) := by
  have hsum : ∀ i : Fin 32, lossOut (outs m a0) c (ix2 0 ⟨128 * i.val, by have := i.isLt; omega⟩)
      = ∑ r : Fin 256, Cert.Spec.mlpp
          (Cert.Spec.sim (Cert.Spec.featM (Cert.Spec.imgOf (m ((c : Thread nD τ).loc main_arg0))) (Cert.Spec.imgIdx (m ((c : Thread nD τ).loc main_arg1)) hb)
            (Cert.Spec.pixIdx (m ((c : Thread nD τ).loc main_arg2)) hs) (sortPerm m c)))
          (Cert.Spec.labM (Cert.Spec.grpLab (m ((c : Thread nD τ).loc main_arg3))) (sortPerm m c)) Cert.Spec.eps10 (Cert.Spec.row32 i r) := fun i => by
    have h := loss_lane0 (Ve1 m a0) c (lab_col_row m a0 c) i
    rw [featOf_entry m a0 c hA0 hfin hb hs, labOf_entry m a0 c] at h
    exact (congrFun (outs_v31 m a0 8 c) _).trans h
  rw [V9_main_v37_eq m (outs m a0) c]
  funext _
  rw [← Cert.Spec.kernel_total_eq _ _ _ _ (sortPerm m c)]
  exact congrArg (fun t => Ideal.div (-t) ((8192 : ℝ) : EReal)) (Finset.sum_congr rfl fun i _ => hsum i)

end Cert.KernelIdeal.Hand

end
-- ==== Proof.Ref.ValueA.lean ====
/- The reference program's sampling stages as functions of its argument arrays. The image tensor flattened to image,
   channel, pixel; each sample group's image gathered (its index word, below 8, is not negative and survives the
   clamp); each sample's pixel gathered for every channel (its index word, below 9216, is not negative, passes the
   in-range test and survives the clamp); every sampled channel column divided by its Euclidean norm floored at 1e-12. -/
import proofs.«419518_j21423296873244_3_alg».proof.Proof.Ref.Read
import proofs.«419518_j21423296873244_3_alg».proof.Proof.Args
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open scoped BigOperators

/-! ## The two gathers read at an index -/

/-- A start index as the gather reads it: the word as a signed integer, clamped into [0, n - 1]. -/
def clampIdx (n : Nat) (hn : 0 < n) (w : BitVec 32) : Fin n := ⟨min w.toInt.toNat (n - 1), by omega⟩

/-- A word below n (and below 2^31) survives the clamp. -/
theorem clampIdx_small (n : Nat) (hn : 0 < n) (w : BitVec 32) (h : w.toNat < n) (h31 : n ≤ 2 ^ 31) :
    clampIdx n hn w = ⟨w.toNat, h⟩ := by
  apply Fin.ext
  show min w.toInt.toNat (n - 1) = w.toNat
  rw [BitVec.toInt_eq_toNat_cond, if_pos (by omega), Int.toNat_natCast]
  omega

/-- The gather of whole images: result element (t, c, p) is the operand at image idx[t, 0] (read signed, clamped
    into [0, 7]), channel c, pixel p. -/
theorem gather_img_apply {α : Type} (x : S8x256x9216.Idx → α) (idx : IVec S32x1 32) (t : Fin 32) (c : Fin 256) (p : Fin 9216) :
    Host.gather gather_S8x256x9216_S32x1_S32x256x9216_12_0_n_n_0_1_12569216 x idx (ix3 t c p)
      = x (ix3 (clampIdx 8 (by decide) (idx (ix2 t (0 : Fin 1)))) c p) := by
  unfold Host.gather
  congr 1
  funext a
  refine Fin.ext ?_
  match a with
  | ⟨0, _⟩ =>
    show gather_S8x256x9216_S32x1_S32x256x9216_12_0_n_n_0_1_12569216.start (ix3 t c p) idx 0
        + gather_S8x256x9216_S32x1_S32x256x9216_12_0_n_n_0_1_12569216.batchCoord (ix3 t c p) 0
        + gather_S8x256x9216_S32x1_S32x256x9216_12_0_n_n_0_1_12569216.offCoord (ix3 t c p) 0 = _
    rw [GatherDims.batchCoord_eq_zero _ _ _ (by decide), GatherDims.offCoord_eq_zero _ _ _ (by decide)]
    simp only [Nat.add_zero]
    unfold GatherDims.start
    rw [dif_pos (by decide)]
    have hsi : gather_S8x256x9216_S32x1_S32x256x9216_12_0_n_n_0_1_12569216.siIdx (ix3 t c p)
        ⟨List.idxOf (0 : Fin 3) gather_S8x256x9216_S32x1_S32x256x9216_12_0_n_n_0_1_12569216.startIndexMap,
          List.idxOf_lt_length_iff.2 (by decide)⟩ = ix2 t (0 : Fin 1) := by
      funext b; refine Fin.ext ?_
      match b with
      | ⟨0, _⟩ => rfl
      | ⟨1, _⟩ => rfl
    rw [hsi]
    rfl
  | ⟨1, _⟩ =>
    show gather_S8x256x9216_S32x1_S32x256x9216_12_0_n_n_0_1_12569216.start (ix3 t c p) idx 1
        + gather_S8x256x9216_S32x1_S32x256x9216_12_0_n_n_0_1_12569216.batchCoord (ix3 t c p) 1
        + gather_S8x256x9216_S32x1_S32x256x9216_12_0_n_n_0_1_12569216.offCoord (ix3 t c p) 1 = c.val
    rw [GatherDims.batchCoord_eq_zero _ _ _ (by decide)]
    unfold GatherDims.start
    rw [dif_neg (by decide)]
    unfold GatherDims.offCoord
    rw [dif_pos (by decide)]
    simp only [Nat.add_zero, Nat.zero_add]
    rfl
  | ⟨2, _⟩ =>
    show gather_S8x256x9216_S32x1_S32x256x9216_12_0_n_n_0_1_12569216.start (ix3 t c p) idx 2
        + gather_S8x256x9216_S32x1_S32x256x9216_12_0_n_n_0_1_12569216.batchCoord (ix3 t c p) 2
        + gather_S8x256x9216_S32x1_S32x256x9216_12_0_n_n_0_1_12569216.offCoord (ix3 t c p) 2 = p.val
    rw [GatherDims.batchCoord_eq_zero _ _ _ (by decide)]
    unfold GatherDims.start
    rw [dif_neg (by decide)]
    unfold GatherDims.offCoord
    rw [dif_pos (by decide)]
    simp only [Nat.add_zero, Nat.zero_add]
    rfl

/-- The gather along the pixel axis, batched over the groups: result element (t, c, v) is the operand at group t,
    channel c, pixel idx[t, v, 0] (read signed, clamped into [0, 9215]). -/
theorem gather_pix_apply {α : Type} (x : S32x256x9216.Idx → α) (idx : IVec S32x256x1 32) (t : Fin 32) (c v : Fin 256) :
    Host.gather gather_S32x256x9216_S32x256x1_S32x256x256_1_2_0_0_2_2_12561 x idx (ix3 t c v)
      = x (ix3 t c (clampIdx 9216 (by decide) (idx (ix3 t v (0 : Fin 1))))) := by
  unfold Host.gather
  congr 1
  funext a
  refine Fin.ext ?_
  match a with
  | ⟨0, _⟩ =>
    show gather_S32x256x9216_S32x256x1_S32x256x256_1_2_0_0_2_2_12561.start (ix3 t c v) idx 0
        + gather_S32x256x9216_S32x256x1_S32x256x256_1_2_0_0_2_2_12561.batchCoord (ix3 t c v) 0
        + gather_S32x256x9216_S32x256x1_S32x256x256_1_2_0_0_2_2_12561.offCoord (ix3 t c v) 0 = t.val
    rw [GatherDims.offCoord_eq_zero _ _ _ (by decide)]
    unfold GatherDims.start
    rw [dif_neg (by decide)]
    unfold GatherDims.batchCoord
    rw [dif_pos (by decide)]
    simp only [Nat.add_zero, Nat.zero_add]
    rfl
  | ⟨1, _⟩ =>
    show gather_S32x256x9216_S32x256x1_S32x256x256_1_2_0_0_2_2_12561.start (ix3 t c v) idx 1
        + gather_S32x256x9216_S32x256x1_S32x256x256_1_2_0_0_2_2_12561.batchCoord (ix3 t c v) 1
        + gather_S32x256x9216_S32x256x1_S32x256x256_1_2_0_0_2_2_12561.offCoord (ix3 t c v) 1 = c.val
    rw [GatherDims.batchCoord_eq_zero _ _ _ (by decide)]
    unfold GatherDims.start
    rw [dif_neg (by decide)]
    unfold GatherDims.offCoord
    rw [dif_pos (by decide)]
    simp only [Nat.add_zero, Nat.zero_add]
    rfl
  | ⟨2, _⟩ =>
    show gather_S32x256x9216_S32x256x1_S32x256x256_1_2_0_0_2_2_12561.start (ix3 t c v) idx 2
        + gather_S32x256x9216_S32x256x1_S32x256x256_1_2_0_0_2_2_12561.batchCoord (ix3 t c v) 2
        + gather_S32x256x9216_S32x256x1_S32x256x256_1_2_0_0_2_2_12561.offCoord (ix3 t c v) 2 = _
    rw [GatherDims.batchCoord_eq_zero _ _ _ (by decide), GatherDims.offCoord_eq_zero _ _ _ (by decide)]
    simp only [Nat.add_zero]
    unfold GatherDims.start
    rw [dif_pos (by decide)]
    have hsi : gather_S32x256x9216_S32x256x1_S32x256x256_1_2_0_0_2_2_12561.siIdx (ix3 t c v)
        ⟨List.idxOf (2 : Fin 3) gather_S32x256x9216_S32x256x1_S32x256x256_1_2_0_0_2_2_12561.startIndexMap,
          List.idxOf_lt_length_iff.2 (by decide)⟩ = ix3 t v (0 : Fin 1) := by
      funext b; refine Fin.ext ?_
      match b with
      | ⟨0, _⟩ => rfl
      | ⟨1, _⟩ => rfl
      | ⟨2, _⟩ => rfl
    rw [hsi]
    rfl

/-! ## Index words: a small word is not negative -/

/-- A word below 2^31 is not below zero ... -/
theorem cmpi_slt_zero {x : BitVec 32} (h : x.toNat < 2 ^ 31) : IntOp.cmpi .slt x 0#32 = 0#1 := by
  have hx : x.toInt = (x.toNat : Int) := by rw [BitVec.toInt_eq_toNat_cond, if_pos (by omega)]
  have h0 : x.slt 0#32 = false := by simp [BitVec.slt, hx]
  simp [IntOp.cmpi, h0]

/-- ... it is at least zero ... -/
theorem cmpi_sge_zero {x : BitVec 32} (h : x.toNat < 2 ^ 31) : IntOp.cmpi .sge x 0#32 = 1#1 := by
  have hx : x.toInt = (x.toNat : Int) := by rw [BitVec.toInt_eq_toNat_cond, if_pos (by omega)]
  have h0 : (0#32).sle x = true := by simp [BitVec.sle, hx]
  simp [IntOp.cmpi, h0]

/-- ... and a pixel index is at most 9215. -/
theorem cmpi_sle_9215 {x : BitVec 32} (h : x.toNat < 9216) : IntOp.cmpi .sle x 9215#32 = 1#1 := by
  have hx : x.toInt = (x.toNat : Int) := by rw [BitVec.toInt_eq_toNat_cond, if_pos (by omega)]
  have h0 : x.sle 9215#32 = true := by
    simp only [BitVec.sle, hx, decide_eq_true_eq]
    have : (9215#32 : BitVec 32).toInt = 9215 := by decide
    rw [this]; omega
  simp [IntOp.cmpi, h0]

/-! ## The index stages -/

abbrev A0 := (⟨S8x256x96x96, .f32⟩ : BufTy).Contents (Elt Ideal)
abbrev A1 := (⟨S32, .i32⟩ : BufTy).Contents (Elt Ideal)
abbrev A2 := (⟨S32x256, .i32⟩ : BufTy).Contents (Elt Ideal)

/-- A group's image index after the wrap of negatives: itself. -/
theorem v5_at (a1 : A1) (t : Fin 32) (h : (a1 (ix1 t)).toNat < 8) : val_main_v5 (F := Ideal) a1 (ix1 t) = a1 (ix1 t) := by
  rw [val_main_v5_apply, val_main_v2_apply, val_main_v1_apply, val_main_c_apply, cmpi_slt_zero (by omega), select_zero]

theorem v6_at (a1 : A1) (t : Fin 32) (h : (a1 (ix1 t)).toNat < 8) :
    val_main_v6 (F := Ideal) a1 (ix2 t (0 : Fin 1)) = a1 (ix1 t) := by
  have e : idx_main_v6 (ix2 t (0 : Fin 1)) = ix1 t := funext fun a => Fin.ext (by match a with | ⟨0, _⟩ => rfl)
  rw [val_main_v6_apply, e, v5_at a1 t h]

/-- A sample's pixel index after the wrap of negatives: itself. -/
theorem call0_v4_at (a2 : A2) (t : Fin 32) (v : Fin 256) (h : (a2 (ix2 t v)).toNat < 9216) :
    val_main_call0_v4 (F := Ideal) a2 (ix3 t (0 : Fin 1) v) = a2 (ix2 t v) := by
  have e : idx_main_v8 (ix3 t (0 : Fin 1) v) = ix2 t v :=
    funext fun a => Fin.ext (by match a with | ⟨0, _⟩ => rfl | ⟨1, _⟩ => rfl)
  rw [val_main_call0_v4_apply, val_main_call0_v1_apply, val_main_v8_apply, e, val_main_call0_v0_apply, val_main_call0_c_apply,
    cmpi_slt_zero (by omega), select_zero]

theorem call0_v5_at (a2 : A2) (t : Fin 32) (v : Fin 256) (h : (a2 (ix2 t v)).toNat < 9216) :
    val_main_call0_v5 (F := Ideal) a2 (ix3 t v (0 : Fin 1)) = a2 (ix2 t v) := by
  have e : idx_main_call0_v5 (ix3 t v (0 : Fin 1)) = ix3 t (0 : Fin 1) v := funext fun a => Fin.ext (by
    have := t.isLt; have := v.isLt
    match a with
    | ⟨0, _⟩ => show ((t.val * 256 + v.val) * 1 + 0) / 256 = t.val; omega
    | ⟨1, _⟩ => rfl
    | ⟨2, _⟩ => show ((t.val * 256 + v.val) * 1 + 0) % 256 = v.val; omega)
  rw [val_main_call0_v5_apply, e, call0_v4_at a2 t v h]

/-- A fold over a one-element index type is one application of the operation. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- The in-range test of a pixel index below 9216 is true. -/
theorem call0_v12_at (a2 : A2) (t : Fin 32) (v : Fin 256) (h : (a2 (ix2 t v)).toNat < 9216) :
    val_main_call0_v12 (F := Ideal) a2 (ix2 t v) = 1#1 := by
  have hred : S32x256x1.Reduces [2] S32x256 := by decide
  unfold val_main_call0_v12
  rw [Host.reduce_eq_fold_single IntOp.andi _ _ reducesTo_S32x256x1_S32x256_d2 hred h_S_]
  refine (fold_fin_one IntOp.andi _ _).trans ?_
  rw [val_main_call0_c_3_apply]
  have hl : hred.lift (ix2 t v) (⟨0, by decide⟩ : Fin (S32x256x1.size 2)) = ix3 t v (0 : Fin 1) :=
    funext fun a => Fin.ext (by match a with | ⟨0, _⟩ => rfl | ⟨1, _⟩ => rfl | ⟨2, _⟩ => rfl)
  show IntOp.andi (val_main_call0_v11 (F := Ideal) a2
    (hred.lift (ix2 t v) (⟨0, by decide⟩ : Fin (S32x256x1.size 2)))) 1#1 = 1#1
  rw [hl, val_main_call0_v11_apply, val_main_call0_v7_apply, val_main_call0_v10_apply, val_main_call0_v6_apply,
    val_main_call0_c_2_apply, val_main_call0_v9_apply, val_main_call0_v8_apply, val_main_call0_c_1_apply,
    call0_v5_at a2 t v h, cmpi_sge_zero (by omega), cmpi_sle_9215 h]
  decide

/-! ## The sampled values and the normalised features -/

/-- Pixel p of the flattened plane of image b, channel c, in the four-axis tensor. -/
theorem idx_v0_at (b : Fin 8) (c : Fin 256) (p : Fin 9216) :
    idx_main_v0 (ix3 b c p) = ix4 b c (Spec.pixRow p) (Spec.pixCol p) :=
  funext fun a => Fin.ext (by
    have := b.isLt; have := c.isLt; have := p.isLt
    match a with
    | ⟨0, _⟩ => show ((b.val * 256 + c.val) * 9216 + p.val) / 2359296 = b.val; omega
    | ⟨1, _⟩ => show ((b.val * 256 + c.val) * 9216 + p.val) / 9216 % 256 = c.val; omega
    | ⟨2, _⟩ => show ((b.val * 256 + c.val) * 9216 + p.val) / 96 % 96 = p.val / 96; omega
    | ⟨3, _⟩ => show ((b.val * 256 + c.val) * 9216 + p.val) % 96 = p.val % 96; omega)

/-- Sample v of group t, channel c: the image tensor at the group's image and the sample's pixel. -/
theorem sampled_at (a0 : A0) (a1 : A1) (a2 : A2) (hb : ∀ t : Fin 32, (a1 (ix1 t)).toNat < 8)
    (hs : ∀ (t : Fin 32) (v : Fin 256), (a2 (ix2 t v)).toNat < 9216) (t : Fin 32) (c v : Fin 256) :
    val_main_v9 (F := Ideal) a0 a1 a2 (ix3 t c v)
      = Spec.imgOf a0 (Spec.imgIdx a1 hb t) c (Spec.pixIdx a2 hs t v) := by
  have e14 : idx_main_call0_v14 (ix3 t c v) = ix2 t v :=
    funext fun a => Fin.ext (by match a with | ⟨0, _⟩ => rfl | ⟨1, _⟩ => rfl)
  rw [val_main_v9_apply, val_main_call0_v14_apply, e14, call0_v12_at a2 t v (hs t v), select_one]
  unfold val_main_call0_v13
  rw [gather_pix_apply, call0_v5_at a2 t v (hs t v)]
  unfold val_main_v7
  rw [gather_img_apply, v6_at a1 t (hb t), val_main_v0_apply]
  rw [clampIdx_small 8 (by decide) _ (hb t) (by decide), clampIdx_small 9216 (by decide) _ (hs t v) (by decide)]
  exact congrArg a0 (idx_v0_at _ _ _)

/-- The sampled column divided by its floored norm. -/
theorem feat_at (a0 : A0) (a1 : A1) (a2 : A2) (hb : ∀ t : Fin 32, (a1 (ix1 t)).toNat < 8)
    (hs : ∀ (t : Fin 32) (v : Fin 256), (a2 (ix2 t v)).toNat < 9216) (t : Fin 32) (c v : Fin 256) :
    val_main_v14 (F := Ideal) a0 a1 a2 (ix3 t c v)
      = Spec.gnorm (fun c' => Spec.imgOf a0 (Spec.imgIdx a1 hb t) c' (Spec.pixIdx a2 hs t v)) c := by
  have e13 : idx_main_v13 (ix3 t c v) = ix3 t (0 : Fin 1) v :=
    funext fun a => Fin.ext (by match a with | ⟨0, _⟩ => rfl | ⟨1, _⟩ => rfl | ⟨2, _⟩ => rfl)
  have e2 : idx_main_call1_v2 (ix3 t (0 : Fin 1) v) = ix2 t v :=
    funext fun a => Fin.ext (by match a with | ⟨0, _⟩ => rfl | ⟨1, _⟩ => rfl)
  have e1 : ∀ k : Fin 256, idx_main_call1_v1 (ix2 t v) k = ix3 t k v := fun k =>
    funext fun a => Fin.ext (by match a with | ⟨0, _⟩ => rfl | ⟨1, _⟩ => rfl | ⟨2, _⟩ => rfl)
  rw [val_main_v14_apply, sampled_at a0 a1 a2 hb hs, val_main_v13_apply, e13, val_main_v12_apply, val_main_v10_apply,
    val_main_call1_v2_apply, e2, val_main_call1_v1_apply, val_main_call1_cst_apply, val_main_v11_apply, val_main_cst_apply]
  simp only [e1, val_main_call1_v0_apply, sampled_at a0 a1 a2 hb hs]
  simp only [Ideal.hostDivf_def, Ideal.maximumf_def, Ideal.hostUnary_sqrt_def, Ideal.ofBits_def, Ideal.ofBits_zero_f32,
    zero_add, Ideal.mulf_def]
  rfl

end Cert.ReferenceIdeal.RefValue

end
-- ==== Proof.Ref.Value.lean ====
/- The reference program's result as a function of its four argument arrays. The normalised sampled columns laid out
   as the rows of an 8192 x 256 matrix, row 256 t + v being sample v of group t; the matrix of inner products of its
   rows divided by one half; the label-agreement and diagonal masks as 0/1 values; each row's maximum, shifted logits,
   exponentials, negatives' sum, log-probabilities, the positives' mean; the rows' total over 8192, negated. -/
import proofs.«419518_j21423296873244_3_alg».proof.Proof.Ref.ValueA
import proofs.«419518_j21423296873244_3_alg».proof.Proof.Ref.Read
import proofs.«419518_j21423296873244_3_alg».proof.Proof.Args
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open scoped BigOperators

/-! ## The float literals -/

theorem half_f32 : Ideal.ofBits .f32 0x3F000000#32 = (((1 : ℝ) / 2 : ℝ) : EReal) := by
  simp [Ideal.ofBits, Ideal.ieee, -EReal.coe_mul]; norm_num
theorem one_f32 : Ideal.ofBits .f32 0x3F800000#32 = 1 := by
  simp [Ideal.ofBits, Ideal.ieee, -EReal.coe_mul]; norm_num
theorem ninf_f32 : Ideal.ofBits .f32 0xFF800000#32 = ⊥ := by
  simp [Ideal.ofBits, Ideal.ieee]
theorem f8192_f32 : Ideal.ofBits .f32 0x46000000#32 = ((8192 : ℝ) : EReal) := by
  simp [Ideal.ofBits, Ideal.ieee, -EReal.coe_mul]; norm_num

/-- The widening of a one-bit equality test is 1 or 0. -/
theorem uitofp_cmpi_eq {w : Nat} (a b : BitVec w) :
    FloatOps.uitofp (F := Ideal) .f32 (IntOp.cmpi .eq a b) = if a = b then 1 else 0 := by
  show (((IntOp.cmpi .eq a b).toNat : ℝ) : EReal) = _
  unfold IntOp.cmpi
  by_cases h : a = b
  · simp [h]
  · simp [h]

/-! ## The feature matrix, the labels, the similarities -/

section Matrix

variable (a0 : A0) (a1 : A1) (a2 : A2) (a3 : A1) (hb : ∀ t : Fin 32, (a1 (ix1 t)).toNat < 8)
  (hs : ∀ (t : Fin 32) (v : Fin 256), (a2 (ix2 t v)).toNat < 9216)

/-- The feature matrix, the similarity matrix and the rows' labels of the specification, at these arguments. -/
abbrev fM : Fin 8192 → Fin 256 → EReal := Spec.featM (Spec.imgOf a0) (Spec.imgIdx a1 hb) (Spec.pixIdx a2 hs) id
abbrev dM : Fin 8192 → Fin 8192 → EReal := Spec.sim (fM a0 a1 a2 hb hs)
abbrev lM : Fin 8192 → BitVec 32 := Spec.labM (Spec.grpLab a3) id

/-- Row r of the feature matrix is sample r % 256 of group r / 256. -/
theorem featM_at (r : Fin 8192) (c : Fin 256) :
    val_main_v16 (F := Ideal) a0 a1 a2 (ix2 r c) = fM a0 a1 a2 hb hs r c := by
  have e16 : idx_main_v16 (ix2 r c) = ix3 (Spec.grp r) (Spec.smp r) c := funext fun a => Fin.ext (by
    have := r.isLt; have := c.isLt
    match a with
    | ⟨0, _⟩ => show (r.val * 256 + c.val) / 65536 = r.val / 256; omega
    | ⟨1, _⟩ => show (r.val * 256 + c.val) / 256 % 256 = r.val % 256; omega
    | ⟨2, _⟩ => show (r.val * 256 + c.val) % 256 = c.val; omega)
  have e15 : idx_main_v15 (ix3 (Spec.grp r) (Spec.smp r) c) = ix3 (Spec.grp r) c (Spec.smp r) :=
    funext fun a => Fin.ext (by match a with | ⟨0, _⟩ => rfl | ⟨1, _⟩ => rfl | ⟨2, _⟩ => rfl)
  rw [val_main_v16_apply, e16, val_main_v15_apply, e15, feat_at a0 a1 a2 hb hs]
  rfl

/-- Row r's label is its group's. -/
theorem lab_at (r : Fin 8192) : val_main_v18 (F := Ideal) a3 (ix1 r) = lM a3 r := by
  have e18 : idx_main_v18 (ix1 r) = ix2 (Spec.grp r) (Spec.smp r) :=
    funext fun a => Fin.ext (by match a with | ⟨0, _⟩ => rfl | ⟨1, _⟩ => rfl)
  have e17 : idx_main_v17 (ix2 (Spec.grp r) (Spec.smp r)) = ix1 (Spec.grp r) :=
    funext fun a => Fin.ext (by match a with | ⟨0, _⟩ => rfl)
  rw [val_main_v18_apply, e18, val_main_v17_apply, e17]
  rfl

/-- The product of the feature matrix with its transpose, over the temperature one half: the inner product doubled. -/
theorem sim_at (r s : Fin 8192) : val_main_v22 (F := Ideal) a0 a1 a2 (ix2 r s) = dM a0 a1 a2 hb hs r s := by
  have el : ∀ k : Fin 256, lidx_main_v20 (ix2 r s) k = ix2 r k := fun k =>
    funext fun a => Fin.ext (by match a with | ⟨0, _⟩ => rfl | ⟨1, _⟩ => rfl)
  have er : ∀ k : Fin 256, ridx_main_v20 (ix2 r s) k = ix2 k s := fun k =>
    funext fun a => Fin.ext (by match a with | ⟨0, _⟩ => rfl | ⟨1, _⟩ => rfl)
  have e19 : ∀ k : Fin 256, idx_main_v19 (ix2 k s) = ix2 s k := fun k =>
    funext fun a => Fin.ext (by match a with | ⟨0, _⟩ => rfl | ⟨1, _⟩ => rfl)
  rw [val_main_v22_apply, val_main_v20_apply, val_main_v21_apply, val_main_cst_1_apply]
  simp only [el, er, val_main_v19_apply, e19, featM_at a0 a1 a2 hb hs]
  rw [Ideal.hostDivf_def, Ideal.ofBits_def, half_f32, ← Spec.mul_two_eq_div_half]
  rfl

/-- The label-agreement mask. -/
theorem eqm_at (r s : Fin 8192) : val_main_v28 (F := Ideal) a3 (ix2 r s) = Spec.eqm (lM a3) r s := by
  have e25 : idx_main_v25 (ix2 r s) = ix2 r (0 : Fin 1) :=
    funext fun a => Fin.ext (by match a with | ⟨0, _⟩ => rfl | ⟨1, _⟩ => rfl)
  have e23 : idx_main_v23 (ix2 r (0 : Fin 1)) = ix1 r := funext fun a => Fin.ext (by match a with | ⟨0, _⟩ => rfl)
  have e26 : idx_main_v26 (ix2 r s) = ix2 (0 : Fin 1) s :=
    funext fun a => Fin.ext (by match a with | ⟨0, _⟩ => rfl | ⟨1, _⟩ => rfl)
  have e24 : idx_main_v24 (ix2 (0 : Fin 1) s) = ix1 s := funext fun a => Fin.ext (by match a with | ⟨0, _⟩ => rfl)
  rw [val_main_v28_apply, val_main_v27_apply, val_main_v25_apply, e25, val_main_v23_apply, e23, val_main_v26_apply, e26,
    val_main_v24_apply, e24, lab_at, lab_at, uitofp_cmpi_eq]
  rfl

/-- The diagonal mask: two row numbers below 8192 are equal as 32-bit words exactly when they are equal. -/
theorem dg_at (r s : Fin 8192) : val_main_v34 (F := Ideal) (ix2 r s) = Spec.dg r s := by
  have key : (IntOp.addi (BitVec.ofNat 32 r.val) 0#32 = BitVec.ofNat 32 s.val) ↔ r = s := by
    unfold IntOp.addi
    rw [BitVec.add_zero]
    constructor
    · intro h
      have h' := congrArg BitVec.toNat h
      simp only [BitVec.toNat_ofNat] at h'
      have := r.isLt; have := s.isLt
      exact Fin.ext (by omega)
    · rintro rfl; rfl
  rw [val_main_v34_apply, val_main_v33_apply, val_main_v32_apply, val_main_v29_apply, val_main_v31_apply,
    val_main_c_2_apply, val_main_v30_apply, uitofp_cmpi_eq]
  show (if IntOp.addi (BitVec.ofNat 32 r.val) 0#32 = BitVec.ofNat 32 s.val then (1 : EReal) else 0) = if r = s then 1 else 0
  by_cases h : r = s
  · rw [if_pos (key.mpr h), if_pos h]
  · rw [if_neg (fun h' => h (key.mp h')), if_neg h]

/-- The positives' and the negatives' masks. -/
theorem pos_at (r s : Fin 8192) : val_main_v37 (F := Ideal) a3 (ix2 r s) = Spec.pos (lM a3) r s := by
  rw [val_main_v37_apply, eqm_at, val_main_v36_apply, val_main_v35_apply, val_main_cst_3_apply, dg_at, Ideal.mulf_def,
    Ideal.subf_def, Ideal.ofBits_def, one_f32]
  rfl
theorem neg_at (r s : Fin 8192) : val_main_v39 (F := Ideal) a3 (ix2 r s) = Spec.neg (lM a3) r s := by
  rw [val_main_v39_apply, val_main_v38_apply, val_main_cst_4_apply, eqm_at, Ideal.subf_def, Ideal.ofBits_def, one_f32]
  rfl

/-- The two matrices the loss is computed from, as whole functions: the reference's feature rows are the specification's
    feature matrix in the groups' own order, and its row labels the specification's. -/
theorem feats_eq :
    (fun (r : Fin 8192) (k : Fin 256) => val_main_v16 (F := Ideal) a0 a1 a2 (ix2 r k))
      = Spec.featM (Spec.imgOf a0) (Spec.imgIdx a1 hb) (Spec.pixIdx a2 hs) id :=
  funext fun r => funext fun k => featM_at a0 a1 a2 hb hs r k
theorem labs_eq :
    (fun (r : Fin 8192) => val_main_v18 (F := Ideal) a3 (ix1 r)) = Spec.labM (Spec.grpLab a3) id :=
  funext fun r => lab_at a3 r

end Matrix

/-! ## Each row's softmax statistics -/

section Rows

variable (a0 : A0) (a1 : A1) (a2 : A2) (a3 : A1) (hb : ∀ t : Fin 32, (a1 (ix1 t)).toNat < 8)
  (hs : ∀ (t : Fin 32) (v : Fin 256), (a2 (ix2 t v)).toNat < 9216)

/-- A row's maximum from minus infinity is the supremum of the row. -/
theorem rowMax_at (r : Fin 8192) :
    val_main_v40 (F := Ideal) a0 a1 a2 (ix1 r) = Spec.rowMax (dM a0 a1 a2 hb hs) r := by
  have hred : S8192x8192.Reduces [1] S8192 := by decide
  have hl : ∀ k : Fin 8192, hred.lift (ix1 r) k = ix2 r k := fun k =>
    funext fun a => Fin.ext (by match a with | ⟨0, _⟩ => rfl | ⟨1, _⟩ => rfl)
  have hf : (val_main_v22 (F := Ideal) a0 a1 a2 ∘ hred.lift (ix1 r)) = dM a0 a1 a2 hb hs r :=
    funext fun (k : Fin 8192) => by
      show val_main_v22 (F := Ideal) a0 a1 a2 (hred.lift (ix1 r) k) = _
      rw [hl k, sim_at a0 a1 a2 hb hs]
  unfold val_main_v40
  rw [Host.reduce_eq_fold_single (FloatOps.maximumf (F := Ideal) (φ := .f32)) _ _ reducesTo_S8192x8192_S8192_d1 hred h_S_,
    val_main_cst_5_apply, hf, Ideal.ofBits_def, ninf_f32]
  rfl

/-- The shifted logit and its exponential. -/
theorem lg_at (r s : Fin 8192) :
    val_main_v43 (F := Ideal) a0 a1 a2 (ix2 r s) = Spec.lg (dM a0 a1 a2 hb hs) r s := by
  have e42 : idx_main_v42 (ix2 r s) = ix2 r (0 : Fin 1) :=
    funext fun a => Fin.ext (by match a with | ⟨0, _⟩ => rfl | ⟨1, _⟩ => rfl)
  have e41 : idx_main_v41 (ix2 r (0 : Fin 1)) = ix1 r := funext fun a => Fin.ext (by match a with | ⟨0, _⟩ => rfl)
  rw [val_main_v43_apply, sim_at a0 a1 a2 hb hs, val_main_v42_apply, e42, val_main_v41_apply, e41,
    rowMax_at a0 a1 a2 hb hs, Ideal.subf_def]
  rfl
theorem ex_at (r s : Fin 8192) :
    val_main_v44 (F := Ideal) a0 a1 a2 (ix2 r s) = Spec.ex (dM a0 a1 a2 hb hs) r s := by
  rw [val_main_v44_apply, lg_at a0 a1 a2 hb hs, Ideal.hostUnary_exp_def]
  rfl

/-- The negatives' sum of exponentials. -/
theorem negSum_at (r : Fin 8192) :
    val_main_v46 (F := Ideal) a0 a1 a2 a3 (ix1 r) = Spec.negSum (dM a0 a1 a2 hb hs) (lM a3) r := by
  have e : ∀ k : Fin 8192, idx_main_v46 (ix1 r) k = ix2 r k := fun k =>
    funext fun a => Fin.ext (by match a with | ⟨0, _⟩ => rfl | ⟨1, _⟩ => rfl)
  rw [val_main_v46_apply, val_main_cst_6_apply, Ideal.ofBits_def, Ideal.ofBits_zero_f32, zero_add]
  simp only [e, val_main_v45_apply, ex_at a0 a1 a2 hb hs, neg_at, Ideal.mulf_def]
  rfl

/-- A column's log-probability. -/
theorem logProb_at (r s : Fin 8192) :
    val_main_v51 (F := Ideal) a0 a1 a2 a3 (ix2 r s) = Spec.logProb (dM a0 a1 a2 hb hs) (lM a3) r s := by
  have e48 : idx_main_v48 (ix2 r s) = ix2 r (0 : Fin 1) :=
    funext fun a => Fin.ext (by match a with | ⟨0, _⟩ => rfl | ⟨1, _⟩ => rfl)
  have e47 : idx_main_v47 (ix2 r (0 : Fin 1)) = ix1 r := funext fun a => Fin.ext (by match a with | ⟨0, _⟩ => rfl)
  rw [val_main_v51_apply, lg_at a0 a1 a2 hb hs, val_main_v50_apply, val_main_v49_apply, ex_at a0 a1 a2 hb hs,
    val_main_v48_apply, e48, val_main_v47_apply, e47, negSum_at a0 a1 a2 a3 hb hs, Ideal.subf_def, Ideal.hostUnary_log_def,
    Ideal.addf_def]
  rfl

/-- The positives' log-probabilities summed, the positives counted, their quotient with the count floored. -/
theorem num_at (r : Fin 8192) :
    val_main_v53 (F := Ideal) a0 a1 a2 a3 (ix1 r) = Spec.num (dM a0 a1 a2 hb hs) (lM a3) r := by
  have e : ∀ k : Fin 8192, idx_main_v53 (ix1 r) k = ix2 r k := fun k =>
    funext fun a => Fin.ext (by match a with | ⟨0, _⟩ => rfl | ⟨1, _⟩ => rfl)
  rw [val_main_v53_apply, val_main_cst_7_apply, Ideal.ofBits_def, Ideal.ofBits_zero_f32, zero_add]
  simp only [e, val_main_v52_apply, pos_at, logProb_at a0 a1 a2 a3 hb hs, Ideal.mulf_def]
  rfl
theorem den_at (r : Fin 8192) : val_main_v54 (F := Ideal) a3 (ix1 r) = Spec.den (lM a3) r := by
  have e : ∀ k : Fin 8192, idx_main_v54 (ix1 r) k = ix2 r k := fun k =>
    funext fun a => Fin.ext (by match a with | ⟨0, _⟩ => rfl | ⟨1, _⟩ => rfl)
  rw [val_main_v54_apply, val_main_cst_8_apply, Ideal.ofBits_def, Ideal.ofBits_zero_f32, zero_add]
  simp only [e, pos_at]
  rfl
theorem mlpp_at (r : Fin 8192) :
    val_main_v57 (F := Ideal) a0 a1 a2 a3 (ix1 r) = Spec.mlpp (dM a0 a1 a2 hb hs) (lM a3) Spec.eps10 r := by
  rw [val_main_v57_apply, num_at a0 a1 a2 a3 hb hs, val_main_v56_apply, den_at, val_main_v55_apply, val_main_cst_9_apply,
    Ideal.hostDivf_def, Ideal.maximumf_def, Ideal.ofBits_def]
  rfl

end Rows

/-! ## The result -/

/-- A rank-1 index set of 8192 elements is its coordinate range. -/
def rowIdx : S8192.Idx ≃ Fin 8192 where
  toFun i := i 0
  invFun r := ix1 r
  left_inv i := (eq_ix1 i).symm
  right_inv _ := rfl

/-- The reference's result is the specification's loss of the four argument arrays. -/
theorem ref_value (a0 : (⟨S8x256x96x96, .f32⟩ : BufTy).Contents (Elt Ideal)) (a1 a3 : (⟨S32, .i32⟩ : BufTy).Contents (Elt Ideal))
    (a2 : (⟨S32x256, .i32⟩ : BufTy).Contents (Elt Ideal)) (hb : ∀ t : Fin 32, (a1 (ix1 t)).toNat < 8)
    (hs : ∀ (t : Fin 32) (v : Fin 256), (a2 (ix2 t v)).toNat < 9216) :
    Cert.ReferenceIdeal.ReadP.val_main_v60 (F := Ideal) a0 a1 a2 a3
      = fun _ => Cert.Spec.lossR (Cert.Spec.imgOf a0) (Cert.Spec.imgIdx a1 hb) (Cert.Spec.pixIdx a2 hs) (Cert.Spec.grpLab a3) := by
  funext i
  rw [val_main_v60_apply, val_main_v59_apply, val_main_v58_apply, val_main_cst_10_apply, val_main_cst_11_apply,
    Ideal.ofBits_def, Ideal.ofBits_def, Ideal.ofBits_zero_f32, zero_add, f8192_f32, ← Equiv.sum_comp rowIdx.symm]
  simp only [show ∀ r : Fin 8192, rowIdx.symm r = ix1 r from fun _ => rfl, mlpp_at a0 a1 a2 a3 hb hs]
  rw [Ideal.hostNegf_def, Ideal.negf_def, Ideal.hostDivf_def]
  rfl

end Cert.ReferenceIdeal.RefValue

end
-- ==== Proof.lean ====
/- The claim: a sampling contrastive loss computed by two kernels — a one-hot-product gather of 32 groups of 256
   pixels with row normalisation, the groups taken in the sort order of their image indices so that consecutive grid
   points revisit an image, and a tiled supervised-contrastive loss over the 8192 sampled rows — against the plain
   reference, which gathers, normalises and evaluates the same loss with the groups in their given order.
   Over the extended reals the two agree whenever every image value is finite and the image and pixel indices are in
   range (the precondition): the kernel's hi/lo split of the gather has a vanishing low half (a real minus itself), its
   one-hot products pick the sampled pixel, its running maxima and sums over eight column tiles are the whole maxima
   and sums, doubling is dividing by one half, negating before or after dividing by 8192 is the same, and the loss is
   invariant under relabelling the groups — which is the kernel's sort order.
   The frames: every execution of each program terminates without a fault and leaves the arguments unchanged; for the
   two kernel programs this is the pipeline's launch over two region records, the gather region's table of image
   indices admissible because the precondition keeps every image index below 8. -/
import proofs.«419518_j21423296873244_3_alg».proof.Defs
import proofs.«419518_j21423296873244_3_alg».proof.Proof.Gen.Kernel
import proofs.«419518_j21423296873244_3_alg».proof.Proof.Gen.KernelIdeal
import proofs.«419518_j21423296873244_3_alg».proof.Proof.Gen.ReferenceIdeal
import proofs.«419518_j21423296873244_3_alg».proof.Proof.Gen.Pre_finite_inputs
import proofs.«419518_j21423296873244_3_alg».proof.Proof.PreFacts
import proofs.«419518_j21423296873244_3_alg».proof.Proof.K.AsmFrame
import proofs.«419518_j21423296873244_3_alg».proof.Proof.K.HostPre
import proofs.«419518_j21423296873244_3_alg».proof.Proof.KI.AsmRun
import proofs.«419518_j21423296873244_3_alg».proof.Proof.KI.Value
import proofs.«419518_j21423296873244_3_alg».proof.Proof.Ref.Value

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The one TensorCore. -/
abbrev c0K : Dev Cert.Kernel.nD := 0
abbrev c0I : Dev Cert.KernelIdeal.nD := 0

/-- The word-level program's table contents are admissible under the precondition. -/
def admK (m : (ℓ : Loc Cert.Kernel.nD Cert.Kernel.τ Cert.Kernel.sig) → Buf (Elt Bits) ℓ) (h : Cert.Pre_Kernel m) :
    (Cert.Kernel.pcfg0 (F := Bits)).Adm :=
  ⟨Cert.Kernel.Hand.tbl m c0K, Cert.Kernel.Hand.ok0_of m c0K (fun t => Cert.PreFacts.batch_lt _ _ _ _ (h c0K) t)⟩

/-- The idealized program's, likewise. -/
def admI (m : (ℓ : Loc Cert.KernelIdeal.nD Cert.KernelIdeal.τ Cert.KernelIdeal.sig) → Buf (Elt Ideal) ℓ) (h : Cert.Pre_KernelIdeal m) :
    (Cert.KernelIdeal.pcfg0 (F := Ideal)).Adm :=
  ⟨Cert.KernelIdeal.Hand.tbl m c0I, Cert.KernelIdeal.Hand.ok0_of m c0I (fun t => Cert.PreFacts.batch_lt _ _ _ _ (h c0I) t)⟩

theorem frame_K : Cert.frame_Kernel := fun m ρ h =>
  Cert.Kernel.Hand.frame_of_adm m ρ (admK m h) (fun c => by rw [Subsingleton.elim c c0K]; rfl)

theorem frame_KI : Cert.frame_KernelIdeal := fun m ρ h =>
  Cert.KernelIdeal.Hand.frame_of_adm m ρ (admI m h) (fun c => by rw [Subsingleton.elim c c0I]; rfl)

theorem frame_RI : Cert.frame_ReferenceIdeal := fun m ρ _ =>
  (θ_run Cert.ReferenceIdeal.defs _ _).mono (fun _ h c => (h c).2) (Cert.ReferenceIdeal.ValueP.run (F := Ideal) m ρ)

/-- The ledger's one entry: widening a value narrowed to bf16 back to f32 is the identity on the extended reals. -/
theorem preserves : Cert.preserves_Kernel_KernelIdeal :=
  IdealRules.truncf_extf.statement _ .f32 .bf16

/-- Both idealized programs end with the specification's loss of the argument arrays. -/
theorem algebraic : Cert.algebraic_KernelIdeal_ReferenceIdeal := by
  intro m ρ m' ρ' hpre hagree
  have hb := fun t => Cert.PreFacts.batch_lt _ _ _ _ (hpre c0I) t
  have hs := fun t v => Cert.PreFacts.sample_lt _ _ _ _ (hpre c0I) t v
  have hfin := fun j => Cert.PreFacts.finite _ _ _ _ (hpre c0I) j
  refine ⟨fun c => Cert.KernelIdeal.Gen.V9 m (Cert.KernelIdeal.Hand.outs m (admI m hpre)) c Cert.KernelIdeal.main_v37,
    Cert.KernelIdeal.Hand.run_of_adm m ρ (admI m hpre) (fun c => by rw [Subsingleton.elim c c0I]; rfl), ?_⟩
  refine (θ_run Cert.ReferenceIdeal.defs _ _).mono (fun _ h c => ⟨(h c).1.trans ?_, (h c).2⟩)
    (Cert.ReferenceIdeal.ValueP.run (F := Ideal) m' ρ')
  obtain rfl := Subsingleton.elim c c0I
  rw [Cert.ReferenceIdeal.ReadP.val_main_v60_eq, (hagree c0I).1, (hagree c0I).2.1, (hagree c0I).2.2.1, (hagree c0I).2.2.2,
    Cert.ReferenceIdeal.RefValue.ref_value _ _ _ _ hb hs]
  exact (Cert.KernelIdeal.Hand.kernel_value m (admI m hpre) c0I (fun c => by rw [Subsingleton.elim c c0I]; rfl) hfin hb hs).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_K, Cert.Proof.frame_KI, Cert.Proof.frame_RI, Cert.Proof.preserves, Cert.Proof.algebraic⟩

end
